-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v196)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v196) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64 : Shape := ⟨1, ![64]⟩
abbrev S64x64 : Shape := ⟨2, ![64, 64]⟩
abbrev S3x64 : Shape := ⟨2, ![3, 64]⟩
abbrev S3x64x64 : Shape := ⟨3, ![3, 64, 64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S64 .f32) (main_arg17 : FVec F S64x10 .f32) (main_arg18 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x10 .f32 := Host.absf main_arg17
  let main_cst_28 : FVec F S_ .f32 := constant S_ .f32 0x7F800000#32
  let main_v75 : FVec F S64x10 .f32 := broadcastInDim S64x10 ![] bcast_S_S64x10 main_cst_28
  let main_v76 : IVec S64x10 1 := cmpf .olt main_v74 main_v75
  let main_c_29 : IVec S_ 1 := constantI S_ 1 1#1
  let main_v77 : IVec S_ 1 := (fun x v => Host.reduce IntOp.andi x v reducesTo_S64x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S64x64 .f32) (main_arg14 : FVec F S64 .f32) (main_arg15 : FVec F S64 .f32) (main_arg16 : FVec F S64 .f32) (main_arg17 : FVec F S64x10 .f32) (main_arg18 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_v63 main_v67

def fn_part2 {F : FTy → Type} [FloatOps F] (main_arg9 : FVec F S3x64x64 .f32) (main_arg10 : FVec F S3x64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x10 .f32) (main_arg18 : FVec F S10 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S3x64 .f32) (main_arg8 : FVec F S3x64 .f32) (main_arg9 : FVec F S3x64x64 .f32) (main_arg10 : FVec F S3x64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x10 .f32) (main_arg18 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x64 .f32) (main_arg1 : IVec S2x1200000 32) (main_arg2 : IVec S100000 32) (main_arg3 : FVec F S64 .f32) (main_arg4 : FVec F S64 .f32) (main_arg5 : FVec F S64x64 .f32) (main_arg6 : FVec F S64 .f32) (main_arg7 : FVec F S3x64 .f32) (main_arg8 : FVec F S3x64 .f32) (main_arg9 : FVec F S3x64x64 .f32) (main_arg10 : FVec F S3x64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x10 .f32) (main_arg18 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64 : Shape := ⟨1, ![64]⟩
abbrev S64x64 : Shape := ⟨2, ![64, 64]⟩
abbrev S3x64 : Shape := ⟨2, ![3, 64]⟩
abbrev S3x64x64 : Shape := ⟨3, ![3, 64, 64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1x64 : Shape := ⟨2, ![1, 64]⟩
abbrev S20000x64 : Shape := ⟨2, ![20000, 64]⟩
abbrev S1x64x64 : Shape := ⟨3, ![1, 64, 64]⟩
abbrev S1300000x64 : Shape := ⟨2, ![1300000, 64]⟩
abbrev S100000x1 : Shape := ⟨2, ![100000, 1]⟩
abbrev S128x64 : Shape := ⟨2, ![128, 64]⟩
abbrev S20000x1 : Shape := ⟨2, ![20000, 1]⟩
abbrev S20000x128 : Shape := ⟨2, ![20000, 128]⟩
abbrev S128x10 : Shape := ⟨2, ![128, 10]⟩
abbrev S1x10 : Shape := ⟨2, ![1, 10]⟩
abbrev S128 : Shape := ⟨1, ![128]⟩
abbrev S128x1 : Shape := ⟨2, ![128, 1]⟩

abbrev nBuf : Space → Nat
  | .hbm => 319
  | .vmem => 58
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64, .f32⟩
  | 4 => ⟨S64, .f32⟩
  | 5 => ⟨S64x64, .f32⟩
  | 6 => ⟨S64, .f32⟩
  | 7 => ⟨S3x64, .f32⟩
  | 8 => ⟨S3x64, .f32⟩
  | 9 => ⟨S3x64x64, .f32⟩
  | 10 => ⟨S3x64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S64x10, .f32⟩
  | 18 => ⟨S10, .f32⟩
  | 19 => ⟨S100000, .i32⟩
  | 20 => ⟨S1x1200000, .i32⟩
  | 21 => ⟨S1200000, .i32⟩
  | 22 => ⟨S1300000, .i32⟩
  | 23 => ⟨S1x1200000, .i32⟩
  | 24 => ⟨S1200000, .i32⟩
  | 25 => ⟨S1300000, .i32⟩
  | 26 => ⟨S_, .f32⟩
  | 27 => ⟨S1300000, .f32⟩
  | 28 => ⟨S_, .f32⟩
  | 29 => ⟨S100000, .f32⟩
  | 30 => ⟨S1300000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1300000, .i32⟩
  | 42 => ⟨S1300000, .i1⟩
  | 43 => ⟨S_, .i32⟩
  | 44 => ⟨S1300000, .i32⟩
  | 45 => ⟨S1300000, .i32⟩
  | 46 => ⟨S1300000, .i32⟩
  | 47 => ⟨S1300000x1, .i32⟩
  | 48 => ⟨S1300000, .f32⟩
  | 49 => ⟨S1300000, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000, .f32⟩
  | 59 => ⟨S1300000, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S1x64, .f32⟩
  | 69 => ⟨S1x64, .f32⟩
  | 70 => ⟨S1x64, .f32⟩
  | 71 => ⟨S1x64, .f32⟩
  | 72 => ⟨S1x64, .f32⟩
  | 73 => ⟨S100000x64, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S1x64, .f32⟩
  | 92 => ⟨S100000x64, .f32⟩
  | 93 => ⟨S1300000x1, .f32⟩
  | 94 => ⟨S_, .i32⟩
  | 95 => ⟨S1300000, .i32⟩
  | 96 => ⟨S1300000, .i1⟩
  | 97 => ⟨S_, .i32⟩
  | 98 => ⟨S1300000, .i32⟩
  | 99 => ⟨S1300000, .i32⟩
  | 100 => ⟨S1300000, .i32⟩
  | 101 => ⟨S1300000x1, .i32⟩
  | 102 => ⟨S1300000x64, .f32⟩
  | 103 => ⟨S1300000x64, .f32⟩
  | 104 => ⟨S1300000x64, .f32⟩
  | 105 => ⟨S_, .f32⟩
  | 106 => ⟨S100000x64, .f32⟩
  | 107 => ⟨S1300000x1, .i32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S1x64, .f32⟩
  | 126 => ⟨S1x64, .f32⟩
  | 127 => ⟨S1x64, .f32⟩
  | _ => ⟨S100000x64, .f32⟩

abbrev hbmTy0_1 (i : Nat) : BufTy := match i % 128 with
  | 0 => ⟨S64, .f32⟩
  | 1 => ⟨S1x64, .f32⟩
  | 2 => ⟨S64, .f32⟩
  | 3 => ⟨S1x64x64, .f32⟩
  | 4 => ⟨S64x64, .f32⟩
  | 5 => ⟨S1x64, .f32⟩
  | 6 => ⟨S1x64, .f32⟩
  | 7 => ⟨S100000x64, .f32⟩
  | 8 => ⟨S1300000x1, .f32⟩
  | 9 => ⟨S_, .i32⟩
  | 10 => ⟨S1300000, .i32⟩
  | 11 => ⟨S1300000, .i1⟩
  | 12 => ⟨S_, .i32⟩
  | 13 => ⟨S1300000, .i32⟩
  | 14 => ⟨S1300000, .i32⟩
  | 15 => ⟨S1300000, .i32⟩
  | 16 => ⟨S1300000x1, .i32⟩
  | 17 => ⟨S1300000x64, .f32⟩
  | 18 => ⟨S1300000x64, .f32⟩
  | 19 => ⟨S1300000x64, .f32⟩
  | 20 => ⟨S_, .f32⟩
  | 21 => ⟨S100000x64, .f32⟩
  | 22 => ⟨S1300000x1, .i32⟩
  | 23 => ⟨S100000x64, .f32⟩
  | 24 => ⟨S1x64, .f32⟩
  | 25 => ⟨S64, .f32⟩
  | 26 => ⟨S1x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S1x64, .f32⟩
  | 33 => ⟨S1x64, .f32⟩
  | 34 => ⟨S_, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S1x64, .f32⟩
  | 41 => ⟨S1x64, .f32⟩
  | 42 => ⟨S1x64, .f32⟩
  | 43 => ⟨S64, .f32⟩
  | 44 => ⟨S1x64, .f32⟩
  | 45 => ⟨S64, .f32⟩
  | 46 => ⟨S1x64x64, .f32⟩
  | 47 => ⟨S64x64, .f32⟩
  | 48 => ⟨S1x64, .f32⟩
  | 49 => ⟨S1x64, .f32⟩
  | 50 => ⟨S100000x64, .f32⟩
  | 51 => ⟨S1300000x1, .f32⟩
  | 52 => ⟨S_, .i32⟩
  | 53 => ⟨S1300000, .i32⟩
  | 54 => ⟨S1300000, .i1⟩
  | 55 => ⟨S_, .i32⟩
  | 56 => ⟨S1300000, .i32⟩
  | 57 => ⟨S1300000, .i32⟩
  | 58 => ⟨S1300000, .i32⟩
  | 59 => ⟨S1300000x1, .i32⟩
  | 60 => ⟨S1300000x64, .f32⟩
  | 61 => ⟨S1300000x64, .f32⟩
  | 62 => ⟨S1300000x64, .f32⟩
  | 63 => ⟨S_, .f32⟩
  | 64 => ⟨S100000x64, .f32⟩
  | 65 => ⟨S1300000x1, .i32⟩
  | 66 => ⟨S100000x64, .f32⟩
  | 67 => ⟨S1x64, .f32⟩
  | 68 => ⟨S64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x1, .i32⟩
  | 76 => ⟨S128x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S128x64, .f32⟩
  | 90 => ⟨S128x64, .f32⟩
  | 91 => ⟨S128x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S128x64, .f32⟩
  | 107 => ⟨S128x64, .f32⟩
  | 108 => ⟨S_, .f32⟩
  | 109 => ⟨S64, .f32⟩
  | 110 => ⟨S64, .f32⟩
  | 111 => ⟨S64, .f32⟩
  | 112 => ⟨S1x64, .f32⟩
  | 113 => ⟨S128x64, .f32⟩
  | 114 => ⟨S128x64, .f32⟩
  | 115 => ⟨S1x64, .f32⟩
  | 116 => ⟨S128x64, .f32⟩
  | 117 => ⟨S128x64, .f32⟩
  | 118 => ⟨S1x64, .f32⟩
  | 119 => ⟨S128x64, .f32⟩
  | 120 => ⟨S128x64, .f32⟩
  | 121 => ⟨S128x64, .f32⟩
  | 122 => ⟨S1x64, .f32⟩
  | 123 => ⟨S128x64, .f32⟩
  | 124 => ⟨S128x64, .f32⟩
  | 125 => ⟨S_, .f32⟩
  | 126 => ⟨S128x64, .f32⟩
  | 127 => ⟨S128x64, .f32⟩
  | _ => ⟨S100000x64, .f32⟩

abbrev hbmTy0_2 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S128x64, .f32⟩
  | 13 => ⟨S128x64, .f32⟩
  | 14 => ⟨S128x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S1x64, .f32⟩
  | 29 => ⟨S128x64, .f32⟩
  | 30 => ⟨S128x64, .f32⟩
  | 31 => ⟨S_, .f32⟩
  | 32 => ⟨S64, .f32⟩
  | 33 => ⟨S64, .f32⟩
  | 34 => ⟨S64, .f32⟩
  | 35 => ⟨S1x64, .f32⟩
  | 36 => ⟨S128x64, .f32⟩
  | 37 => ⟨S128x64, .f32⟩
  | 38 => ⟨S1x64, .f32⟩
  | 39 => ⟨S128x64, .f32⟩
  | 40 => ⟨S128x64, .f32⟩
  | 41 => ⟨S1x64, .f32⟩
  | 42 => ⟨S128x64, .f32⟩
  | 43 => ⟨S128x64, .f32⟩
  | 44 => ⟨S128x10, .f32⟩
  | 45 => ⟨S1x10, .f32⟩
  | 46 => ⟨S128x10, .f32⟩
  | 47 => ⟨S128x10, .f32⟩
  | 48 => ⟨S_, .f32⟩
  | 49 => ⟨S128, .f32⟩
  | 50 => ⟨S_, .f32⟩
  | 51 => ⟨S128, .f32⟩
  | 52 => ⟨S128, .f32⟩
  | 53 => ⟨S128x1, .f32⟩
  | 54 => ⟨S128x10, .f32⟩
  | 55 => ⟨S128x10, .f32⟩
  | 56 => ⟨S128x10, .f32⟩
  | 57 => ⟨S_, .f32⟩
  | 58 => ⟨S128, .f32⟩
  | 59 => ⟨S128x1, .f32⟩
  | 60 => ⟨S128x1, .f32⟩
  | 61 => ⟨S128x10, .f32⟩
  | 62 => ⟨S128x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S20000x64, .f32⟩
  | .local _ .vmem, ⟨1, _⟩ => ⟨S20000x64, .f32⟩
  | .local _ .vmem, ⟨2, _⟩ => ⟨S1x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S20000x64, .f32⟩
  | .local _ .vmem, ⟨13, _⟩ => ⟨S20000x64, .f32⟩
  | .local _ .vmem, ⟨14, _⟩ => ⟨S20000x64, .f32⟩
  | .local _ .vmem, ⟨15, _⟩ => ⟨S20000x64, .f32⟩
  | .local _ .vmem, ⟨16, _⟩ => ⟨S1x64, .f32⟩
  | .local _ .vmem, ⟨17, _⟩ => ⟨S1x64, .f32⟩
  | .local _ .vmem, ⟨18, _⟩ => ⟨S20000x64, .f32⟩
  | .local _ .vmem, ⟨19, _⟩ => ⟨S20000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S20000x64, .f32⟩
  | .local _ .vmem, ⟨26, _⟩ => ⟨S20000x64, .f32⟩
  | .local _ .vmem, ⟨27, _⟩ => ⟨S20000x64, .f32⟩
  | .local _ .vmem, ⟨28, _⟩ => ⟨S20000x64, .f32⟩
  | .local _ .vmem, ⟨29, _⟩ => ⟨S1x64, .f32⟩
  | .local _ .vmem, ⟨30, _⟩ => ⟨S1x64, .f32⟩
  | .local _ .vmem, ⟨31, _⟩ => ⟨S20000x64, .f32⟩
  | .local _ .vmem, ⟨32, _⟩ => ⟨S20000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S64x64, .f32⟩
  | .local _ .vmem, ⟨38, _⟩ => ⟨S20000x64, .f32⟩
  | .local _ .vmem, ⟨39, _⟩ => ⟨S20000x64, .f32⟩
  | .local _ .vmem, ⟨40, _⟩ => ⟨S20000x64, .f32⟩
  | .local _ .vmem, ⟨41, _⟩ => ⟨S20000x64, .f32⟩
  | .local _ .vmem, ⟨42, _⟩ => ⟨S1x64, .f32⟩
  | .local _ .vmem, ⟨43, _⟩ => ⟨S1x64, .f32⟩
  | .local _ .vmem, ⟨44, _⟩ => ⟨S20000x64, .f32⟩
  | .local _ .vmem, ⟨45, _⟩ => ⟨S20000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S20000x64, .f32⟩
  | .local _ .vmem, ⟨52, _⟩ => ⟨S20000x64, .f32⟩
  | .local _ .vmem, ⟨53, _⟩ => ⟨S20000x64, .f32⟩
  | .local _ .vmem, ⟨54, _⟩ => ⟨S20000x64, .f32⟩
  | .local _ .vmem, ⟨55, _⟩ => ⟨S20000x1, .i32⟩
  | .local _ .vmem, ⟨56, _⟩ => ⟨S20000x1, .i32⟩
  | .local _ .vmem, ⟨57, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_cst_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42_0 : Ref sig .tc := ⟨.hbm, 74, rfl⟩
abbrev main_v42_1 : Ref sig .tc := ⟨.hbm, 75, rfl⟩
abbrev main_cst_8 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_10 : Ref sig .tc := ⟨.hbm, 94, rfl⟩
abbrev main_v59 : Ref sig .tc := ⟨.hbm, 95, rfl⟩
abbrev main_v60 : Ref sig .tc := ⟨.hbm, 96, rfl⟩
abbrev main_c_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call1_cst : Ref sig .tc := ⟨.hbm, 114, rfl⟩
abbrev main_call1_v0 : Ref sig .tc := ⟨.hbm, 115, rfl⟩
abbrev main_v76 : Ref sig .tc := ⟨.hbm, 116, rfl⟩
abbrev main_v77_0 : Ref sig .tc := ⟨.hbm, 117, rfl⟩
abbrev main_v77_1 : Ref sig .tc := ⟨.hbm, 118, rfl⟩
abbrev main_cst_13 : Ref sig .tc := ⟨.hbm, 119, rfl⟩
abbrev main_v78 : Ref sig .tc := ⟨.hbm, 120, rfl⟩
abbrev main_v79 : Ref sig .tc := ⟨.hbm, 121, rfl⟩
abbrev main_cst_14 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_15 : Ref sig .tc := ⟨.hbm, 137, rfl⟩
abbrev main_v94 : Ref sig .tc := ⟨.hbm, 138, rfl⟩
abbrev main_v95 : Ref sig .tc := ⟨.hbm, 139, rfl⟩
abbrev main_c_16 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_17 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_call2_cst : Ref sig .tc := ⟨.hbm, 157, rfl⟩
abbrev main_call2_v0 : Ref sig .tc := ⟨.hbm, 158, rfl⟩
abbrev main_v111 : Ref sig .tc := ⟨.hbm, 159, rfl⟩
abbrev main_v112_0 : Ref sig .tc := ⟨.hbm, 160, rfl⟩
abbrev main_v112_1 : Ref sig .tc := ⟨.hbm, 161, rfl⟩
abbrev main_cst_18 : Ref sig .tc := ⟨.hbm, 162, rfl⟩
abbrev main_v113 : Ref sig .tc := ⟨.hbm, 163, rfl⟩
abbrev main_v114 : Ref sig .tc := ⟨.hbm, 164, rfl⟩
abbrev main_cst_19 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_20 : Ref sig .tc := ⟨.hbm, 180, rfl⟩
abbrev main_v129 : Ref sig .tc := ⟨.hbm, 181, rfl⟩
abbrev main_v130 : Ref sig .tc := ⟨.hbm, 182, rfl⟩
abbrev main_c_21 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_22 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_call3_cst : Ref sig .tc := ⟨.hbm, 200, rfl⟩
abbrev main_call3_v0 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_23 : Ref sig .tc := ⟨.hbm, 205, rfl⟩
abbrev main_v149 : Ref sig .tc := ⟨.hbm, 206, rfl⟩
abbrev main_cst_24 : Ref sig .tc := ⟨.hbm, 207, rfl⟩
abbrev main_v150 : Ref sig .tc := ⟨.hbm, 208, rfl⟩
abbrev main_v151 : Ref sig .tc := ⟨.hbm, 209, rfl⟩
abbrev main_c_25 : Ref sig .tc := ⟨.hbm, 210, rfl⟩
abbrev main_call4_cst : Ref sig .tc := ⟨.hbm, 211, rfl⟩
abbrev main_call4_v0 : Ref sig .tc := ⟨.hbm, 212, rfl⟩
abbrev main_call4_v1 : Ref sig .tc := ⟨.hbm, 213, rfl⟩
abbrev main_call4_cst_0 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_call4_v5 : Ref sig .tc := ⟨.hbm, 218, rfl⟩
abbrev main_call4_v6 : Ref sig .tc := ⟨.hbm, 219, rfl⟩
abbrev main_call4_v7 : Ref sig .tc := ⟨.hbm, 220, rfl⟩
abbrev main_call4_cst_1 : Ref sig .tc := ⟨.hbm, 221, rfl⟩
abbrev main_call4_v8 : Ref sig .tc := ⟨.hbm, 222, rfl⟩
abbrev main_call4_cst_2 : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_call4_cst_3 : Ref sig .tc := ⟨.hbm, 227, rfl⟩
abbrev main_call4_v12 : Ref sig .tc := ⟨.hbm, 228, rfl⟩
abbrev main_call4_cst_4 : Ref sig .tc := ⟨.hbm, 229, rfl⟩
abbrev main_call4_call0_v0 : Ref sig .tc := ⟨.hbm, 230, rfl⟩
abbrev main_call4_call0_v1 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_cst_26 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_call5_cst : Ref sig .tc := ⟨.hbm, 253, rfl⟩
abbrev main_call5_v0 : Ref sig .tc := ⟨.hbm, 254, rfl⟩
abbrev main_v172 : Ref sig .tc := ⟨.hbm, 255, rfl⟩
abbrev main_cst_27 : Ref sig .tc := ⟨.hbm, 256, rfl⟩
abbrev main_v173 : Ref sig .tc := ⟨.hbm, 257, rfl⟩
abbrev main_cst_28 : Ref sig .tc := ⟨.hbm, 258, rfl⟩
abbrev main_v174 : Ref sig .tc := ⟨.hbm, 259, rfl⟩
abbrev main_v175 : Ref sig .tc := ⟨.hbm, 260, rfl⟩
abbrev main_c_29 : Ref sig .tc := ⟨.hbm, 261, rfl⟩
abbrev main_call6_cst : Ref sig .tc := ⟨.hbm, 262, rfl⟩
abbrev main_call6_v0 : Ref sig .tc := ⟨.hbm, 263, rfl⟩
abbrev main_call6_v1 : Ref sig .tc := ⟨.hbm, 264, rfl⟩
abbrev main_call6_cst_0 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_call6_v5 : Ref sig .tc := ⟨.hbm, 269, rfl⟩
abbrev main_call6_v6 : Ref sig .tc := ⟨.hbm, 270, rfl⟩
abbrev main_call6_v7 : Ref sig .tc := ⟨.hbm, 271, rfl⟩
abbrev main_call6_cst_1 : Ref sig .tc := ⟨.hbm, 272, rfl⟩
abbrev main_call6_v8 : Ref sig .tc := ⟨.hbm, 273, rfl⟩
abbrev main_call6_cst_2 : Ref sig .tc := ⟨.hbm, 274, rfl⟩
abbrev main_call6_v9 : Ref sig .tc := ⟨.hbm, 275, rfl⟩
abbrev main_call6_v10 : Ref sig .tc := ⟨.hbm, 276, rfl⟩
abbrev main_call6_v11 : Ref sig .tc := ⟨.hbm, 277, rfl⟩
abbrev main_call6_cst_3 : Ref sig .tc := ⟨.hbm, 278, rfl⟩
abbrev main_call6_v12 : Ref sig .tc := ⟨.hbm, 279, rfl⟩
abbrev main_call6_cst_4 : Ref sig .tc := ⟨.hbm, 280, rfl⟩
abbrev main_call6_call0_v0 : Ref sig .tc := ⟨.hbm, 281, rfl⟩
abbrev main_call6_call0_v1 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_cst_30 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_call7_cst : Ref sig .tc := ⟨.hbm, 304, rfl⟩
abbrev main_call7_v0 : Ref sig .tc := ⟨.hbm, 305, rfl⟩
abbrev main_call7_cst_0 : Ref sig .tc := ⟨.hbm, 306, rfl⟩
abbrev main_call7_v1 : Ref sig .tc := ⟨.hbm, 307, rfl⟩
abbrev main_call7_v2 : Ref sig .tc := ⟨.hbm, 308, rfl⟩
abbrev main_call7_v3 : Ref sig .tc := ⟨.hbm, 309, rfl⟩
abbrev main_call7_v4 : Ref sig .tc := ⟨.hbm, 310, rfl⟩
abbrev main_call7_v5 : Ref sig .tc := ⟨.hbm, 311, rfl⟩
abbrev main_call7_v6 : Ref sig .tc := ⟨.hbm, 312, rfl⟩
abbrev main_call7_cst_1 : Ref sig .tc := ⟨.hbm, 313, rfl⟩
abbrev main_call7_v7 : Ref sig .tc := ⟨.hbm, 314, rfl⟩
abbrev main_call7_v8 : Ref sig .tc := ⟨.hbm, 315, rfl⟩
abbrev main_call7_v9 : Ref sig .tc := ⟨.hbm, 316, rfl⟩
abbrev main_call7_v10 : Ref sig .tc := ⟨.hbm, 317, rfl⟩
abbrev main_v196 : Ref sig .tc := ⟨.hbm, 318, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg6_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg6_0 : Ref sig .tc := ⟨.vmem, 38, rfl⟩
abbrev cc5_stg6_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_stg6_0 : Ref sig .tc := ⟨.vmem, 51, rfl⟩
abbrev cc7_stg6_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem6_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem6_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem6_0 : DmaSem sig := 51
abbrev cc7_sem6_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S20000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S20000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S20000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S20000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S20000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S20000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S20000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S20000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S20000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S1x64_S1x64_0_0 : ∀ a, (![0, 0] : Fin 2 → Nat) a + S1x64.size a ≤ S1x64.size a
  h_S1x64 : 0 < S1x64.numel
  inb_S20000x64_S20000x64_0_0 : ∀ a, (![0, 0] : Fin 2 → Nat) a + S20000x64.size a ≤ S20000x64.size a
  h_S20000x64 : 0 < S20000x64.numel
  shapeCasts_S1x64_S1x64 : S1x64.ShapeCasts S1x64
  reduces_S20000x64_S64 : S20000x64.Reduces [0] S64
  shapeCasts_S64_S1x64 : S64.ShapeCasts S1x64
  bcast_S_S1x64 : S_.BroadcastsInDim S1x64 (![] : Fin 0 → Fin S1x64.rank)
  broadcasts_S1x64_S20000x64 : S1x64.Broadcasts S20000x64
  inb_S64x64_S64x64_0_0 : ∀ a, (![0, 0] : Fin 2 → Nat) a + S64x64.size a ≤ S64x64.size a
  h_S64x64 : 0 < S64x64.numel
  shapeCasts_S20000x64_S20000x64 : S20000x64.ShapeCasts S20000x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  shapeCasts_S64x64_S64x64 : S64x64.ShapeCasts S64x64
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64_S1x64_1_0 : S3x64.Slices ![1, 0] S1x64
  slices_S3x64x64_S1x64x64_1_0_0 : S3x64x64.Slices ![1, 0, 0] S1x64x64
  slices_S3x64_S1x64_2_0 : S3x64.Slices ![2, 0] S1x64
  slices_S3x64x64_S1x64x64_2_0_0 : S3x64x64.Slices ![2, 0, 0] S1x64x64
  shapeCasts_S100000_S100000x1 : S100000.ShapeCasts S100000x1
  inb_S128x64_S128x64_0_0 : ∀ a, (![0, 0] : Fin 2 → Nat) a + S128x64.size a ≤ S128x64.size a
  h_S128x64 : 0 < S128x64.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S20000x128_d1_w32 : S20000x128.Iotas .tc 32 [1]
  broadcasts_S20000x1_S20000x128 : S20000x1.Broadcasts S20000x128
  natLt_1_32 : 1 < 32
  shapeCasts_S128x64_S128x64 : S128x64.ShapeCasts S128x64
  reducesTo_S128x64_S64_d0 : S128x64.ReducesTo [0] S64
  h_S_ : 0 < S_.numel
  bcast_S_S64 : S_.BroadcastsInDim S64 (![] : Fin 0 → Fin S64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S20000x64_S64x64_S20000x64_1_0_0_1_n_n_wf : DotDims.WF S20000x64 S64x64 S20000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S20000x128_S20000x64_S128x64_0_0_1_1_n_n_wf : DotDims.WF S20000x128 S20000x64 S128x64 [0] [0] [1] [1] [] []
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S20000x64.size a ≤ S100000x64.size a
  hwx1_7 : ∀ i : grid1.Coords, EltTy.bits .f32 = 32 ∨ (Rect.block (s := S100000x64) S20000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S20000x64.size a ≤ S100000x64.size a
  hwx3_6 : ∀ i : grid3.Coords, EltTy.bits .f32 = 32 ∨ (Rect.block (s := S100000x64) S20000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x64.size a ≤ S100000x64.size a
  hwx4_0 : ∀ i : grid4.Coords, EltTy.bits .f32 = 32 ∨ (Rect.block (s := S100000x64) S20000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S100000x64.size a
  hwx5_0 : ∀ i : grid5.Coords, EltTy.bits .f32 = 32 ∨ (Rect.block (s := S100000x64) S20000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S20000x64.size a ≤ S100000x64.size a
  hwx5_6 : ∀ i : grid5.Coords, EltTy.bits .f32 = 32 ∨ (Rect.block (s := S100000x64) S20000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x64.size a ≤ S100000x64.size a
  hwx6_0 : ∀ i : grid6.Coords, EltTy.bits .f32 = 32 ∨ (Rect.block (s := S100000x64) S20000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S20000x64.size a ≤ S100000x64.size a
  hwx7_0 : ∀ i : grid7.Coords, EltTy.bits .f32 = 32 ∨ (Rect.block (s := S100000x64) S20000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S20000x64.size a ≤ S100000x64.size a
  hwx7_6 : ∀ i : grid7.Coords, EltTy.bits .f32 = 32 ∨ (Rect.block (s := S100000x64) S20000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S20000x64.size a ≤ S100000x64.size a
  hwx8_0 : ∀ i : grid8.Coords, EltTy.bits .f32 = 32 ∨ (Rect.block (s := S100000x64) S20000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S20000x1.size a ≤ S100000x1.size a
  hwx8_1 : ∀ i : grid8.Coords, EltTy.bits .i32 = 32 ∨ (Rect.block (s := S100000x1) S20000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x64.size a ≤ S128x64.size a
  hwx8_2 : ∀ i : grid8.Coords, EltTy.bits .f32 = 32 ∨ (Rect.block (s := S128x64) S128x64.size (cc8_transform_2 i) (hinb8_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S20000x128_S20000x64_S128x64_0_0_1_1_n_n : DotDims S20000x128 S20000x64 S128x64 where
  lhsContracting := [0]
  rhsContracting := [0]
  lhsNonContracting := [1]
  rhsNonContracting := [1]
  lhsBatch := []
  rhsBatch := []
  wf := dot_S20000x128_S20000x64_S128x64_0_0_1_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31_0) S1x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31_1) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S20000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v41) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42_0) S1x64.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42_1) S1x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S20000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v76) S20000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v89) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v92) S20000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v111) S20000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v112_0) S1x64.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v112_1) S1x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v111) S20000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v118) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v125) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v126) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v124) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v127) S20000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v146) S20000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v147) S20000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v148) S128x64.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64 : Shape := ⟨1, ![64]⟩
abbrev S64x64 : Shape := ⟨2, ![64, 64]⟩
abbrev S3x64 : Shape := ⟨2, ![3, 64]⟩
abbrev S3x64x64 : Shape := ⟨3, ![3, 64, 64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1x64 : Shape := ⟨2, ![1, 64]⟩
abbrev S1x64x64 : Shape := ⟨3, ![1, 64, 64]⟩
abbrev S1300000x64 : Shape := ⟨2, ![1300000, 64]⟩
abbrev S128x64 : Shape := ⟨2, ![128, 64]⟩
abbrev S100000x1 : Shape := ⟨2, ![100000, 1]⟩
abbrev S128x10 : Shape := ⟨2, ![128, 10]⟩
abbrev S1x10 : Shape := ⟨2, ![1, 10]⟩
abbrev S128 : Shape := ⟨1, ![128]⟩
abbrev S128x1 : Shape := ⟨2, ![128, 1]⟩

abbrev nBuf : Space → Nat
  | .hbm => 454
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64, .f32⟩
  | 4 => ⟨S64, .f32⟩
  | 5 => ⟨S64x64, .f32⟩
  | 6 => ⟨S64, .f32⟩
  | 7 => ⟨S3x64, .f32⟩
  | 8 => ⟨S3x64, .f32⟩
  | 9 => ⟨S3x64x64, .f32⟩
  | 10 => ⟨S3x64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S64x10, .f32⟩
  | 18 => ⟨S10, .f32⟩
  | 19 => ⟨S100000, .i32⟩
  | 20 => ⟨S1x1200000, .i32⟩
  | 21 => ⟨S1200000, .i32⟩
  | 22 => ⟨S1300000, .i32⟩
  | 23 => ⟨S1x1200000, .i32⟩
  | 24 => ⟨S1200000, .i32⟩
  | 25 => ⟨S1300000, .i32⟩
  | 26 => ⟨S_, .f32⟩
  | 27 => ⟨S1300000, .f32⟩
  | 28 => ⟨S_, .f32⟩
  | 29 => ⟨S100000, .f32⟩
  | 30 => ⟨S1300000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1300000, .i32⟩
  | 42 => ⟨S1300000, .i1⟩
  | 43 => ⟨S_, .i32⟩
  | 44 => ⟨S1300000, .i32⟩
  | 45 => ⟨S1300000, .i32⟩
  | 46 => ⟨S1300000, .i32⟩
  | 47 => ⟨S1300000x1, .i32⟩
  | 48 => ⟨S1300000, .f32⟩
  | 49 => ⟨S1300000, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000, .f32⟩
  | 59 => ⟨S1300000, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S100000x64, .f32⟩
  | 73 => ⟨S100000x64, .f32⟩
  | 74 => ⟨S100000x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S_, .f32⟩
  | 92 => ⟨S64, .f32⟩
  | 93 => ⟨S64, .f32⟩
  | 94 => ⟨S64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S1x64, .f32⟩
  | 112 => ⟨S64, .f32⟩
  | 113 => ⟨S1x64, .f32⟩
  | 114 => ⟨S64, .f32⟩
  | 115 => ⟨S_, .f32⟩
  | 116 => ⟨S64, .f32⟩
  | 117 => ⟨S_, .f32⟩
  | 118 => ⟨S64, .f32⟩
  | 119 => ⟨S64, .f32⟩
  | 120 => ⟨S_, .i32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S_, .f32⟩
  | 4 => ⟨S_, .f32⟩
  | 5 => ⟨S_, .f32⟩
  | 6 => ⟨S64, .f32⟩
  | 7 => ⟨S64, .f32⟩
  | 8 => ⟨S64, .f32⟩
  | 9 => ⟨S_, .f32⟩
  | 10 => ⟨S_, .i1⟩
  | 11 => ⟨S_, .f32⟩
  | 12 => ⟨S_, .f32⟩
  | 13 => ⟨S64, .f32⟩
  | 14 => ⟨S64, .f32⟩
  | 15 => ⟨S1x64, .f32⟩
  | 16 => ⟨S100000x64, .f32⟩
  | 17 => ⟨S100000x64, .f32⟩
  | 18 => ⟨S_, .f32⟩
  | 19 => ⟨S64, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S1x64x64, .f32⟩
  | 32 => ⟨S64x64, .f32⟩
  | 33 => ⟨S1x64, .f32⟩
  | 34 => ⟨S64, .f32⟩
  | 35 => ⟨S100000x64, .f32⟩
  | 36 => ⟨S1300000x1, .f32⟩
  | 37 => ⟨S_, .i32⟩
  | 38 => ⟨S1300000, .i32⟩
  | 39 => ⟨S1300000, .i1⟩
  | 40 => ⟨S_, .i32⟩
  | 41 => ⟨S1300000, .i32⟩
  | 42 => ⟨S1300000, .i32⟩
  | 43 => ⟨S1300000, .i32⟩
  | 44 => ⟨S1300000x1, .i32⟩
  | 45 => ⟨S1300000x64, .f32⟩
  | 46 => ⟨S1300000x64, .f32⟩
  | 47 => ⟨S1300000x64, .f32⟩
  | 48 => ⟨S_, .f32⟩
  | 49 => ⟨S100000x64, .f32⟩
  | 50 => ⟨S1300000x1, .i32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S1x64, .f32⟩
  | 59 => ⟨S64, .f32⟩
  | 60 => ⟨S1x64, .f32⟩
  | 61 => ⟨S64, .f32⟩
  | 62 => ⟨S_, .f32⟩
  | 63 => ⟨S64, .f32⟩
  | 64 => ⟨S_, .f32⟩
  | 65 => ⟨S64, .f32⟩
  | 66 => ⟨S64, .f32⟩
  | 67 => ⟨S_, .i32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S100000x64, .f32⟩
  | 75 => ⟨S100000x64, .f32⟩
  | 76 => ⟨S100000x64, .f32⟩
  | 77 => ⟨S_, .f32⟩
  | 78 => ⟨S_, .f32⟩
  | 79 => ⟨S_, .f32⟩
  | 80 => ⟨S_, .f32⟩
  | 81 => ⟨S64, .f32⟩
  | 82 => ⟨S64, .f32⟩
  | 83 => ⟨S64, .f32⟩
  | 84 => ⟨S_, .f32⟩
  | 85 => ⟨S_, .i1⟩
  | 86 => ⟨S_, .f32⟩
  | 87 => ⟨S_, .f32⟩
  | 88 => ⟨S64, .f32⟩
  | 89 => ⟨S64, .f32⟩
  | 90 => ⟨S1x64, .f32⟩
  | 91 => ⟨S100000x64, .f32⟩
  | 92 => ⟨S100000x64, .f32⟩
  | 93 => ⟨S_, .f32⟩
  | 94 => ⟨S64, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S1x64x64, .f32⟩
  | 107 => ⟨S64x64, .f32⟩
  | 108 => ⟨S1x64, .f32⟩
  | 109 => ⟨S64, .f32⟩
  | 110 => ⟨S100000x64, .f32⟩
  | 111 => ⟨S1300000x1, .f32⟩
  | 112 => ⟨S_, .i32⟩
  | 113 => ⟨S1300000, .i32⟩
  | 114 => ⟨S1300000, .i1⟩
  | 115 => ⟨S_, .i32⟩
  | 116 => ⟨S1300000, .i32⟩
  | 117 => ⟨S1300000, .i32⟩
  | 118 => ⟨S1300000, .i32⟩
  | 119 => ⟨S1300000x1, .i32⟩
  | 120 => ⟨S1300000x64, .f32⟩
  | 121 => ⟨S1300000x64, .f32⟩
  | 122 => ⟨S1300000x64, .f32⟩
  | 123 => ⟨S_, .f32⟩
  | 124 => ⟨S100000x64, .f32⟩
  | 125 => ⟨S1300000x1, .i32⟩
  | 126 => ⟨S100000x64, .f32⟩
  | 127 => ⟨S1x64, .f32⟩
  | _ => ⟨S100000x64, .f32⟩

abbrev hbmTy0_2 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S1x64, .f32⟩
  | 6 => ⟨S64, .f32⟩
  | 7 => ⟨S1x64, .f32⟩
  | 8 => ⟨S64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S100000x64, .f32⟩
  | 22 => ⟨S100000x64, .f32⟩
  | 23 => ⟨S100000x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S64, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1x64x64, .f32⟩
  | 54 => ⟨S64x64, .f32⟩
  | 55 => ⟨S1x64, .f32⟩
  | 56 => ⟨S64, .f32⟩
  | 57 => ⟨S100000x64, .f32⟩
  | 58 => ⟨S1300000x1, .f32⟩
  | 59 => ⟨S_, .i32⟩
  | 60 => ⟨S1300000, .i32⟩
  | 61 => ⟨S1300000, .i1⟩
  | 62 => ⟨S_, .i32⟩
  | 63 => ⟨S1300000, .i32⟩
  | 64 => ⟨S1300000, .i32⟩
  | 65 => ⟨S1300000, .i32⟩
  | 66 => ⟨S1300000x1, .i32⟩
  | 67 => ⟨S1300000x64, .f32⟩
  | 68 => ⟨S1300000x64, .f32⟩
  | 69 => ⟨S1300000x64, .f32⟩
  | 70 => ⟨S_, .f32⟩
  | 71 => ⟨S100000x64, .f32⟩
  | 72 => ⟨S1300000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .f32⟩
  | 81 => ⟨S128x64, .f32⟩
  | 82 => ⟨S100000x1, .i32⟩
  | 83 => ⟨S128x64, .f32⟩
  | 84 => ⟨S_, .f32⟩
  | 85 => ⟨S64, .f32⟩
  | 86 => ⟨S_, .f32⟩
  | 87 => ⟨S64, .f32⟩
  | 88 => ⟨S64, .f32⟩
  | 89 => ⟨S_, .i32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S128x64, .f32⟩
  | 97 => ⟨S128x64, .f32⟩
  | 98 => ⟨S128x64, .f32⟩
  | 99 => ⟨S_, .f32⟩
  | 100 => ⟨S_, .f32⟩
  | 101 => ⟨S_, .f32⟩
  | 102 => ⟨S_, .f32⟩
  | 103 => ⟨S64, .f32⟩
  | 104 => ⟨S64, .f32⟩
  | 105 => ⟨S64, .f32⟩
  | 106 => ⟨S_, .f32⟩
  | 107 => ⟨S_, .i1⟩
  | 108 => ⟨S_, .f32⟩
  | 109 => ⟨S_, .f32⟩
  | 110 => ⟨S64, .f32⟩
  | 111 => ⟨S64, .f32⟩
  | 112 => ⟨S1x64, .f32⟩
  | 113 => ⟨S128x64, .f32⟩
  | 114 => ⟨S128x64, .f32⟩
  | 115 => ⟨S_, .f32⟩
  | 116 => ⟨S64, .f32⟩
  | 117 => ⟨S64, .f32⟩
  | 118 => ⟨S64, .f32⟩
  | 119 => ⟨S1x64, .f32⟩
  | 120 => ⟨S128x64, .f32⟩
  | 121 => ⟨S128x64, .f32⟩
  | 122 => ⟨S1x64, .f32⟩
  | 123 => ⟨S128x64, .f32⟩
  | 124 => ⟨S128x64, .f32⟩
  | 125 => ⟨S1x64, .f32⟩
  | 126 => ⟨S128x64, .f32⟩
  | 127 => ⟨S128x64, .f32⟩
  | _ => ⟨S100000x64, .f32⟩

abbrev hbmTy0_3 (i : Nat) : BufTy := match i % 128 with
  | 0 => ⟨S128x64, .f32⟩
  | 1 => ⟨S1x64, .f32⟩
  | 2 => ⟨S128x64, .f32⟩
  | 3 => ⟨S128x64, .f32⟩
  | 4 => ⟨S_, .f32⟩
  | 5 => ⟨S128x64, .f32⟩
  | 6 => ⟨S128x64, .f32⟩
  | 7 => ⟨S_, .f32⟩
  | 8 => ⟨S64, .f32⟩
  | 9 => ⟨S_, .f32⟩
  | 10 => ⟨S64, .f32⟩
  | 11 => ⟨S64, .f32⟩
  | 12 => ⟨S_, .i32⟩
  | 13 => ⟨S_, .f32⟩
  | 14 => ⟨S64, .f32⟩
  | 15 => ⟨S1x64, .f32⟩
  | 16 => ⟨S_, .f32⟩
  | 17 => ⟨S1x64, .f32⟩
  | 18 => ⟨S1x64, .f32⟩
  | 19 => ⟨S128x64, .f32⟩
  | 20 => ⟨S128x64, .f32⟩
  | 21 => ⟨S128x64, .f32⟩
  | 22 => ⟨S_, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .i1⟩
  | 31 => ⟨S_, .f32⟩
  | 32 => ⟨S_, .f32⟩
  | 33 => ⟨S64, .f32⟩
  | 34 => ⟨S64, .f32⟩
  | 35 => ⟨S1x64, .f32⟩
  | 36 => ⟨S128x64, .f32⟩
  | 37 => ⟨S128x64, .f32⟩
  | 38 => ⟨S_, .f32⟩
  | 39 => ⟨S64, .f32⟩
  | 40 => ⟨S64, .f32⟩
  | 41 => ⟨S64, .f32⟩
  | 42 => ⟨S1x64, .f32⟩
  | 43 => ⟨S128x64, .f32⟩
  | 44 => ⟨S128x64, .f32⟩
  | 45 => ⟨S1x64, .f32⟩
  | 46 => ⟨S128x64, .f32⟩
  | 47 => ⟨S128x64, .f32⟩
  | 48 => ⟨S1x64, .f32⟩
  | 49 => ⟨S128x64, .f32⟩
  | 50 => ⟨S128x64, .f32⟩
  | 51 => ⟨S128x10, .f32⟩
  | 52 => ⟨S1x10, .f32⟩
  | 53 => ⟨S128x10, .f32⟩
  | 54 => ⟨S128x10, .f32⟩
  | 55 => ⟨S_, .f32⟩
  | 56 => ⟨S128, .f32⟩
  | 57 => ⟨S_, .f32⟩
  | 58 => ⟨S128, .f32⟩
  | 59 => ⟨S128, .f32⟩
  | 60 => ⟨S128x1, .f32⟩
  | 61 => ⟨S128x10, .f32⟩
  | 62 => ⟨S128x10, .f32⟩
  | 63 => ⟨S128x10, .f32⟩
  | 64 => ⟨S_, .f32⟩
  | 65 => ⟨S128, .f32⟩
  | 66 => ⟨S128x1, .f32⟩
  | 67 => ⟨S128x1, .f32⟩
  | 68 => ⟨S128x10, .f32⟩
  | 69 => ⟨S128x10, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_cst_7 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_cst_1 : Ref sig .tc := ⟨.hbm, 76, rfl⟩
abbrev main_call1_v8 : Ref sig .tc := ⟨.hbm, 77, rfl⟩
abbrev main_call1_cst_2 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_cst_3 : Ref sig .tc := ⟨.hbm, 82, rfl⟩
abbrev main_call1_v12 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_9 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_call2_cst : Ref sig .tc := ⟨.hbm, 108, rfl⟩
abbrev main_call2_v0 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_10 : Ref sig .tc := ⟨.hbm, 115, rfl⟩
abbrev main_v59 : Ref sig .tc := ⟨.hbm, 116, rfl⟩
abbrev main_cst_11 : Ref sig .tc := ⟨.hbm, 117, rfl⟩
abbrev main_v60 : Ref sig .tc := ⟨.hbm, 118, rfl⟩
abbrev main_v61 : Ref sig .tc := ⟨.hbm, 119, rfl⟩
abbrev main_c_12 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_cst_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_cst_1 : Ref sig .tc := ⟨.hbm, 131, rfl⟩
abbrev main_call3_v8 : Ref sig .tc := ⟨.hbm, 132, rfl⟩
abbrev main_call3_cst_2 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_cst_3 : Ref sig .tc := ⟨.hbm, 137, rfl⟩
abbrev main_call3_v12 : Ref sig .tc := ⟨.hbm, 138, rfl⟩
abbrev main_call3_cst_4 : Ref sig .tc := ⟨.hbm, 139, rfl⟩
abbrev main_call3_call0_v0 : Ref sig .tc := ⟨.hbm, 140, rfl⟩
abbrev main_call3_call0_v1 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_cst_13 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_c_14 : Ref sig .tc := ⟨.hbm, 165, rfl⟩
abbrev main_v84 : Ref sig .tc := ⟨.hbm, 166, rfl⟩
abbrev main_v85 : Ref sig .tc := ⟨.hbm, 167, rfl⟩
abbrev main_c_15 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_cst_16 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_call4_cst : Ref sig .tc := ⟨.hbm, 183, rfl⟩
abbrev main_call4_v0 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_cst_17 : Ref sig .tc := ⟨.hbm, 190, rfl⟩
abbrev main_v104 : Ref sig .tc := ⟨.hbm, 191, rfl⟩
abbrev main_cst_18 : Ref sig .tc := ⟨.hbm, 192, rfl⟩
abbrev main_v105 : Ref sig .tc := ⟨.hbm, 193, rfl⟩
abbrev main_v106 : Ref sig .tc := ⟨.hbm, 194, rfl⟩
abbrev main_c_19 : Ref sig .tc := ⟨.hbm, 195, rfl⟩
abbrev main_call5_cst : Ref sig .tc := ⟨.hbm, 196, rfl⟩
abbrev main_call5_v0 : Ref sig .tc := ⟨.hbm, 197, rfl⟩
abbrev main_call5_v1 : Ref sig .tc := ⟨.hbm, 198, rfl⟩
abbrev main_call5_cst_0 : Ref sig .tc := ⟨.hbm, 199, rfl⟩
abbrev main_call5_v2 : Ref sig .tc := ⟨.hbm, 200, rfl⟩
abbrev main_call5_v3 : Ref sig .tc := ⟨.hbm, 201, rfl⟩
abbrev main_call5_v4 : Ref sig .tc := ⟨.hbm, 202, rfl⟩
abbrev main_call5_v5 : Ref sig .tc := ⟨.hbm, 203, rfl⟩
abbrev main_call5_v6 : Ref sig .tc := ⟨.hbm, 204, rfl⟩
abbrev main_call5_v7 : Ref sig .tc := ⟨.hbm, 205, rfl⟩
abbrev main_call5_cst_1 : Ref sig .tc := ⟨.hbm, 206, rfl⟩
abbrev main_call5_v8 : Ref sig .tc := ⟨.hbm, 207, rfl⟩
abbrev main_call5_cst_2 : Ref sig .tc := ⟨.hbm, 208, rfl⟩
abbrev main_call5_v9 : Ref sig .tc := ⟨.hbm, 209, rfl⟩
abbrev main_call5_v10 : Ref sig .tc := ⟨.hbm, 210, rfl⟩
abbrev main_call5_v11 : Ref sig .tc := ⟨.hbm, 211, rfl⟩
abbrev main_call5_cst_3 : Ref sig .tc := ⟨.hbm, 212, rfl⟩
abbrev main_call5_v12 : Ref sig .tc := ⟨.hbm, 213, rfl⟩
abbrev main_call5_cst_4 : Ref sig .tc := ⟨.hbm, 214, rfl⟩
abbrev main_call5_call0_v0 : Ref sig .tc := ⟨.hbm, 215, rfl⟩
abbrev main_call5_call0_v1 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_cst_20 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_c_21 : Ref sig .tc := ⟨.hbm, 240, rfl⟩
abbrev main_v129 : Ref sig .tc := ⟨.hbm, 241, rfl⟩
abbrev main_v130 : Ref sig .tc := ⟨.hbm, 242, rfl⟩
abbrev main_c_22 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_cst_23 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_call6_cst : Ref sig .tc := ⟨.hbm, 258, rfl⟩
abbrev main_call6_v0 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_cst_24 : Ref sig .tc := ⟨.hbm, 265, rfl⟩
abbrev main_v149 : Ref sig .tc := ⟨.hbm, 266, rfl⟩
abbrev main_cst_25 : Ref sig .tc := ⟨.hbm, 267, rfl⟩
abbrev main_v150 : Ref sig .tc := ⟨.hbm, 268, rfl⟩
abbrev main_v151 : Ref sig .tc := ⟨.hbm, 269, rfl⟩
abbrev main_c_26 : Ref sig .tc := ⟨.hbm, 270, rfl⟩
abbrev main_call7_cst : Ref sig .tc := ⟨.hbm, 271, rfl⟩
abbrev main_call7_v0 : Ref sig .tc := ⟨.hbm, 272, rfl⟩
abbrev main_call7_v1 : Ref sig .tc := ⟨.hbm, 273, rfl⟩
abbrev main_call7_cst_0 : Ref sig .tc := ⟨.hbm, 274, rfl⟩
abbrev main_call7_v2 : Ref sig .tc := ⟨.hbm, 275, rfl⟩
abbrev main_call7_v3 : Ref sig .tc := ⟨.hbm, 276, rfl⟩
abbrev main_call7_v4 : Ref sig .tc := ⟨.hbm, 277, rfl⟩
abbrev main_call7_v5 : Ref sig .tc := ⟨.hbm, 278, rfl⟩
abbrev main_call7_v6 : Ref sig .tc := ⟨.hbm, 279, rfl⟩
abbrev main_call7_v7 : Ref sig .tc := ⟨.hbm, 280, rfl⟩
abbrev main_call7_cst_1 : Ref sig .tc := ⟨.hbm, 281, rfl⟩
abbrev main_call7_v8 : Ref sig .tc := ⟨.hbm, 282, rfl⟩
abbrev main_call7_cst_2 : Ref sig .tc := ⟨.hbm, 283, rfl⟩
abbrev main_call7_v9 : Ref sig .tc := ⟨.hbm, 284, rfl⟩
abbrev main_call7_v10 : Ref sig .tc := ⟨.hbm, 285, rfl⟩
abbrev main_call7_v11 : Ref sig .tc := ⟨.hbm, 286, rfl⟩
abbrev main_call7_cst_3 : Ref sig .tc := ⟨.hbm, 287, rfl⟩
abbrev main_call7_v12 : Ref sig .tc := ⟨.hbm, 288, rfl⟩
abbrev main_call7_cst_4 : Ref sig .tc := ⟨.hbm, 289, rfl⟩
abbrev main_call7_call0_v0 : Ref sig .tc := ⟨.hbm, 290, rfl⟩
abbrev main_call7_call0_v1 : Ref sig .tc := ⟨.hbm, 291, rfl⟩
abbrev main_v152 : Ref sig .tc := ⟨.hbm, 292, rfl⟩
abbrev main_v153 : Ref sig .tc := ⟨.hbm, 293, rfl⟩
abbrev main_v154 : Ref sig .tc := ⟨.hbm, 294, rfl⟩
abbrev main_v155 : Ref sig .tc := ⟨.hbm, 295, rfl⟩
abbrev main_cst_27 : Ref sig .tc := ⟨.hbm, 296, rfl⟩
abbrev main_v156 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_v160 : Ref sig .tc := ⟨.hbm, 301, rfl⟩
abbrev main_v161 : Ref sig .tc := ⟨.hbm, 302, rfl⟩
abbrev main_v162 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_v167 : Ref sig .tc := ⟨.hbm, 308, rfl⟩
abbrev main_v168 : Ref sig .tc := ⟨.hbm, 309, rfl⟩
abbrev main_v169 : Ref sig .tc := ⟨.hbm, 310, rfl⟩
abbrev main_v170 : Ref sig .tc := ⟨.hbm, 311, rfl⟩
abbrev main_v171 : Ref sig .tc := ⟨.hbm, 312, rfl⟩
abbrev main_v172 : Ref sig .tc := ⟨.hbm, 313, rfl⟩
abbrev main_v173 : Ref sig .tc := ⟨.hbm, 314, rfl⟩
abbrev main_c_28 : Ref sig .tc := ⟨.hbm, 315, rfl⟩
abbrev main_v174 : Ref sig .tc := ⟨.hbm, 316, rfl⟩
abbrev main_v175 : Ref sig .tc := ⟨.hbm, 317, rfl⟩
abbrev main_c_29 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_cst_30 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_call8_cst : Ref sig .tc := ⟨.hbm, 333, rfl⟩
abbrev main_call8_v0 : Ref sig .tc := ⟨.hbm, 334, rfl⟩
abbrev main_v189 : Ref sig .tc := ⟨.hbm, 335, rfl⟩
abbrev main_cst_31 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_cst_32 : Ref sig .tc := ⟨.hbm, 340, rfl⟩
abbrev main_v193 : Ref sig .tc := ⟨.hbm, 341, rfl⟩
abbrev main_cst_33 : Ref sig .tc := ⟨.hbm, 342, rfl⟩
abbrev main_v194 : Ref sig .tc := ⟨.hbm, 343, rfl⟩
abbrev main_v195 : Ref sig .tc := ⟨.hbm, 344, rfl⟩
abbrev main_c_34 : Ref sig .tc := ⟨.hbm, 345, rfl⟩
abbrev main_call9_cst : Ref sig .tc := ⟨.hbm, 346, rfl⟩
abbrev main_call9_v0 : Ref sig .tc := ⟨.hbm, 347, rfl⟩
abbrev main_call9_v1 : Ref sig .tc := ⟨.hbm, 348, rfl⟩
abbrev main_call9_cst_0 : Ref sig .tc := ⟨.hbm, 349, rfl⟩
abbrev main_call9_v2 : Ref sig .tc := ⟨.hbm, 350, rfl⟩
abbrev main_call9_v3 : Ref sig .tc := ⟨.hbm, 351, rfl⟩
abbrev main_call9_v4 : Ref sig .tc := ⟨.hbm, 352, rfl⟩
abbrev main_call9_v5 : Ref sig .tc := ⟨.hbm, 353, rfl⟩
abbrev main_call9_v6 : Ref sig .tc := ⟨.hbm, 354, rfl⟩
abbrev main_call9_v7 : Ref sig .tc := ⟨.hbm, 355, rfl⟩
abbrev main_call9_cst_1 : Ref sig .tc := ⟨.hbm, 356, rfl⟩
abbrev main_call9_v8 : Ref sig .tc := ⟨.hbm, 357, rfl⟩
abbrev main_call9_cst_2 : Ref sig .tc := ⟨.hbm, 358, rfl⟩
abbrev main_call9_v9 : Ref sig .tc := ⟨.hbm, 359, rfl⟩
abbrev main_call9_v10 : Ref sig .tc := ⟨.hbm, 360, rfl⟩
abbrev main_call9_v11 : Ref sig .tc := ⟨.hbm, 361, rfl⟩
abbrev main_call9_cst_3 : Ref sig .tc := ⟨.hbm, 362, rfl⟩
abbrev main_call9_v12 : Ref sig .tc := ⟨.hbm, 363, rfl⟩
abbrev main_call9_cst_4 : Ref sig .tc := ⟨.hbm, 364, rfl⟩
abbrev main_call9_call0_v0 : Ref sig .tc := ⟨.hbm, 365, rfl⟩
abbrev main_call9_call0_v1 : Ref sig .tc := ⟨.hbm, 366, rfl⟩
abbrev main_v196 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_cst_35 : Ref sig .tc := ⟨.hbm, 371, rfl⟩
abbrev main_v200 : Ref sig .tc := ⟨.hbm, 372, rfl⟩
abbrev main_v201 : Ref sig .tc := ⟨.hbm, 373, rfl⟩
abbrev main_v202 : Ref sig .tc := ⟨.hbm, 374, rfl⟩
abbrev main_v203 : Ref sig .tc := ⟨.hbm, 375, rfl⟩
abbrev main_v204 : Ref sig .tc := ⟨.hbm, 376, rfl⟩
abbrev main_v205 : Ref sig .tc := ⟨.hbm, 377, rfl⟩
abbrev main_v206 : Ref sig .tc := ⟨.hbm, 378, rfl⟩
abbrev main_v207 : Ref sig .tc := ⟨.hbm, 379, rfl⟩
abbrev main_v208 : Ref sig .tc := ⟨.hbm, 380, rfl⟩
abbrev main_v209 : Ref sig .tc := ⟨.hbm, 381, rfl⟩
abbrev main_v210 : Ref sig .tc := ⟨.hbm, 382, rfl⟩
abbrev main_v211 : Ref sig .tc := ⟨.hbm, 383, rfl⟩
abbrev main_v212 : Ref sig .tc := ⟨.hbm, 384, rfl⟩
abbrev main_v213 : Ref sig .tc := ⟨.hbm, 385, rfl⟩
abbrev main_v214 : Ref sig .tc := ⟨.hbm, 386, rfl⟩
abbrev main_v215 : Ref sig .tc := ⟨.hbm, 387, rfl⟩
abbrev main_call10_cst : Ref sig .tc := ⟨.hbm, 388, rfl⟩
abbrev main_call10_v0 : Ref sig .tc := ⟨.hbm, 389, rfl⟩
abbrev main_v216 : Ref sig .tc := ⟨.hbm, 390, rfl⟩
abbrev main_cst_36 : Ref sig .tc := ⟨.hbm, 391, rfl⟩
abbrev main_v217 : Ref sig .tc := ⟨.hbm, 392, rfl⟩
abbrev main_cst_37 : Ref sig .tc := ⟨.hbm, 393, rfl⟩
abbrev main_v218 : Ref sig .tc := ⟨.hbm, 394, rfl⟩
abbrev main_v219 : Ref sig .tc := ⟨.hbm, 395, rfl⟩
abbrev main_c_38 : Ref sig .tc := ⟨.hbm, 396, rfl⟩
abbrev main_call11_cst : Ref sig .tc := ⟨.hbm, 397, rfl⟩
abbrev main_call11_v0 : Ref sig .tc := ⟨.hbm, 398, rfl⟩
abbrev main_call11_v1 : Ref sig .tc := ⟨.hbm, 399, rfl⟩
abbrev main_call11_cst_0 : Ref sig .tc := ⟨.hbm, 400, rfl⟩
abbrev main_call11_v2 : Ref sig .tc := ⟨.hbm, 401, rfl⟩
abbrev main_call11_v3 : Ref sig .tc := ⟨.hbm, 402, rfl⟩
abbrev main_call11_v4 : Ref sig .tc := ⟨.hbm, 403, rfl⟩
abbrev main_call11_v5 : Ref sig .tc := ⟨.hbm, 404, rfl⟩
abbrev main_call11_v6 : Ref sig .tc := ⟨.hbm, 405, rfl⟩
abbrev main_call11_v7 : Ref sig .tc := ⟨.hbm, 406, rfl⟩
abbrev main_call11_cst_1 : Ref sig .tc := ⟨.hbm, 407, rfl⟩
abbrev main_call11_v8 : Ref sig .tc := ⟨.hbm, 408, rfl⟩
abbrev main_call11_cst_2 : Ref sig .tc := ⟨.hbm, 409, rfl⟩
abbrev main_call11_v9 : Ref sig .tc := ⟨.hbm, 410, rfl⟩
abbrev main_call11_v10 : Ref sig .tc := ⟨.hbm, 411, rfl⟩
abbrev main_call11_v11 : Ref sig .tc := ⟨.hbm, 412, rfl⟩
abbrev main_call11_cst_3 : Ref sig .tc := ⟨.hbm, 413, rfl⟩
abbrev main_call11_v12 : Ref sig .tc := ⟨.hbm, 414, rfl⟩
abbrev main_call11_cst_4 : Ref sig .tc := ⟨.hbm, 415, rfl⟩
abbrev main_call11_call0_v0 : Ref sig .tc := ⟨.hbm, 416, rfl⟩
abbrev main_call11_call0_v1 : Ref sig .tc := ⟨.hbm, 417, rfl⟩
abbrev main_v220 : Ref sig .tc := ⟨.hbm, 418, rfl⟩
abbrev main_v221 : Ref sig .tc := ⟨.hbm, 419, rfl⟩
abbrev main_v222 : Ref sig .tc := ⟨.hbm, 420, rfl⟩
abbrev main_v223 : Ref sig .tc := ⟨.hbm, 421, rfl⟩
abbrev main_cst_39 : Ref sig .tc := ⟨.hbm, 422, rfl⟩
abbrev main_v224 : Ref sig .tc := ⟨.hbm, 423, rfl⟩
abbrev main_v225 : Ref sig .tc := ⟨.hbm, 424, rfl⟩
abbrev main_v226 : Ref sig .tc := ⟨.hbm, 425, rfl⟩
abbrev main_v227 : Ref sig .tc := ⟨.hbm, 426, rfl⟩
abbrev main_v228 : Ref sig .tc := ⟨.hbm, 427, rfl⟩
abbrev main_v229 : Ref sig .tc := ⟨.hbm, 428, rfl⟩
abbrev main_v230 : Ref sig .tc := ⟨.hbm, 429, rfl⟩
abbrev main_v231 : Ref sig .tc := ⟨.hbm, 430, rfl⟩
abbrev main_v232 : Ref sig .tc := ⟨.hbm, 431, rfl⟩
abbrev main_v233 : Ref sig .tc := ⟨.hbm, 432, rfl⟩
abbrev main_v234 : Ref sig .tc := ⟨.hbm, 433, rfl⟩
abbrev main_v235 : Ref sig .tc := ⟨.hbm, 434, rfl⟩
abbrev main_v236 : Ref sig .tc := ⟨.hbm, 435, rfl⟩
abbrev main_v237 : Ref sig .tc := ⟨.hbm, 436, rfl⟩
abbrev main_v238 : Ref sig .tc := ⟨.hbm, 437, rfl⟩
abbrev main_v239 : Ref sig .tc := ⟨.hbm, 438, rfl⟩
abbrev main_call12_cst : Ref sig .tc := ⟨.hbm, 439, rfl⟩
abbrev main_call12_v0 : Ref sig .tc := ⟨.hbm, 440, rfl⟩
abbrev main_call12_cst_0 : Ref sig .tc := ⟨.hbm, 441, rfl⟩
abbrev main_call12_v1 : Ref sig .tc := ⟨.hbm, 442, rfl⟩
abbrev main_call12_v2 : Ref sig .tc := ⟨.hbm, 443, rfl⟩
abbrev main_call12_v3 : Ref sig .tc := ⟨.hbm, 444, rfl⟩
abbrev main_call12_v4 : Ref sig .tc := ⟨.hbm, 445, rfl⟩
abbrev main_call12_v5 : Ref sig .tc := ⟨.hbm, 446, rfl⟩
abbrev main_call12_v6 : Ref sig .tc := ⟨.hbm, 447, rfl⟩
abbrev main_call12_cst_1 : Ref sig .tc := ⟨.hbm, 448, rfl⟩
abbrev main_call12_v7 : Ref sig .tc := ⟨.hbm, 449, rfl⟩
abbrev main_call12_v8 : Ref sig .tc := ⟨.hbm, 450, rfl⟩
abbrev main_call12_v9 : Ref sig .tc := ⟨.hbm, 451, rfl⟩
abbrev main_call12_v10 : Ref sig .tc := ⟨.hbm, 452, rfl⟩
abbrev main_v240 : Ref sig .tc := ⟨.hbm, 453, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  bcast_S1300000x1_S1300000x64_0_1 : S1300000x1.BroadcastsInDim S1300000x64 (![0, 1] : Fin 2 → Fin S1300000x64.rank)
  slices_S3x64_S1x64_1_0 : S3x64.Slices ![1, 0] S1x64
  slices_S3x64x64_S1x64x64_1_0_0 : S3x64x64.Slices ![1, 0, 0] S1x64x64
  slices_S3x64_S1x64_2_0 : S3x64.Slices ![2, 0] S1x64
  slices_S3x64x64_S1x64x64_2_0_0 : S3x64x64.Slices ![2, 0, 0] S1x64x64
  bcast_S_S128x64 : S_.BroadcastsInDim S128x64 (![] : Fin 0 → Fin S128x64.rank)
  bcast_S100000_S100000x1_0 : S100000.BroadcastsInDim S100000x1 (![0] : Fin 1 → Fin S100000x1.rank)
  reducesTo_S128x64_S64_d0 : S128x64.ReducesTo [0] S64
  bcast_S1x64_S128x64_0_1 : S1x64.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KWalk.lean ====
import proofs.«416283_j44736379355415_1_alg».proof.Proof.Gen.KernelIdeal.Frame

/-! # Walking a buffer's contents back through the fold of segment valuations

`Gen.W0 … Gen.W31` are the buffer contents at the segment boundaries of the kernel program's `@main`.
A buffer that a segment does not write holds after the segment what it held before it:
* a stretch of host operations none of which writes the buffer (`StableHlo.after_of_forall_not_mem`);
* a region none of whose arrays is the buffer (`Gen.W<k>_of_ne`);
* a region that reads the buffer through an input window: an input window's array is left as entered
  (`Dat.arrAt_in`, `Gen.A_eq<r>`).
The tactic `kwalk` chains these one-segment equations by transitivity from `W<k>` down to `W<j>`
(or down to the launch memory `m`). -/

set_option maxRecDepth 16384

namespace Cert.KernelIdeal.KWalk

section Writes
open Idealize.ShloMosaic Idealize.ShloMosaic.TcCoe
open Cert.KernelIdeal.Gen

variable {F : FTy → Type} [FloatOps F]

/-- `W` lists, in order, the one reference each operation of `ops` writes. -/
abbrev WritesList (ops : List (HloOp τ sig (Elt F))) (W : List (Ref sig .tc)) : Prop :=
  List.Forall₂ (fun op w => op.writes = {Proc.devRef (τ := τ) .tc w}) ops W

/-- A reference outside the list is written by no operation of the line. -/
theorem not_mem_writes_of_writesList {ops : List (HloOp τ sig (Elt F))} {W : List (Ref sig .tc)}
    (h : WritesList ops W) :
    ∀ {r : Ref sig .tc}, r ∉ W → ∀ op ∈ ops, Proc.devRef (τ := τ) .tc r ∉ op.writes := by
  induction h with
  | nil => intro r _ op hop; exact absurd hop List.not_mem_nil
  | @cons op w ops W hw _ ih =>
    intro r hr op' hop'
    rcases List.mem_cons.mp hop' with e | hop'
    · rw [e, hw, Finset.mem_singleton]
      exact StableHlo.devRef_ne_of_ne fun e' => hr (List.mem_cons.mpr (Or.inl e'))
    · exact ih (fun hm => hr (List.mem_cons_of_mem _ hm)) op' hop'

/-- A reference outside the list of a line's written references keeps its contents across the line. -/
theorem after_of_writesList {ops : List (HloOp τ sig (Elt F))} {W : List (Ref sig .tc)} (h : WritesList ops W)
    (V : Valuation τ sig (Elt F)) (r : Ref sig .tc) (hr : r ∉ W) :
    StableHlo.after ops V (Proc.devRef .tc r) = V (Proc.devRef .tc r) :=
  StableHlo.after_of_forall_not_mem ops V (not_mem_writes_of_writesList h hr)

section
open Lean Elab Term Meta

/-- The references the operations of a named line write, in order: each operation's `writes` unfolds to
    `{Proc.devRef .tc y}`, and `y` is read off by unification. -/
elab "writes_list% " t:term : term => do
  let ops ← instantiateMVars (← elabTerm t none)
  let some lit ← unfoldDefinition? ops | throwError "writes_list%: not a named list of operations:{indentExpr ops}"
  let refTy ← elabType (← `(Ref sig .tc))
  let mut l := lit
  let mut acc : Array Expr := #[]
  repeat
    match (← whnfR l).getAppFnArgs with
    | (``List.cons, #[_, op, tl]) =>
      let w ← mkFreshExprMVar refTy
      let eqn ← elabTerm (← `(HloOp.writes $(← exprToSyntax op) = {Proc.devRef (τ := τ) .tc $(← exprToSyntax w)})) none
      let some (_, a, b) := (← instantiateMVars eqn).eq? | throwError "writes_list%: not an equation"
      unless ← isDefEq a b do
        throwError "writes_list%: the operation{indentExpr op}\ndoes not write exactly one reference"
      let w ← instantiateMVars w
      acc := acc.push (← if w.isConst then pure w else whnfR w)
      l := tl
    | _ => break
  mkListLit refTy acc.toList
end

/-- Closes `WritesList ops W` at literal lists: one `rfl` per operation. -/
macro "writes_ok" : tactic =>
  `(tactic| repeat (first | exact List.Forall₂.nil | refine List.Forall₂.cons rfl ?_))

abbrev wl_hostOps0 : List (Ref sig .tc) := writes_list% (hostOps0 : List (HloOp τ sig (Elt F)))
theorem ok_hostOps0 : WritesList (hostOps0 : List (HloOp τ sig (Elt F))) wl_hostOps0 := by writes_ok
abbrev wl_hostOps0_1 : List (Ref sig .tc) := writes_list% (hostOps0_1 : List (HloOp τ sig (Elt F)))
theorem ok_hostOps0_1 : WritesList (hostOps0_1 : List (HloOp τ sig (Elt F))) wl_hostOps0_1 := by writes_ok
abbrev wl_hostOps0_2 : List (Ref sig .tc) := writes_list% (hostOps0_2 : List (HloOp τ sig (Elt F)))
theorem ok_hostOps0_2 : WritesList (hostOps0_2 : List (HloOp τ sig (Elt F))) wl_hostOps0_2 := by writes_ok
abbrev wl_hostOps1 : List (Ref sig .tc) := writes_list% (hostOps1 : List (HloOp τ sig (Elt F)))
theorem ok_hostOps1 : WritesList (hostOps1 : List (HloOp τ sig (Elt F))) wl_hostOps1 := by writes_ok
abbrev wl_hostOps3 : List (Ref sig .tc) := writes_list% (hostOps3 : List (HloOp τ sig (Elt F)))
theorem ok_hostOps3 : WritesList (hostOps3 : List (HloOp τ sig (Elt F))) wl_hostOps3 := by writes_ok
abbrev wl_hostOps4 : List (Ref sig .tc) := writes_list% (hostOps4 : List (HloOp τ sig (Elt F)))
theorem ok_hostOps4 : WritesList (hostOps4 : List (HloOp τ sig (Elt F))) wl_hostOps4 := by writes_ok
abbrev wl_hostOps4_1 : List (Ref sig .tc) := writes_list% (hostOps4_1 : List (HloOp τ sig (Elt F)))
theorem ok_hostOps4_1 : WritesList (hostOps4_1 : List (HloOp τ sig (Elt F))) wl_hostOps4_1 := by writes_ok
abbrev wl_hostOps5 : List (Ref sig .tc) := writes_list% (hostOps5 : List (HloOp τ sig (Elt F)))
theorem ok_hostOps5 : WritesList (hostOps5 : List (HloOp τ sig (Elt F))) wl_hostOps5 := by writes_ok
abbrev wl_hostOps6 : List (Ref sig .tc) := writes_list% (hostOps6 : List (HloOp τ sig (Elt F)))
theorem ok_hostOps6 : WritesList (hostOps6 : List (HloOp τ sig (Elt F))) wl_hostOps6 := by writes_ok
abbrev wl_hostOps6_1 : List (Ref sig .tc) := writes_list% (hostOps6_1 : List (HloOp τ sig (Elt F)))
theorem ok_hostOps6_1 : WritesList (hostOps6_1 : List (HloOp τ sig (Elt F))) wl_hostOps6_1 := by writes_ok
abbrev wl_hostOps7 : List (Ref sig .tc) := writes_list% (hostOps7 : List (HloOp τ sig (Elt F)))
theorem ok_hostOps7 : WritesList (hostOps7 : List (HloOp τ sig (Elt F))) wl_hostOps7 := by writes_ok
abbrev wl_hostOps8 : List (Ref sig .tc) := writes_list% (hostOps8 : List (HloOp τ sig (Elt F)))
theorem ok_hostOps8 : WritesList (hostOps8 : List (HloOp τ sig (Elt F))) wl_hostOps8 := by writes_ok
abbrev wl_hostOps8_1 : List (Ref sig .tc) := writes_list% (hostOps8_1 : List (HloOp τ sig (Elt F)))
theorem ok_hostOps8_1 : WritesList (hostOps8_1 : List (HloOp τ sig (Elt F))) wl_hostOps8_1 := by writes_ok
abbrev wl_hostOps8_2 : List (Ref sig .tc) := writes_list% (hostOps8_2 : List (HloOp τ sig (Elt F)))
theorem ok_hostOps8_2 : WritesList (hostOps8_2 : List (HloOp τ sig (Elt F))) wl_hostOps8_2 := by writes_ok
abbrev wl_hostOps9 : List (Ref sig .tc) := writes_list% (hostOps9 : List (HloOp τ sig (Elt F)))
theorem ok_hostOps9 : WritesList (hostOps9 : List (HloOp τ sig (Elt F))) wl_hostOps9 := by writes_ok
abbrev wl_hostOps9_1 : List (Ref sig .tc) := writes_list% (hostOps9_1 : List (HloOp τ sig (Elt F)))
theorem ok_hostOps9_1 : WritesList (hostOps9_1 : List (HloOp τ sig (Elt F))) wl_hostOps9_1 := by writes_ok
abbrev wl_hostOps9_2 : List (Ref sig .tc) := writes_list% (hostOps9_2 : List (HloOp τ sig (Elt F)))
theorem ok_hostOps9_2 : WritesList (hostOps9_2 : List (HloOp τ sig (Elt F))) wl_hostOps9_2 := by writes_ok
abbrev wl_hostOps9_3 : List (Ref sig .tc) := writes_list% (hostOps9_3 : List (HloOp τ sig (Elt F)))
theorem ok_hostOps9_3 : WritesList (hostOps9_3 : List (HloOp τ sig (Elt F))) wl_hostOps9_3 := by writes_ok
abbrev wl_hostOps9_4 : List (Ref sig .tc) := writes_list% (hostOps9_4 : List (HloOp τ sig (Elt F)))
theorem ok_hostOps9_4 : WritesList (hostOps9_4 : List (HloOp τ sig (Elt F))) wl_hostOps9_4 := by writes_ok
abbrev wl_hostOps9_5 : List (Ref sig .tc) := writes_list% (hostOps9_5 : List (HloOp τ sig (Elt F)))
theorem ok_hostOps9_5 : WritesList (hostOps9_5 : List (HloOp τ sig (Elt F))) wl_hostOps9_5 := by writes_ok
abbrev wl_hostOps9_6 : List (Ref sig .tc) := writes_list% (hostOps9_6 : List (HloOp τ sig (Elt F)))
theorem ok_hostOps9_6 : WritesList (hostOps9_6 : List (HloOp τ sig (Elt F))) wl_hostOps9_6 := by writes_ok
abbrev wl_hostOps9_7 : List (Ref sig .tc) := writes_list% (hostOps9_7 : List (HloOp τ sig (Elt F)))
theorem ok_hostOps9_7 : WritesList (hostOps9_7 : List (HloOp τ sig (Elt F))) wl_hostOps9_7 := by writes_ok

end Writes

section Steps
open Idealize.ShloMosaic Idealize.ShloMosaic.TcCoe
open Cert.KernelIdeal.Gen

/-- One stretch: the goal is `StableHlo.after ops V b = V b`, and no operation of `ops` (the named list) writes `b`. -/
syntax "kwalk_stretch " ident : tactic
macro_rules
  | `(tactic| kwalk_stretch $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes,
          StableHlo.binary_writes, StableHlo.ternary_writes, StableHlo.quaternary_writes,
          StableHlo.reshape_writes, StableHlo.binaryIndexed_writes, Finset.mem_singleton]
        repeat' apply And.intro
        all_goals exact StableHlo.devRef_ne_of_ne (by decide))))

/-- One stretch with its list of written references at hand (`ok : WritesList ops W`): the goal is
    `StableHlo.after ops V (Proc.devRef .tc b) = V (Proc.devRef .tc b)`, and `b ∉ W` is decided. -/
syntax "kwalk_stretch_list " ident : tactic
macro_rules
  | `(tactic| kwalk_stretch_list $ok:ident) => `(tactic|
      exact after_of_writesList $ok:ident _ _ (by decide +kernel))

/-- One region: the goal is `W<k> m ρ c b = W<k-1> m ρ c b`; either `b` is none of the region's arrays, or it is
    the array of an input window (windows 0 … 7 tried in turn).
    Arguments: `W<k>_of_ne`, `W<k>_arr`, `dat<r>`, `V<k-1>`, `A_eq<r>`. -/
syntax "kwalk_region " ident ident ident ident ident : tactic
macro_rules
  | `(tactic| kwalk_region $ne:ident $arr:ident $dat:ident $v:ident $aeq:ident) => `(tactic|
      first
        | exact $ne:ident _ _ _ _ (by decide +kernel)
        | exact ($arr:ident _ _ _ 0).trans ((Pipeline.Dat.arrAt_in ($dat:ident ($v:ident _ _) _) 0 rfl _).trans ($aeq:ident ($v:ident _ _) _ 0))
        | exact ($arr:ident _ _ _ 1).trans ((Pipeline.Dat.arrAt_in ($dat:ident ($v:ident _ _) _) 1 rfl _).trans ($aeq:ident ($v:ident _ _) _ 1))
        | exact ($arr:ident _ _ _ 2).trans ((Pipeline.Dat.arrAt_in ($dat:ident ($v:ident _ _) _) 2 rfl _).trans ($aeq:ident ($v:ident _ _) _ 2))
        | exact ($arr:ident _ _ _ 3).trans ((Pipeline.Dat.arrAt_in ($dat:ident ($v:ident _ _) _) 3 rfl _).trans ($aeq:ident ($v:ident _ _) _ 3))
        | exact ($arr:ident _ _ _ 4).trans ((Pipeline.Dat.arrAt_in ($dat:ident ($v:ident _ _) _) 4 rfl _).trans ($aeq:ident ($v:ident _ _) _ 4))
        | exact ($arr:ident _ _ _ 5).trans ((Pipeline.Dat.arrAt_in ($dat:ident ($v:ident _ _) _) 5 rfl _).trans ($aeq:ident ($v:ident _ _) _ 5))
        | exact ($arr:ident _ _ _ 6).trans ((Pipeline.Dat.arrAt_in ($dat:ident ($v:ident _ _) _) 6 rfl _).trans ($aeq:ident ($v:ident _ _) _ 6))
        | exact ($arr:ident _ _ _ 7).trans ((Pipeline.Dat.arrAt_in ($dat:ident ($v:ident _ _) _) 7 rfl _).trans ($aeq:ident ($v:ident _ _) _ 7)))

end Steps

section Walk
open Lean Elab Tactic Meta

private def genNs : Name := `Cert.KernelIdeal.Gen

/-- The index `k` of the fold constant `Cert.KernelIdeal.Gen.W<k>`. -/
private def wIndex? : Name → Option Nat
  | .str p s => if p == genNs && s.startsWith "W" then (s.drop 1).toNat? else none
  | _ => none

private def gen (s : String) : Name := .str genNs s

/-- The trailing number of a name such as `spec3`. -/
private def trailingNat? (pre : String) : Name → Option Nat
  | .str _ s => if s.startsWith pre then (s.drop pre.length).toNat? else none
  | _ => none

/-- `kwalk` closes  `Gen.W<k> m ρ c b = Gen.W<j> m ρ c b`  (j < k) when no segment between the two boundaries
    writes `b`, and  `Gen.W<k> m ρ c b = m (c.loc …)`  likewise down to the launch memory: one equation per
    segment, chained by transitivity. -/
elab "kwalk" : tactic => withMainContext do
  let goal0 ← getMainGoal
  let others := (← getGoals).drop 1
  let tgt ← instantiateMVars (← goal0.getType)
  let some (_, lhs0, rhs0) := tgt.eq? | throwError "kwalk: the goal is not an equation"
  -- a side written through the abbreviation Gen.V<k> is read as Gen.W<k>
  let norm (e : Expr) : MetaM Expr := do
    match e.getAppFn.constName? with
    | some (.str p s) =>
      if p == genNs && s.startsWith "V" && ((s.drop 1).toNat?).isSome then
        return (← unfoldDefinition? e).getD e
      else return e
    | _ => return e
  let lhs1 ← norm lhs0
  let rhs1 ← norm rhs0
  let idx (e : Expr) : Option Nat := e.getAppFn.constName?.bind wIndex?
  -- the later boundary goes on the left
  let swap : Bool := match idx lhs1, idx rhs1 with
    | some a, some b => a < b
    | none, some _ => true
    | _, _ => false
  let (lhs, rhs) := if swap then (rhs1, lhs1) else (lhs1, rhs1)
  let goalE ← mkFreshExprSyntheticOpaqueMVar (← mkEq lhs rhs)
  goal0.assign (← if swap then mkEqSymm goalE else pure goalE)
  let goal := goalE.mvarId!
  let some k := idx lhs | throwError "kwalk: neither side is a fold valuation Gen.W<k> m ρ c b"
  let allArgs := lhs.getAppArgs
  unless allArgs.size ≥ 4 do throwError "kwalk: the left side is not Gen.W<k> m ρ c b"
  -- the explicit arguments m, ρ, c, b (the fold constants differ in their implicit ones)
  let args := allArgs.extract (allArgs.size - 4) allArgs.size
  let jOpt : Option Nat := idx rhs
  let toMem := jOpt.isNone
  let j := jOpt.getD 0
  unless toMem || j < k do throwError "kwalk: the two boundaries are the same (W{k})"
  let mut cur := goal
  let mut i := k
  while i > j do
    let here ← mkAppM (gen s!"W{i}") args
    let prev ← mkAppM (gen s!"W{i-1}") args
    let some body ← unfoldDefinition? here | throwError "kwalk: Gen.W{i} does not unfold"
    let fnName := (body.getAppFn.constName?.getD .anonymous)
    let bargs := body.getAppArgs
    let (stepLhs, stx) ←
      match fnName with
      | .str _ "after" =>
        let ops := bargs[bargs.size - 3]!
        let some opsName := ops.getAppFn.constName? | throwError "kwalk: segment {i} is not a named stretch"
        let okName : Name := .str `Cert.KernelIdeal.KWalk s!"ok_{opsName.getString!}"
        if (← getEnv).contains okName then
          pure (body, ← `(tactic| kwalk_stretch_list $(mkIdent okName)))
        else
          pure (body, ← `(tactic| kwalk_stretch $(mkIdent opsName)))
      | .str _ "withArrays" =>
        let some r := bargs.findSome? fun a => a.getAppFn.constName?.bind (trailingNat? "spec")
          | throwError "kwalk: segment {i} is a region whose windows are not named spec<r>"
        pure (here, ← `(tactic| kwalk_region $(mkIdent (gen s!"W{i}_of_ne")) $(mkIdent (gen s!"W{i}_arr"))
                  $(mkIdent (gen s!"dat{r}")) $(mkIdent (gen s!"V{i-1}")) $(mkIdent (gen s!"A_eq{r}"))))
      | _ => throwError "kwalk: segment {i} is neither a stretch nor a region"
    let step ← mkFreshExprSyntheticOpaqueMVar (← mkEq stepLhs prev)
    if i - 1 == j && !toMem then
      cur.assign step
    else
      let rest ← mkFreshExprSyntheticOpaqueMVar (← mkEq prev rhs)
      cur.assign (← mkEqTrans step rest)
      cur := rest.mvarId!
    setGoals [step.mvarId!]
    try
      evalTactic stx
    catch e =>
      throwError "kwalk: the buffer is not carried unchanged from W{i-1} to W{i}:\n{e.toMessageData}"
    unless (← getUnsolvedGoals).isEmpty do
      throwError "kwalk: the step from W{i-1} to W{i} left goals"
    i := i - 1
  if toMem then
    setGoals [cur]
    evalTactic (← `(tactic| exact rfl))
  setGoals others

end Walk

open Idealize.ShloMosaic Idealize.ShloMosaic.TcCoe
open Cert.KernelIdeal.Gen

variable {F : FTy → Type} [FloatOps F]
variable (m : (ℓ : Loc nD τ sig) → Buf (Elt F) ℓ) (ρ : Dev nD → PrngReg)

theorem walk_W5_main_arg5 (c : Dev nD) :
    Gen.W5 m ρ c (Proc.devRef .tc main_arg5) = m ((c : Thread nD τ).loc main_arg5) := by kwalk

theorem walk_W31_main_arg11 (c : Dev nD) :
    Gen.W31 m ρ c (Proc.devRef .tc main_arg11) = m ((c : Thread nD τ).loc main_arg11) := by kwalk

theorem walk_W22_main_v3_W3 (c : Dev nD) :
    Gen.W22 m ρ c (Proc.devRef .tc main_v3) = Gen.W3 m ρ c (Proc.devRef .tc main_v3) := by kwalk

theorem walk_W22_main_v6_W3 (c : Dev nD) :
    Gen.W22 m ρ c (Proc.devRef .tc main_v6) = Gen.W3 m ρ c (Proc.devRef .tc main_v6) := by kwalk

theorem walk_W22_main_v30_W3 (c : Dev nD) :
    Gen.W22 m ρ c (Proc.devRef .tc main_v30) = Gen.W3 m ρ c (Proc.devRef .tc main_v30) := by kwalk

theorem walk_W8_main_v41_W6 (c : Dev nD) :
    Gen.W8 m ρ c (Proc.devRef .tc main_v41) = Gen.W6 m ρ c (Proc.devRef .tc main_v41) := by kwalk

theorem walk_W13_main_v76_W11 (c : Dev nD) :
    Gen.W13 m ρ c (Proc.devRef .tc main_v76) = Gen.W11 m ρ c (Proc.devRef .tc main_v76) := by kwalk

theorem walk_W22_main_arg2 (c : Dev nD) :
    Gen.W22 m ρ c (Proc.devRef .tc main_arg2) = m ((c : Thread nD τ).loc main_arg2) := by kwalk

theorem walk_W10_main_v57_W9 (c : Dev nD) :
    Gen.W10 m ρ c (Proc.devRef .tc main_v57) = Gen.W9 m ρ c (Proc.devRef .tc main_v57) := by kwalk

/-! The same walks with a side written through `Gen.V<k>`, or with the earlier boundary on the left. -/
example (c : Dev nD) : Gen.V22 m ρ c main_v3 = Gen.W3 m ρ c (Proc.devRef .tc main_v3) := by kwalk
example (c : Dev nD) : Gen.W6 m ρ c (Proc.devRef .tc main_v41) = Gen.V8 m ρ c main_v41 := by kwalk
example (c : Dev nD) : m ((c : Thread nD τ).loc main_arg5) = Gen.V5 m ρ c main_arg5 := by kwalk

end Cert.KernelIdeal.KWalk
-- ==== Proof.KWalks.lean ====
/- Buffers the kernel program's segments carry unchanged: the launch arguments up to the segments that read them, the edge
   lists and weights from the first host stretches to each message-passing stretch, and each layer's input across the
   statistics kernel that only reads it. -/
import proofs.«416283_j44736379355415_1_alg».proof.Proof.KWalk

set_option maxRecDepth 16384

noncomputable section

namespace Cert.KernelIdeal.KVal

open Idealize.ShloMosaic Idealize.ShloMosaic.TcCoe Idealize.SL.Sem
open Cert.KernelIdeal Cert.KernelIdeal.Gen Cert.KernelIdeal.KWalk

variable {F : FTy → Type} [FloatOps F]
variable (m : (ℓ : Loc nD τ sig) → Buf (Elt F) ℓ) (ρ : Dev nD → PrngReg) (c : Dev nD)

theorem wk_W3_arg0 : W3 m ρ c (Proc.devRef .tc main_arg0) = m ((c.tc : Thread nD τ).loc main_arg0) := by kwalk
theorem wk_W4_arg3 : W4 m ρ c (Proc.devRef .tc main_arg3) = m ((c.tc : Thread nD τ).loc main_arg3) := by kwalk
theorem wk_W4_arg4 : W4 m ρ c (Proc.devRef .tc main_arg4) = m ((c.tc : Thread nD τ).loc main_arg4) := by kwalk
theorem wk_W4_arg6 : W4 m ρ c (Proc.devRef .tc main_arg6) = m ((c.tc : Thread nD τ).loc main_arg6) := by kwalk
theorem wk_W5_arg0 : W5 m ρ c (Proc.devRef .tc main_arg0) = m ((c.tc : Thread nD τ).loc main_arg0) := by kwalk
theorem wk_W5_arg5 : W5 m ρ c (Proc.devRef .tc main_arg5) = m ((c.tc : Thread nD τ).loc main_arg5) := by kwalk
theorem wk_W7_arg7 : W7 m ρ c (Proc.devRef .tc main_arg7) = m ((c.tc : Thread nD τ).loc main_arg7) := by kwalk
theorem wk_W7_arg8 : W7 m ρ c (Proc.devRef .tc main_arg8) = m ((c.tc : Thread nD τ).loc main_arg8) := by kwalk
theorem wk_W7_arg9 : W7 m ρ c (Proc.devRef .tc main_arg9) = m ((c.tc : Thread nD τ).loc main_arg9) := by kwalk
theorem wk_W8_v41_W6 : W8 m ρ c (Proc.devRef .tc main_v41) = W6 m ρ c (Proc.devRef .tc main_v41) := by kwalk
theorem wk_W9_v3_W3 : W9 m ρ c (Proc.devRef .tc main_v3) = W3 m ρ c (Proc.devRef .tc main_v3) := by kwalk
theorem wk_W9_v6_W3 : W9 m ρ c (Proc.devRef .tc main_v6) = W3 m ρ c (Proc.devRef .tc main_v6) := by kwalk
theorem wk_W9_v30_W3 : W9 m ρ c (Proc.devRef .tc main_v30) = W3 m ρ c (Proc.devRef .tc main_v30) := by kwalk
theorem wk_W9_arg10 : W9 m ρ c (Proc.devRef .tc main_arg10) = m ((c.tc : Thread nD τ).loc main_arg10) := by kwalk
theorem wk_W12_arg7 : W12 m ρ c (Proc.devRef .tc main_arg7) = m ((c.tc : Thread nD τ).loc main_arg7) := by kwalk
theorem wk_W12_arg8 : W12 m ρ c (Proc.devRef .tc main_arg8) = m ((c.tc : Thread nD τ).loc main_arg8) := by kwalk
theorem wk_W12_arg9 : W12 m ρ c (Proc.devRef .tc main_arg9) = m ((c.tc : Thread nD τ).loc main_arg9) := by kwalk
theorem wk_W13_v76_W11 : W13 m ρ c (Proc.devRef .tc main_v76) = W11 m ρ c (Proc.devRef .tc main_v76) := by kwalk
theorem wk_W14_v3_W3 : W14 m ρ c (Proc.devRef .tc main_v3) = W3 m ρ c (Proc.devRef .tc main_v3) := by kwalk
theorem wk_W14_v6_W3 : W14 m ρ c (Proc.devRef .tc main_v6) = W3 m ρ c (Proc.devRef .tc main_v6) := by kwalk
theorem wk_W14_v30_W3 : W14 m ρ c (Proc.devRef .tc main_v30) = W3 m ρ c (Proc.devRef .tc main_v30) := by kwalk
theorem wk_W14_arg10 : W14 m ρ c (Proc.devRef .tc main_arg10) = m ((c.tc : Thread nD τ).loc main_arg10) := by kwalk
theorem wk_W17_arg7 : W17 m ρ c (Proc.devRef .tc main_arg7) = m ((c.tc : Thread nD τ).loc main_arg7) := by kwalk
theorem wk_W17_arg8 : W17 m ρ c (Proc.devRef .tc main_arg8) = m ((c.tc : Thread nD τ).loc main_arg8) := by kwalk
theorem wk_W17_arg9 : W17 m ρ c (Proc.devRef .tc main_arg9) = m ((c.tc : Thread nD τ).loc main_arg9) := by kwalk
theorem wk_W18_v111_W16 : W18 m ρ c (Proc.devRef .tc main_v111) = W16 m ρ c (Proc.devRef .tc main_v111) := by kwalk
theorem wk_W19_v3_W3 : W19 m ρ c (Proc.devRef .tc main_v3) = W3 m ρ c (Proc.devRef .tc main_v3) := by kwalk
theorem wk_W19_v6_W3 : W19 m ρ c (Proc.devRef .tc main_v6) = W3 m ρ c (Proc.devRef .tc main_v6) := by kwalk
theorem wk_W19_v30_W3 : W19 m ρ c (Proc.devRef .tc main_v30) = W3 m ρ c (Proc.devRef .tc main_v30) := by kwalk
theorem wk_W19_arg10 : W19 m ρ c (Proc.devRef .tc main_arg10) = m ((c.tc : Thread nD τ).loc main_arg10) := by kwalk
theorem wk_W19_arg2 : W19 m ρ c (Proc.devRef .tc main_arg2) = m ((c.tc : Thread nD τ).loc main_arg2) := by kwalk
theorem wk_W23_arg11 : W23 m ρ c (Proc.devRef .tc main_arg11) = m ((c.tc : Thread nD τ).loc main_arg11) := by kwalk
theorem wk_W23_arg12 : W23 m ρ c (Proc.devRef .tc main_arg12) = m ((c.tc : Thread nD τ).loc main_arg12) := by kwalk
theorem wk_W23_arg13 : W23 m ρ c (Proc.devRef .tc main_arg13) = m ((c.tc : Thread nD τ).loc main_arg13) := by kwalk
theorem wk_W23_arg14 : W23 m ρ c (Proc.devRef .tc main_arg14) = m ((c.tc : Thread nD τ).loc main_arg14) := by kwalk
theorem wk_W23_arg15 : W23 m ρ c (Proc.devRef .tc main_arg15) = m ((c.tc : Thread nD τ).loc main_arg15) := by kwalk
theorem wk_W23_arg16 : W23 m ρ c (Proc.devRef .tc main_arg16) = m ((c.tc : Thread nD τ).loc main_arg16) := by kwalk
theorem wk_W23_arg17 : W23 m ρ c (Proc.devRef .tc main_arg17) = m ((c.tc : Thread nD τ).loc main_arg17) := by kwalk
theorem wk_W23_arg18 : W23 m ρ c (Proc.devRef .tc main_arg18) = m ((c.tc : Thread nD τ).loc main_arg18) := by kwalk

end Cert.KernelIdeal.KVal

end
-- ==== Proof.Spec.lean ====
/-
  The reference program's stages as vector-level terms: each definition is the composition of the
  operations the reference applies between the named values, with the reference's own shape records.
-/
import proofs.«416283_j44736379355415_1_alg».proof.ReferenceIdeal
import proofs.«416283_j44736379355415_1_alg».proof.Proof.Gen.ReferenceIdeal

set_option synthInstance.maxSize 4096

noncomputable section

namespace Cert.ReferenceIdeal.Spec

open Idealize.ShloMosaic Idealize.SL.Sem
open Cert.ReferenceIdeal Cert.ReferenceIdeal.Facts₀

variable {F : FTy → Type} [FloatOps F]

/-- The operand type of the operations: the contents of a buffer of shape s and element type φ. -/
abbrev T (s : Shape) (φ : EltTy) : Type := (⟨s, φ⟩ : BufTy).Contents (Elt F)

local notation "𝕋" => T (F := F)

/-! ## Small pieces shared by several stages -/

/-- The scalar 0.0 / 1.0 / 1e5 / 128.0 / eps / NaN / -inf words as rank-zero tensors. -/
def zeroS : 𝕋 S_ .f32 := constant S_ .f32 0x00000000#32
def countS : 𝕋 S_ .f32 := constant S_ .f32 0x47C35000#32
def count128S : 𝕋 S_ .f32 := constant S_ .f32 0x43000000#32
def epsS : 𝕋 S_ .f32 := constant S_ .f32 0x3727C5AC#32
def nanS : 𝕋 S_ .f32 := constant S_ .f32 0x7FC00000#32

/-- A [64] vector as a [1,64] row. -/
def row1 (v : 𝕋 S64 .f32) : 𝕋 S1x64 .f32 := broadcastInDim S1x64 ![1] bcast_S64_S1x64_1 v

/-- A [64] vector repeated down the 100000 rows. -/
def rows (v : 𝕋 S64 .f32) : 𝕋 S100000x64 .f32 :=
  broadcastInDim S100000x64 ![0, 1] bcast_S1x64_S100000x64_0_1 (row1 v)

/-- A [64] vector repeated down the 128 rows. -/
def rows128 (v : 𝕋 S64 .f32) : 𝕋 S128x64 .f32 :=
  broadcastInDim S128x64 ![0, 1] bcast_S1x64_S128x64_0_1 (row1 v)

/-- The index column of the pooling scatter. -/
def col1 (v : 𝕋 S100000 .i32) : 𝕋 S100000x1 .i32 :=
  broadcastInDim S100000x1 ![0] bcast_S100000_S100000x1_0 v

/-- An edge-index vector as a column. -/
def ecol (v : 𝕋 S1300000 .i32) : 𝕋 S1300000x1 .i32 :=
  broadcastInDim S1300000x1 ![0] bcast_S1300000_S1300000x1_0 v

/-- Negative indices wrapped by the node count (the gather's index normalisation). -/
def wrapIdx (s : 𝕋 S1300000 .i32) : 𝕋 S1300000 .i32 :=
  select (cmpi .slt s (broadcastInDim S1300000 ![] bcast_S_S1300000 (constantI S_ 32 0#32)))
    (addi s (broadcastInDim S1300000 ![] bcast_S_S1300000 (constantI S_ 32 100000#32))) s

/-- max(x, 0) at [100000,64]. -/
def reluN (x : 𝕋 S100000x64 .f32) : 𝕋 S100000x64 .f32 :=
  maximumf x (broadcastInDim S100000x64 ![] bcast_S_S100000x64 zeroS)

/-- max(x, 0) at [128,64]. -/
def relu128 (x : 𝕋 S128x64 .f32) : 𝕋 S128x64 .f32 :=
  maximumf x (broadcastInDim S128x64 ![] bcast_S_S128x64 zeroS)

/-! ## The edge lists and the edge normalisation (R.v3, R.v6, R.v30) -/

/-- One row of the edge array, as a vector of 1200000 entries. -/
def edgeRow0 (e : 𝕋 S2x1200000 .i32) : 𝕋 S1200000 .i32 :=
  shapeCast S1200000 (extractStridedSlice S1x1200000 ![0, 0] e slices_S2x1200000_S1x1200000_0_0)
    shapeCasts_S1x1200000_S1200000
def edgeRow1 (e : 𝕋 S2x1200000 .i32) : 𝕋 S1200000 .i32 :=
  shapeCast S1200000 (extractStridedSlice S1x1200000 ![1, 0] e slices_S2x1200000_S1x1200000_1_0)
    shapeCasts_S1x1200000_S1200000

/-- The self-loop indices 0 … 99999. -/
def selfLoops : 𝕋 S100000 .i32 := iotaInDim S100000 32 0

/-- Source indices: row 0 of the edges followed by the self loops. -/
def srcIdx (e : 𝕋 S2x1200000 .i32) : 𝕋 S1300000 .i32 :=
  concatenate S1300000 0 [⟨S1200000, edgeRow0 e⟩, ⟨S100000, selfLoops⟩] concatenates_S1200000_S100000_S1300000_d0

/-- Destination indices: row 1 of the edges followed by the self loops. -/
def dstIdx (e : 𝕋 S2x1200000 .i32) : 𝕋 S1300000 .i32 :=
  concatenate S1300000 0 [⟨S1200000, edgeRow1 e⟩, ⟨S100000, selfLoops⟩] concatenates_S1200000_S100000_S1300000_d0

/-- The all-ones edge weights. -/
def onesE : 𝕋 S1300000 .f32 := broadcastInDim S1300000 ![] bcast_S_S1300000 (constant S_ .f32 0x3F800000#32)

/-- Node degrees: ones scattered by source index. -/
def degN (e : 𝕋 S2x1200000 .i32) : 𝕋 S100000 .f32 :=
  Host.scatterAdd scatter_S100000_S1300000x1_S1300000_n_0_0_1
    (broadcastInDim S100000 ![] bcast_S_S100000 zeroS) (ecol (srcIdx e)) onesE

/-- deg^(-1/2) where deg > 0, else 0. -/
def dinvN (e : 𝕋 S2x1200000 .i32) : 𝕋 S100000 .f32 :=
  select (cmpf .ogt (degN e) (broadcastInDim S100000 ![] bcast_S_S100000 zeroS))
    (Host.rsqrt (degN e)) (broadcastInDim S100000 ![] bcast_S_S100000 zeroS)

/-- The per-edge normalisation dinv[src] * 1 * dinv[dst]. -/
def edgeNorm (e : 𝕋 S2x1200000 .i32) : 𝕋 S1300000 .f32 :=
  mulf
    (mulf (Host.gather gather_S100000_S1300000x1_S1300000_n_0_n_n_0_1_1 (dinvN e) (ecol (wrapIdx (srcIdx e)))) onesE)
    (Host.gather gather_S100000_S1300000x1_S1300000_n_0_n_n_0_1_1 (dinvN e) (ecol (wrapIdx (dstIdx e))))

/-! ## Batch statistics over the 100000 rows (R.v33, R.v34) -/

/-- Column sums over the rows. -/
def colSumN (x : 𝕋 S100000x64 .f32) : 𝕋 S64 .f32 := Host.reduceAdd x zeroS reducesTo_S100000x64_S64_d0 h_S_

/-- Column means: sums divided by 1e5. -/
def meanN (x : 𝕋 S100000x64 .f32) : 𝕋 S64 .f32 :=
  Host.divf (colSumN x) (broadcastInDim S64 ![] bcast_S_S64 countS)

/-- x minus its column means (the mean taken at [1,64] as the variance function does). -/
def centredN (x : 𝕋 S100000x64 .f32) : 𝕋 S100000x64 .f32 :=
  subf x (broadcastInDim S100000x64 ![0, 1] bcast_S1x64_S100000x64_0_1
    (Host.divf (row1 (colSumN x)) (broadcastInDim S1x64 ![] bcast_S_S1x64 countS)))

/-- The variance's denominator 1e5 - ddof, ddof = 0. -/
def denomN : 𝕋 S_ .f32 := subf countS (sitofp .f32 (constantI S_ 32 0#32))

/-- Column variances: the mean of squared deviations, NaN unless the denominator is positive. -/
def varN (x : 𝕋 S100000x64 .f32) : 𝕋 S64 .f32 :=
  select (broadcastInDim S64 ![] bcast_S_S64 (cmpf .ogt (denomN (F := F)) zeroS))
    (Host.divf (Host.reduceAdd (mulf (centredN x) (centredN x)) zeroS reducesTo_S100000x64_S64_d0 h_S_)
      (broadcastInDim S64 ![] bcast_S_S64 denomN))
    (broadcastInDim S64 ![] bcast_S_S64 nanS)

/-! ## Batch normalisation, linear layers (R.v49, R.v82, R.v54) -/

/-- (x - μ) * rsqrt(σ2 + eps) * g + b, each [64] vector broadcast down the rows. -/
def bnN (x : 𝕋 S100000x64 .f32) (μ σ2 g b : 𝕋 S64 .f32) : 𝕋 S100000x64 .f32 :=
  addf
    (mulf
      (mulf (subf x (rows μ)) (rows (Host.rsqrt (addf σ2 (broadcastInDim S64 ![] bcast_S_S64 epsS)))))
      (rows g))
    (rows b)

/-- BN followed by the [64,64] matrix product. -/
def linN (x : 𝕋 S100000x64 .f32) (μ σ2 g b : 𝕋 S64 .f32) (W : 𝕋 S64x64 .f32) : 𝕋 S100000x64 .f32 :=
  Host.dotGeneral dot_S100000x64_S64x64_S100000x64_1_0_0_1_n_n none (bnN x μ σ2 g b) W

/-- The feature layer: relu(BN(x)·W + bias). -/
def featN (x : 𝕋 S100000x64 .f32) (μ σ2 g b : 𝕋 S64 .f32) (W : 𝕋 S64x64 .f32) (bias : 𝕋 S64 .f32) :
    𝕋 S100000x64 .f32 :=
  reluN (addf (linN x μ σ2 g b W) (rows bias))

/-! ## Per-layer parameter slices -/

def row3_0 (a : 𝕋 S3x64 .f32) : 𝕋 S64 .f32 :=
  shapeCast S64 (extractStridedSlice S1x64 ![0, 0] a slices_S3x64_S1x64_0_0) shapeCasts_S1x64_S64
def row3_1 (a : 𝕋 S3x64 .f32) : 𝕋 S64 .f32 :=
  shapeCast S64 (extractStridedSlice S1x64 ![1, 0] a slices_S3x64_S1x64_1_0) shapeCasts_S1x64_S64
def row3_2 (a : 𝕋 S3x64 .f32) : 𝕋 S64 .f32 :=
  shapeCast S64 (extractStridedSlice S1x64 ![2, 0] a slices_S3x64_S1x64_2_0) shapeCasts_S1x64_S64
def mat3_0 (a : 𝕋 S3x64x64 .f32) : 𝕋 S64x64 .f32 :=
  shapeCast S64x64 (extractStridedSlice S1x64x64 ![0, 0, 0] a slices_S3x64x64_S1x64x64_0_0_0) shapeCasts_S1x64x64_S64x64
def mat3_1 (a : 𝕋 S3x64x64 .f32) : 𝕋 S64x64 .f32 :=
  shapeCast S64x64 (extractStridedSlice S1x64x64 ![1, 0, 0] a slices_S3x64x64_S1x64x64_1_0_0) shapeCasts_S1x64x64_S64x64
def mat3_2 (a : 𝕋 S3x64x64 .f32) : 𝕋 S64x64 .f32 :=
  shapeCast S64x64 (extractStridedSlice S1x64x64 ![2, 0, 0] a slices_S3x64x64_S1x64x64_2_0_0) shapeCasts_S1x64x64_S64x64

/-! ## Message passing (R.v99 from R.v82) -/

/-- relu(scatter_add over dst of norm * hw[src] + bias). -/
def aggN (hw : 𝕋 S100000x64 .f32) (src dst : 𝕋 S1300000 .i32) (nrm : 𝕋 S1300000 .f32) (bias : 𝕋 S64 .f32) :
    𝕋 S100000x64 .f32 :=
  reluN (addf
    (Host.scatterAdd scatter_S100000x64_S1300000x1_S1300000x64_1_0_0_1
      (broadcastInDim S100000x64 ![] bcast_S_S100000x64 zeroS)
      (ecol dst)
      (mulf
        (broadcastInDim S1300000x64 ![0, 1] bcast_S1300000x1_S1300000x64_0_1
          (broadcastInDim S1300000x1 ![0] bcast_S1300000_S1300000x1_0 nrm))
        (Host.gather gather_S100000x64_S1300000x1_S1300000x64_1_0_n_n_0_1_164 hw (ecol (wrapIdx src)))))
    (rows bias))

/-- One graph layer: statistics of h, BN, matrix product, message passing. -/
def layerN (h : 𝕋 S100000x64 .f32) (src dst : 𝕋 S1300000 .i32) (nrm : 𝕋 S1300000 .f32)
    (g b : 𝕋 S64 .f32) (W : 𝕋 S64x64 .f32) (bias : 𝕋 S64 .f32) : 𝕋 S100000x64 .f32 :=
  aggN (linN h (meanN h) (varN h) g b W) src dst nrm bias

/-! ## Pooling (R.v192) -/

/-- Segment sums of the rows of h by graph index. -/
def poolN (h : 𝕋 S100000x64 .f32) (bidx : 𝕋 S100000 .i32) : 𝕋 S128x64 .f32 :=
  Host.scatterAdd scatter_S128x64_S100000x1_S100000x64_1_0_0_1
    (broadcastInDim S128x64 ![] bcast_S_S128x64 zeroS) (col1 bidx) h

/-! ## The tail over the 128 graphs (R.v240) -/

def colSum128 (x : 𝕋 S128x64 .f32) : 𝕋 S64 .f32 := Host.reduceAdd x zeroS reducesTo_S128x64_S64_d0 h_S_

def mean128 (x : 𝕋 S128x64 .f32) : 𝕋 S64 .f32 :=
  Host.divf (colSum128 x) (broadcastInDim S64 ![] bcast_S_S64 count128S)

def centred128 (x : 𝕋 S128x64 .f32) : 𝕋 S128x64 .f32 :=
  subf x (broadcastInDim S128x64 ![0, 1] bcast_S1x64_S128x64_0_1
    (Host.divf (row1 (colSum128 x)) (broadcastInDim S1x64 ![] bcast_S_S1x64 count128S)))

def denom128 : 𝕋 S_ .f32 := subf count128S (sitofp .f32 (constantI S_ 32 0#32))

def var128 (x : 𝕋 S128x64 .f32) : 𝕋 S64 .f32 :=
  select (broadcastInDim S64 ![] bcast_S_S64 (cmpf .ogt (denom128 (F := F)) zeroS))
    (Host.divf (Host.reduceAdd (mulf (centred128 x) (centred128 x)) zeroS reducesTo_S128x64_S64_d0 h_S_)
      (broadcastInDim S64 ![] bcast_S_S64 denom128))
    (broadcastInDim S64 ![] bcast_S_S64 nanS)

def bn128 (x : 𝕋 S128x64 .f32) (μ σ2 g b : 𝕋 S64 .f32) : 𝕋 S128x64 .f32 :=
  addf
    (mulf
      (mulf (subf x (rows128 μ)) (rows128 (Host.rsqrt (addf σ2 (broadcastInDim S64 ![] bcast_S_S64 epsS)))))
      (rows128 g))
    (rows128 b)

/-- x - rowmax(x), the row maximum taken against -inf. -/
def shifted (x : 𝕋 S128x10 .f32) : 𝕋 S128x10 .f32 :=
  subf x (broadcastInDim S128x10 ![0, 1] bcast_S128x1_S128x10_0_1
    (broadcastInDim S128x1 ![0] bcast_S128_S128x1_0
      (maximumf (broadcastInDim S128 ![] bcast_S_S128 (constant S_ .f32 0xFF800000#32))
        (Host.reduce FloatOps.maximumf x (constant S_ .f32 0xFF800000#32) reducesTo_S128x10_S128_d1 h_S_))))

def logSoftmax (x : 𝕋 S128x10 .f32) : 𝕋 S128x10 .f32 :=
  subf (shifted x) (broadcastInDim S128x10 ![0, 1] bcast_S128x1_S128x10_0_1
    (Host.log (broadcastInDim S128x1 ![0] bcast_S128_S128x1_0
      (Host.reduceAdd (Host.exp (shifted x)) zeroS reducesTo_S128x10_S128_d1 h_S_))))

/-- The hidden layer of the tail: relu(BN(hg)·a13 + a14). -/
def tailHidden (hg : 𝕋 S128x64 .f32) (a11 a12 : 𝕋 S64 .f32) (a13 : 𝕋 S64x64 .f32) (a14 : 𝕋 S64 .f32) : 𝕋 S128x64 .f32 :=
  relu128 (addf
    (Host.dotGeneral dot_S128x64_S64x64_S128x64_1_0_0_1_n_n none (bn128 hg (mean128 hg) (var128 hg) a11 a12) a13)
    (rows128 a14))

/-- BN, linear, relu, BN, linear, log_softmax. -/
def tailN (hg : 𝕋 S128x64 .f32) (a11 a12 : 𝕋 S64 .f32) (a13 : 𝕋 S64x64 .f32) (a14 a15 a16 : 𝕋 S64 .f32)
    (a17 : 𝕋 S64x10 .f32) (a18 : 𝕋 S10 .f32) : 𝕋 S128x10 .f32 :=
  logSoftmax (addf
    (Host.dotGeneral dot_S128x64_S64x10_S128x10_1_0_0_1_n_n none
      (bn128 (tailHidden hg a11 a12 a13 a14) (mean128 (tailHidden hg a11 a12 a13 a14))
        (var128 (tailHidden hg a11 a12 a13 a14)) a15 a16) a17)
    (broadcastInDim S128x10 ![0, 1] bcast_S1x10_S128x10_0_1 (broadcastInDim S1x10 ![1] bcast_S10_S1x10_1 a18)))

/-! ## The whole reference -/

def total (a0 : 𝕋 S100000x64 .f32) (a1 : 𝕋 S2x1200000 .i32) (a2 : 𝕋 S100000 .i32) (a3 a4 : 𝕋 S64 .f32)
    (a5 : 𝕋 S64x64 .f32) (a6 : 𝕋 S64 .f32) (a7 a8 : 𝕋 S3x64 .f32) (a9 : 𝕋 S3x64x64 .f32) (a10 : 𝕋 S3x64 .f32)
    (a11 a12 : 𝕋 S64 .f32) (a13 : 𝕋 S64x64 .f32) (a14 a15 a16 : 𝕋 S64 .f32) (a17 : 𝕋 S64x10 .f32) (a18 : 𝕋 S10 .f32) :
    𝕋 S128x10 .f32 :=
  tailN
    (poolN
      (layerN
        (layerN
          (layerN (featN a0 (meanN a0) (varN a0) a3 a4 a5 a6)
            (srcIdx a1) (dstIdx a1) (edgeNorm a1) (row3_0 a7) (row3_0 a8) (mat3_0 a9) (row3_0 a10))
          (srcIdx a1) (dstIdx a1) (edgeNorm a1) (row3_1 a7) (row3_1 a8) (mat3_1 a9) (row3_1 a10))
        (srcIdx a1) (dstIdx a1) (edgeNorm a1) (row3_2 a7) (row3_2 a8) (mat3_2 a9) (row3_2 a10))
      a2)
    a11 a12 a13 a14 a15 a16 a17 a18

end Cert.ReferenceIdeal.Spec
-- ==== Proof.KSpec.lean ====
/-
  The column sums of a [100000,64] array and of its square, as [1,64] rows over the extended reals:
  what the statistics regions of the kernel program leave in their two accumulators.
-/
import Idealize.ShloMosaic.PureOps.Ideal
import Idealize.ShloMosaic.Lib.ValueIdx

noncomputable section

open scoped BigOperators

namespace Cert.KSpec

open Idealize.ShloMosaic Idealize.ShloMosaic.ValueIdx

/-- Column sums: entry (0, j) of the row is the sum over the 100000 rows r of x (r, j). -/
def colSum (x : (⟨2, ![100000, 64]⟩ : Shape).Idx → EReal) : (⟨2, ![1, 64]⟩ : Shape).Idx → EReal :=
  fun y => ∑ r : Fin 100000, x (ix2 r (y 1 : Fin 64))

/-- Column sums of squares: entry (0, j) of the row is the sum over the rows r of x (r, j) * x (r, j). -/
def colSumSq (x : (⟨2, ![100000, 64]⟩ : Shape).Idx → EReal) : (⟨2, ![1, 64]⟩ : Shape).Idx → EReal :=
  fun y => ∑ r : Fin 100000, x (ix2 r (y 1 : Fin 64)) * x (ix2 r (y 1 : Fin 64))

theorem colSum_apply (x : (⟨2, ![100000, 64]⟩ : Shape).Idx → EReal) (j : Fin 64) :
    colSum x (ix2 (0 : Fin 1) j) = ∑ r : Fin 100000, x (ix2 r j) := rfl

theorem colSumSq_apply (x : (⟨2, ![100000, 64]⟩ : Shape).Idx → EReal) (j : Fin 64) :
    colSumSq x (ix2 (0 : Fin 1) j) = ∑ r : Fin 100000, x (ix2 r j) * x (ix2 r j) := rfl

/-- Any index of the row reads the column sum of its column. -/
theorem colSum_apply' (x : (⟨2, ![100000, 64]⟩ : Shape).Idx → EReal) (y : (⟨2, ![1, 64]⟩ : Shape).Idx) :
    colSum x y = ∑ r : Fin 100000, x (ix2 r (y 1 : Fin 64)) := rfl

theorem colSumSq_apply' (x : (⟨2, ![100000, 64]⟩ : Shape).Idx → EReal) (y : (⟨2, ![1, 64]⟩ : Shape).Idx) :
    colSumSq x y = ∑ r : Fin 100000, x (ix2 r (y 1 : Fin 64)) * x (ix2 r (y 1 : Fin 64)) := rfl

end Cert.KSpec
-- ==== Proof.Fin.lean ====
/- "finite" for the ideal float values: an extended real that is a real, a vector whose every element
   is one, the closure of both under the arithmetic the programs use, and the float constants the statistics
   stretch spells, as the reals their patterns denote. -/
import Idealize.ShloMosaic.PureOps.Ideal
import Idealize.ShloMosaic.PureOps.Ideal.Laws
import Mathlib.Data.EReal.Inv
import Mathlib.Algebra.BigOperators.Group.Finset.Basic
import Mathlib.Analysis.SpecialFunctions.Pow.Real

noncomputable section

namespace Cert.FinSpec

open Idealize.ShloMosaic
open scoped BigOperators

/-- Every element of the vector is a real (neither infinity). -/
def isFin {ι : Type} (v : ι → EReal) : Prop := ∀ i, ∃ r : ℝ, v i = (r : EReal)

/-! ### Coercion of the operations Mathlib does not push through -/

/-- The greater of two reals, coerced, is the greater of the coercions. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A finite sum of reals, coerced, is the sum of the coercions. -/
theorem coe_finset_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The same over a whole finite type. -/
theorem coe_sum {α : Type} [Fintype α] (f : α → ℝ) : ((∑ a, f a : ℝ) : EReal) = ∑ a, (f a : EReal) :=
  coe_finset_sum Finset.univ f

/-! ### Closure, one value at a time -/

theorem real_coe (a : ℝ) : ∃ r : ℝ, (a : EReal) = (r : EReal) := ⟨a, rfl⟩

theorem real_zero : ∃ r : ℝ, (0 : EReal) = (r : EReal) := ⟨0, rfl⟩

theorem real_one : ∃ r : ℝ, (1 : EReal) = (r : EReal) := ⟨1, rfl⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem real_neg {x : EReal} (hx : ∃ r : ℝ, x = (r : EReal)) : ∃ r : ℝ, -x = (r : EReal) := by
  obtain ⟨a, rfl⟩ := hx
  exact ⟨-a, (EReal.coe_neg a).symm⟩

theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A finite sum of reals is a real. -/
theorem real_finset_sum {α : Type} (s : Finset α) (f : α → EReal) (h : ∀ a ∈ s, ∃ r : ℝ, f a = (r : EReal)) :
    ∃ r : ℝ, ∑ a ∈ s, f a = (r : EReal) := by
  classical
  induction s using Finset.induction_on with
  | empty => exact ⟨0, by simp⟩
  | insert a s ha ih =>
    rw [Finset.sum_insert ha]
    exact real_add (h a (Finset.mem_insert_self a s)) (ih fun b hb => h b (Finset.mem_insert_of_mem hb))

theorem real_sum {α : Type} [Fintype α] (f : α → EReal) (h : ∀ a, ∃ r : ℝ, f a = (r : EReal)) :
    ∃ r : ℝ, ∑ a, f a = (r : EReal) :=
  real_finset_sum Finset.univ f fun a _ => h a

/-- The quotient of two reals by the ideal division, the divisor not zero, is the real quotient. -/
theorem div_coe_coe (a : ℝ) {y : ℝ} (hy : y ≠ 0) : Ideal.div (a : EReal) (y : EReal) = ((a / y : ℝ) : EReal) := by
  rw [Ideal.div_coe hy, ← EReal.coe_mul, mul_one_div]

theorem real_div {x : EReal} {y : ℝ} (hy : y ≠ 0) (hx : ∃ r : ℝ, x = (r : EReal)) :
    ∃ r : ℝ, Ideal.div x (y : EReal) = (r : EReal) := by
  obtain ⟨a, rfl⟩ := hx
  exact ⟨a / y, div_coe_coe a hy⟩

/-- The reciprocal square root of a positive real is the real `(√r)⁻¹`, which is positive. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem real_rsqrt {x : EReal} (hx : ∃ r : ℝ, 0 < r ∧ x = (r : EReal)) :
    ∃ q : ℝ, 0 < q ∧ Ideal.rsqrt x = (q : EReal) := by
  obtain ⟨r, hr, rfl⟩ := hx
  exact ⟨(Real.sqrt r)⁻¹, inv_pos.mpr (Real.sqrt_pos.mpr hr), rsqrt_coe_pos hr⟩

/-! ### Closure, a vector at a time -/

section Vec
variable {ι : Type}

theorem isFin_coe (f : ι → ℝ) : isFin fun i => (f i : EReal) := fun i => ⟨f i, rfl⟩

theorem isFin_const {x : EReal} (hx : ∃ r : ℝ, x = (r : EReal)) : isFin fun _ : ι => x := fun _ => hx

theorem isFin_add {v w : ι → EReal} (hv : isFin v) (hw : isFin w) : isFin fun i => v i + w i :=
  fun i => real_add (hv i) (hw i)

theorem isFin_sub {v w : ι → EReal} (hv : isFin v) (hw : isFin w) : isFin fun i => v i - w i :=
  fun i => real_sub (hv i) (hw i)

theorem isFin_mul {v w : ι → EReal} (hv : isFin v) (hw : isFin w) : isFin fun i => v i * w i :=
  fun i => real_mul (hv i) (hw i)

theorem isFin_max {v w : ι → EReal} (hv : isFin v) (hw : isFin w) : isFin fun i => max (v i) (w i) :=
  fun i => real_max (hv i) (hw i)

theorem isFin_neg {v : ι → EReal} (hv : isFin v) : isFin fun i => -v i :=
  fun i => real_neg (hv i)

/-- A vector read through any map of indices stays finite (a broadcast, a slice, a transpose, a gather). -/
theorem isFin_comp {κ : Type} {v : ι → EReal} (hv : isFin v) (g : κ → ι) : isFin fun k => v (g k) :=
  fun k => hv (g k)

/-- A finite vector is the coercion of a vector of reals. -/
theorem isFin.exists_real {v : ι → EReal} (hv : isFin v) : ∃ f : ι → ℝ, v = fun i => (f i : EReal) :=
  ⟨fun i => (hv i).choose, funext fun i => (hv i).choose_spec⟩

end Vec

/-! ### The constants -/

/-- The pattern of `100000.0`, the row count the statistics divide by. -/
theorem ofBits_100000 : Ideal.ofBits .f32 0x47C35000#32 = ((100000 : ℝ) : EReal) := by
  simp [Ideal.ofBits, Ideal.ieee, -EReal.coe_mul]; norm_num

/-- The real the pattern `0x3727C5AC` (the normalisation's `1e-5` rounded to f32) denotes. -/
def eps : ℝ := 10995116 * (2 : ℝ) ^ (-40 : Int)

theorem eps_pos : 0 < eps := by unfold eps; positivity

theorem ofBits_eps : Ideal.ofBits .f32 0x3727C5AC#32 = ((eps : ℝ) : EReal) := by
  simp [Ideal.ofBits, Ideal.ieee, -EReal.coe_mul, eps]

/-- The pattern is a positive real. -/
theorem ofBits_eps_pos : ∃ r : ℝ, 0 < r ∧ Ideal.ofBits .f32 0x3727C5AC#32 = (r : EReal) :=
  ⟨eps, eps_pos, ofBits_eps⟩

theorem ofBits_zero : Ideal.ofBits .f32 0x00000000#32 = 0 := Ideal.ofBits_zero_f32

theorem ofBits_zero_coe : Ideal.ofBits .f32 0x00000000#32 = ((0 : ℝ) : EReal) := Ideal.ofBits_zero_f32

theorem ofBits_one : Ideal.ofBits .f32 0x3F800000#32 = 1 := by
  simp [Ideal.ofBits, Ideal.ieee, -EReal.coe_mul]; norm_num

theorem ofBits_one_coe : Ideal.ofBits .f32 0x3F800000#32 = ((1 : ℝ) : EReal) := ofBits_one

end Cert.FinSpec

end
-- ==== Proof.PreFin.lean ====
/- the precondition read back: finite_inputs = 1 on every device says that each of the seventeen
   float argument arrays of the kernel program has only real entries (no infinity, no junk). One clause
   all (|a| < +∞) is decoded once, for an array of any shape, and applied to each argument. -/
import proofs.«416283_j44736379355415_1_alg».proof.Defs
import Idealize.ShloMosaic.Lib.ReduceAll
import Idealize.ShloMosaic.Lib.ValueIdx
import proofs.«416283_j44736379355415_1_alg».proof.Proof.Fin

noncomputable section

namespace Cert.PreFin

open Idealize.ShloMosaic Idealize.SL.Sem

open Cert.FinSpec (isFin)

instance : Subsingleton Cert.Pre_finite_inputs.S_.Idx := ⟨fun a b => funext fun d => d.elim0⟩

/-- The word 0x7F800000 denotes +∞. -/
theorem inf_word : Ideal.ofBits .f32 0x7F800000#32 = (⊤ : EReal) := by simp [Ideal.ofBits, Ideal.ieee]

/-- |x| < +∞ says that x is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One clause of the precondition: all (|a| < +∞) = 1 makes every entry of a real. -/
theorem fin_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf a)
          (broadcastInDim s ![] hb (constant (F := Ideal) Cert.Pre_finite_inputs.S_ .f32 0x7F800000#32))) init hr hu j = 1#1) :
    isFin a := by
  intro i
  have h := Host.reduce_andi_all _ init hr hu j e i
  exact real_of_abs_lt (a i) h

open Cert.Pre_finite_inputs in
/-- The precondition read back: each of the seventeen float argument arrays has only real entries. -/
theorem fin_all [Cert.Pre_finite_inputs.Facts]
    (a0 : FVec Ideal S100000x64 .f32) (a1 : IVec S2x1200000 32) (a2 : IVec S100000 32)
    (a3 a4 : FVec Ideal S64 .f32) (a5 : FVec Ideal S64x64 .f32) (a6 : FVec Ideal S64 .f32)
    (a7 a8 : FVec Ideal S3x64 .f32) (a9 : FVec Ideal S3x64x64 .f32) (a10 : FVec Ideal S3x64 .f32)
    (a11 a12 : FVec Ideal S64 .f32) (a13 : FVec Ideal S64x64 .f32) (a14 a15 a16 : FVec Ideal S64 .f32)
    (a17 : FVec Ideal S64x10 .f32) (a18 : FVec Ideal S10 .f32)
    (h : fn (F := Ideal) a0 a1 a2 a3 a4 a5 a6 a7 a8 a9 a10 a11 a12 a13 a14 a15 a16 a17 a18 = fun _ => 1#1) :
    isFin a0 ∧ isFin a3 ∧ isFin a4 ∧ isFin a5 ∧ isFin a6 ∧ isFin a7 ∧ isFin a8 ∧ isFin a9 ∧ isFin a10 ∧ isFin a11
      ∧ isFin a12 ∧ isFin a13 ∧ isFin a14 ∧ isFin a15 ∧ isFin a16 ∧ isFin a17 ∧ isFin a18 := by
  have e := congrFun h ValueIdx.ix0
  dsimp only [fn, fn_part1, fn_part2, fn_part3, fn_part4, andi] at e
  simp only [IntOp.andi_eq_one] at e
  obtain ⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, e18⟩ := e
  exact ⟨fin_of_all a0 _ _ _ _ _ e0, fin_of_all a3 _ _ _ _ _ e3, fin_of_all a4 _ _ _ _ _ e4, fin_of_all a5 _ _ _ _ _ e5,
    fin_of_all a6 _ _ _ _ _ e6, fin_of_all a7 _ _ _ _ _ e7, fin_of_all a8 _ _ _ _ _ e8, fin_of_all a9 _ _ _ _ _ e9,
    fin_of_all a10 _ _ _ _ _ e10, fin_of_all a11 _ _ _ _ _ e11, fin_of_all a12 _ _ _ _ _ e12, fin_of_all a13 _ _ _ _ _ e13,
    fin_of_all a14 _ _ _ _ _ e14, fin_of_all a15 _ _ _ _ _ e15, fin_of_all a16 _ _ _ _ _ e16, fin_of_all a17 _ _ _ _ _ e17,
    fin_of_all a18 _ _ _ _ _ e18⟩

section args
variable [Cert.Pre_finite_inputs.Facts]
  (m : (ℓ : Loc Cert.KernelIdeal.nD Cert.KernelIdeal.τ Cert.KernelIdeal.sig) → Buf (Elt Ideal) ℓ)
  (hpre : Cert.Pre_KernelIdeal m) (c : Dev Cert.KernelIdeal.nD)
include hpre

/-- Argument 0 of the kernel program has only real entries, on every device. -/
theorem fin_arg0 : isFin (m ((c.tc : Thread Cert.KernelIdeal.nD Cert.KernelIdeal.τ).loc Cert.KernelIdeal.main_arg0)) := by
  have h := fin_all _ _ _ _ _ _ _ _ _ _ _ _ _ _ _ _ _ _ _ (hpre c)
  exact h.1

/-- Argument 3 of the kernel program has only real entries, on every device. -/
theorem fin_arg3 : isFin (m ((c.tc : Thread Cert.KernelIdeal.nD Cert.KernelIdeal.τ).loc Cert.KernelIdeal.main_arg3)) := by
  have h := fin_all _ _ _ _ _ _ _ _ _ _ _ _ _ _ _ _ _ _ _ (hpre c)
  exact h.2.1

/-- Argument 4 of the kernel program has only real entries, on every device. -/
theorem fin_arg4 : isFin (m ((c.tc : Thread Cert.KernelIdeal.nD Cert.KernelIdeal.τ).loc Cert.KernelIdeal.main_arg4)) := by
  have h := fin_all _ _ _ _ _ _ _ _ _ _ _ _ _ _ _ _ _ _ _ (hpre c)
  exact h.2.2.1

/-- Argument 5 of the kernel program has only real entries, on every device. -/
theorem fin_arg5 : isFin (m ((c.tc : Thread Cert.KernelIdeal.nD Cert.KernelIdeal.τ).loc Cert.KernelIdeal.main_arg5)) := by
  have h := fin_all _ _ _ _ _ _ _ _ _ _ _ _ _ _ _ _ _ _ _ (hpre c)
  exact h.2.2.2.1

/-- Argument 6 of the kernel program has only real entries, on every device. -/
theorem fin_arg6 : isFin (m ((c.tc : Thread Cert.KernelIdeal.nD Cert.KernelIdeal.τ).loc Cert.KernelIdeal.main_arg6)) := by
  have h := fin_all _ _ _ _ _ _ _ _ _ _ _ _ _ _ _ _ _ _ _ (hpre c)
  exact h.2.2.2.2.1

/-- Argument 7 of the kernel program has only real entries, on every device. -/
theorem fin_arg7 : isFin (m ((c.tc : Thread Cert.KernelIdeal.nD Cert.KernelIdeal.τ).loc Cert.KernelIdeal.main_arg7)) := by
  have h := fin_all _ _ _ _ _ _ _ _ _ _ _ _ _ _ _ _ _ _ _ (hpre c)
  exact h.2.2.2.2.2.1

/-- Argument 8 of the kernel program has only real entries, on every device. -/
theorem fin_arg8 : isFin (m ((c.tc : Thread Cert.KernelIdeal.nD Cert.KernelIdeal.τ).loc Cert.KernelIdeal.main_arg8)) := by
  have h := fin_all _ _ _ _ _ _ _ _ _ _ _ _ _ _ _ _ _ _ _ (hpre c)
  exact h.2.2.2.2.2.2.1

/-- Argument 9 of the kernel program has only real entries, on every device. -/
theorem fin_arg9 : isFin (m ((c.tc : Thread Cert.KernelIdeal.nD Cert.KernelIdeal.τ).loc Cert.KernelIdeal.main_arg9)) := by
  have h := fin_all _ _ _ _ _ _ _ _ _ _ _ _ _ _ _ _ _ _ _ (hpre c)
  exact h.2.2.2.2.2.2.2.1

/-- Argument 10 of the kernel program has only real entries, on every device. -/
theorem fin_arg10 : isFin (m ((c.tc : Thread Cert.KernelIdeal.nD Cert.KernelIdeal.τ).loc Cert.KernelIdeal.main_arg10)) := by
  have h := fin_all _ _ _ _ _ _ _ _ _ _ _ _ _ _ _ _ _ _ _ (hpre c)
  exact h.2.2.2.2.2.2.2.2.1

/-- Argument 11 of the kernel program has only real entries, on every device. -/
theorem fin_arg11 : isFin (m ((c.tc : Thread Cert.KernelIdeal.nD Cert.KernelIdeal.τ).loc Cert.KernelIdeal.main_arg11)) := by
  have h := fin_all _ _ _ _ _ _ _ _ _ _ _ _ _ _ _ _ _ _ _ (hpre c)
  exact h.2.2.2.2.2.2.2.2.2.1

/-- Argument 12 of the kernel program has only real entries, on every device. -/
theorem fin_arg12 : isFin (m ((c.tc : Thread Cert.KernelIdeal.nD Cert.KernelIdeal.τ).loc Cert.KernelIdeal.main_arg12)) := by
  have h := fin_all _ _ _ _ _ _ _ _ _ _ _ _ _ _ _ _ _ _ _ (hpre c)
  exact h.2.2.2.2.2.2.2.2.2.2.1

/-- Argument 13 of the kernel program has only real entries, on every device. -/
theorem fin_arg13 : isFin (m ((c.tc : Thread Cert.KernelIdeal.nD Cert.KernelIdeal.τ).loc Cert.KernelIdeal.main_arg13)) := by
  have h := fin_all _ _ _ _ _ _ _ _ _ _ _ _ _ _ _ _ _ _ _ (hpre c)
  exact h.2.2.2.2.2.2.2.2.2.2.2.1

/-- Argument 14 of the kernel program has only real entries, on every device. -/
theorem fin_arg14 : isFin (m ((c.tc : Thread Cert.KernelIdeal.nD Cert.KernelIdeal.τ).loc Cert.KernelIdeal.main_arg14)) := by
  have h := fin_all _ _ _ _ _ _ _ _ _ _ _ _ _ _ _ _ _ _ _ (hpre c)
  exact h.2.2.2.2.2.2.2.2.2.2.2.2.1

/-- Argument 15 of the kernel program has only real entries, on every device. -/
theorem fin_arg15 : isFin (m ((c.tc : Thread Cert.KernelIdeal.nD Cert.KernelIdeal.τ).loc Cert.KernelIdeal.main_arg15)) := by
  have h := fin_all _ _ _ _ _ _ _ _ _ _ _ _ _ _ _ _ _ _ _ (hpre c)
  exact h.2.2.2.2.2.2.2.2.2.2.2.2.2.1

/-- Argument 16 of the kernel program has only real entries, on every device. -/
theorem fin_arg16 : isFin (m ((c.tc : Thread Cert.KernelIdeal.nD Cert.KernelIdeal.τ).loc Cert.KernelIdeal.main_arg16)) := by
  have h := fin_all _ _ _ _ _ _ _ _ _ _ _ _ _ _ _ _ _ _ _ (hpre c)
  exact h.2.2.2.2.2.2.2.2.2.2.2.2.2.2.1

/-- Argument 17 of the kernel program has only real entries, on every device. -/
theorem fin_arg17 : isFin (m ((c.tc : Thread Cert.KernelIdeal.nD Cert.KernelIdeal.τ).loc Cert.KernelIdeal.main_arg17)) := by
  have h := fin_all _ _ _ _ _ _ _ _ _ _ _ _ _ _ _ _ _ _ _ (hpre c)
  exact h.2.2.2.2.2.2.2.2.2.2.2.2.2.2.2.1

/-- Argument 18 of the kernel program has only real entries, on every device. -/
theorem fin_arg18 : isFin (m ((c.tc : Thread Cert.KernelIdeal.nD Cert.KernelIdeal.τ).loc Cert.KernelIdeal.main_arg18)) := by
  have h := fin_all _ _ _ _ _ _ _ _ _ _ _ _ _ _ _ _ _ _ _ (hpre c)
  exact h.2.2.2.2.2.2.2.2.2.2.2.2.2.2.2.2

end args

end Cert.PreFin

end
-- ==== Proof.FinStages.lean ====
/- finiteness of the reference's stages at the ideal values: each host operation keeps
   "every entry is a real number", so the feature layer, the linear layers, the edge normalisation, the message
   passing and the parameter slices have only real entries when their float inputs do. -/
import proofs.«416283_j44736379355415_1_alg».proof.Proof.Spec
import proofs.«416283_j44736379355415_1_alg».proof.Proof.Fin
import Idealize.ShloMosaic.PureOps.Ideal.Laws

noncomputable section

namespace Cert.FinStages

open Idealize.ShloMosaic
open Cert.FinSpec
open Cert.ReferenceIdeal Cert.ReferenceIdeal.Facts₀ Cert.ReferenceIdeal.Spec
open scoped BigOperators

/-! ## The operations, each at an index -/

section ops
variable {s t u : Shape}

/-- A broadcast reads the operand at some index. -/
theorem fin_bcast {dims : Fin s.rank → Fin t.rank} (h : s.BroadcastsInDim t dims) {v : s.Idx → EReal} (hv : isFin v) :
    isFin (broadcastInDim t dims h v) := fun j => hv _

/-- A reshape reads the operand at some index. -/
theorem fin_shapeCast (h : s.ShapeCasts t) {v : s.Idx → EReal} (hv : isFin v) : isFin (shapeCast t v h) := fun j => hv _

/-- A slice reads the operand at some index. -/
theorem fin_slice (off : Fin s.rank → Nat) (h : s.Slices off t) {v : s.Idx → EReal} (hv : isFin v) :
    isFin (extractStridedSlice t off v h) := fun j => hv _

/-- A gather reads the operand at some index, whatever the index table says. -/
theorem fin_gather {si : Shape} {w : Nat} (d : GatherDims s si t) {v : s.Idx → EReal} (hv : isFin v) (idx : IVec si w) :
    isFin (Host.gather d v idx) := fun j => hv _

/-- A constant whose word denotes a real. -/
theorem fin_const {b : BitVec 32} (hb : ∃ r : ℝ, Ideal.ofBits .f32 b = (r : EReal)) :
    isFin (constant (F := Ideal) s .f32 b) := fun _ => hb

theorem fin_addf {x y : FVec Ideal s .f32} (hx : isFin x) (hy : isFin y) : isFin (addf x y) :=
  fun i => real_add (hx i) (hy i)

theorem fin_subf {x y : FVec Ideal s .f32} (hx : isFin x) (hy : isFin y) : isFin (subf x y) :=
  fun i => real_sub (hx i) (hy i)

theorem fin_mulf {x y : FVec Ideal s .f32} (hx : isFin x) (hy : isFin y) : isFin (mulf x y) :=
  fun i => real_mul (hx i) (hy i)

theorem fin_maximumf {x y : FVec Ideal s .f32} (hx : isFin x) (hy : isFin y) : isFin (maximumf x y) :=
  fun i => real_max (hx i) (hy i)

/-- Division by a vector that is everywhere one nonzero real. -/
theorem fin_divf {x y : FVec Ideal s .f32} (hx : isFin x) {r : ℝ} (hr : r ≠ 0) (hy : ∀ i, y i = (r : EReal)) :
    isFin (Host.divf x y) := fun i => by
  show ∃ q : ℝ, Ideal.div (x i) (y i) = (q : EReal)
  rw [hy i]
  exact real_div hr (hx i)

/-- The reciprocal square root of positive reals. -/
theorem fin_rsqrt {x : FVec Ideal s .f32} (hx : ∀ i, ∃ r : ℝ, 0 < r ∧ x i = (r : EReal)) : isFin (Host.rsqrt x) :=
  fun i => by
    obtain ⟨q, _, hq⟩ := real_rsqrt (hx i)
    exact ⟨q, hq⟩

/-- The host's sum over some axes: the initial value plus a finite sum of entries. -/
theorem fin_reduceAdd {axes : List (Fin s.rank)} (h : s.ReducesTo axes t) (hu : 0 < u.numel) {x : FVec Ideal s .f32}
    (hx : isFin x) {init : u.Idx → EReal} (hi : isFin init) : isFin (Host.reduceAdd x init h hu) :=
  fun j => real_add (hi _) (real_finset_sum _ _ fun a _ => hx a)

/-- The host's accumulating scatter: an entry plus a finite sum of update entries, whatever the indices. -/
theorem fin_scatterAdd {si : Shape} {w : Nat} (d : ScatterDims s si u) {x : FVec Ideal s .f32} (hx : isFin x)
    (idx : IVec si w) {upd : FVec Ideal u .f32} (hupd : isFin upd) : isFin (Host.scatterAdd d x idx upd) :=
  fun i => real_add (hx i) (real_finset_sum _ _ fun a _ => hupd a)

/-- The host's matrix product: a finite sum of products. -/
theorem fin_dot {sl sr so : Shape} (d : DotDims sl sr so) (prec : Option ContractPrecision) {l : FVec Ideal sl .f32}
    {r : FVec Ideal sr .f32} (hl : isFin l) (hr : isFin r) : isFin (Host.dotGeneral d prec l r) := fun j => by
  rw [show Host.dotGeneral d prec l r j = _ from Ideal.dotGeneral_apply d prec .single l r j]
  exact real_sum _ fun k => real_mul (hl _) (hr _)

end ops

/-! ## Non-negative reals, for the variance -/

theorem nn_mul_self {x : EReal} (hx : ∃ r : ℝ, x = (r : EReal)) : ∃ r : ℝ, 0 ≤ r ∧ x * x = (r : EReal) := by
  obtain ⟨a, rfl⟩ := hx
  exact ⟨a * a, mul_self_nonneg a, (EReal.coe_mul a a).symm⟩

theorem nn_add {x y : EReal} (hx : ∃ r : ℝ, 0 ≤ r ∧ x = (r : EReal)) (hy : ∃ r : ℝ, 0 ≤ r ∧ y = (r : EReal)) :
    ∃ r : ℝ, 0 ≤ r ∧ x + y = (r : EReal) := by
  obtain ⟨a, ha, rfl⟩ := hx; obtain ⟨b, hb, rfl⟩ := hy
  exact ⟨a + b, add_nonneg ha hb, (EReal.coe_add a b).symm⟩

theorem nn_finset_sum {α : Type} (S : Finset α) (g : α → EReal) (h : ∀ a ∈ S, ∃ r : ℝ, 0 ≤ r ∧ g a = (r : EReal)) :
    ∃ r : ℝ, 0 ≤ r ∧ ∑ a ∈ S, g a = (r : EReal) := by
  classical
  induction S using Finset.induction_on with
  | empty => exact ⟨0, le_rfl, by simp⟩
  | insert a S ha ih =>
    rw [Finset.sum_insert ha]
    exact nn_add (h a (Finset.mem_insert_self a S)) (ih fun b hb => h b (Finset.mem_insert_of_mem hb))

theorem nn_div {x : EReal} {y : ℝ} (hy : 0 < y) (hx : ∃ r : ℝ, 0 ≤ r ∧ x = (r : EReal)) :
    ∃ r : ℝ, 0 ≤ r ∧ Ideal.div x (y : EReal) = (r : EReal) := by
  obtain ⟨a, ha, rfl⟩ := hx
  exact ⟨a / y, div_nonneg ha hy.le, div_coe_coe a hy.ne'⟩

/-! ## The constants of the stages -/

theorem zeroS_apply (i : S_.Idx) : zeroS (F := Ideal) i = (0 : EReal) := ofBits_zero

theorem fin_zeroS : isFin (zeroS (F := Ideal)) := fun _ => ⟨0, ofBits_zero_coe⟩

theorem countS_apply (i : S_.Idx) : countS (F := Ideal) i = ((100000 : ℝ) : EReal) := ofBits_100000

theorem denomN_apply (i : S_.Idx) : denomN (F := Ideal) i = ((100000 : ℝ) : EReal) := by
  show Ideal.ofBits .f32 0x47C35000#32 - (((0#32 : BitVec 32).toInt : ℝ) : EReal) = _
  rw [ofBits_100000]
  simp

/-- A [64] vector repeated down the rows. -/
theorem fin_rows {v : T (F := Ideal) S64 .f32} (hv : isFin v) : isFin (rows v) := fin_bcast _ (fin_bcast _ hv)

/-! ## The statistics -/

theorem fin_colSumN {x : T (F := Ideal) S100000x64 .f32} (hx : isFin x) : isFin (colSumN x) :=
  fin_reduceAdd _ _ hx fin_zeroS

theorem fin_meanN {x : T (F := Ideal) S100000x64 .f32} (hx : isFin x) : isFin (meanN x) :=
  fin_divf (fin_colSumN hx) (r := 100000) (by norm_num) (fun i => countS_apply _)

theorem fin_centredN {x : T (F := Ideal) S100000x64 .f32} (hx : isFin x) : isFin (centredN x) :=
  fin_subf hx (fin_bcast _ (fin_divf (fin_bcast _ (fin_colSumN hx)) (r := 100000) (by norm_num) (fun i => countS_apply _)))

/-- The variance at a column: the sum of squared deviations over 100000 (the denominator is positive, so the
    select takes its first branch). -/
theorem varN_apply (x : T (F := Ideal) S100000x64 .f32) (j : S64.Idx) :
    varN (F := Ideal) x j
      = Ideal.div (Host.reduceAdd (mulf (centredN x) (centredN x)) (zeroS (F := Ideal)) reducesTo_S100000x64_S64_d0 h_S_ j)
          ((100000 : ℝ) : EReal) := by
  have hc : (broadcastInDim S64 ![] bcast_S_S64 (cmpf (F := Ideal) (φ := .f32) .ogt (denomN (F := Ideal)) (zeroS (F := Ideal)))) j = 1#1 := by
    show Ideal.cmp .ogt (denomN (F := Ideal) _) (zeroS (F := Ideal) _) = 1#1
    rw [denomN_apply, zeroS_apply]
    simp [Ideal.cmp]
  unfold varN
  show Scalar.select _ _ _ = _
  unfold Scalar.select
  rw [if_pos (show (_ : BitVec 1) = 1 from hc)]
  show Ideal.div _ (denomN (F := Ideal) _) = _
  rw [denomN_apply]

/-- The variance at a column is a non-negative real. -/
theorem varN_nonneg {x : T (F := Ideal) S100000x64 .f32} (hx : isFin x) (j : S64.Idx) :
    ∃ r : ℝ, 0 ≤ r ∧ varN (F := Ideal) x j = (r : EReal) := by
  rw [varN_apply]
  exact nn_div (by norm_num) (nn_add ⟨0, le_rfl, zeroS_apply _⟩
    (nn_finset_sum _ _ fun a _ => nn_mul_self (fin_centredN hx a)))

theorem fin_varN {x : T (F := Ideal) S100000x64 .f32} (hx : isFin x) : isFin (varN (F := Ideal) x) := fun j => by
  obtain ⟨r, _, e⟩ := varN_nonneg hx j
  exact ⟨r, e⟩

/-- The normalisation's radicand: variance plus eps is a positive real. -/
theorem add_eps_pos {σ2 : T (F := Ideal) S64 .f32} (hσ : ∀ j, ∃ r : ℝ, 0 ≤ r ∧ σ2 j = (r : EReal)) (j : S64.Idx) :
    ∃ r : ℝ, 0 < r ∧ addf (F := Ideal) (φ := .f32) σ2 (broadcastInDim S64 ![] bcast_S_S64 (epsS (F := Ideal))) j = (r : EReal) := by
  obtain ⟨r, hr, e⟩ := hσ j
  refine ⟨r + eps, add_pos_of_nonneg_of_pos hr eps_pos, ?_⟩
  show σ2 j + Ideal.ofBits .f32 0x3727C5AC#32 = _
  rw [e, ofBits_eps, EReal.coe_add]

/-- The same for the variance of a finite array: varN x j + eps is a positive real. -/
theorem varN_add_eps_pos {x : T (F := Ideal) S100000x64 .f32} (hx : isFin x) (j : S64.Idx) :
    ∃ r : ℝ, 0 < r ∧ varN (F := Ideal) x j + Ideal.ofBits .f32 0x3727C5AC#32 = (r : EReal) :=
  add_eps_pos (varN_nonneg hx) j

/-! ## Normalisation, the linear layers, the feature layer -/

theorem fin_bnN {x : T (F := Ideal) S100000x64 .f32} {μ σ2 g b : T (F := Ideal) S64 .f32} (hx : isFin x) (hμ : isFin μ)
    (hσ : ∀ j, ∃ r : ℝ, 0 ≤ r ∧ σ2 j = (r : EReal)) (hg : isFin g) (hb : isFin b) : isFin (bnN x μ σ2 g b) :=
  fin_addf (fin_mulf (fin_mulf (fin_subf hx (fin_rows hμ)) (fin_rows (fin_rsqrt (add_eps_pos hσ)))) (fin_rows hg))
    (fin_rows hb)

theorem linN_fin_of {x : T (F := Ideal) S100000x64 .f32} {μ σ2 g b : T (F := Ideal) S64 .f32} {W : T (F := Ideal) S64x64 .f32}
    (hx : isFin x) (hμ : isFin μ) (hσ : ∀ j, ∃ r : ℝ, 0 ≤ r ∧ σ2 j = (r : EReal)) (hg : isFin g) (hb : isFin b)
    (hW : isFin W) : isFin (linN x μ σ2 g b W) :=
  fin_dot _ _ (fin_bnN hx hμ hσ hg hb) hW

theorem fin_reluN {x : T (F := Ideal) S100000x64 .f32} (hx : isFin x) : isFin (reluN x) :=
  fin_maximumf hx (fin_bcast _ fin_zeroS)

theorem featN_fin_of {x : T (F := Ideal) S100000x64 .f32} {μ σ2 g b : T (F := Ideal) S64 .f32} {W : T (F := Ideal) S64x64 .f32}
    {bias : T (F := Ideal) S64 .f32}
    (hx : isFin x) (hμ : isFin μ) (hσ : ∀ j, ∃ r : ℝ, 0 ≤ r ∧ σ2 j = (r : EReal)) (hg : isFin g) (hb : isFin b)
    (hW : isFin W) (hbias : isFin bias) : isFin (featN x μ σ2 g b W bias) :=
  fin_reluN (fin_addf (linN_fin_of hx hμ hσ hg hb hW) (fin_rows hbias))

/-- The linear layer on a finite array with its own statistics. -/
theorem linN_fin (h : T (F := Ideal) S100000x64 .f32) (g b : T (F := Ideal) S64 .f32) (W : T (F := Ideal) S64x64 .f32)
    (hh : isFin h) (hg : isFin g) (hb : isFin b) (hW : isFin W) : isFin (Spec.linN h (Spec.meanN h) (Spec.varN h) g b W) :=
  linN_fin_of hh (fin_meanN hh) (varN_nonneg hh) hg hb hW

/-- The feature layer on a finite array with its own statistics. -/
theorem featN_fin (x : T (F := Ideal) S100000x64 .f32) (g b : T (F := Ideal) S64 .f32) (W : T (F := Ideal) S64x64 .f32)
    (bias : T (F := Ideal) S64 .f32) (hx : isFin x) (hg : isFin g) (hb : isFin b) (hW : isFin W) (hbias : isFin bias) :
    isFin (Spec.featN x (Spec.meanN x) (Spec.varN x) g b W bias) :=
  featN_fin_of hx (fin_meanN hx) (varN_nonneg hx) hg hb hW hbias

/-! ## The parameter slices -/

theorem row3_0_fin (a : T (F := Ideal) S3x64 .f32) (ha : isFin a) : isFin (Spec.row3_0 a) := fin_shapeCast _ (fin_slice _ _ ha)
theorem row3_1_fin (a : T (F := Ideal) S3x64 .f32) (ha : isFin a) : isFin (Spec.row3_1 a) := fin_shapeCast _ (fin_slice _ _ ha)
theorem row3_2_fin (a : T (F := Ideal) S3x64 .f32) (ha : isFin a) : isFin (Spec.row3_2 a) := fin_shapeCast _ (fin_slice _ _ ha)
theorem mat3_0_fin (a : T (F := Ideal) S3x64x64 .f32) (ha : isFin a) : isFin (Spec.mat3_0 a) := fin_shapeCast _ (fin_slice _ _ ha)
theorem mat3_1_fin (a : T (F := Ideal) S3x64x64 .f32) (ha : isFin a) : isFin (Spec.mat3_1 a) := fin_shapeCast _ (fin_slice _ _ ha)
theorem mat3_2_fin (a : T (F := Ideal) S3x64x64 .f32) (ha : isFin a) : isFin (Spec.mat3_2 a) := fin_shapeCast _ (fin_slice _ _ ha)

end Cert.FinStages

end
-- ==== Proof.FinAgg.lean ====
/-
  Finiteness of the edge normalisation and of one message-passing step, at the ideal values: every
  element is a real. The degrees are zero plus a finite sum of ones; the inverse square root is
  taken only where the degree is a positive real and zero is used elsewhere; a gather or a
  broadcast reads elements of its operand; a scatter-add is the operand plus a finite sum of
  updates; sums, products and maxima of reals are reals.
-/
import proofs.«416283_j44736379355415_1_alg».proof.Proof.Spec
import proofs.«416283_j44736379355415_1_alg».proof.Proof.Fin

noncomputable section

namespace Cert.FinStages

open Idealize.ShloMosaic Idealize.SL.Sem
open Cert.FinSpec
open scoped BigOperators

/-! ## The vector operations keep finiteness -/

namespace Agg

variable {s t si su : Shape} {w : Nat}

/-- A splat of the zero pattern. -/
theorem fin_zero (s : Shape) : isFin (constant (F := Ideal) s .f32 0x00000000#32) :=
  fun _ => ⟨0, ofBits_zero_coe⟩

/-- A splat of the pattern of one. -/
theorem fin_one (s : Shape) : isFin (constant (F := Ideal) s .f32 0x3F800000#32) :=
  fun _ => ⟨1, ofBits_one_coe⟩

theorem fin_mulf {x y : s.Idx → EReal} (hx : isFin x) (hy : isFin y) :
    isFin (mulf (F := Ideal) (φ := .f32) x y) :=
  fun i => real_mul (hx i) (hy i)

theorem fin_addf {x y : s.Idx → EReal} (hx : isFin x) (hy : isFin y) :
    isFin (addf (F := Ideal) (φ := .f32) x y) :=
  fun i => real_add (hx i) (hy i)

theorem fin_maximumf {x y : s.Idx → EReal} (hx : isFin x) (hy : isFin y) :
    isFin (maximumf (F := Ideal) (φ := .f32) x y) :=
  fun i => real_max (hx i) (hy i)

/-- A broadcast reads elements of its operand. -/
theorem fin_bcast {x : s.Idx → EReal} (hx : isFin x) (dims : Fin s.rank → Fin t.rank)
    (h : s.BroadcastsInDim t dims) : isFin (broadcastInDim t dims h x) :=
  fun j => hx _

/-- A gather reads elements of its operand. -/
theorem fin_gather {x : s.Idx → EReal} (hx : isFin x) (d : GatherDims s si t) (idx : IVec si w) :
    isFin (Host.gather d x idx) :=
  fun j => hx _

/-- A scatter-add is, at each element, the operand's plus a finite sum of updates. -/
theorem fin_scatterAdd {x : s.Idx → EReal} {upd : su.Idx → EReal} (hx : isFin x) (hu : isFin upd)
    (d : ScatterDims s si su) (idx : IVec si w) :
    isFin (Host.scatterAdd (F := Ideal) (φ := .f32) d x idx upd) :=
  fun i => real_add (hx i) (real_finset_sum _ _ fun j _ => hu j)

/-- Where a real vector is positive its reciprocal square root is taken, elsewhere a zero: the
    result is real in both cases. -/
theorem fin_rsqrt_where (d z : s.Idx → EReal) (hd : isFin d) (hz : ∀ i, z i = 0) :
    isFin (select (cmpf (F := Ideal) (φ := .f32) .ogt d z) (Host.rsqrt (F := Ideal) (φ := .f32) d) z) := by
  intro i
  obtain ⟨r, hr⟩ := hd i
  show ∃ q : ℝ, (if Ideal.cmp .ogt (d i) (z i) = 1 then Ideal.rsqrt (d i) else z i) = (q : EReal)
  rw [hz i, hr]
  by_cases h : (0 : ℝ) < r
  · have hc : Ideal.cmp .ogt (r : EReal) 0 = 1 := by
      show BitVec.ofBool (decide ((0 : EReal) < (r : EReal))) = 1
      rw [decide_eq_true (EReal.coe_pos.mpr h)]
      rfl
    obtain ⟨q, _, hq⟩ := real_rsqrt ⟨r, h, rfl⟩
    exact ⟨q, by rw [if_pos hc]; exact hq⟩
  · have hc : ¬ Ideal.cmp .ogt (r : EReal) 0 = 1 := by
      show ¬ BitVec.ofBool (decide ((0 : EReal) < (r : EReal))) = 1
      rw [decide_eq_false (fun hh => h (EReal.coe_pos.mp hh))]
      decide
    exact ⟨0, by rw [if_neg hc]; rfl⟩

end Agg

open Agg

/-! ## The edge normalisation -/

section Norm

variable (e : Cert.ReferenceIdeal.Spec.T (F := Ideal) Cert.ReferenceIdeal.S2x1200000 .i32)

theorem onesE_fin : isFin (Cert.ReferenceIdeal.Spec.onesE (F := Ideal)) := by
  unfold Cert.ReferenceIdeal.Spec.onesE
  exact fin_bcast (fin_one _) _ _

theorem zeroS_fin : isFin (Cert.ReferenceIdeal.Spec.zeroS (F := Ideal)) := by
  unfold Cert.ReferenceIdeal.Spec.zeroS
  exact fin_zero _

/-- The degree scatter over arbitrary operands: the operand plus a finite sum of updates. -/
theorem deg_aux (x : Cert.ReferenceIdeal.S100000.Idx → EReal) (idx : IVec Cert.ReferenceIdeal.S1300000x1 32)
    (upd : Cert.ReferenceIdeal.S1300000.Idx → EReal) (hx : isFin x) (hu : isFin upd) :
    isFin (Host.scatterAdd (F := Ideal) (φ := .f32)
      Cert.ReferenceIdeal.scatter_S100000_S1300000x1_S1300000_n_0_0_1 x idx upd) :=
  fin_scatterAdd hx hu _ _

/-- Every degree is a real: zero plus a finite sum of ones. -/
theorem degN_fin : isFin (Cert.ReferenceIdeal.Spec.degN e) :=
  deg_aux
    (broadcastInDim Cert.ReferenceIdeal.S100000 ![] Cert.ReferenceIdeal.Facts₀.bcast_S_S100000
      (Cert.ReferenceIdeal.Spec.zeroS (F := Ideal)))
    (Cert.ReferenceIdeal.Spec.ecol (Cert.ReferenceIdeal.Spec.srcIdx e))
    (Cert.ReferenceIdeal.Spec.onesE (F := Ideal))
    (fin_bcast zeroS_fin _ _) onesE_fin

/-- The broadcast zero vector is zero at each index. -/
theorem zerosN_eq (i : Cert.ReferenceIdeal.S100000.Idx) :
    (broadcastInDim Cert.ReferenceIdeal.S100000 ![] Cert.ReferenceIdeal.Facts₀.bcast_S_S100000
      (Cert.ReferenceIdeal.Spec.zeroS (F := Ideal))) i = 0 :=
  ofBits_zero

/-- The inverse square-root degrees are reals: where the degree is positive its reciprocal square
    root is a real, elsewhere the value is zero. -/
theorem dinvN_fin : isFin (Cert.ReferenceIdeal.Spec.dinvN e) :=
  fin_rsqrt_where (Cert.ReferenceIdeal.Spec.degN e)
    (broadcastInDim Cert.ReferenceIdeal.S100000 ![] Cert.ReferenceIdeal.Facts₀.bcast_S_S100000
      (Cert.ReferenceIdeal.Spec.zeroS (F := Ideal)))
    (degN_fin e) zerosN_eq

/-- The edge weights are reals. -/
theorem edgeNorm_fin : isFin (Cert.ReferenceIdeal.Spec.edgeNorm e) := by
  unfold Cert.ReferenceIdeal.Spec.edgeNorm
  exact fin_mulf (fin_mulf (fin_gather (dinvN_fin e) _ _) onesE_fin) (fin_gather (dinvN_fin e) _ _)

end Norm

/-! ## One message-passing step -/

theorem aggN_fin (hw : Cert.ReferenceIdeal.Spec.T (F := Ideal) Cert.ReferenceIdeal.S100000x64 .f32)
    (src dst : Cert.ReferenceIdeal.Spec.T (F := Ideal) Cert.ReferenceIdeal.S1300000 .i32)
    (nrm : Cert.ReferenceIdeal.Spec.T (F := Ideal) Cert.ReferenceIdeal.S1300000 .f32)
    (bias : Cert.ReferenceIdeal.Spec.T (F := Ideal) Cert.ReferenceIdeal.S64 .f32)
    (hhw : isFin hw) (hn : isFin nrm) (hb : isFin bias) :
    isFin (Cert.ReferenceIdeal.Spec.aggN hw src dst nrm bias) := by
  unfold Cert.ReferenceIdeal.Spec.aggN Cert.ReferenceIdeal.Spec.reluN Cert.ReferenceIdeal.Spec.rows
    Cert.ReferenceIdeal.Spec.row1 Cert.ReferenceIdeal.Spec.zeroS
  exact fin_maximumf
    (fin_addf
      (fin_scatterAdd (fin_bcast (fin_zero _) _ _)
        (fin_mulf (fin_bcast (fin_bcast hn _ _) _ _) (fin_gather hhw _ _)) _ _)
      (fin_bcast (fin_bcast hb _ _) _ _))
    (fin_bcast (fin_zero _) _ _)

end Cert.FinStages
-- ==== Proof.VarLaw.lean ====
/- the variance law: over a finite index set of size `n`, the mean of the squares minus the square of
   the mean is the mean of the squared deviations from the mean. On the reals, then on the extended reals over
   coerced reals with every quotient written as a product with the coerced reciprocal (the form a division of
   an extended real by a nonzero real takes). -/
import Mathlib.Data.Real.Basic
import Mathlib.Data.EReal.Operations
import Mathlib.Data.Fintype.Card
import Mathlib.Algebra.BigOperators.Group.Finset.Basic
import Mathlib.Algebra.BigOperators.Ring.Finset
import Mathlib.Tactic.FieldSimp
import Mathlib.Tactic.Ring

noncomputable section

namespace Cert.VarLaw

open scoped BigOperators

variable {ι : Type} [Fintype ι]

/-- The law on the reals. -/
theorem var_law (f : ι → ℝ) (n : ℝ) (hn : n ≠ 0) (hcard : (Fintype.card ι : ℝ) = n) :
    (∑ i, f i * f i) / n - ((∑ i, f i) / n) * ((∑ i, f i) / n)
      = (∑ i, (f i - (∑ j, f j) / n) * (f i - (∑ j, f j) / n)) / n := by
  have h1 : ∑ i, (f i - (∑ j, f j) / n) * (f i - (∑ j, f j) / n)
      = (∑ i, f i * f i) - 2 * ((∑ j, f j) / n) * (∑ i, f i) + n * (((∑ j, f j) / n) * ((∑ j, f j) / n)) := by
    have h2 : ∀ i, (f i - (∑ j, f j) / n) * (f i - (∑ j, f j) / n)
        = f i * f i - 2 * ((∑ j, f j) / n) * f i + ((∑ j, f j) / n) * ((∑ j, f j) / n) := fun i => by ring
    simp only [h2]
    rw [Finset.sum_add_distrib, Finset.sum_sub_distrib, ← Finset.mul_sum, Finset.sum_const, Finset.card_univ,
      nsmul_eq_mul, hcard]
  rw [h1]
  field_simp
  ring

/-- A sum of coerced reals is the coerced sum. -/
theorem coe_sum (g : ι → ℝ) : (∑ i, (g i : EReal)) = ((∑ i, g i : ℝ) : EReal) := by
  classical
  induction (Finset.univ : Finset ι) using Finset.induction_on with
  | empty => simp
  | insert a s ha ih => rw [Finset.sum_insert ha, Finset.sum_insert ha, EReal.coe_add, ih]

/-- The law on the extended reals, over coerced reals, each quotient by `n` a product with `1 / n` coerced. -/
theorem var_law_ereal (f : ι → ℝ) (n : ℝ) (hn : n ≠ 0) (hcard : (Fintype.card ι : ℝ) = n) :
    (∑ i, (f i : EReal) * (f i : EReal)) * ((1 / n : ℝ) : EReal)
        - ((∑ i, (f i : EReal)) * ((1 / n : ℝ) : EReal)) * ((∑ i, (f i : EReal)) * ((1 / n : ℝ) : EReal))
      = (∑ i, ((f i : EReal) - (∑ j, (f j : EReal)) * ((1 / n : ℝ) : EReal))
            * ((f i : EReal) - (∑ j, (f j : EReal)) * ((1 / n : ℝ) : EReal))) * ((1 / n : ℝ) : EReal) := by
  rw [coe_sum f]
  simp only [← EReal.coe_mul, ← EReal.coe_sub]
  rw [coe_sum fun i => f i * f i,
    coe_sum fun i => (f i - (∑ j, f j) * (1 / n)) * (f i - (∑ j, f j) * (1 / n))]
  simp only [← EReal.coe_mul, ← EReal.coe_sub]
  rw [EReal.coe_eq_coe_iff]
  simp only [mul_one_div]
  exact var_law f n hn hcard

/-- The same over extended reals known to be reals. -/
theorem var_law_of_real (x : ι → EReal) (hx : ∀ i, ∃ r : ℝ, x i = (r : EReal)) (n : ℝ) (hn : n ≠ 0)
    (hcard : (Fintype.card ι : ℝ) = n) :
    (∑ i, x i * x i) * ((1 / n : ℝ) : EReal)
        - ((∑ i, x i) * ((1 / n : ℝ) : EReal)) * ((∑ i, x i) * ((1 / n : ℝ) : EReal))
      = (∑ i, (x i - (∑ j, x j) * ((1 / n : ℝ) : EReal)) * (x i - (∑ j, x j) * ((1 / n : ℝ) : EReal)))
          * ((1 / n : ℝ) : EReal) := by
  choose f hf using hx
  simp only [hf]
  exact var_law_ereal f n hn hcard

end Cert.VarLaw

end
-- ==== Proof.StatsBridge.lean ====
/- the statistics bridge: the column sums the kernel program's statistics regions leave, divided on the
   host by the row count, are the reference's column means; and the mean of the squares minus the square of the
   mean is the reference's variance (the mean of the squared deviations, its guard evaluated), at the ideal values,
   for an array whose every element is a real. -/
import proofs.«416283_j44736379355415_1_alg».proof.Proof.Spec
import proofs.«416283_j44736379355415_1_alg».proof.Proof.KSpec
import proofs.«416283_j44736379355415_1_alg».proof.Proof.Fin
import proofs.«416283_j44736379355415_1_alg».proof.Proof.VarLaw
import Idealize.ShloMosaic.PureOps.Ideal.Laws
import Idealize.ShloMosaic.Lib.ValueIdx

set_option synthInstance.maxSize 4096

noncomputable section

namespace Cert.StatsBridge

open Idealize.ShloMosaic Idealize.ShloMosaic.ValueIdx
open Cert.ReferenceIdeal Cert.ReferenceIdeal.Facts₀ Cert.FinSpec
open scoped BigOperators

/-- The operand type at the ideal values. -/
abbrev TI (s : Shape) (φ : EltTy) : Type := Spec.T (F := Ideal) s φ

/-- The row count as a real. -/
abbrev nR : ℝ := 100000

theorem nR_ne : nR ≠ 0 := by norm_num

/-! ### Reading the layout operations at explicit coordinates -/

/-- The rank-zero shape has one index. -/
theorem idx0_eq (a b : S_.Idx) : a = b := funext fun c => c.elim0

/-- A rank-zero tensor broadcast to any shape reads its one element everywhere. -/
theorem bS_apply {α : Type} {t : Shape} {dims : Fin S_.rank → Fin t.rank} (h : S_.BroadcastsInDim t dims)
    (c : S_.Idx → α) (y : t.Idx) : broadcastInDim t dims h c y = c (Shape.Idx.first h_S_) :=
  congrArg c (idx0_eq _ _)

/-- A [64] vector as a [1,64] row, read at (0, j). -/
theorem row1_apply (v : TI S64 .f32) (j : Fin 64) : Spec.row1 v (ix2 (0 : Fin 1) j) = v (ix1 j) := by
  unfold Spec.row1 broadcastInDim
  refine congrArg v (funext fun a => ?_)
  match a with
  | ⟨0, _⟩ => rfl

/-- A [1,64] row repeated down the rows, read at (r, j). -/
theorem rowsB_apply (w : TI S1x64 .f32) (r : Fin 100000) (j : Fin 64) :
    broadcastInDim S100000x64 ![0, 1] bcast_S1x64_S100000x64_0_1 w (ix2 r j) = w (ix2 (0 : Fin 1) j) := by
  unfold broadcastInDim
  refine congrArg w (funext fun a => ?_)
  match a with
  | ⟨0, _⟩ => rfl
  | ⟨1, _⟩ => rfl

/-! ### The constants -/

theorem countS_apply (i : S_.Idx) : Spec.countS (F := Ideal) i = ((nR : ℝ) : EReal) := ofBits_100000

theorem zeroS_apply (i : S_.Idx) : Spec.zeroS (F := Ideal) i = 0 := Ideal.ofBits_zero_f32

/-- The variance's denominator: 100000 minus the zero word converted. -/
theorem denomN_apply (i : S_.Idx) : Spec.denomN (F := Ideal) i = ((nR : ℝ) : EReal) := by
  show Ideal.ofBits .f32 0x47C35000#32 - ((((0#32 : BitVec 32).toInt : ℤ) : ℝ) : EReal) = _
  rw [ofBits_100000]
  simp

/-- The guard "the denominator is above zero" is the true word. -/
theorem guard_apply (i : S_.Idx) :
    cmpf (F := Ideal) (φ := .f32) .ogt (Spec.denomN (F := Ideal)) (Spec.zeroS (F := Ideal)) i = 1#1 := by
  show Ideal.cmp .ogt (Spec.denomN (F := Ideal) i) (Spec.zeroS (F := Ideal) i) = 1#1
  rw [denomN_apply, zeroS_apply]
  unfold Ideal.cmp
  have h : (0 : EReal) < ((nR : ℝ) : EReal) := EReal.coe_pos.mpr (by norm_num)
  simp [h]

/-! ### The host's column sum, the mean, the deviations -/

/-- A select, a host quotient, a difference and a product, read at an index. -/
theorem select_apply {s : Shape} {α : Type} (c : IVec s 1) (a b : s.Idx → α) (i : s.Idx) :
    select c a b i = Scalar.select (c i) (a i) (b i) := rfl

theorem hdivf_apply {s : Shape} (a b : FVec Ideal s .f32) (i : s.Idx) :
    Host.divf a b i = Ideal.div (a i) (b i) := rfl

theorem subf_apply {s : Shape} (a b : FVec Ideal s .f32) (i : s.Idx) : subf a b i = a i - b i := rfl

theorem mulf_apply {s : Shape} (a b : FVec Ideal s .f32) (i : s.Idx) : mulf a b i = a i * b i := rfl

/-- The host's sum over the rows, from the zero word, read at column j. -/
theorem reduceN_apply (v : TI S100000x64 .f32) (j : Fin 64) :
    Host.reduceAdd (F := Ideal) (φ := .f32) v (Spec.zeroS (F := Ideal)) reducesTo_S100000x64_S64_d0 h_S_ (ix1 j)
      = ∑ r : Fin 100000, v (ix2 r j) := by
  have hR : S100000x64.Reduces [0] S64 := by decide
  show Ideal.hostReduceAdd reducesTo_S100000x64_S64_d0 v (Spec.zeroS (F := Ideal) (Shape.Idx.first h_S_)) (ix1 j) = _
  rw [Ideal.hostReduceAdd_single reducesTo_S100000x64_S64_d0 hR, zeroS_apply, zero_add]
  refine Finset.sum_congr rfl fun k _ => congrArg v (funext fun a => ?_)
  match a with
  | ⟨0, _⟩ => rfl
  | ⟨1, _⟩ => rfl

theorem colSumN_apply (v : TI S100000x64 .f32) (j : Fin 64) :
    Spec.colSumN v (ix1 j) = ∑ r : Fin 100000, v (ix2 r j) := reduceN_apply v j

/-- The reference's column mean at column j: the sum times the reciprocal of the row count. -/
theorem meanN_apply (x : TI S100000x64 .f32) (j : Fin 64) :
    Spec.meanN x (ix1 j) = (∑ r : Fin 100000, x (ix2 r j)) * ((1 / nR : ℝ) : EReal) := by
  show Ideal.div (Spec.colSumN x (ix1 j))
      (broadcastInDim S64 ![] bcast_S_S64 (Spec.countS (F := Ideal)) (ix1 j)) = _
  rw [bS_apply, countS_apply, colSumN_apply, Ideal.div_coe nR_ne]

/-- The deviation from the column mean at (r, j). -/
theorem centredN_apply (x : TI S100000x64 .f32) (r : Fin 100000) (j : Fin 64) :
    Spec.centredN x (ix2 r j)
      = x (ix2 r j) - (∑ r' : Fin 100000, x (ix2 r' j)) * ((1 / nR : ℝ) : EReal) := by
  show x (ix2 r j) - broadcastInDim S100000x64 ![0, 1] bcast_S1x64_S100000x64_0_1
      (Host.divf (F := Ideal) (φ := .f32) (Spec.row1 (Spec.colSumN x))
        (broadcastInDim S1x64 ![] bcast_S_S1x64 (Spec.countS (F := Ideal)))) (ix2 r j) = _
  rw [rowsB_apply]
  show x (ix2 r j) - Ideal.div (Spec.row1 (Spec.colSumN x) (ix2 (0 : Fin 1) j))
      (broadcastInDim S1x64 ![] bcast_S_S1x64 (Spec.countS (F := Ideal)) (ix2 (0 : Fin 1) j)) = _
  rw [row1_apply, colSumN_apply, bS_apply, countS_apply, Ideal.div_coe nR_ne]

/-- The reference's variance at column j, its guard evaluated: the mean of the squared deviations. -/
theorem varN_apply (x : TI S100000x64 .f32) (j : Fin 64) :
    Spec.varN x (ix1 j)
      = (∑ r : Fin 100000,
            (x (ix2 r j) - (∑ r' : Fin 100000, x (ix2 r' j)) * ((1 / nR : ℝ) : EReal))
              * (x (ix2 r j) - (∑ r' : Fin 100000, x (ix2 r' j)) * ((1 / nR : ℝ) : EReal)))
          * ((1 / nR : ℝ) : EReal) := by
  unfold Spec.varN
  rw [select_apply,
    bS_apply bcast_S_S64 (cmpf (F := Ideal) (φ := .f32) .ogt (Spec.denomN (F := Ideal)) (Spec.zeroS (F := Ideal))),
    guard_apply]
  unfold Scalar.select
  rw [if_pos (show (1#1 : BitVec 1) = 1 from rfl), hdivf_apply, bS_apply bcast_S_S64 (Spec.denomN (F := Ideal)), denomN_apply, reduceN_apply,
    Ideal.div_coe nR_ne]
  refine congrArg (· * ((1 / nR : ℝ) : EReal)) (Finset.sum_congr rfl fun r _ => ?_)
  rw [mulf_apply, centredN_apply]

/-! ### The kernel program's side -/

/-- The row count as a [1,64] row, over any proof of the broadcast fact. -/
abbrev cnt (hb : S_.BroadcastsInDim S1x64 (![] : Fin 0 → Fin S1x64.rank)) : TI S1x64 .f32 :=
  broadcastInDim S1x64 ![] hb (constant (F := Ideal) S_ .f32 0x47C35000#32)

theorem cnt_apply (hb : S_.BroadcastsInDim S1x64 (![] : Fin 0 → Fin S1x64.rank)) (y : S1x64.Idx) :
    cnt hb y = ((nR : ℝ) : EReal) := ofBits_100000

/-- The kernel program's mean row: the column sums divided by the row count. -/
abbrev M (hb : S_.BroadcastsInDim S1x64 (![] : Fin 0 → Fin S1x64.rank)) (x : TI S100000x64 .f32) : TI S1x64 .f32 :=
  Host.divf (F := Ideal) (φ := .f32) (KSpec.colSum x) (cnt hb)

theorem M_apply (hb : S_.BroadcastsInDim S1x64 (![] : Fin 0 → Fin S1x64.rank)) (x : TI S100000x64 .f32) (j : Fin 64) :
    M hb x (ix2 (0 : Fin 1) j) = (∑ r : Fin 100000, x (ix2 r j)) * ((1 / nR : ℝ) : EReal) := by
  show Ideal.div (KSpec.colSum x (ix2 (0 : Fin 1) j)) (cnt hb (ix2 (0 : Fin 1) j)) = _
  rw [cnt_apply, KSpec.colSum_apply, Ideal.div_coe nR_ne]

/-- Every index of a [1,64] row is (0, j). -/
theorem row_idx (y : S1x64.Idx) : ∃ j : Fin 64, y = ix2 (0 : Fin 1) j := by
  obtain ⟨a, j, rfl⟩ : ∃ (a : Fin 1) (j : Fin 64), y = ix2 a j := ⟨y 0, y 1, eq_ix2 y⟩
  obtain rfl : a = 0 := Subsingleton.elim _ _
  exact ⟨j, rfl⟩

/-! ### The bridges -/

/-- The kernel program's mean row is the reference's column means as a row. -/
theorem mean_bridge (hb : S_.BroadcastsInDim S1x64 (![] : Fin 0 → Fin S1x64.rank)) (x : TI S100000x64 .f32) :
    Host.divf (F := Ideal) (φ := .f32) (KSpec.colSum x) (cnt hb) = Spec.row1 (Spec.meanN x) := by
  funext y
  obtain ⟨j, rfl⟩ := row_idx y
  show M hb x (ix2 (0 : Fin 1) j) = _
  rw [M_apply, row1_apply, meanN_apply]

/-- The kernel program's variance row — the mean of the squares minus the square of the mean — is the reference's
    column variances as a row, for an array of reals. -/
theorem var_bridge (hb : S_.BroadcastsInDim S1x64 (![] : Fin 0 → Fin S1x64.rank)) (x : TI S100000x64 .f32)
    (hx : isFin x) :
    subf (F := Ideal) (φ := .f32) (Host.divf (F := Ideal) (φ := .f32) (KSpec.colSumSq x) (cnt hb))
        (mulf (F := Ideal) (φ := .f32) (M hb x) (M hb x))
      = Spec.row1 (Spec.varN x) := by
  funext y
  obtain ⟨j, rfl⟩ := row_idx y
  rw [row1_apply, varN_apply]
  show Ideal.div (KSpec.colSumSq x (ix2 (0 : Fin 1) j)) (cnt hb (ix2 (0 : Fin 1) j))
      - M hb x (ix2 (0 : Fin 1) j) * M hb x (ix2 (0 : Fin 1) j) = _
  rw [M_apply, cnt_apply, KSpec.colSumSq_apply, Ideal.div_coe nR_ne]
  exact Cert.VarLaw.var_law_of_real (fun r : Fin 100000 => x (ix2 r j)) (fun r => hx (ix2 r j)) nR nR_ne
    (by rw [Fintype.card_fin]; norm_num)

/-! ### The reference's statistics of an array of reals are reals, the variance not negative -/

/-- Every index of a [64] vector is (j). -/
theorem vec_idx (i : S64.Idx) : ∃ j : Fin 64, i = ix1 j := ⟨i 0, eq_ix1 i⟩

theorem meanN_isFin (x : TI S100000x64 .f32) (hx : isFin x) : isFin (Spec.meanN x) := by
  intro i
  obtain ⟨j, rfl⟩ := vec_idx i
  rw [meanN_apply]
  exact real_mul (real_sum _ fun r => hx (ix2 r j)) (real_coe _)

/-- The variance of an array of reals is a real that is not negative. -/
theorem varN_nonneg (x : TI S100000x64 .f32) (hx : isFin x) (i : S64.Idx) :
    ∃ q : ℝ, 0 ≤ q ∧ Spec.varN x i = (q : EReal) := by
  obtain ⟨j, rfl⟩ := vec_idx i
  obtain ⟨f, hf⟩ : ∃ f : Fin 100000 → ℝ, ∀ r, x (ix2 r j) = (f r : EReal) :=
    ⟨fun r => (hx (ix2 r j)).choose, fun r => (hx (ix2 r j)).choose_spec⟩
  refine ⟨(∑ r, (f r - (∑ r', f r') * (1 / nR)) * (f r - (∑ r', f r') * (1 / nR))) * (1 / nR), ?_, ?_⟩
  · exact mul_nonneg (Finset.sum_nonneg fun r _ => mul_self_nonneg _) (by norm_num)
  · rw [varN_apply]
    simp only [hf, EReal.coe_mul, EReal.coe_sub, Cert.FinSpec.coe_sum]

theorem varN_isFin (x : TI S100000x64 .f32) (hx : isFin x) : isFin (Spec.varN x) := fun i => by
  obtain ⟨q, _, hq⟩ := varN_nonneg x hx i
  exact ⟨q, hq⟩

/-- The variance plus the normalisation's constant is a positive real (so its reciprocal square root is a real). -/
theorem varN_add_eps_pos (x : TI S100000x64 .f32) (hx : isFin x) (i : S64.Idx) :
    ∃ q : ℝ, 0 < q ∧ Spec.varN x i + Ideal.ofBits .f32 0x3727C5AC#32 = (q : EReal) := by
  obtain ⟨q, hq0, hq⟩ := varN_nonneg x hx i
  exact ⟨q + eps, add_pos_of_nonneg_of_pos hq0 eps_pos, by rw [hq, ofBits_eps, EReal.coe_add]⟩

end Cert.StatsBridge

end
-- ==== Proof.KStats0.lean ====
/-
  REGION 0 of the kernel program (the statistics kernel over the [100000,64] array, five blocks of 20000 rows): after the
  run its two [1,64] result arrays hold the column sums and the column sums of squares of the array the region was entered
  with. The two accumulators' block index never moves; the first point zeroes them and adds its block's column sums, every
  later point adds its block's to what the point before left, and the last point alone writes them back. Over the extended
  reals the five-point fold is the sum over the five blocks, and the rows 20000 t + r (t < 5, r < 20000) are the 100000 rows.
-/
import proofs.«416283_j44736379355415_1_alg».proof.Proof.Gen.KernelIdeal.Frame
import proofs.«416283_j44736379355415_1_alg».proof.Proof.KSpec
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KStats0

open Cert.KernelIdeal Cert.KernelIdeal.Gen

variable {F : FTy → Type} [FloatOps F]

/-- The zero offsets of a store or load through a whole [1,64] or [20000,64] buffer. -/
theorem hz : (![0, 0] : Fin 2 → Nat) = fun _ => 0 := funext fun a => by fin_cases a <;> rfl

/-! ## What each control case leaves in the two accumulators' staging buffers -/

/-- Later points: the first accumulator's one covering store holds the payload of the block and of what the buffer held. -/
theorem out_B_1 (c : Dev nD) (i : grid0.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond0_0 i) (x : Vec F S20000x64 .f32) (xo1 xo2 : Vec F S1x64 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero (S := S1x64) hz]
  simp only [View.readAt_eq_ld, h1.read_unread, h2.read_unread, View.ld_unit_zero (S := S20000x64) hz,
    View.ld_unit_zero (S := S1x64) hz]

/-- Later points: the second accumulator likewise, with the payload of the squares. -/
theorem out_B_2 (c : Dev nD) (i : grid0.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond0_0 i) (x : Vec F S20000x64 .f32) (xo1 xo2 : Vec F S1x64 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero (S := S1x64) hz]
  simp only [View.readAt_eq_ld, h1.read_unread, h3.read_unread, View.ld_unit_zero (S := S20000x64) hz,
    View.ld_unit_zero (S := S1x64) hz]

/-- The first point: the zero row is stored, read back, and the block's payload over it is stored last. -/
theorem out_A_1 (c : Dev nD) (i : grid0.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond0_0 i) (x : Vec F S20000x64 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S20000x64) hz]

/-- The first point, second accumulator. -/
theorem out_A_2 (c : Dev nD) (i : grid0.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond0_0 i) (x : Vec F S20000x64 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S20000x64) hz]

/-! ## The payloads over the extended reals, at an entry of the row -/

/-- The index the reduction over the rows inserts at row r over column j is (r, j). -/
theorem lift_eq (j : Fin 64) (r : Fin 20000) :
    reduces_S20000x64_S64.lift (fun a => (ix2 (0 : Fin 1) j : S1x64.Idx) a.succ) r = (ix2 r j : S20000x64.Idx) := by
  funext a
  match a with
  | ⟨0, _⟩ => rfl
  | ⟨1, _⟩ => rfl

theorem pay1_apply (i : S1x64.Idx) : (k0_pay1 (F := Ideal)) i = 0 := Ideal.ofBits_zero_f32
theorem pay2_apply (i : S1x64.Idx) : (k0_pay2 (F := Ideal)) i = 0 := Ideal.ofBits_zero_f32

/-- The sum payload: the buffer's entry plus the block's column sum. -/
theorem pay3_apply (x : Vec Ideal S20000x64 .f32) (acc : Vec Ideal S1x64 .f32) (j : Fin 64) :
    k0_pay3 x acc (ix2 (0 : Fin 1) j) = acc (ix2 (0 : Fin 1) j) + ∑ r : Fin 20000, x (ix2 r j) := by
  unfold k0_pay3
  refine (addf_apply _ _ _).trans ?_
  refine congrArg₂ (· + ·) (congrFun (shapeCast_self acc shapeCasts_S1x64_S1x64) _) ?_
  refine (shapeCast_addUnit_apply ![64] _ shapeCasts_S64_S1x64 (ix2 (0 : Fin 1) j)).trans ?_
  refine (Ideal.multiReduction_add_single x _ reduces_S20000x64_S64 (.inl rfl) rfl _).trans ?_
  exact Finset.sum_congr rfl fun r _ => congrArg x (lift_eq j r)

/-- The sum-of-squares payload: the buffer's entry plus the block's column sum of squares. -/
theorem pay4_apply (x : Vec Ideal S20000x64 .f32) (acc : Vec Ideal S1x64 .f32) (j : Fin 64) :
    k0_pay4 x acc (ix2 (0 : Fin 1) j) = acc (ix2 (0 : Fin 1) j) + ∑ r : Fin 20000, x (ix2 r j) * x (ix2 r j) := by
  unfold k0_pay4
  refine (addf_apply _ _ _).trans ?_
  refine congrArg₂ (· + ·) (congrFun (shapeCast_self acc shapeCasts_S1x64_S1x64) _) ?_
  refine (shapeCast_addUnit_apply ![64] _ shapeCasts_S64_S1x64 (ix2 (0 : Fin 1) j)).trans ?_
  refine (Ideal.multiReduction_add_single (mulf x x) _ reduces_S20000x64_S64 (.inl rfl) rfl _).trans ?_
  exact Finset.sum_congr rfl fun r _ => congrArg (fun y => x y * x y) (lift_eq j r)

/-! ## The input block is a run of 20000 rows of the array -/

section Block
variable (V : (c : Dev nD) → (b : Ref sig .tc) → Buf (Elt F) ((c : Thread nD τ).loc b))

/-- The input block at point t, at its literal type. -/
abbrev xblk (c : Dev nD) (t : Fin cfg0.N) : Vec F S20000x64 .f32 := iblk0 V c 0 t

/-- The input window's block index at point t is (t, 0): decided over the grid. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- Entry (r, j) of the block at point t is entry (20000 t + r, j) of the array the window reads. -/
theorem xblk_apply (c : Dev nD) (t : Fin cfg0.N) (r : Fin 20000) (j : Fin 64) (hr : 20000 * t.val + r.val < 100000) :
    xblk V c t (ix2 r j)
      = (V c (Pipeline.arrRef spec0 0) : S100000x64.Idx → Elt F .f32) (ix2 ⟨20000 * t.val + r.val, hr⟩ j) := by
  unfold xblk iblk0
  rw [View.read_apply]
  refine congrArg (V c (Pipeline.arrRef spec0 0) : S100000x64.Idx → Elt F .f32) (Shape.idx_ext₂ ?_ ?_)
  · show win0_0.index t 0 * 20000 + 1 * r.val = 20000 * t.val + r.val
    rw [(index0_0 t).1]; omega
  · show win0_0.index t 1 * 64 + 1 * j.val = j.val
    rw [(index0_0 t).2]; omega

end Block

/-! ## Sums over the rows, block by block -/

/-- Column j of the array as a sequence of rows, zero past the last row. -/
def rowAt (x : S100000x64.Idx → EReal) (j : Fin 64) (k : ℕ) : EReal :=
  if h : k < 100000 then x (ix2 ⟨k, h⟩ j) else 0

/-- The sum over m consecutive blocks of 20000 terms is the sum over the first 20000 m terms. -/
theorem sum_blocks (f : ℕ → EReal) :
    ∀ m : ℕ, ∑ s ∈ Finset.range m, ∑ r : Fin 20000, f (20000 * s + r.val) = ∑ k ∈ Finset.range (20000 * m), f k
  | 0 => by rw [Finset.sum_range_zero, Nat.mul_zero, Finset.sum_range_zero]
  | m + 1 => by
    rw [Finset.sum_range_succ, sum_blocks f m, Nat.mul_succ, Finset.sum_range_add,
      Fin.sum_univ_eq_sum_range (fun r => f (20000 * m + r)) 20000]

/-- Five blocks of 20000 rows are the 100000 rows. -/
theorem sum_rows (x : S100000x64.Idx → EReal) (j : Fin 64) :
    ∑ s ∈ Finset.range 5, ∑ r : Fin 20000, rowAt x j (20000 * s + r.val) = ∑ r : Fin 100000, x (ix2 r j) := by
  rw [sum_blocks (rowAt x j) 5]
  show ∑ k ∈ Finset.range 100000, rowAt x j k = _
  rw [Finset.sum_range]
  exact Finset.sum_congr rfl fun r _ => dif_pos r.isLt

theorem sum_rows_sq (x : S100000x64.Idx → EReal) (j : Fin 64) :
    ∑ s ∈ Finset.range 5, ∑ r : Fin 20000, rowAt x j (20000 * s + r.val) * rowAt x j (20000 * s + r.val)
      = ∑ r : Fin 100000, x (ix2 r j) * x (ix2 r j) := by
  rw [sum_blocks (fun k => rowAt x j k * rowAt x j k) 5]
  show ∑ k ∈ Finset.range 100000, rowAt x j k * rowAt x j k = _
  rw [Finset.sum_range]
  exact Finset.sum_congr rfl fun r _ => by rw [rowAt, dif_pos r.isLt]

/-! ## The accumulators after each point, over the extended reals -/

section Acc
variable (V : (c : Dev nD) → (b : Ref sig .tc) → Buf (Elt Ideal) ((c : Thread nD τ).loc b))

/-- An index of the [1,64] row is (0, its column). -/
theorem idx_row (i : S1x64.Idx) : i = ix2 (0 : Fin 1) (i 1 : Fin 64) :=
  (eq_ix2 i).trans (congrArg (fun a : Fin 1 => ix2 a (i 1 : Fin 64)) (Subsingleton.elim _ _))

/-- The block's column sum, in the array's rows. -/
theorem blk_sum (c : Dev nD) (x : S100000x64.Idx → EReal) (hx : V c (Pipeline.arrRef spec0 0) = x) (t : Fin cfg0.N) (j : Fin 64) :
    ∑ r : Fin 20000, xblk V c t (ix2 r j) = ∑ r : Fin 20000, rowAt x j (20000 * t.val + r.val) := by
  have hN : t.val < 5 := lt_of_lt_of_eq t.isLt (show cfg0.N = 5 from N_0)
  refine Finset.sum_congr rfl fun r _ => ?_
  have hr : 20000 * t.val + r.val < 100000 := by have := r.isLt; omega
  rw [rowAt, dif_pos hr]
  exact (xblk_apply V c t r j hr).trans (congrFun hx _)

theorem blk_sum_sq (c : Dev nD) (x : S100000x64.Idx → EReal) (hx : V c (Pipeline.arrRef spec0 0) = x) (t : Fin cfg0.N) (j : Fin 64) :
    ∑ r : Fin 20000, xblk V c t (ix2 r j) * xblk V c t (ix2 r j)
      = ∑ r : Fin 20000, rowAt x j (20000 * t.val + r.val) * rowAt x j (20000 * t.val + r.val) := by
  have hN : t.val < 5 := lt_of_lt_of_eq t.isLt (show cfg0.N = 5 from N_0)
  refine Finset.sum_congr rfl fun r _ => ?_
  have hr : 20000 * t.val + r.val < 100000 := by have := r.isLt; omega
  rw [rowAt, dif_pos hr]
  exact congrArg (fun v : EReal => v * v) ((xblk_apply V c t r j hr).trans (congrFun hx _))

/-- The sum payload on the block at point t, at any entry of the row. -/
theorem pay3_blk (c : Dev nD) (x : S100000x64.Idx → EReal) (hx : V c (Pipeline.arrRef spec0 0) = x) (t : Fin cfg0.N)
    (acc : Vec Ideal S1x64 .f32) (i : S1x64.Idx) :
    k0_pay3 (xblk V c t) acc i = acc i + ∑ r : Fin 20000, rowAt x (i 1 : Fin 64) (20000 * t.val + r.val) := by
  rw [idx_row i]
  exact (pay3_apply (xblk V c t) acc (i 1 : Fin 64)).trans (congrArg (acc (ix2 (0 : Fin 1) (i 1 : Fin 64)) + ·) (blk_sum V c x hx t (i 1 : Fin 64)))

theorem pay4_blk (c : Dev nD) (x : S100000x64.Idx → EReal) (hx : V c (Pipeline.arrRef spec0 0) = x) (t : Fin cfg0.N)
    (acc : Vec Ideal S1x64 .f32) (i : S1x64.Idx) :
    k0_pay4 (xblk V c t) acc i
      = acc i + ∑ r : Fin 20000, rowAt x (i 1 : Fin 64) (20000 * t.val + r.val) * rowAt x (i 1 : Fin 64) (20000 * t.val + r.val) := by
  rw [idx_row i]
  exact (pay4_apply (xblk V c t) acc (i 1 : Fin 64)).trans (congrArg (acc (ix2 (0 : Fin 1) (i 1 : Fin 64)) + ·) (blk_sum_sq V c x hx t (i 1 : Fin 64)))

end Acc

section Fold
variable (V : (c : Dev nD) → (b : Ref sig .tc) → Buf (Elt Ideal) ((c : Thread nD τ).loc b))

/-- At a point that resets, the first accumulator holds the sum payload of the block over the zero row. -/
theorem acc1_reset (c : Dev nD) (t : Fin cfg0.N) (h0 : t.val % 5 = 0) :
    (outsAt0 V c t.val t.isLt).1 = k0_pay3 (xblk V c t) (k0_pay1 (F := Ideal)) := by
  rw [outsAt0_A V c t h0]
  dsimp only
  exact out_A_1 (F := Ideal) c (grid0.coords t) (ms0_0 t) (hs0_0 t) (ms0_1 t) (hs0_1 t) (ms0_2 t) (hs0_2 t)
    ((hcond0_0 t).mpr h0) (iblk0 V c 0 t)

theorem acc2_reset (c : Dev nD) (t : Fin cfg0.N) (h0 : t.val % 5 = 0) :
    (outsAt0 V c t.val t.isLt).2 = k0_pay4 (xblk V c t) (k0_pay2 (F := Ideal)) := by
  rw [outsAt0_A V c t h0]
  dsimp only
  exact out_A_2 (F := Ideal) c (grid0.coords t) (ms0_0 t) (hs0_0 t) (ms0_1 t) (hs0_1 t) (ms0_2 t) (hs0_2 t)
    ((hcond0_0 t).mpr h0) (iblk0 V c 0 t)

/-- At any other point it holds the sum payload of the block over what the point before left. -/
theorem acc1_step (c : Dev nD) (t : Fin cfg0.N) (h0 : ¬t.val % 5 = 0) (hp : t.val - 1 < cfg0.N) :
    (outsAt0 V c t.val t.isLt).1 = k0_pay3 (xblk V c t) (outsAt0 V c (t.val - 1) hp).1 := by
  rw [outsAt0_B V c t h0]
  dsimp only
  exact out_B_1 (F := Ideal) c (grid0.coords t) (ms0_0 t) (hs0_0 t) (ms0_1 t) (hs0_1 t) (ms0_2 t) (hs0_2 t)
    (fun h => h0 ((hcond0_0 t).mp h)) (iblk0 V c 0 t) (outsAt0 V c (t.val - 1) hp).1 (outsAt0 V c (t.val - 1) hp).2

theorem acc2_step (c : Dev nD) (t : Fin cfg0.N) (h0 : ¬t.val % 5 = 0) (hp : t.val - 1 < cfg0.N) :
    (outsAt0 V c t.val t.isLt).2 = k0_pay4 (xblk V c t) (outsAt0 V c (t.val - 1) hp).2 := by
  rw [outsAt0_B V c t h0]
  dsimp only
  exact out_B_2 (F := Ideal) c (grid0.coords t) (ms0_0 t) (hs0_0 t) (ms0_1 t) (hs0_1 t) (ms0_2 t) (hs0_2 t)
    (fun h => h0 ((hcond0_0 t).mp h)) (iblk0 V c 0 t) (outsAt0 V c (t.val - 1) hp).1 (outsAt0 V c (t.val - 1) hp).2

/-- After the last point the first accumulator holds the column sums of the array: the run of five points is one fold
    (reset, then four steps), each point adding its block's column sums. -/
theorem acc1_last (c : Dev nD) (x : S100000x64.Idx → EReal) (hx : V c (Pipeline.arrRef spec0 0) = x) (h : 4 < cfg0.N)
    (i : S1x64.Idx) : (outsAt0 V c 4 h).1 i = KSpec.colSum x i := by
  have e := Pipeline.eq_accAt (fun n hn => (outsAt0 V c n hn).1) 5
    (fun n hn => k0_pay3 (xblk V c ⟨n, hn⟩) (k0_pay1 (F := Ideal))) (fun n hn a => k0_pay3 (xblk V c ⟨n, hn⟩) a)
    (fun n hn h0 => acc1_reset V c ⟨n, hn⟩ h0)
    (fun n hn h0 => acc1_step V c ⟨n + 1, hn⟩ h0 (Nat.lt_of_succ_lt hn)) 0 4 (by decide) h
  have s := Pipeline.accAt_add_apply
    (fun n hn => k0_pay3 (xblk V c ⟨n, hn⟩) (k0_pay1 (F := Ideal))) (fun n hn a => k0_pay3 (xblk V c ⟨n, hn⟩) a)
    (fun _ => (0 : EReal)) (fun n i => ∑ r : Fin 20000, rowAt x (i 1 : Fin 64) (20000 * n + r.val)) 0 4
    (fun hn i => (pay3_blk V c x hx ⟨0, hn⟩ (k0_pay1 (F := Ideal)) i).trans (congrArg (· + _) (pay1_apply i)))
    (fun n hn a i _ _ => pay3_blk V c x hx ⟨n, hn⟩ a i) 4 le_rfl h i
  refine (congrFun e i).trans (s.trans ((zero_add _).trans ?_))
  refine (Finset.sum_congr rfl fun s _ => ?_).trans ((sum_rows x (i 1 : Fin 64)).trans (KSpec.colSum_apply' x i).symm)
  rw [Nat.zero_add]

/-- And the second the column sums of squares. -/
theorem acc2_last (c : Dev nD) (x : S100000x64.Idx → EReal) (hx : V c (Pipeline.arrRef spec0 0) = x) (h : 4 < cfg0.N)
    (i : S1x64.Idx) :
    (outsAt0 V c 4 h).2 i = KSpec.colSumSq x i := by
  have e := Pipeline.eq_accAt (fun n hn => (outsAt0 V c n hn).2) 5
    (fun n hn => k0_pay4 (xblk V c ⟨n, hn⟩) (k0_pay2 (F := Ideal))) (fun n hn a => k0_pay4 (xblk V c ⟨n, hn⟩) a)
    (fun n hn h0 => acc2_reset V c ⟨n, hn⟩ h0)
    (fun n hn h0 => acc2_step V c ⟨n + 1, hn⟩ h0 (Nat.lt_of_succ_lt hn)) 0 4 (by decide) h
  have s := Pipeline.accAt_add_apply
    (fun n hn => k0_pay4 (xblk V c ⟨n, hn⟩) (k0_pay2 (F := Ideal))) (fun n hn a => k0_pay4 (xblk V c ⟨n, hn⟩) a)
    (fun _ => (0 : EReal))
    (fun n i => ∑ r : Fin 20000, rowAt x (i 1 : Fin 64) (20000 * n + r.val) * rowAt x (i 1 : Fin 64) (20000 * n + r.val)) 0 4
    (fun hn i => (pay4_blk V c x hx ⟨0, hn⟩ (k0_pay2 (F := Ideal)) i).trans (congrArg (· + _) (pay2_apply i)))
    (fun n hn a i _ _ => pay4_blk V c x hx ⟨n, hn⟩ a i) 4 le_rfl h i
  refine (congrFun e i).trans (s.trans ((zero_add _).trans ?_))
  refine (Finset.sum_congr rfl fun s _ => ?_).trans ((sum_rows_sq x (i 1 : Fin 64)).trans (KSpec.colSumSq_apply' x i).symm)
  rw [Nat.zero_add]

end Fold

/-! ## The two result arrays after the run -/

section Final
variable (V : (c : Dev nD) → (b : Ref sig .tc) → Buf (Elt Ideal) ((c : Thread nD τ).loc b))

/-- The accumulators' block index never moves: (0, 0) at every point, decided over the grid. -/
theorem index0_1 : ∀ t : Fin cfg0.N, win0_1.index t 0 = 0 ∧ win0_1.index t 1 = 0 :=
  (by decide +kernel : ∀ t : Fin grid0.N, win0_1.index t 0 = 0 ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)

/-- So an entry of the first accumulator's block sits in its array at its own coordinates, -/
theorem emb0_1 (t : Fin cfg0.N) (y : S1x64.Idx) : ((cfg0.win 1).blk t).view.emb y = y := by
  refine Shape.idx_ext₂ ?_ ?_
  · show win0_1.index t 0 * 1 + 1 * (y 0).val = (y 0).val
    rw [(index0_1 t).1]; omega
  · show win0_1.index t 1 * 64 + 1 * (y 1).val = (y 1).val
    rw [(index0_1 t).2]; omega
/-- and of the second's. -/
theorem emb0_2 (t : Fin cfg0.N) (y : S1x64.Idx) : ((cfg0.win 2).blk t).view.emb y = y := by
  refine Shape.idx_ext₂ ?_ ?_
  · show win0_2.index t 0 * 1 + 1 * (y 0).val = (y 0).val
    rw [(index0_2 t).1]; omega
  · show win0_2.index t 1 * 64 + 1 * (y 1).val = (y 1).val
    rw [(index0_2 t).2]; omega

/-- An entry of the column sums depends on its column only. -/
theorem colSum_congr (x : S100000x64.Idx → EReal) (i i' : S1x64.Idx) (h : (i 1).val = (i' 1).val) :
    KSpec.colSum x i = KSpec.colSum x i' :=
  congrArg (fun j : Fin 64 => ∑ r : Fin 100000, x (ix2 r j)) (Fin.ext h)
theorem colSumSq_congr (x : S100000x64.Idx → EReal) (i i' : S1x64.Idx) (h : (i 1).val = (i' 1).val) :
    KSpec.colSumSq x i = KSpec.colSumSq x i' :=
  congrArg (fun j : Fin 64 => ∑ r : Fin 100000, x (ix2 r j) * x (ix2 r j)) (Fin.ext h)

/-- Only the last point writes the accumulators back. -/
theorem last_of_flush (t : Fin cfg0.N) (h : t.val % 5 = 4) : t = t0_4 :=
  Fin.ext (by have := lt_of_lt_of_eq t.isLt (show cfg0.N = 5 from N_0); show t.val = 4; omega)

/-- After the run the two result arrays hold the column sums and the column sums of squares of the array the region
    was entered with. -/
theorem stats0_val (c : Dev nD) (x : S100000x64.Idx → EReal) (hx : V c (Pipeline.arrRef spec0 0) = x) :
    (dat0 V c).arrAt 1 cfg0.N = KSpec.colSum x ∧ (dat0 V c).arrAt 2 cfg0.N = KSpec.colSumSq x := by
  constructor
  · refine (dat0 V c).arrAt_eq_of_cover 1 (KSpec.colSum x) (fun t hf => ?_) fun i => ⟨t0_4, (flush0_1 t0_4).mpr rfl, ?_⟩
    · obtain rfl := last_of_flush t ((flush0_1 t).mp hf)
      funext y
      rw [View.read_apply]
      refine ((congrFun (after0_1 V c t0_4) _).trans (acc1_last V c x hx t0_4.isLt _)).trans ?_
      refine Eq.trans ?_ (cast_eq _ _).symm
      refine colSum_congr x _ _ ?_
      show (y 1).val = win0_1.index t0_4 1 * 64 + 1 * (y 1).val
      rw [(index0_1 t0_4).2]; omega
    · exact (emb0_1 t0_4 i) ▸ View.emb_mem_set _ _
  · refine (dat0 V c).arrAt_eq_of_cover 2 (KSpec.colSumSq x) (fun t hf => ?_) fun i => ⟨t0_4, (flush0_2 t0_4).mpr rfl, ?_⟩
    · obtain rfl := last_of_flush t ((flush0_2 t).mp hf)
      funext y
      rw [View.read_apply]
      refine ((congrFun (after0_2 V c t0_4) _).trans (acc2_last V c x hx t0_4.isLt _)).trans ?_
      refine Eq.trans ?_ (cast_eq _ _).symm
      refine colSumSq_congr x _ _ ?_
      show (y 1).val = win0_2.index t0_4 1 * 64 + 1 * (y 1).val
      rw [(index0_2 t0_4).2]; omega
    · exact (emb0_2 t0_4 i) ▸ View.emb_mem_set _ _

end Final

end Cert.KernelIdeal.KStats0
-- ==== Proof.KStats2.lean ====
/-
  REGION 2 of the kernel program (the statistics kernel over the [100000,64] array, five blocks of 20000 rows): after the
  run its two [1,64] result arrays hold the column sums and the column sums of squares of the array the region was entered
  with. The two accumulators' block index never moves; the first point zeroes them and adds its block's column sums, every
  later point adds its block's to what the point before left, and the last point alone writes them back. Over the extended
  reals the five-point fold is the sum over the five blocks, and the rows 20000 t + r (t < 5, r < 20000) are the 100000 rows.
-/
import proofs.«416283_j44736379355415_1_alg».proof.Proof.Gen.KernelIdeal.Frame
import proofs.«416283_j44736379355415_1_alg».proof.Proof.KSpec
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KStats2

open Cert.KernelIdeal Cert.KernelIdeal.Gen

variable {F : FTy → Type} [FloatOps F]

/-- The zero offsets of a store or load through a whole [1,64] or [20000,64] buffer. -/
theorem hz : (![0, 0] : Fin 2 → Nat) = fun _ => 0 := funext fun a => by fin_cases a <;> rfl

/-! ## What each control case leaves in the two accumulators' staging buffers -/

/-- Later points: the first accumulator's one covering store holds the payload of the block and of what the buffer held. -/
theorem out_B_1 (c : Dev nD) (i : grid2.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond2_0 i) (x : Vec F S20000x64 .f32) (xo1 xo2 : Vec F S1x64 .f32) :
    out2_B_1 c i a1 h1 a2 h2 a3 h3 hc x xo1 xo2 = k2_pay4 x xo1 := by
  unfold out2_B_1
  rw [View.read_writes_eq_canon _ _ _ (cover2_B_1 c i a1 h1 a2 h2 a3 h3 hc x xo1 xo2)]
  unfold kernelRun2_B
  dsimp only
  sl_unfold_words
  rw [View.canon_unit_zero (S := S1x64) hz]
  simp only [View.readAt_eq_ld, h1.read_unread, h2.read_unread, View.ld_unit_zero (S := S20000x64) hz,
    View.ld_unit_zero (S := S1x64) hz]

/-- Later points: the second accumulator likewise, with the payload of the squares. -/
theorem out_B_2 (c : Dev nD) (i : grid2.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond2_0 i) (x : Vec F S20000x64 .f32) (xo1 xo2 : Vec F S1x64 .f32) :
    out2_B_2 c i a1 h1 a2 h2 a3 h3 hc x xo1 xo2 = k2_pay5 x xo2 := by
  unfold out2_B_2
  rw [View.read_writes_eq_canon _ _ _ (cover2_B_2 c i a1 h1 a2 h2 a3 h3 hc x xo1 xo2)]
  unfold kernelRun2_B
  dsimp only
  sl_unfold_words
  rw [View.canon_unit_zero (S := S1x64) hz]
  simp only [View.readAt_eq_ld, h1.read_unread, h3.read_unread, View.ld_unit_zero (S := S20000x64) hz,
    View.ld_unit_zero (S := S1x64) hz]

/-- The first point: the zero row is stored, read back, and the block's payload over it is stored last. -/
theorem out_A_1 (c : Dev nD) (i : grid2.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond2_0 i) (x : Vec F S20000x64 .f32) :
    out2_A_1 c i a1 h1 a2 h2 a3 h3 hc x = k2_pay4 x k2_pay1 := by
  unfold out2_A_1
  rw [View.read_writes_eq_canon _ _ _ (cover2_A_1 c i a1 h1 a2 h2 a3 h3 hc x)]
  unfold kernelRun2_A
  dsimp only
  sl_unfold_words
  rw [View.canon_cons_unit_zero (S := S1x64) hz, View.readCov_unit_zero (S := S1x64) _ hz]
  simp only [View.readAt_eq_ld, h1.read_unread, View.ld_unit_zero (S := S20000x64) hz]

/-- The first point, second accumulator. -/
theorem out_A_2 (c : Dev nD) (i : grid2.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond2_0 i) (x : Vec F S20000x64 .f32) :
    out2_A_2 c i a1 h1 a2 h2 a3 h3 hc x = k2_pay5 x k2_pay2 := by
  unfold out2_A_2
  rw [View.read_writes_eq_canon _ _ _ (cover2_A_2 c i a1 h1 a2 h2 a3 h3 hc x)]
  unfold kernelRun2_A
  dsimp only
  sl_unfold_words
  rw [View.canon_cons_unit_zero (S := S1x64) hz, View.readCov_unit_zero (S := S1x64) _ hz]
  simp only [View.readAt_eq_ld, h1.read_unread, View.ld_unit_zero (S := S20000x64) hz]

/-! ## The payloads over the extended reals, at an entry of the row -/

/-- The index the reduction over the rows inserts at row r over column j is (r, j). -/
theorem lift_eq (j : Fin 64) (r : Fin 20000) :
    reduces_S20000x64_S64.lift (fun a => (ix2 (0 : Fin 1) j : S1x64.Idx) a.succ) r = (ix2 r j : S20000x64.Idx) := by
  funext a
  match a with
  | ⟨0, _⟩ => rfl
  | ⟨1, _⟩ => rfl

/-- The body passes the loaded block through a shape cast to its own shape before reducing it: the block itself. -/
theorem blk_cast {F : FTy → Type} [FloatOps F] (x : Vec F S20000x64 .f32) : k2_pay3 x = x :=
  shapeCast_self x shapeCasts_S20000x64_S20000x64

theorem pay1_apply (i : S1x64.Idx) : (k2_pay1 (F := Ideal)) i = 0 := Ideal.ofBits_zero_f32
theorem pay2_apply (i : S1x64.Idx) : (k2_pay2 (F := Ideal)) i = 0 := Ideal.ofBits_zero_f32

/-- The sum payload: the buffer's entry plus the block's column sum. -/
theorem paySum_apply (x : Vec Ideal S20000x64 .f32) (acc : Vec Ideal S1x64 .f32) (j : Fin 64) :
    k2_pay4 x acc (ix2 (0 : Fin 1) j) = acc (ix2 (0 : Fin 1) j) + ∑ r : Fin 20000, x (ix2 r j) := by
  unfold k2_pay4
  refine (addf_apply _ _ _).trans ?_
  refine congrArg₂ (· + ·) (congrFun (shapeCast_self acc shapeCasts_S1x64_S1x64) _) ?_
  refine (shapeCast_addUnit_apply ![64] _ shapeCasts_S64_S1x64 (ix2 (0 : Fin 1) j)).trans ?_
  refine (Ideal.multiReduction_add_single (k2_pay3 x) _ reduces_S20000x64_S64 (.inl rfl) rfl _).trans ?_
  exact Finset.sum_congr rfl fun r _ => (congrFun (blk_cast x) _).trans (congrArg x (lift_eq j r))

/-- The sum-of-squares payload: the buffer's entry plus the block's column sum of squares. -/
theorem paySq_apply (x : Vec Ideal S20000x64 .f32) (acc : Vec Ideal S1x64 .f32) (j : Fin 64) :
    k2_pay5 x acc (ix2 (0 : Fin 1) j) = acc (ix2 (0 : Fin 1) j) + ∑ r : Fin 20000, x (ix2 r j) * x (ix2 r j) := by
  unfold k2_pay5
  refine (addf_apply _ _ _).trans ?_
  refine congrArg₂ (· + ·) (congrFun (shapeCast_self acc shapeCasts_S1x64_S1x64) _) ?_
  refine (shapeCast_addUnit_apply ![64] _ shapeCasts_S64_S1x64 (ix2 (0 : Fin 1) j)).trans ?_
  refine (Ideal.multiReduction_add_single (mulf (k2_pay3 x) (k2_pay3 x)) _ reduces_S20000x64_S64 (.inl rfl) rfl _).trans ?_
  exact Finset.sum_congr rfl fun r _ =>
    congrArg (fun v : EReal => v * v) ((congrFun (blk_cast x) _).trans (congrArg x (lift_eq j r)))

/-! ## The input block is a run of 20000 rows of the array -/

section Block
variable (V : (c : Dev nD) → (b : Ref sig .tc) → Buf (Elt F) ((c : Thread nD τ).loc b))

/-- The input block at point t, at its literal type. -/
abbrev xblk (c : Dev nD) (t : Fin cfg2.N) : Vec F S20000x64 .f32 := iblk2 V c 0 t

/-- The input window's block index at point t is (t, 0): decided over the grid. -/
theorem index2_0 : ∀ t : Fin cfg2.N, win2_0.index t 0 = t.val ∧ win2_0.index t 1 = 0 :=
  (by decide +kernel : ∀ t : Fin grid2.N, win2_0.index t 0 = t.val ∧ win2_0.index t 1 = 0)

/-- Entry (r, j) of the block at point t is entry (20000 t + r, j) of the array the window reads. -/
theorem xblk_apply (c : Dev nD) (t : Fin cfg2.N) (r : Fin 20000) (j : Fin 64) (hr : 20000 * t.val + r.val < 100000) :
    xblk V c t (ix2 r j)
      = (V c (Pipeline.arrRef spec2 0) : S100000x64.Idx → Elt F .f32) (ix2 ⟨20000 * t.val + r.val, hr⟩ j) := by
  unfold xblk iblk2
  rw [View.read_apply]
  refine congrArg (V c (Pipeline.arrRef spec2 0) : S100000x64.Idx → Elt F .f32) (Shape.idx_ext₂ ?_ ?_)
  · show win2_0.index t 0 * 20000 + 1 * r.val = 20000 * t.val + r.val
    rw [(index2_0 t).1]; omega
  · show win2_0.index t 1 * 64 + 1 * j.val = j.val
    rw [(index2_0 t).2]; omega

end Block

/-! ## Sums over the rows, block by block -/

/-- Column j of the array as a sequence of rows, zero past the last row. -/
def rowAt (x : S100000x64.Idx → EReal) (j : Fin 64) (k : ℕ) : EReal :=
  if h : k < 100000 then x (ix2 ⟨k, h⟩ j) else 0

/-- The sum over m consecutive blocks of 20000 terms is the sum over the first 20000 m terms. -/
theorem sum_blocks (f : ℕ → EReal) :
    ∀ m : ℕ, ∑ s ∈ Finset.range m, ∑ r : Fin 20000, f (20000 * s + r.val) = ∑ k ∈ Finset.range (20000 * m), f k
  | 0 => by rw [Finset.sum_range_zero, Nat.mul_zero, Finset.sum_range_zero]
  | m + 1 => by
    rw [Finset.sum_range_succ, sum_blocks f m, Nat.mul_succ, Finset.sum_range_add,
      Fin.sum_univ_eq_sum_range (fun r => f (20000 * m + r)) 20000]

/-- Five blocks of 20000 rows are the 100000 rows. -/
theorem sum_rows (x : S100000x64.Idx → EReal) (j : Fin 64) :
    ∑ s ∈ Finset.range 5, ∑ r : Fin 20000, rowAt x j (20000 * s + r.val) = ∑ r : Fin 100000, x (ix2 r j) := by
  rw [sum_blocks (rowAt x j) 5]
  show ∑ k ∈ Finset.range 100000, rowAt x j k = _
  rw [Finset.sum_range]
  exact Finset.sum_congr rfl fun r _ => dif_pos r.isLt

theorem sum_rows_sq (x : S100000x64.Idx → EReal) (j : Fin 64) :
    ∑ s ∈ Finset.range 5, ∑ r : Fin 20000, rowAt x j (20000 * s + r.val) * rowAt x j (20000 * s + r.val)
      = ∑ r : Fin 100000, x (ix2 r j) * x (ix2 r j) := by
  rw [sum_blocks (fun k => rowAt x j k * rowAt x j k) 5]
  show ∑ k ∈ Finset.range 100000, rowAt x j k * rowAt x j k = _
  rw [Finset.sum_range]
  exact Finset.sum_congr rfl fun r _ => by rw [rowAt, dif_pos r.isLt]

/-! ## The accumulators after each point, over the extended reals -/

section Acc
variable (V : (c : Dev nD) → (b : Ref sig .tc) → Buf (Elt Ideal) ((c : Thread nD τ).loc b))

/-- An index of the [1,64] row is (0, its column). -/
theorem idx_row (i : S1x64.Idx) : i = ix2 (0 : Fin 1) (i 1 : Fin 64) :=
  (eq_ix2 i).trans (congrArg (fun a : Fin 1 => ix2 a (i 1 : Fin 64)) (Subsingleton.elim _ _))

/-- The block's column sum, in the array's rows. -/
theorem blk_sum (c : Dev nD) (x : S100000x64.Idx → EReal) (hx : V c (Pipeline.arrRef spec2 0) = x) (t : Fin cfg2.N) (j : Fin 64) :
    ∑ r : Fin 20000, xblk V c t (ix2 r j) = ∑ r : Fin 20000, rowAt x j (20000 * t.val + r.val) := by
  have hN : t.val < 5 := lt_of_lt_of_eq t.isLt (show cfg2.N = 5 from N_2)
  refine Finset.sum_congr rfl fun r _ => ?_
  have hr : 20000 * t.val + r.val < 100000 := by have := r.isLt; omega
  rw [rowAt, dif_pos hr]
  exact (xblk_apply V c t r j hr).trans (congrFun hx _)

theorem blk_sum_sq (c : Dev nD) (x : S100000x64.Idx → EReal) (hx : V c (Pipeline.arrRef spec2 0) = x) (t : Fin cfg2.N) (j : Fin 64) :
    ∑ r : Fin 20000, xblk V c t (ix2 r j) * xblk V c t (ix2 r j)
      = ∑ r : Fin 20000, rowAt x j (20000 * t.val + r.val) * rowAt x j (20000 * t.val + r.val) := by
  have hN : t.val < 5 := lt_of_lt_of_eq t.isLt (show cfg2.N = 5 from N_2)
  refine Finset.sum_congr rfl fun r _ => ?_
  have hr : 20000 * t.val + r.val < 100000 := by have := r.isLt; omega
  rw [rowAt, dif_pos hr]
  exact congrArg (fun v : EReal => v * v) ((xblk_apply V c t r j hr).trans (congrFun hx _))

/-- The sum payload on the block at point t, at any entry of the row. -/
theorem paySum_blk (c : Dev nD) (x : S100000x64.Idx → EReal) (hx : V c (Pipeline.arrRef spec2 0) = x) (t : Fin cfg2.N)
    (acc : Vec Ideal S1x64 .f32) (i : S1x64.Idx) :
    k2_pay4 (xblk V c t) acc i = acc i + ∑ r : Fin 20000, rowAt x (i 1 : Fin 64) (20000 * t.val + r.val) := by
  rw [idx_row i]
  exact (paySum_apply (xblk V c t) acc (i 1 : Fin 64)).trans (congrArg (acc (ix2 (0 : Fin 1) (i 1 : Fin 64)) + ·) (blk_sum V c x hx t (i 1 : Fin 64)))

theorem paySq_blk (c : Dev nD) (x : S100000x64.Idx → EReal) (hx : V c (Pipeline.arrRef spec2 0) = x) (t : Fin cfg2.N)
    (acc : Vec Ideal S1x64 .f32) (i : S1x64.Idx) :
    k2_pay5 (xblk V c t) acc i
      = acc i + ∑ r : Fin 20000, rowAt x (i 1 : Fin 64) (20000 * t.val + r.val) * rowAt x (i 1 : Fin 64) (20000 * t.val + r.val) := by
  rw [idx_row i]
  exact (paySq_apply (xblk V c t) acc (i 1 : Fin 64)).trans (congrArg (acc (ix2 (0 : Fin 1) (i 1 : Fin 64)) + ·) (blk_sum_sq V c x hx t (i 1 : Fin 64)))

end Acc

section Fold
variable (V : (c : Dev nD) → (b : Ref sig .tc) → Buf (Elt Ideal) ((c : Thread nD τ).loc b))

/-- At a point that resets, the first accumulator holds the sum payload of the block over the zero row. -/
theorem acc1_reset (c : Dev nD) (t : Fin cfg2.N) (h0 : t.val % 5 = 0) :
    (outsAt2 V c t.val t.isLt).1 = k2_pay4 (xblk V c t) (k2_pay1 (F := Ideal)) := by
  rw [outsAt2_A V c t h0]
  dsimp only
  exact out_A_1 (F := Ideal) c (grid2.coords t) (ms2_0 t) (hs2_0 t) (ms2_1 t) (hs2_1 t) (ms2_2 t) (hs2_2 t)
    ((hcond2_0 t).mpr h0) (iblk2 V c 0 t)

theorem acc2_reset (c : Dev nD) (t : Fin cfg2.N) (h0 : t.val % 5 = 0) :
    (outsAt2 V c t.val t.isLt).2 = k2_pay5 (xblk V c t) (k2_pay2 (F := Ideal)) := by
  rw [outsAt2_A V c t h0]
  dsimp only
  exact out_A_2 (F := Ideal) c (grid2.coords t) (ms2_0 t) (hs2_0 t) (ms2_1 t) (hs2_1 t) (ms2_2 t) (hs2_2 t)
    ((hcond2_0 t).mpr h0) (iblk2 V c 0 t)

/-- At any other point it holds the sum payload of the block over what the point before left. -/
theorem acc1_step (c : Dev nD) (t : Fin cfg2.N) (h0 : ¬t.val % 5 = 0) (hp : t.val - 1 < cfg2.N) :
    (outsAt2 V c t.val t.isLt).1 = k2_pay4 (xblk V c t) (outsAt2 V c (t.val - 1) hp).1 := by
  rw [outsAt2_B V c t h0]
  dsimp only
  exact out_B_1 (F := Ideal) c (grid2.coords t) (ms2_0 t) (hs2_0 t) (ms2_1 t) (hs2_1 t) (ms2_2 t) (hs2_2 t)
    (fun h => h0 ((hcond2_0 t).mp h)) (iblk2 V c 0 t) (outsAt2 V c (t.val - 1) hp).1 (outsAt2 V c (t.val - 1) hp).2

theorem acc2_step (c : Dev nD) (t : Fin cfg2.N) (h0 : ¬t.val % 5 = 0) (hp : t.val - 1 < cfg2.N) :
    (outsAt2 V c t.val t.isLt).2 = k2_pay5 (xblk V c t) (outsAt2 V c (t.val - 1) hp).2 := by
  rw [outsAt2_B V c t h0]
  dsimp only
  exact out_B_2 (F := Ideal) c (grid2.coords t) (ms2_0 t) (hs2_0 t) (ms2_1 t) (hs2_1 t) (ms2_2 t) (hs2_2 t)
    (fun h => h0 ((hcond2_0 t).mp h)) (iblk2 V c 0 t) (outsAt2 V c (t.val - 1) hp).1 (outsAt2 V c (t.val - 1) hp).2

/-- After the last point the first accumulator holds the column sums of the array: the run of five points is one fold
    (reset, then four steps), each point adding its block's column sums. -/
theorem acc1_last (c : Dev nD) (x : S100000x64.Idx → EReal) (hx : V c (Pipeline.arrRef spec2 0) = x) (h : 4 < cfg2.N)
    (i : S1x64.Idx) : (outsAt2 V c 4 h).1 i = KSpec.colSum x i := by
  have e := Pipeline.eq_accAt (fun n hn => (outsAt2 V c n hn).1) 5
    (fun n hn => k2_pay4 (xblk V c ⟨n, hn⟩) (k2_pay1 (F := Ideal))) (fun n hn a => k2_pay4 (xblk V c ⟨n, hn⟩) a)
    (fun n hn h0 => acc1_reset V c ⟨n, hn⟩ h0)
    (fun n hn h0 => acc1_step V c ⟨n + 1, hn⟩ h0 (Nat.lt_of_succ_lt hn)) 0 4 (by decide) h
  have s := Pipeline.accAt_add_apply
    (fun n hn => k2_pay4 (xblk V c ⟨n, hn⟩) (k2_pay1 (F := Ideal))) (fun n hn a => k2_pay4 (xblk V c ⟨n, hn⟩) a)
    (fun _ => (0 : EReal)) (fun n i => ∑ r : Fin 20000, rowAt x (i 1 : Fin 64) (20000 * n + r.val)) 0 4
    (fun hn i => (paySum_blk V c x hx ⟨0, hn⟩ (k2_pay1 (F := Ideal)) i).trans (congrArg (· + _) (pay1_apply i)))
    (fun n hn a i _ _ => paySum_blk V c x hx ⟨n, hn⟩ a i) 4 le_rfl h i
  refine (congrFun e i).trans (s.trans ((zero_add _).trans ?_))
  refine (Finset.sum_congr rfl fun s _ => ?_).trans ((sum_rows x (i 1 : Fin 64)).trans (KSpec.colSum_apply' x i).symm)
  rw [Nat.zero_add]

/-- And the second the column sums of squares. -/
theorem acc2_last (c : Dev nD) (x : S100000x64.Idx → EReal) (hx : V c (Pipeline.arrRef spec2 0) = x) (h : 4 < cfg2.N)
    (i : S1x64.Idx) :
    (outsAt2 V c 4 h).2 i = KSpec.colSumSq x i := by
  have e := Pipeline.eq_accAt (fun n hn => (outsAt2 V c n hn).2) 5
    (fun n hn => k2_pay5 (xblk V c ⟨n, hn⟩) (k2_pay2 (F := Ideal))) (fun n hn a => k2_pay5 (xblk V c ⟨n, hn⟩) a)
    (fun n hn h0 => acc2_reset V c ⟨n, hn⟩ h0)
    (fun n hn h0 => acc2_step V c ⟨n + 1, hn⟩ h0 (Nat.lt_of_succ_lt hn)) 0 4 (by decide) h
  have s := Pipeline.accAt_add_apply
    (fun n hn => k2_pay5 (xblk V c ⟨n, hn⟩) (k2_pay2 (F := Ideal))) (fun n hn a => k2_pay5 (xblk V c ⟨n, hn⟩) a)
    (fun _ => (0 : EReal))
    (fun n i => ∑ r : Fin 20000, rowAt x (i 1 : Fin 64) (20000 * n + r.val) * rowAt x (i 1 : Fin 64) (20000 * n + r.val)) 0 4
    (fun hn i => (paySq_blk V c x hx ⟨0, hn⟩ (k2_pay2 (F := Ideal)) i).trans (congrArg (· + _) (pay2_apply i)))
    (fun n hn a i _ _ => paySq_blk V c x hx ⟨n, hn⟩ a i) 4 le_rfl h i
  refine (congrFun e i).trans (s.trans ((zero_add _).trans ?_))
  refine (Finset.sum_congr rfl fun s _ => ?_).trans ((sum_rows_sq x (i 1 : Fin 64)).trans (KSpec.colSumSq_apply' x i).symm)
  rw [Nat.zero_add]

end Fold

/-! ## The two result arrays after the run -/

section Final
variable (V : (c : Dev nD) → (b : Ref sig .tc) → Buf (Elt Ideal) ((c : Thread nD τ).loc b))

/-- The accumulators' block index never moves: (0, 0) at every point, decided over the grid. -/
theorem index2_1 : ∀ t : Fin cfg2.N, win2_1.index t 0 = 0 ∧ win2_1.index t 1 = 0 :=
  (by decide +kernel : ∀ t : Fin grid2.N, win2_1.index t 0 = 0 ∧ win2_1.index t 1 = 0)
theorem index2_2 : ∀ t : Fin cfg2.N, win2_2.index t 0 = 0 ∧ win2_2.index t 1 = 0 :=
  (by decide +kernel : ∀ t : Fin grid2.N, win2_2.index t 0 = 0 ∧ win2_2.index t 1 = 0)

/-- So an entry of the first accumulator's block sits in its array at its own coordinates, -/
theorem emb2_1 (t : Fin cfg2.N) (y : S1x64.Idx) : ((cfg2.win 1).blk t).view.emb y = y := by
  refine Shape.idx_ext₂ ?_ ?_
  · show win2_1.index t 0 * 1 + 1 * (y 0).val = (y 0).val
    rw [(index2_1 t).1]; omega
  · show win2_1.index t 1 * 64 + 1 * (y 1).val = (y 1).val
    rw [(index2_1 t).2]; omega
/-- and of the second's. -/
theorem emb2_2 (t : Fin cfg2.N) (y : S1x64.Idx) : ((cfg2.win 2).blk t).view.emb y = y := by
  refine Shape.idx_ext₂ ?_ ?_
  · show win2_2.index t 0 * 1 + 1 * (y 0).val = (y 0).val
    rw [(index2_2 t).1]; omega
  · show win2_2.index t 1 * 64 + 1 * (y 1).val = (y 1).val
    rw [(index2_2 t).2]; omega

/-- An entry of the column sums depends on its column only. -/
theorem colSum_congr (x : S100000x64.Idx → EReal) (i i' : S1x64.Idx) (h : (i 1).val = (i' 1).val) :
    KSpec.colSum x i = KSpec.colSum x i' :=
  congrArg (fun j : Fin 64 => ∑ r : Fin 100000, x (ix2 r j)) (Fin.ext h)
theorem colSumSq_congr (x : S100000x64.Idx → EReal) (i i' : S1x64.Idx) (h : (i 1).val = (i' 1).val) :
    KSpec.colSumSq x i = KSpec.colSumSq x i' :=
  congrArg (fun j : Fin 64 => ∑ r : Fin 100000, x (ix2 r j) * x (ix2 r j)) (Fin.ext h)

/-- Only the last point writes the accumulators back. -/
theorem last_of_flush (t : Fin cfg2.N) (h : t.val % 5 = 4) : t = t2_4 :=
  Fin.ext (by have := lt_of_lt_of_eq t.isLt (show cfg2.N = 5 from N_2); show t.val = 4; omega)

/-- After the run the two result arrays hold the column sums and the column sums of squares of the array the region
    was entered with. -/
theorem stats2_val (c : Dev nD) (x : S100000x64.Idx → EReal) (hx : V c (Pipeline.arrRef spec2 0) = x) :
    (dat2 V c).arrAt 1 cfg2.N = KSpec.colSum x ∧ (dat2 V c).arrAt 2 cfg2.N = KSpec.colSumSq x := by
  constructor
  · refine (dat2 V c).arrAt_eq_of_cover 1 (KSpec.colSum x) (fun t hf => ?_) fun i => ⟨t2_4, (flush2_1 t2_4).mpr rfl, ?_⟩
    · obtain rfl := last_of_flush t ((flush2_1 t).mp hf)
      funext y
      rw [View.read_apply]
      refine ((congrFun (after2_1 V c t2_4) _).trans (acc1_last V c x hx t2_4.isLt _)).trans ?_
      refine Eq.trans ?_ (cast_eq _ _).symm
      refine colSum_congr x _ _ ?_
      show (y 1).val = win2_1.index t2_4 1 * 64 + 1 * (y 1).val
      rw [(index2_1 t2_4).2]; omega
    · exact (emb2_1 t2_4 i) ▸ View.emb_mem_set _ _
  · refine (dat2 V c).arrAt_eq_of_cover 2 (KSpec.colSumSq x) (fun t hf => ?_) fun i => ⟨t2_4, (flush2_2 t2_4).mpr rfl, ?_⟩
    · obtain rfl := last_of_flush t ((flush2_2 t).mp hf)
      funext y
      rw [View.read_apply]
      refine ((congrFun (after2_2 V c t2_4) _).trans (acc2_last V c x hx t2_4.isLt _)).trans ?_
      refine Eq.trans ?_ (cast_eq _ _).symm
      refine colSumSq_congr x _ _ ?_
      show (y 1).val = win2_2.index t2_4 1 * 64 + 1 * (y 1).val
      rw [(index2_2 t2_4).2]; omega
    · exact (emb2_2 t2_4 i) ▸ View.emb_mem_set _ _

end Final

end Cert.KernelIdeal.KStats2
-- ==== Proof.KStats4.lean ====
/-
  REGION 4 of the kernel program (the statistics kernel over the [100000,64] array, five blocks of 20000 rows): after the
  run its two [1,64] result arrays hold the column sums and the column sums of squares of the array the region was entered
  with. The two accumulators' block index never moves; the first point zeroes them and adds its block's column sums, every
  later point adds its block's to what the point before left, and the last point alone writes them back. Over the extended
  reals the five-point fold is the sum over the five blocks, and the rows 20000 t + r (t < 5, r < 20000) are the 100000 rows.
-/
import proofs.«416283_j44736379355415_1_alg».proof.Proof.Gen.KernelIdeal.Frame
import proofs.«416283_j44736379355415_1_alg».proof.Proof.KSpec
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KStats4

open Cert.KernelIdeal Cert.KernelIdeal.Gen

variable {F : FTy → Type} [FloatOps F]

/-- The zero offsets of a store or load through a whole [1,64] or [20000,64] buffer. -/
theorem hz : (![0, 0] : Fin 2 → Nat) = fun _ => 0 := funext fun a => by fin_cases a <;> rfl

/-! ## What each control case leaves in the two accumulators' staging buffers -/

/-- Later points: the first accumulator's one covering store holds the payload of the block and of what the buffer held. -/
theorem out_B_1 (c : Dev nD) (i : grid4.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S20000x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero (S := S1x64) hz]
  simp only [View.readAt_eq_ld, h1.read_unread, h2.read_unread, View.ld_unit_zero (S := S20000x64) hz,
    View.ld_unit_zero (S := S1x64) hz]

/-- Later points: the second accumulator likewise, with the payload of the squares. -/
theorem out_B_2 (c : Dev nD) (i : grid4.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S20000x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero (S := S1x64) hz]
  simp only [View.readAt_eq_ld, h1.read_unread, h3.read_unread, View.ld_unit_zero (S := S20000x64) hz,
    View.ld_unit_zero (S := S1x64) hz]

/-- The first point: the zero row is stored, read back, and the block's payload over it is stored last. -/
theorem out_A_1 (c : Dev nD) (i : grid4.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S20000x64 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S20000x64) hz]

/-- The first point, second accumulator. -/
theorem out_A_2 (c : Dev nD) (i : grid4.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S20000x64 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S20000x64) hz]

/-! ## The payloads over the extended reals, at an entry of the row -/

/-- The index the reduction over the rows inserts at row r over column j is (r, j). -/
theorem lift_eq (j : Fin 64) (r : Fin 20000) :
    reduces_S20000x64_S64.lift (fun a => (ix2 (0 : Fin 1) j : S1x64.Idx) a.succ) r = (ix2 r j : S20000x64.Idx) := by
  funext a
  match a with
  | ⟨0, _⟩ => rfl
  | ⟨1, _⟩ => rfl

/-- The body passes the loaded block through a shape cast to its own shape before reducing it: the block itself. -/
theorem blk_cast {F : FTy → Type} [FloatOps F] (x : Vec F S20000x64 .f32) : k4_pay3 x = x :=
  shapeCast_self x shapeCasts_S20000x64_S20000x64

theorem pay1_apply (i : S1x64.Idx) : (k4_pay1 (F := Ideal)) i = 0 := Ideal.ofBits_zero_f32
theorem pay2_apply (i : S1x64.Idx) : (k4_pay2 (F := Ideal)) i = 0 := Ideal.ofBits_zero_f32

/-- The sum payload: the buffer's entry plus the block's column sum. -/
theorem paySum_apply (x : Vec Ideal S20000x64 .f32) (acc : Vec Ideal S1x64 .f32) (j : Fin 64) :
    k4_pay4 x acc (ix2 (0 : Fin 1) j) = acc (ix2 (0 : Fin 1) j) + ∑ r : Fin 20000, x (ix2 r j) := by
  unfold k4_pay4
  refine (addf_apply _ _ _).trans ?_
  refine congrArg₂ (· + ·) (congrFun (shapeCast_self acc shapeCasts_S1x64_S1x64) _) ?_
  refine (shapeCast_addUnit_apply ![64] _ shapeCasts_S64_S1x64 (ix2 (0 : Fin 1) j)).trans ?_
  refine (Ideal.multiReduction_add_single (k4_pay3 x) _ reduces_S20000x64_S64 (.inl rfl) rfl _).trans ?_
  exact Finset.sum_congr rfl fun r _ => (congrFun (blk_cast x) _).trans (congrArg x (lift_eq j r))

/-- The sum-of-squares payload: the buffer's entry plus the block's column sum of squares. -/
theorem paySq_apply (x : Vec Ideal S20000x64 .f32) (acc : Vec Ideal S1x64 .f32) (j : Fin 64) :
    k4_pay5 x acc (ix2 (0 : Fin 1) j) = acc (ix2 (0 : Fin 1) j) + ∑ r : Fin 20000, x (ix2 r j) * x (ix2 r j) := by
  unfold k4_pay5
  refine (addf_apply _ _ _).trans ?_
  refine congrArg₂ (· + ·) (congrFun (shapeCast_self acc shapeCasts_S1x64_S1x64) _) ?_
  refine (shapeCast_addUnit_apply ![64] _ shapeCasts_S64_S1x64 (ix2 (0 : Fin 1) j)).trans ?_
  refine (Ideal.multiReduction_add_single (mulf (k4_pay3 x) (k4_pay3 x)) _ reduces_S20000x64_S64 (.inl rfl) rfl _).trans ?_
  exact Finset.sum_congr rfl fun r _ =>
    congrArg (fun v : EReal => v * v) ((congrFun (blk_cast x) _).trans (congrArg x (lift_eq j r)))

/-! ## The input block is a run of 20000 rows of the array -/

section Block
variable (V : (c : Dev nD) → (b : Ref sig .tc) → Buf (Elt F) ((c : Thread nD τ).loc b))

/-- The input block at point t, at its literal type. -/
abbrev xblk (c : Dev nD) (t : Fin cfg4.N) : Vec F S20000x64 .f32 := iblk4 V c 0 t

/-- The input window's block index at point t is (t, 0): decided over the grid. -/
theorem index4_0 : ∀ t : Fin cfg4.N, win4_0.index t 0 = t.val ∧ win4_0.index t 1 = 0 :=
  (by decide +kernel : ∀ t : Fin grid4.N, win4_0.index t 0 = t.val ∧ win4_0.index t 1 = 0)

/-- Entry (r, j) of the block at point t is entry (20000 t + r, j) of the array the window reads. -/
theorem xblk_apply (c : Dev nD) (t : Fin cfg4.N) (r : Fin 20000) (j : Fin 64) (hr : 20000 * t.val + r.val < 100000) :
    xblk V c t (ix2 r j)
      = (V c (Pipeline.arrRef spec4 0) : S100000x64.Idx → Elt F .f32) (ix2 ⟨20000 * t.val + r.val, hr⟩ j) := by
  unfold xblk iblk4
  rw [View.read_apply]
  refine congrArg (V c (Pipeline.arrRef spec4 0) : S100000x64.Idx → Elt F .f32) (Shape.idx_ext₂ ?_ ?_)
  · show win4_0.index t 0 * 20000 + 1 * r.val = 20000 * t.val + r.val
    rw [(index4_0 t).1]; omega
  · show win4_0.index t 1 * 64 + 1 * j.val = j.val
    rw [(index4_0 t).2]; omega

end Block

/-! ## Sums over the rows, block by block -/

/-- Column j of the array as a sequence of rows, zero past the last row. -/
def rowAt (x : S100000x64.Idx → EReal) (j : Fin 64) (k : ℕ) : EReal :=
  if h : k < 100000 then x (ix2 ⟨k, h⟩ j) else 0

/-- The sum over m consecutive blocks of 20000 terms is the sum over the first 20000 m terms. -/
theorem sum_blocks (f : ℕ → EReal) :
    ∀ m : ℕ, ∑ s ∈ Finset.range m, ∑ r : Fin 20000, f (20000 * s + r.val) = ∑ k ∈ Finset.range (20000 * m), f k
  | 0 => by rw [Finset.sum_range_zero, Nat.mul_zero, Finset.sum_range_zero]
  | m + 1 => by
    rw [Finset.sum_range_succ, sum_blocks f m, Nat.mul_succ, Finset.sum_range_add,
      Fin.sum_univ_eq_sum_range (fun r => f (20000 * m + r)) 20000]

/-- Five blocks of 20000 rows are the 100000 rows. -/
theorem sum_rows (x : S100000x64.Idx → EReal) (j : Fin 64) :
    ∑ s ∈ Finset.range 5, ∑ r : Fin 20000, rowAt x j (20000 * s + r.val) = ∑ r : Fin 100000, x (ix2 r j) := by
  rw [sum_blocks (rowAt x j) 5]
  show ∑ k ∈ Finset.range 100000, rowAt x j k = _
  rw [Finset.sum_range]
  exact Finset.sum_congr rfl fun r _ => dif_pos r.isLt

theorem sum_rows_sq (x : S100000x64.Idx → EReal) (j : Fin 64) :
    ∑ s ∈ Finset.range 5, ∑ r : Fin 20000, rowAt x j (20000 * s + r.val) * rowAt x j (20000 * s + r.val)
      = ∑ r : Fin 100000, x (ix2 r j) * x (ix2 r j) := by
  rw [sum_blocks (fun k => rowAt x j k * rowAt x j k) 5]
  show ∑ k ∈ Finset.range 100000, rowAt x j k * rowAt x j k = _
  rw [Finset.sum_range]
  exact Finset.sum_congr rfl fun r _ => by rw [rowAt, dif_pos r.isLt]

/-! ## The accumulators after each point, over the extended reals -/

section Acc
variable (V : (c : Dev nD) → (b : Ref sig .tc) → Buf (Elt Ideal) ((c : Thread nD τ).loc b))

/-- An index of the [1,64] row is (0, its column). -/
theorem idx_row (i : S1x64.Idx) : i = ix2 (0 : Fin 1) (i 1 : Fin 64) :=
  (eq_ix2 i).trans (congrArg (fun a : Fin 1 => ix2 a (i 1 : Fin 64)) (Subsingleton.elim _ _))

/-- The block's column sum, in the array's rows. -/
theorem blk_sum (c : Dev nD) (x : S100000x64.Idx → EReal) (hx : V c (Pipeline.arrRef spec4 0) = x) (t : Fin cfg4.N) (j : Fin 64) :
    ∑ r : Fin 20000, xblk V c t (ix2 r j) = ∑ r : Fin 20000, rowAt x j (20000 * t.val + r.val) := by
  have hN : t.val < 5 := lt_of_lt_of_eq t.isLt (show cfg4.N = 5 from N_4)
  refine Finset.sum_congr rfl fun r _ => ?_
  have hr : 20000 * t.val + r.val < 100000 := by have := r.isLt; omega
  rw [rowAt, dif_pos hr]
  exact (xblk_apply V c t r j hr).trans (congrFun hx _)

theorem blk_sum_sq (c : Dev nD) (x : S100000x64.Idx → EReal) (hx : V c (Pipeline.arrRef spec4 0) = x) (t : Fin cfg4.N) (j : Fin 64) :
    ∑ r : Fin 20000, xblk V c t (ix2 r j) * xblk V c t (ix2 r j)
      = ∑ r : Fin 20000, rowAt x j (20000 * t.val + r.val) * rowAt x j (20000 * t.val + r.val) := by
  have hN : t.val < 5 := lt_of_lt_of_eq t.isLt (show cfg4.N = 5 from N_4)
  refine Finset.sum_congr rfl fun r _ => ?_
  have hr : 20000 * t.val + r.val < 100000 := by have := r.isLt; omega
  rw [rowAt, dif_pos hr]
  exact congrArg (fun v : EReal => v * v) ((xblk_apply V c t r j hr).trans (congrFun hx _))

/-- The sum payload on the block at point t, at any entry of the row. -/
theorem paySum_blk (c : Dev nD) (x : S100000x64.Idx → EReal) (hx : V c (Pipeline.arrRef spec4 0) = x) (t : Fin cfg4.N)
    (acc : Vec Ideal S1x64 .f32) (i : S1x64.Idx) :
    k4_pay4 (xblk V c t) acc i = acc i + ∑ r : Fin 20000, rowAt x (i 1 : Fin 64) (20000 * t.val + r.val) := by
  rw [idx_row i]
  exact (paySum_apply (xblk V c t) acc (i 1 : Fin 64)).trans (congrArg (acc (ix2 (0 : Fin 1) (i 1 : Fin 64)) + ·) (blk_sum V c x hx t (i 1 : Fin 64)))

theorem paySq_blk (c : Dev nD) (x : S100000x64.Idx → EReal) (hx : V c (Pipeline.arrRef spec4 0) = x) (t : Fin cfg4.N)
    (acc : Vec Ideal S1x64 .f32) (i : S1x64.Idx) :
    k4_pay5 (xblk V c t) acc i
      = acc i + ∑ r : Fin 20000, rowAt x (i 1 : Fin 64) (20000 * t.val + r.val) * rowAt x (i 1 : Fin 64) (20000 * t.val + r.val) := by
  rw [idx_row i]
  exact (paySq_apply (xblk V c t) acc (i 1 : Fin 64)).trans (congrArg (acc (ix2 (0 : Fin 1) (i 1 : Fin 64)) + ·) (blk_sum_sq V c x hx t (i 1 : Fin 64)))

end Acc

section Fold
variable (V : (c : Dev nD) → (b : Ref sig .tc) → Buf (Elt Ideal) ((c : Thread nD τ).loc b))

/-- At a point that resets, the first accumulator holds the sum payload of the block over the zero row. -/
theorem acc1_reset (c : Dev nD) (t : Fin cfg4.N) (h0 : t.val % 5 = 0) :
    (outsAt4 V c t.val t.isLt).1 = k4_pay4 (xblk V c t) (k4_pay1 (F := Ideal)) := by
  rw [outsAt4_A V c t h0]
  dsimp only
  exact out_A_1 (F := Ideal) c (grid4.coords t) (ms4_0 t) (hs4_0 t) (ms4_1 t) (hs4_1 t) (ms4_2 t) (hs4_2 t)
    ((hcond4_0 t).mpr h0) (iblk4 V c 0 t)

theorem acc2_reset (c : Dev nD) (t : Fin cfg4.N) (h0 : t.val % 5 = 0) :
    (outsAt4 V c t.val t.isLt).2 = k4_pay5 (xblk V c t) (k4_pay2 (F := Ideal)) := by
  rw [outsAt4_A V c t h0]
  dsimp only
  exact out_A_2 (F := Ideal) c (grid4.coords t) (ms4_0 t) (hs4_0 t) (ms4_1 t) (hs4_1 t) (ms4_2 t) (hs4_2 t)
    ((hcond4_0 t).mpr h0) (iblk4 V c 0 t)

/-- At any other point it holds the sum payload of the block over what the point before left. -/
theorem acc1_step (c : Dev nD) (t : Fin cfg4.N) (h0 : ¬t.val % 5 = 0) (hp : t.val - 1 < cfg4.N) :
    (outsAt4 V c t.val t.isLt).1 = k4_pay4 (xblk V c t) (outsAt4 V c (t.val - 1) hp).1 := by
  rw [outsAt4_B V c t h0]
  dsimp only
  exact out_B_1 (F := Ideal) c (grid4.coords t) (ms4_0 t) (hs4_0 t) (ms4_1 t) (hs4_1 t) (ms4_2 t) (hs4_2 t)
    (fun h => h0 ((hcond4_0 t).mp h)) (iblk4 V c 0 t) (outsAt4 V c (t.val - 1) hp).1 (outsAt4 V c (t.val - 1) hp).2

theorem acc2_step (c : Dev nD) (t : Fin cfg4.N) (h0 : ¬t.val % 5 = 0) (hp : t.val - 1 < cfg4.N) :
    (outsAt4 V c t.val t.isLt).2 = k4_pay5 (xblk V c t) (outsAt4 V c (t.val - 1) hp).2 := by
  rw [outsAt4_B V c t h0]
  dsimp only
  exact out_B_2 (F := Ideal) c (grid4.coords t) (ms4_0 t) (hs4_0 t) (ms4_1 t) (hs4_1 t) (ms4_2 t) (hs4_2 t)
    (fun h => h0 ((hcond4_0 t).mp h)) (iblk4 V c 0 t) (outsAt4 V c (t.val - 1) hp).1 (outsAt4 V c (t.val - 1) hp).2

/-- After the last point the first accumulator holds the column sums of the array: the run of five points is one fold
    (reset, then four steps), each point adding its block's column sums. -/
theorem acc1_last (c : Dev nD) (x : S100000x64.Idx → EReal) (hx : V c (Pipeline.arrRef spec4 0) = x) (h : 4 < cfg4.N)
    (i : S1x64.Idx) : (outsAt4 V c 4 h).1 i = KSpec.colSum x i := by
  have e := Pipeline.eq_accAt (fun n hn => (outsAt4 V c n hn).1) 5
    (fun n hn => k4_pay4 (xblk V c ⟨n, hn⟩) (k4_pay1 (F := Ideal))) (fun n hn a => k4_pay4 (xblk V c ⟨n, hn⟩) a)
    (fun n hn h0 => acc1_reset V c ⟨n, hn⟩ h0)
    (fun n hn h0 => acc1_step V c ⟨n + 1, hn⟩ h0 (Nat.lt_of_succ_lt hn)) 0 4 (by decide) h
  have s := Pipeline.accAt_add_apply
    (fun n hn => k4_pay4 (xblk V c ⟨n, hn⟩) (k4_pay1 (F := Ideal))) (fun n hn a => k4_pay4 (xblk V c ⟨n, hn⟩) a)
    (fun _ => (0 : EReal)) (fun n i => ∑ r : Fin 20000, rowAt x (i 1 : Fin 64) (20000 * n + r.val)) 0 4
    (fun hn i => (paySum_blk V c x hx ⟨0, hn⟩ (k4_pay1 (F := Ideal)) i).trans (congrArg (· + _) (pay1_apply i)))
    (fun n hn a i _ _ => paySum_blk V c x hx ⟨n, hn⟩ a i) 4 le_rfl h i
  refine (congrFun e i).trans (s.trans ((zero_add _).trans ?_))
  refine (Finset.sum_congr rfl fun s _ => ?_).trans ((sum_rows x (i 1 : Fin 64)).trans (KSpec.colSum_apply' x i).symm)
  rw [Nat.zero_add]

/-- And the second the column sums of squares. -/
theorem acc2_last (c : Dev nD) (x : S100000x64.Idx → EReal) (hx : V c (Pipeline.arrRef spec4 0) = x) (h : 4 < cfg4.N)
    (i : S1x64.Idx) :
    (outsAt4 V c 4 h).2 i = KSpec.colSumSq x i := by
  have e := Pipeline.eq_accAt (fun n hn => (outsAt4 V c n hn).2) 5
    (fun n hn => k4_pay5 (xblk V c ⟨n, hn⟩) (k4_pay2 (F := Ideal))) (fun n hn a => k4_pay5 (xblk V c ⟨n, hn⟩) a)
    (fun n hn h0 => acc2_reset V c ⟨n, hn⟩ h0)
    (fun n hn h0 => acc2_step V c ⟨n + 1, hn⟩ h0 (Nat.lt_of_succ_lt hn)) 0 4 (by decide) h
  have s := Pipeline.accAt_add_apply
    (fun n hn => k4_pay5 (xblk V c ⟨n, hn⟩) (k4_pay2 (F := Ideal))) (fun n hn a => k4_pay5 (xblk V c ⟨n, hn⟩) a)
    (fun _ => (0 : EReal))
    (fun n i => ∑ r : Fin 20000, rowAt x (i 1 : Fin 64) (20000 * n + r.val) * rowAt x (i 1 : Fin 64) (20000 * n + r.val)) 0 4
    (fun hn i => (paySq_blk V c x hx ⟨0, hn⟩ (k4_pay2 (F := Ideal)) i).trans (congrArg (· + _) (pay2_apply i)))
    (fun n hn a i _ _ => paySq_blk V c x hx ⟨n, hn⟩ a i) 4 le_rfl h i
  refine (congrFun e i).trans (s.trans ((zero_add _).trans ?_))
  refine (Finset.sum_congr rfl fun s _ => ?_).trans ((sum_rows_sq x (i 1 : Fin 64)).trans (KSpec.colSumSq_apply' x i).symm)
  rw [Nat.zero_add]

end Fold

/-! ## The two result arrays after the run -/

section Final
variable (V : (c : Dev nD) → (b : Ref sig .tc) → Buf (Elt Ideal) ((c : Thread nD τ).loc b))

/-- The accumulators' block index never moves: (0, 0) at every point, decided over the grid. -/
theorem index4_1 : ∀ t : Fin cfg4.N, win4_1.index t 0 = 0 ∧ win4_1.index t 1 = 0 :=
  (by decide +kernel : ∀ t : Fin grid4.N, win4_1.index t 0 = 0 ∧ win4_1.index t 1 = 0)
theorem index4_2 : ∀ t : Fin cfg4.N, win4_2.index t 0 = 0 ∧ win4_2.index t 1 = 0 :=
  (by decide +kernel : ∀ t : Fin grid4.N, win4_2.index t 0 = 0 ∧ win4_2.index t 1 = 0)

/-- So an entry of the first accumulator's block sits in its array at its own coordinates, -/
theorem emb4_1 (t : Fin cfg4.N) (y : S1x64.Idx) : ((cfg4.win 1).blk t).view.emb y = y := by
  refine Shape.idx_ext₂ ?_ ?_
  · show win4_1.index t 0 * 1 + 1 * (y 0).val = (y 0).val
    rw [(index4_1 t).1]; omega
  · show win4_1.index t 1 * 64 + 1 * (y 1).val = (y 1).val
    rw [(index4_1 t).2]; omega
/-- and of the second's. -/
theorem emb4_2 (t : Fin cfg4.N) (y : S1x64.Idx) : ((cfg4.win 2).blk t).view.emb y = y := by
  refine Shape.idx_ext₂ ?_ ?_
  · show win4_2.index t 0 * 1 + 1 * (y 0).val = (y 0).val
    rw [(index4_2 t).1]; omega
  · show win4_2.index t 1 * 64 + 1 * (y 1).val = (y 1).val
    rw [(index4_2 t).2]; omega

/-- An entry of the column sums depends on its column only. -/
theorem colSum_congr (x : S100000x64.Idx → EReal) (i i' : S1x64.Idx) (h : (i 1).val = (i' 1).val) :
    KSpec.colSum x i = KSpec.colSum x i' :=
  congrArg (fun j : Fin 64 => ∑ r : Fin 100000, x (ix2 r j)) (Fin.ext h)
theorem colSumSq_congr (x : S100000x64.Idx → EReal) (i i' : S1x64.Idx) (h : (i 1).val = (i' 1).val) :
    KSpec.colSumSq x i = KSpec.colSumSq x i' :=
  congrArg (fun j : Fin 64 => ∑ r : Fin 100000, x (ix2 r j) * x (ix2 r j)) (Fin.ext h)

/-- Only the last point writes the accumulators back. -/
theorem last_of_flush (t : Fin cfg4.N) (h : t.val % 5 = 4) : t = t4_4 :=
  Fin.ext (by have := lt_of_lt_of_eq t.isLt (show cfg4.N = 5 from N_4); show t.val = 4; omega)

/-- After the run the two result arrays hold the column sums and the column sums of squares of the array the region
    was entered with. -/
theorem stats4_val (c : Dev nD) (x : S100000x64.Idx → EReal) (hx : V c (Pipeline.arrRef spec4 0) = x) :
    (dat4 V c).arrAt 1 cfg4.N = KSpec.colSum x ∧ (dat4 V c).arrAt 2 cfg4.N = KSpec.colSumSq x := by
  constructor
  · refine (dat4 V c).arrAt_eq_of_cover 1 (KSpec.colSum x) (fun t hf => ?_) fun i => ⟨t4_4, (flush4_1 t4_4).mpr rfl, ?_⟩
    · obtain rfl := last_of_flush t ((flush4_1 t).mp hf)
      funext y
      rw [View.read_apply]
      refine ((congrFun (after4_1 V c t4_4) _).trans (acc1_last V c x hx t4_4.isLt _)).trans ?_
      refine Eq.trans ?_ (cast_eq _ _).symm
      refine colSum_congr x _ _ ?_
      show (y 1).val = win4_1.index t4_4 1 * 64 + 1 * (y 1).val
      rw [(index4_1 t4_4).2]; omega
    · exact (emb4_1 t4_4 i) ▸ View.emb_mem_set _ _
  · refine (dat4 V c).arrAt_eq_of_cover 2 (KSpec.colSumSq x) (fun t hf => ?_) fun i => ⟨t4_4, (flush4_2 t4_4).mpr rfl, ?_⟩
    · obtain rfl := last_of_flush t ((flush4_2 t).mp hf)
      funext y
      rw [View.read_apply]
      refine ((congrFun (after4_2 V c t4_4) _).trans (acc2_last V c x hx t4_4.isLt _)).trans ?_
      refine Eq.trans ?_ (cast_eq _ _).symm
      refine colSumSq_congr x _ _ ?_
      show (y 1).val = win4_2.index t4_4 1 * 64 + 1 * (y 1).val
      rw [(index4_2 t4_4).2]; omega
    · exact (emb4_2 t4_4 i) ▸ View.emb_mem_set _ _

end Final

end Cert.KernelIdeal.KStats4
-- ==== Proof.KStats6.lean ====
/-
  REGION 6 of the kernel program (the statistics kernel over the [100000,64] array, five blocks of 20000 rows): after the
  run its two [1,64] result arrays hold the column sums and the column sums of squares of the array the region was entered
  with. The two accumulators' block index never moves; the first point zeroes them and adds its block's column sums, every
  later point adds its block's to what the point before left, and the last point alone writes them back. Over the extended
  reals the five-point fold is the sum over the five blocks, and the rows 20000 t + r (t < 5, r < 20000) are the 100000 rows.
-/
import proofs.«416283_j44736379355415_1_alg».proof.Proof.Gen.KernelIdeal.Frame
import proofs.«416283_j44736379355415_1_alg».proof.Proof.KSpec
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KStats6

open Cert.KernelIdeal Cert.KernelIdeal.Gen

variable {F : FTy → Type} [FloatOps F]

/-- The zero offsets of a store or load through a whole [1,64] or [20000,64] buffer. -/
theorem hz : (![0, 0] : Fin 2 → Nat) = fun _ => 0 := funext fun a => by fin_cases a <;> rfl

/-! ## What each control case leaves in the two accumulators' staging buffers -/

/-- Later points: the first accumulator's one covering store holds the payload of the block and of what the buffer held. -/
theorem out_B_1 (c : Dev nD) (i : grid6.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond6_0 i) (x : Vec F S20000x64 .f32) (xo1 xo2 : Vec F S1x64 .f32) :
    out6_B_1 c i a1 h1 a2 h2 a3 h3 hc x xo1 xo2 = k6_pay4 x xo1 := by
  unfold out6_B_1
  rw [View.read_writes_eq_canon _ _ _ (cover6_B_1 c i a1 h1 a2 h2 a3 h3 hc x xo1 xo2)]
  unfold kernelRun6_B
  dsimp only
  sl_unfold_words
  rw [View.canon_unit_zero (S := S1x64) hz]
  simp only [View.readAt_eq_ld, h1.read_unread, h2.read_unread, View.ld_unit_zero (S := S20000x64) hz,
    View.ld_unit_zero (S := S1x64) hz]

/-- Later points: the second accumulator likewise, with the payload of the squares. -/
theorem out_B_2 (c : Dev nD) (i : grid6.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond6_0 i) (x : Vec F S20000x64 .f32) (xo1 xo2 : Vec F S1x64 .f32) :
    out6_B_2 c i a1 h1 a2 h2 a3 h3 hc x xo1 xo2 = k6_pay5 x xo2 := by
  unfold out6_B_2
  rw [View.read_writes_eq_canon _ _ _ (cover6_B_2 c i a1 h1 a2 h2 a3 h3 hc x xo1 xo2)]
  unfold kernelRun6_B
  dsimp only
  sl_unfold_words
  rw [View.canon_unit_zero (S := S1x64) hz]
  simp only [View.readAt_eq_ld, h1.read_unread, h3.read_unread, View.ld_unit_zero (S := S20000x64) hz,
    View.ld_unit_zero (S := S1x64) hz]

/-- The first point: the zero row is stored, read back, and the block's payload over it is stored last. -/
theorem out_A_1 (c : Dev nD) (i : grid6.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond6_0 i) (x : Vec F S20000x64 .f32) :
    out6_A_1 c i a1 h1 a2 h2 a3 h3 hc x = k6_pay4 x k6_pay1 := by
  unfold out6_A_1
  rw [View.read_writes_eq_canon _ _ _ (cover6_A_1 c i a1 h1 a2 h2 a3 h3 hc x)]
  unfold kernelRun6_A
  dsimp only
  sl_unfold_words
  rw [View.canon_cons_unit_zero (S := S1x64) hz, View.readCov_unit_zero (S := S1x64) _ hz]
  simp only [View.readAt_eq_ld, h1.read_unread, View.ld_unit_zero (S := S20000x64) hz]

/-- The first point, second accumulator. -/
theorem out_A_2 (c : Dev nD) (i : grid6.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond6_0 i) (x : Vec F S20000x64 .f32) :
    out6_A_2 c i a1 h1 a2 h2 a3 h3 hc x = k6_pay5 x k6_pay2 := by
  unfold out6_A_2
  rw [View.read_writes_eq_canon _ _ _ (cover6_A_2 c i a1 h1 a2 h2 a3 h3 hc x)]
  unfold kernelRun6_A
  dsimp only
  sl_unfold_words
  rw [View.canon_cons_unit_zero (S := S1x64) hz, View.readCov_unit_zero (S := S1x64) _ hz]
  simp only [View.readAt_eq_ld, h1.read_unread, View.ld_unit_zero (S := S20000x64) hz]

/-! ## The payloads over the extended reals, at an entry of the row -/

/-- The index the reduction over the rows inserts at row r over column j is (r, j). -/
theorem lift_eq (j : Fin 64) (r : Fin 20000) :
    reduces_S20000x64_S64.lift (fun a => (ix2 (0 : Fin 1) j : S1x64.Idx) a.succ) r = (ix2 r j : S20000x64.Idx) := by
  funext a
  match a with
  | ⟨0, _⟩ => rfl
  | ⟨1, _⟩ => rfl

/-- The body passes the loaded block through a shape cast to its own shape before reducing it: the block itself. -/
theorem blk_cast {F : FTy → Type} [FloatOps F] (x : Vec F S20000x64 .f32) : k6_pay3 x = x :=
  shapeCast_self x shapeCasts_S20000x64_S20000x64

theorem pay1_apply (i : S1x64.Idx) : (k6_pay1 (F := Ideal)) i = 0 := Ideal.ofBits_zero_f32
theorem pay2_apply (i : S1x64.Idx) : (k6_pay2 (F := Ideal)) i = 0 := Ideal.ofBits_zero_f32

/-- The sum payload: the buffer's entry plus the block's column sum. -/
theorem paySum_apply (x : Vec Ideal S20000x64 .f32) (acc : Vec Ideal S1x64 .f32) (j : Fin 64) :
    k6_pay4 x acc (ix2 (0 : Fin 1) j) = acc (ix2 (0 : Fin 1) j) + ∑ r : Fin 20000, x (ix2 r j) := by
  unfold k6_pay4
  refine (addf_apply _ _ _).trans ?_
  refine congrArg₂ (· + ·) (congrFun (shapeCast_self acc shapeCasts_S1x64_S1x64) _) ?_
  refine (shapeCast_addUnit_apply ![64] _ shapeCasts_S64_S1x64 (ix2 (0 : Fin 1) j)).trans ?_
  refine (Ideal.multiReduction_add_single (k6_pay3 x) _ reduces_S20000x64_S64 (.inl rfl) rfl _).trans ?_
  exact Finset.sum_congr rfl fun r _ => (congrFun (blk_cast x) _).trans (congrArg x (lift_eq j r))

/-- The sum-of-squares payload: the buffer's entry plus the block's column sum of squares. -/
theorem paySq_apply (x : Vec Ideal S20000x64 .f32) (acc : Vec Ideal S1x64 .f32) (j : Fin 64) :
    k6_pay5 x acc (ix2 (0 : Fin 1) j) = acc (ix2 (0 : Fin 1) j) + ∑ r : Fin 20000, x (ix2 r j) * x (ix2 r j) := by
  unfold k6_pay5
  refine (addf_apply _ _ _).trans ?_
  refine congrArg₂ (· + ·) (congrFun (shapeCast_self acc shapeCasts_S1x64_S1x64) _) ?_
  refine (shapeCast_addUnit_apply ![64] _ shapeCasts_S64_S1x64 (ix2 (0 : Fin 1) j)).trans ?_
  refine (Ideal.multiReduction_add_single (mulf (k6_pay3 x) (k6_pay3 x)) _ reduces_S20000x64_S64 (.inl rfl) rfl _).trans ?_
  exact Finset.sum_congr rfl fun r _ =>
    congrArg (fun v : EReal => v * v) ((congrFun (blk_cast x) _).trans (congrArg x (lift_eq j r)))

/-! ## The input block is a run of 20000 rows of the array -/

section Block
variable (V : (c : Dev nD) → (b : Ref sig .tc) → Buf (Elt F) ((c : Thread nD τ).loc b))

/-- The input block at point t, at its literal type. -/
abbrev xblk (c : Dev nD) (t : Fin cfg6.N) : Vec F S20000x64 .f32 := iblk6 V c 0 t

/-- The input window's block index at point t is (t, 0): decided over the grid. -/
theorem index6_0 : ∀ t : Fin cfg6.N, win6_0.index t 0 = t.val ∧ win6_0.index t 1 = 0 :=
  (by decide +kernel : ∀ t : Fin grid6.N, win6_0.index t 0 = t.val ∧ win6_0.index t 1 = 0)

/-- Entry (r, j) of the block at point t is entry (20000 t + r, j) of the array the window reads. -/
theorem xblk_apply (c : Dev nD) (t : Fin cfg6.N) (r : Fin 20000) (j : Fin 64) (hr : 20000 * t.val + r.val < 100000) :
    xblk V c t (ix2 r j)
      = (V c (Pipeline.arrRef spec6 0) : S100000x64.Idx → Elt F .f32) (ix2 ⟨20000 * t.val + r.val, hr⟩ j) := by
  unfold xblk iblk6
  rw [View.read_apply]
  refine congrArg (V c (Pipeline.arrRef spec6 0) : S100000x64.Idx → Elt F .f32) (Shape.idx_ext₂ ?_ ?_)
  · show win6_0.index t 0 * 20000 + 1 * r.val = 20000 * t.val + r.val
    rw [(index6_0 t).1]; omega
  · show win6_0.index t 1 * 64 + 1 * j.val = j.val
    rw [(index6_0 t).2]; omega

end Block

/-! ## Sums over the rows, block by block -/

/-- Column j of the array as a sequence of rows, zero past the last row. -/
def rowAt (x : S100000x64.Idx → EReal) (j : Fin 64) (k : ℕ) : EReal :=
  if h : k < 100000 then x (ix2 ⟨k, h⟩ j) else 0

/-- The sum over m consecutive blocks of 20000 terms is the sum over the first 20000 m terms. -/
theorem sum_blocks (f : ℕ → EReal) :
    ∀ m : ℕ, ∑ s ∈ Finset.range m, ∑ r : Fin 20000, f (20000 * s + r.val) = ∑ k ∈ Finset.range (20000 * m), f k
  | 0 => by rw [Finset.sum_range_zero, Nat.mul_zero, Finset.sum_range_zero]
  | m + 1 => by
    rw [Finset.sum_range_succ, sum_blocks f m, Nat.mul_succ, Finset.sum_range_add,
      Fin.sum_univ_eq_sum_range (fun r => f (20000 * m + r)) 20000]

/-- Five blocks of 20000 rows are the 100000 rows. -/
theorem sum_rows (x : S100000x64.Idx → EReal) (j : Fin 64) :
    ∑ s ∈ Finset.range 5, ∑ r : Fin 20000, rowAt x j (20000 * s + r.val) = ∑ r : Fin 100000, x (ix2 r j) := by
  rw [sum_blocks (rowAt x j) 5]
  show ∑ k ∈ Finset.range 100000, rowAt x j k = _
  rw [Finset.sum_range]
  exact Finset.sum_congr rfl fun r _ => dif_pos r.isLt

theorem sum_rows_sq (x : S100000x64.Idx → EReal) (j : Fin 64) :
    ∑ s ∈ Finset.range 5, ∑ r : Fin 20000, rowAt x j (20000 * s + r.val) * rowAt x j (20000 * s + r.val)
      = ∑ r : Fin 100000, x (ix2 r j) * x (ix2 r j) := by
  rw [sum_blocks (fun k => rowAt x j k * rowAt x j k) 5]
  show ∑ k ∈ Finset.range 100000, rowAt x j k * rowAt x j k = _
  rw [Finset.sum_range]
  exact Finset.sum_congr rfl fun r _ => by rw [rowAt, dif_pos r.isLt]

/-! ## The accumulators after each point, over the extended reals -/

section Acc
variable (V : (c : Dev nD) → (b : Ref sig .tc) → Buf (Elt Ideal) ((c : Thread nD τ).loc b))

/-- An index of the [1,64] row is (0, its column). -/
theorem idx_row (i : S1x64.Idx) : i = ix2 (0 : Fin 1) (i 1 : Fin 64) :=
  (eq_ix2 i).trans (congrArg (fun a : Fin 1 => ix2 a (i 1 : Fin 64)) (Subsingleton.elim _ _))

/-- The block's column sum, in the array's rows. -/
theorem blk_sum (c : Dev nD) (x : S100000x64.Idx → EReal) (hx : V c (Pipeline.arrRef spec6 0) = x) (t : Fin cfg6.N) (j : Fin 64) :
    ∑ r : Fin 20000, xblk V c t (ix2 r j) = ∑ r : Fin 20000, rowAt x j (20000 * t.val + r.val) := by
  have hN : t.val < 5 := lt_of_lt_of_eq t.isLt (show cfg6.N = 5 from N_6)
  refine Finset.sum_congr rfl fun r _ => ?_
  have hr : 20000 * t.val + r.val < 100000 := by have := r.isLt; omega
  rw [rowAt, dif_pos hr]
  exact (xblk_apply V c t r j hr).trans (congrFun hx _)

theorem blk_sum_sq (c : Dev nD) (x : S100000x64.Idx → EReal) (hx : V c (Pipeline.arrRef spec6 0) = x) (t : Fin cfg6.N) (j : Fin 64) :
    ∑ r : Fin 20000, xblk V c t (ix2 r j) * xblk V c t (ix2 r j)
      = ∑ r : Fin 20000, rowAt x j (20000 * t.val + r.val) * rowAt x j (20000 * t.val + r.val) := by
  have hN : t.val < 5 := lt_of_lt_of_eq t.isLt (show cfg6.N = 5 from N_6)
  refine Finset.sum_congr rfl fun r _ => ?_
  have hr : 20000 * t.val + r.val < 100000 := by have := r.isLt; omega
  rw [rowAt, dif_pos hr]
  exact congrArg (fun v : EReal => v * v) ((xblk_apply V c t r j hr).trans (congrFun hx _))

/-- The sum payload on the block at point t, at any entry of the row. -/
theorem paySum_blk (c : Dev nD) (x : S100000x64.Idx → EReal) (hx : V c (Pipeline.arrRef spec6 0) = x) (t : Fin cfg6.N)
    (acc : Vec Ideal S1x64 .f32) (i : S1x64.Idx) :
    k6_pay4 (xblk V c t) acc i = acc i + ∑ r : Fin 20000, rowAt x (i 1 : Fin 64) (20000 * t.val + r.val) := by
  rw [idx_row i]
  exact (paySum_apply (xblk V c t) acc (i 1 : Fin 64)).trans (congrArg (acc (ix2 (0 : Fin 1) (i 1 : Fin 64)) + ·) (blk_sum V c x hx t (i 1 : Fin 64)))

theorem paySq_blk (c : Dev nD) (x : S100000x64.Idx → EReal) (hx : V c (Pipeline.arrRef spec6 0) = x) (t : Fin cfg6.N)
    (acc : Vec Ideal S1x64 .f32) (i : S1x64.Idx) :
    k6_pay5 (xblk V c t) acc i
      = acc i + ∑ r : Fin 20000, rowAt x (i 1 : Fin 64) (20000 * t.val + r.val) * rowAt x (i 1 : Fin 64) (20000 * t.val + r.val) := by
  rw [idx_row i]
  exact (paySq_apply (xblk V c t) acc (i 1 : Fin 64)).trans (congrArg (acc (ix2 (0 : Fin 1) (i 1 : Fin 64)) + ·) (blk_sum_sq V c x hx t (i 1 : Fin 64)))

end Acc

section Fold
variable (V : (c : Dev nD) → (b : Ref sig .tc) → Buf (Elt Ideal) ((c : Thread nD τ).loc b))

/-- At a point that resets, the first accumulator holds the sum payload of the block over the zero row. -/
theorem acc1_reset (c : Dev nD) (t : Fin cfg6.N) (h0 : t.val % 5 = 0) :
    (outsAt6 V c t.val t.isLt).1 = k6_pay4 (xblk V c t) (k6_pay1 (F := Ideal)) := by
  rw [outsAt6_A V c t h0]
  dsimp only
  exact out_A_1 (F := Ideal) c (grid6.coords t) (ms6_0 t) (hs6_0 t) (ms6_1 t) (hs6_1 t) (ms6_2 t) (hs6_2 t)
    ((hcond6_0 t).mpr h0) (iblk6 V c 0 t)

theorem acc2_reset (c : Dev nD) (t : Fin cfg6.N) (h0 : t.val % 5 = 0) :
    (outsAt6 V c t.val t.isLt).2 = k6_pay5 (xblk V c t) (k6_pay2 (F := Ideal)) := by
  rw [outsAt6_A V c t h0]
  dsimp only
  exact out_A_2 (F := Ideal) c (grid6.coords t) (ms6_0 t) (hs6_0 t) (ms6_1 t) (hs6_1 t) (ms6_2 t) (hs6_2 t)
    ((hcond6_0 t).mpr h0) (iblk6 V c 0 t)

/-- At any other point it holds the sum payload of the block over what the point before left. -/
theorem acc1_step (c : Dev nD) (t : Fin cfg6.N) (h0 : ¬t.val % 5 = 0) (hp : t.val - 1 < cfg6.N) :
    (outsAt6 V c t.val t.isLt).1 = k6_pay4 (xblk V c t) (outsAt6 V c (t.val - 1) hp).1 := by
  rw [outsAt6_B V c t h0]
  dsimp only
  exact out_B_1 (F := Ideal) c (grid6.coords t) (ms6_0 t) (hs6_0 t) (ms6_1 t) (hs6_1 t) (ms6_2 t) (hs6_2 t)
    (fun h => h0 ((hcond6_0 t).mp h)) (iblk6 V c 0 t) (outsAt6 V c (t.val - 1) hp).1 (outsAt6 V c (t.val - 1) hp).2

theorem acc2_step (c : Dev nD) (t : Fin cfg6.N) (h0 : ¬t.val % 5 = 0) (hp : t.val - 1 < cfg6.N) :
    (outsAt6 V c t.val t.isLt).2 = k6_pay5 (xblk V c t) (outsAt6 V c (t.val - 1) hp).2 := by
  rw [outsAt6_B V c t h0]
  dsimp only
  exact out_B_2 (F := Ideal) c (grid6.coords t) (ms6_0 t) (hs6_0 t) (ms6_1 t) (hs6_1 t) (ms6_2 t) (hs6_2 t)
    (fun h => h0 ((hcond6_0 t).mp h)) (iblk6 V c 0 t) (outsAt6 V c (t.val - 1) hp).1 (outsAt6 V c (t.val - 1) hp).2

/-- After the last point the first accumulator holds the column sums of the array: the run of five points is one fold
    (reset, then four steps), each point adding its block's column sums. -/
theorem acc1_last (c : Dev nD) (x : S100000x64.Idx → EReal) (hx : V c (Pipeline.arrRef spec6 0) = x) (h : 4 < cfg6.N)
    (i : S1x64.Idx) : (outsAt6 V c 4 h).1 i = KSpec.colSum x i := by
  have e := Pipeline.eq_accAt (fun n hn => (outsAt6 V c n hn).1) 5
    (fun n hn => k6_pay4 (xblk V c ⟨n, hn⟩) (k6_pay1 (F := Ideal))) (fun n hn a => k6_pay4 (xblk V c ⟨n, hn⟩) a)
    (fun n hn h0 => acc1_reset V c ⟨n, hn⟩ h0)
    (fun n hn h0 => acc1_step V c ⟨n + 1, hn⟩ h0 (Nat.lt_of_succ_lt hn)) 0 4 (by decide) h
  have s := Pipeline.accAt_add_apply
    (fun n hn => k6_pay4 (xblk V c ⟨n, hn⟩) (k6_pay1 (F := Ideal))) (fun n hn a => k6_pay4 (xblk V c ⟨n, hn⟩) a)
    (fun _ => (0 : EReal)) (fun n i => ∑ r : Fin 20000, rowAt x (i 1 : Fin 64) (20000 * n + r.val)) 0 4
    (fun hn i => (paySum_blk V c x hx ⟨0, hn⟩ (k6_pay1 (F := Ideal)) i).trans (congrArg (· + _) (pay1_apply i)))
    (fun n hn a i _ _ => paySum_blk V c x hx ⟨n, hn⟩ a i) 4 le_rfl h i
  refine (congrFun e i).trans (s.trans ((zero_add _).trans ?_))
  refine (Finset.sum_congr rfl fun s _ => ?_).trans ((sum_rows x (i 1 : Fin 64)).trans (KSpec.colSum_apply' x i).symm)
  rw [Nat.zero_add]

/-- And the second the column sums of squares. -/
theorem acc2_last (c : Dev nD) (x : S100000x64.Idx → EReal) (hx : V c (Pipeline.arrRef spec6 0) = x) (h : 4 < cfg6.N)
    (i : S1x64.Idx) :
    (outsAt6 V c 4 h).2 i = KSpec.colSumSq x i := by
  have e := Pipeline.eq_accAt (fun n hn => (outsAt6 V c n hn).2) 5
    (fun n hn => k6_pay5 (xblk V c ⟨n, hn⟩) (k6_pay2 (F := Ideal))) (fun n hn a => k6_pay5 (xblk V c ⟨n, hn⟩) a)
    (fun n hn h0 => acc2_reset V c ⟨n, hn⟩ h0)
    (fun n hn h0 => acc2_step V c ⟨n + 1, hn⟩ h0 (Nat.lt_of_succ_lt hn)) 0 4 (by decide) h
  have s := Pipeline.accAt_add_apply
    (fun n hn => k6_pay5 (xblk V c ⟨n, hn⟩) (k6_pay2 (F := Ideal))) (fun n hn a => k6_pay5 (xblk V c ⟨n, hn⟩) a)
    (fun _ => (0 : EReal))
    (fun n i => ∑ r : Fin 20000, rowAt x (i 1 : Fin 64) (20000 * n + r.val) * rowAt x (i 1 : Fin 64) (20000 * n + r.val)) 0 4
    (fun hn i => (paySq_blk V c x hx ⟨0, hn⟩ (k6_pay2 (F := Ideal)) i).trans (congrArg (· + _) (pay2_apply i)))
    (fun n hn a i _ _ => paySq_blk V c x hx ⟨n, hn⟩ a i) 4 le_rfl h i
  refine (congrFun e i).trans (s.trans ((zero_add _).trans ?_))
  refine (Finset.sum_congr rfl fun s _ => ?_).trans ((sum_rows_sq x (i 1 : Fin 64)).trans (KSpec.colSumSq_apply' x i).symm)
  rw [Nat.zero_add]

end Fold

/-! ## The two result arrays after the run -/

section Final
variable (V : (c : Dev nD) → (b : Ref sig .tc) → Buf (Elt Ideal) ((c : Thread nD τ).loc b))

/-- The accumulators' block index never moves: (0, 0) at every point, decided over the grid. -/
theorem index6_1 : ∀ t : Fin cfg6.N, win6_1.index t 0 = 0 ∧ win6_1.index t 1 = 0 :=
  (by decide +kernel : ∀ t : Fin grid6.N, win6_1.index t 0 = 0 ∧ win6_1.index t 1 = 0)
theorem index6_2 : ∀ t : Fin cfg6.N, win6_2.index t 0 = 0 ∧ win6_2.index t 1 = 0 :=
  (by decide +kernel : ∀ t : Fin grid6.N, win6_2.index t 0 = 0 ∧ win6_2.index t 1 = 0)

/-- So an entry of the first accumulator's block sits in its array at its own coordinates, -/
theorem emb6_1 (t : Fin cfg6.N) (y : S1x64.Idx) : ((cfg6.win 1).blk t).view.emb y = y := by
  refine Shape.idx_ext₂ ?_ ?_
  · show win6_1.index t 0 * 1 + 1 * (y 0).val = (y 0).val
    rw [(index6_1 t).1]; omega
  · show win6_1.index t 1 * 64 + 1 * (y 1).val = (y 1).val
    rw [(index6_1 t).2]; omega
/-- and of the second's. -/
theorem emb6_2 (t : Fin cfg6.N) (y : S1x64.Idx) : ((cfg6.win 2).blk t).view.emb y = y := by
  refine Shape.idx_ext₂ ?_ ?_
  · show win6_2.index t 0 * 1 + 1 * (y 0).val = (y 0).val
    rw [(index6_2 t).1]; omega
  · show win6_2.index t 1 * 64 + 1 * (y 1).val = (y 1).val
    rw [(index6_2 t).2]; omega

/-- An entry of the column sums depends on its column only. -/
theorem colSum_congr (x : S100000x64.Idx → EReal) (i i' : S1x64.Idx) (h : (i 1).val = (i' 1).val) :
    KSpec.colSum x i = KSpec.colSum x i' :=
  congrArg (fun j : Fin 64 => ∑ r : Fin 100000, x (ix2 r j)) (Fin.ext h)
theorem colSumSq_congr (x : S100000x64.Idx → EReal) (i i' : S1x64.Idx) (h : (i 1).val = (i' 1).val) :
    KSpec.colSumSq x i = KSpec.colSumSq x i' :=
  congrArg (fun j : Fin 64 => ∑ r : Fin 100000, x (ix2 r j) * x (ix2 r j)) (Fin.ext h)

/-- Only the last point writes the accumulators back. -/
theorem last_of_flush (t : Fin cfg6.N) (h : t.val % 5 = 4) : t = t6_4 :=
  Fin.ext (by have := lt_of_lt_of_eq t.isLt (show cfg6.N = 5 from N_6); show t.val = 4; omega)

/-- After the run the two result arrays hold the column sums and the column sums of squares of the array the region
    was entered with. -/
theorem stats6_val (c : Dev nD) (x : S100000x64.Idx → EReal) (hx : V c (Pipeline.arrRef spec6 0) = x) :
    (dat6 V c).arrAt 1 cfg6.N = KSpec.colSum x ∧ (dat6 V c).arrAt 2 cfg6.N = KSpec.colSumSq x := by
  constructor
  · refine (dat6 V c).arrAt_eq_of_cover 1 (KSpec.colSum x) (fun t hf => ?_) fun i => ⟨t6_4, (flush6_1 t6_4).mpr rfl, ?_⟩
    · obtain rfl := last_of_flush t ((flush6_1 t).mp hf)
      funext y
      rw [View.read_apply]
      refine ((congrFun (after6_1 V c t6_4) _).trans (acc1_last V c x hx t6_4.isLt _)).trans ?_
      refine Eq.trans ?_ (cast_eq _ _).symm
      refine colSum_congr x _ _ ?_
      show (y 1).val = win6_1.index t6_4 1 * 64 + 1 * (y 1).val
      rw [(index6_1 t6_4).2]; omega
    · exact (emb6_1 t6_4 i) ▸ View.emb_mem_set _ _
  · refine (dat6 V c).arrAt_eq_of_cover 2 (KSpec.colSumSq x) (fun t hf => ?_) fun i => ⟨t6_4, (flush6_2 t6_4).mpr rfl, ?_⟩
    · obtain rfl := last_of_flush t ((flush6_2 t).mp hf)
      funext y
      rw [View.read_apply]
      refine ((congrFun (after6_2 V c t6_4) _).trans (acc2_last V c x hx t6_4.isLt _)).trans ?_
      refine Eq.trans ?_ (cast_eq _ _).symm
      refine colSumSq_congr x _ _ ?_
      show (y 1).val = win6_2.index t6_4 1 * 64 + 1 * (y 1).val
      rw [(index6_2 t6_4).2]; omega
    · exact (emb6_2 t6_4 i) ▸ View.emb_mem_set _ _

end Final

end Cert.KernelIdeal.KStats6
-- ==== Proof.KFeat1.lean ====
/-
  Region 1 (batch-normalise, project, add the bias, clamp at zero): the array the region leaves is, entry by entry,
  max(0, bias[c] + the sum over the 64 features k of ((x[r,k] - mean[k]) * rsqrt(var[k] + eps) * gamma[k] + beta[k]) * W[k,c]),
  which is the reference's feature layer at the same entry. The region walks the 100000 rows in five blocks of 20000;
  each block's result depends on that block's rows of x only, the row vectors and the weight being the same at every
  point, so the five written blocks are the five row ranges of ONE function of the arrays, and they cover every row.
-/
import proofs.«416283_j44736379355415_1_alg».proof.Proof.Gen.KernelIdeal.Frame
import proofs.«416283_j44736379355415_1_alg».proof.Proof.Spec
import proofs.«416283_j44736379355415_1_alg».proof.Proof.StatsBridge
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

/-! # The value, entry by entry, and a product of rows by a 64 x 64 matrix read at an entry -/

namespace Cert.FeatAt

/-- One normalised entry: (x - mean) * rsqrt(var + eps) * gamma + beta, eps the f32 word 0x3727C5AC. -/
def bnAt (xv μ σ2 g b : EReal) : EReal :=
  (xv - μ) * Ideal.rsqrt (σ2 + Ideal.ofBits .f32 0x3727C5AC#32) * g + b

/-- Entry (r, c) of the feature layer: the normalised row times the weight's column, plus the bias, clamped at zero.
    The row count is a parameter: a block of 20000 rows and the array of 100000 rows are read by the same formula. -/
def featAt {n : Nat} (x : (⟨2, ![n, 64]⟩ : Shape).Idx → EReal) (μ σ2 g b : Fin 64 → EReal)
    (W : (⟨2, ![64, 64]⟩ : Shape).Idx → EReal) (bias : Fin 64 → EReal) (r : Fin n) (c : Fin 64) : EReal :=
  max ((∑ k : Fin 64, bnAt (x (ix2 r k)) (μ k) (σ2 k) (g k) (b k) * W (ix2 k c)) + bias c) 0

section Contraction
variable {n : Nat} (w : DotDims.WF ⟨2, ![n, 64]⟩ ⟨2, ![64, 64]⟩ ⟨2, ![n, 64]⟩ [1] [0] [0] [1] [] [])

/-- Rows by a 64 x 64 matrix: the left operand's axis 1 against the right operand's axis 0. -/
abbrev rowsDot : DotDims ⟨2, ![n, 64]⟩ ⟨2, ![64, 64]⟩ ⟨2, ![n, 64]⟩ := ⟨[1], [0], [0], [1], [], [], w⟩

/-- The left operand is read at (row of the entry, contracted coordinate). -/
theorem rowsDot_lhs (r : Fin n) (c k : Fin 64) :
    (rowsDot w).lhsIdx (ix2 r c) ((contrEquiv1 (rowsDot w) 64 rfl rfl).symm k) = ix2 r k := by
  have hk := contrEquiv1_symm_val (rowsDot w) 64 rfl rfl k
  funext a; apply Fin.ext
  match a with
  | ⟨0, _⟩ => simp [DotDims.lhsIdx]; rfl
  | ⟨1, _⟩ => simp [DotDims.lhsIdx]; exact hk

/-- The right operand is read at (contracted coordinate, column of the entry). -/
theorem rowsDot_rhs (r : Fin n) (c k : Fin 64) :
    (rowsDot w).rhsIdx (ix2 r c) ((contrEquiv1 (rowsDot w) 64 rfl rfl).symm k) = ix2 k c := by
  have hk := contrEquiv1_symm_val (rowsDot w) 64 rfl rfl k
  funext a; apply Fin.ext
  match a with
  | ⟨0, _⟩ => simp [DotDims.rhsIdx]; exact hk
  | ⟨1, _⟩ => simp [DotDims.rhsIdx]; rfl

/-- So the contraction's sum is the sum over the 64 features of row entry times column entry. -/
theorem rowsDot_sum (A : (⟨2, ![n, 64]⟩ : Shape).Idx → EReal) (B : (⟨2, ![64, 64]⟩ : Shape).Idx → EReal) (r : Fin n) (c : Fin 64) :
    (∑ q : (rowsDot w).contr.Idx, A ((rowsDot w).lhsIdx (ix2 r c) q) * B ((rowsDot w).rhsIdx (ix2 r c) q))
      = ∑ k : Fin 64, A (ix2 r k) * B (ix2 k c) := by
  rw [← Equiv.sum_comp (contrEquiv1 (rowsDot w) 64 rfl rfl).symm]
  refine Finset.sum_congr rfl fun k _ => ?_
  rw [rowsDot_lhs w r c k, rowsDot_rhs w r c k]

end Contraction

end Cert.FeatAt

/-! # The reference's feature layer at an entry -/

namespace Cert.ReferenceIdeal.FeatRead

open Cert.ReferenceIdeal Cert.ReferenceIdeal.Facts₀ Cert.FeatAt
open Cert.StatsBridge (TI rowsB_apply row1_apply bS_apply zeroS_apply)

/-- A [64] vector repeated down the rows, read at (r, k). -/
theorem rows_apply (v : TI S64 .f32) (r : Fin 100000) (k : Fin 64) : Spec.rows v (ix2 r k) = v (ix1 k) := by
  unfold Spec.rows
  rw [rowsB_apply, row1_apply]

/-- The reference's normalised array at (r, k). -/
theorem bnN_apply (x : TI S100000x64 .f32) (μ σ2 g b : TI S64 .f32) (r : Fin 100000) (k : Fin 64) :
    Spec.bnN x μ σ2 g b (ix2 r k) = bnAt (x (ix2 r k)) (μ (ix1 k)) (σ2 (ix1 k)) (g (ix1 k)) (b (ix1 k)) := by
  unfold Spec.bnN
  rw [addf_apply, mulf_apply, mulf_apply, subf_apply, rows_apply, rows_apply, rows_apply, rows_apply]
  rfl

/-- The reference's projection at (r, c): the sum over the features. -/
theorem linN_apply (x : TI S100000x64 .f32) (μ σ2 g b : TI S64 .f32) (W : TI S64x64 .f32) (r : Fin 100000) (c : Fin 64) :
    Spec.linN x μ σ2 g b W (ix2 r c)
      = ∑ k : Fin 64, bnAt (x (ix2 r k)) (μ (ix1 k)) (σ2 (ix1 k)) (g (ix1 k)) (b (ix1 k)) * W (ix2 k c) := by
  unfold Spec.linN Host.dotGeneral
  refine (Ideal.dotGeneral_apply dot_S100000x64_S64x64_S100000x64_1_0_0_1_n_n none _ _ _ (ix2 r c)).trans ?_
  refine (rowsDot_sum dot_S100000x64_S64x64_S100000x64_1_0_0_1_n_n_wf _ _ r c).trans ?_
  refine Finset.sum_congr rfl fun k _ => ?_
  rw [bnN_apply]

/-- The reference's feature layer at (r, c). -/
theorem featN_apply (x : TI S100000x64 .f32) (μ σ2 g b : TI S64 .f32) (W : TI S64x64 .f32) (bias : TI S64 .f32)
    (r : Fin 100000) (c : Fin 64) :
    Spec.featN x μ σ2 g b W bias (ix2 r c)
      = featAt x (fun k => μ (ix1 k)) (fun k => σ2 (ix1 k)) (fun k => g (ix1 k)) (fun k => b (ix1 k)) W
          (fun k => bias (ix1 k)) r c := by
  unfold Spec.featN Spec.reluN
  rw [maximumf_apply, addf_apply, linN_apply, rows_apply, bS_apply, zeroS_apply]
  rfl

end Cert.ReferenceIdeal.FeatRead

/-! # The kernel program's region 1 -/

namespace Cert.KernelIdeal.KFeat1

open Cert.KernelIdeal Cert.KernelIdeal.Gen Cert.FeatAt

/-- The whole array as one function of the arrays the region reads (the row vectors as [1,64] rows). -/
def featG (X : S100000x64.Idx → EReal) (M S G B : S1x64.Idx → EReal) (Wt : S64x64.Idx → EReal) (Bi : S1x64.Idx → EReal) :
    S100000x64.Idx → EReal :=
  fun i => featAt X (fun k => M (ix2 (0 : Fin 1) k)) (fun k => S (ix2 (0 : Fin 1) k)) (fun k => G (ix2 (0 : Fin 1) k))
    (fun k => B (ix2 (0 : Fin 1) k)) Wt (fun k => Bi (ix2 (0 : Fin 1) k)) (i 0) (i 1)

/-! ## The body's arithmetic at an entry of its block -/

/-- One normalised entry of the block, as the body computes it: the row vectors broadcast down the 20000 rows. -/
theorem hn1_apply (x0 : FVec Ideal S20000x64 .f32) (v m g b : FVec Ideal S1x64 .f32) (p : Fin 20000) (k : Fin 64) :
    addf (mulf (mulf (subf x0
            (broadcastTo S20000x64 (shapeCast S1x64 m shapeCasts_S1x64_S1x64) broadcasts_S1x64_S20000x64))
          (broadcastTo S20000x64 (rsqrt (addf (shapeCast S1x64 v shapeCasts_S1x64_S1x64) (broadcast S1x64 (Scalar.ofBits .f32 0x3727C5AC#32)))) broadcasts_S1x64_S20000x64))
        (broadcastTo S20000x64 (shapeCast S1x64 g shapeCasts_S1x64_S1x64) broadcasts_S1x64_S20000x64))
      (broadcastTo S20000x64 (shapeCast S1x64 b shapeCasts_S1x64_S1x64) broadcasts_S1x64_S20000x64) (ix2 p k)
      = bnAt (x0 (ix2 p k)) (m (ix2 (0 : Fin 1) k)) (v (ix2 (0 : Fin 1) k)) (g (ix2 (0 : Fin 1) k)) (b (ix2 (0 : Fin 1) k)) := by
  rw [addf_apply, mulf_apply, mulf_apply, subf_apply]
  rw [broadcastTo_1b_ab_apply, broadcastTo_1b_ab_apply, broadcastTo_1b_ab_apply, broadcastTo_1b_ab_apply]
  simp only [shapeCast_self]
  rfl

/-- The body's payload at entry (p, q) of its block. -/
theorem pay1_apply (x0 : FVec Ideal S20000x64 .f32) (v m g b : FVec Ideal S1x64 .f32) (W : FVec Ideal S64x64 .f32)
    (bi : FVec Ideal S1x64 .f32) (p : Fin 20000) (q : Fin 64) :
    k1_pay1 (F := Ideal) x0 v m g b W bi (ix2 p q)
      = featAt x0 (fun k => m (ix2 (0 : Fin 1) k)) (fun k => v (ix2 (0 : Fin 1) k)) (fun k => g (ix2 (0 : Fin 1) k))
          (fun k => b (ix2 (0 : Fin 1) k)) W (fun k => bi (ix2 (0 : Fin 1) k)) p q := by
  unfold k1_pay1
  refine (maximumf_apply _ _ (ix2 p q)).trans ?_
  unfold featAt
  refine congrArg₂ max ?_ Ideal.ofBits_zero_f32
  refine (addf_apply _ _ (ix2 p q)).trans ?_
  refine congrArg₂ (· + ·) ?_ ?_
  · refine (Ideal.matmul_constant_zero_apply dot_S20000x64_S64x64_S20000x64_1_0_0_1_n_n none _ _ (ix2 p q)).trans ?_
    refine (rowsDot_sum dot_S20000x64_S64x64_S20000x64_1_0_0_1_n_n_wf _ _ p q).trans ?_
    refine Finset.sum_congr rfl fun k _ => ?_
    rw [hn1_apply]
  · rw [broadcastTo_1b_ab_apply, shapeCast_self]

/-- The same at any entry of the block, against the whole array's function: when the block's rows of x are rows of
    the array X (the row of the block's entry being the row of the array's entry), the row vectors and the weight
    are the arrays', and the columns agree. -/
theorem point1_apply (X : S100000x64.Idx → EReal) (M S G B : S1x64.Idx → EReal) (Wt : S64x64.Idx → EReal) (Bi : S1x64.Idx → EReal)
    (x0 : FVec Ideal S20000x64 .f32) (v m g b : FVec Ideal S1x64 .f32) (W : FVec Ideal S64x64 .f32) (bi : FVec Ideal S1x64 .f32)
    (hm : m = M) (hv : v = S) (hg : g = G) (hb : b = B) (hW : W = Wt) (hbi : bi = Bi)
    (jb : S20000x64.Idx) (i : S100000x64.Idx)
    (hx : ∀ k : Fin 64, x0 (ix2 (jb 0) k) = X (ix2 (i 0) k)) (hq : (i 1).val = (jb 1).val) :
    k1_pay1 (F := Ideal) x0 v m g b W bi jb = featG X M S G B Wt Bi i := by
  subst hm hv hg hb hW hbi
  obtain ⟨p, q, rfl⟩ : ∃ (p : Fin 20000) (q : Fin 64), jb = ix2 p q := ⟨jb 0, jb 1, eq_ix2 jb⟩
  obtain ⟨r, c', rfl⟩ : ∃ (r : Fin 100000) (c' : Fin 64), i = ix2 r c' := ⟨i 0, i 1, eq_ix2 i⟩
  obtain rfl : c' = q := Fin.ext hq
  rw [pay1_apply]
  show featAt x0 _ _ _ _ W _ p c' = featAt X _ _ _ _ W _ r c'
  unfold featAt
  refine congrArg (fun z : EReal => max (z + bi (ix2 (0 : Fin 1) c')) 0) (Finset.sum_congr rfl fun k _ => ?_)
  have h : x0 (ix2 p k) = X (ix2 r k) := hx k
  rw [h]

/-! ## From blocks to the array -/

section Blocks
variable (V : (c : Dev nD) → (b : Ref sig .tc) → Buf (Elt Ideal) ((c : Thread nD τ).loc b))

theorem hz : (![0, 0] : Fin 2 → Nat) = fun _ => 0 := funext fun a => by fin_cases a <;> rfl

/-- The index maps over the five points, decided: the two windows over the rows sit at block t, the row vectors'
    and the weight's at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ t.val < 5 :=
  (by decide +kernel : ∀ t : Fin grid1.N, _)

/-- Window 1's block is its whole array at every point. -/
theorem iblk1_1 (c : Dev nD) (t : Fin cfg1.N) :
    (iblk1 V c 1 t : S1x64.Idx → EReal) = V c (Pipeline.arrRef spec1 1) := by
  have e := idx_facts1 t
  funext y
  unfold iblk1
  rw [View.read_apply]
  show V c (Pipeline.arrRef spec1 1) _ = V c (Pipeline.arrRef spec1 1) y
  congr 1
  funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Window 2's block is its whole array at every point. -/
theorem iblk1_2 (c : Dev nD) (t : Fin cfg1.N) :
    (iblk1 V c 2 t : S1x64.Idx → EReal) = V c (Pipeline.arrRef spec1 2) := by
  have e := idx_facts1 t
  funext y
  unfold iblk1
  rw [View.read_apply]
  show V c (Pipeline.arrRef spec1 2) _ = V c (Pipeline.arrRef spec1 2) y
  congr 1
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Window 3's block is its whole array at every point. -/
theorem iblk1_3 (c : Dev nD) (t : Fin cfg1.N) :
    (iblk1 V c 3 t : S1x64.Idx → EReal) = V c (Pipeline.arrRef spec1 3) := by
  have e := idx_facts1 t
  funext y
  unfold iblk1
  rw [View.read_apply]
  show V c (Pipeline.arrRef spec1 3) _ = V c (Pipeline.arrRef spec1 3) y
  congr 1
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's block is its whole array at every point. -/
theorem iblk1_4 (c : Dev nD) (t : Fin cfg1.N) :
    (iblk1 V c 4 t : S1x64.Idx → EReal) = V c (Pipeline.arrRef spec1 4) := by
  have e := idx_facts1 t
  funext y
  unfold iblk1
  rw [View.read_apply]
  show V c (Pipeline.arrRef spec1 4) _ = V c (Pipeline.arrRef spec1 4) y
  congr 1
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Window 5's block is its whole array at every point. -/
theorem iblk1_5 (c : Dev nD) (t : Fin cfg1.N) :
    (iblk1 V c 5 t : S64x64.Idx → EReal) = V c (Pipeline.arrRef spec1 5) := by
  have e := idx_facts1 t
  funext y
  unfold iblk1
  rw [View.read_apply]
  show V c (Pipeline.arrRef spec1 5) _ = V c (Pipeline.arrRef spec1 5) y
  congr 1
  funext a; apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Window 6's block is its whole array at every point. -/
theorem iblk1_6 (c : Dev nD) (t : Fin cfg1.N) :
    (iblk1 V c 6 t : S1x64.Idx → EReal) = V c (Pipeline.arrRef spec1 6) := by
  have e := idx_facts1 t
  funext y
  unfold iblk1
  rw [View.read_apply]
  show V c (Pipeline.arrRef spec1 6) _ = V c (Pipeline.arrRef spec1 6) y
  congr 1
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- Window 0's block at point t is rows 20000 t … 20000 t + 19999 of its array. -/
theorem iblk1_0_apply (c : Dev nD) (t : Fin cfg1.N) (y : S20000x64.Idx) (i : S100000x64.Idx)
    (h0 : (i 0).val = 20000 * t.val + (y 0).val) (h1 : (i 1).val = (y 1).val) :
    (iblk1 V c 0 t : S20000x64.Idx → EReal) y = V c (Pipeline.arrRef spec1 0) i := by
  have e := idx_facts1 t
  unfold iblk1
  rw [View.read_apply]
  show V c (Pipeline.arrRef spec1 0) _ = V c (Pipeline.arrRef spec1 0) i
  congr 1
  funext a; apply Fin.ext
  match a with
  | ⟨0, _⟩ => show win1_0.index t (0 : Fin 2) * 20000 + 1 * (y 0).val = (i 0).val; omega
  | ⟨1, _⟩ => show win1_0.index t (1 : Fin 2) * 64 + 1 * (y 1).val = (i 1).val; omega

/-- Reading any function of the output array through point t's block: the function at the block's embedded index. -/
theorem read_blk1 (t : Fin cfg1.N) (G : S100000x64.Idx → EReal) (j : ((cfg1.win 7).xblock (grid1.coords t)).Idx) :
    ((cfg1.win 7).blk t).view.read (Elt Ideal) G j = G (((cfg1.win 7).blk t).view.emb j) := rfl

/-- What the write-back moves of a staging buffer's contents: all of it (the blocks tile the array). -/
theorem cut_blk1 (t : Fin cfg1.N) (X : S20000x64.Idx → EReal) (j : ((cfg1.win 7).xblock (grid1.coords t)).Idx) :
    (cfg1.win 7).cut (grid1.coords t) X j = X ((cfg1.win 7).xinj (grid1.coords t) j) := rfl

/-- What point t writes back is rows 20000 t … of the one function of the arrays. -/
theorem flushed1_eq (c : Dev nD) (t : Fin cfg1.N) :
    (dat1 V c).flushed 7 t = ((cfg1.win 7).blk t).view.read (Elt Ideal)
      (featG (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6))) := by
  show (cfg1.win 7).cut (grid1.coords t) ((dat1 V c).after 7 t) = _
  rw [after1_7]
  unfold out1_7
  rw [View.canon_unit_zero hz]
  simp only [View.ld_unit_zero (S := S20000x64) hz, View.ld_unit_zero (S := S1x64) hz, View.ld_unit_zero (S := S64x64) hz]
  have e := idx_facts1 t
  funext j
  refine (cut_blk1 t _ j).trans (Eq.trans ?_ (read_blk1 t _ j).symm)
  refine point1_apply (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (V c (Pipeline.arrRef spec1 6))
    (iblk1 V c 0 t) (iblk1 V c 2 t) (iblk1 V c 1 t) (iblk1 V c 3 t) (iblk1 V c 4 t) (iblk1 V c 5 t) (iblk1 V c 6 t)
    (iblk1_1 V c t) (iblk1_2 V c t) (iblk1_3 V c t) (iblk1_4 V c t) (iblk1_5 V c t) (iblk1_6 V c t)
    ((cfg1.win 7).xinj (grid1.coords t) j) (((cfg1.win 7).blk t).view.emb j) (fun k => ?_) ?_
  · refine iblk1_0_apply V c t _ _ ?_ rfl
    show win1_7.index t (0 : Fin 2) * 20000 + 1 * (j 0).val = 20000 * t.val + (j 0).val
    omega
  · show win1_7.index t (1 : Fin 2) * 64 + 1 * (j 1).val = (j 1).val
    omega

/-- An index of the array is in point t's block iff each coordinate is in the block's range on its axis. -/
theorem mem_blk1 (t : Fin cfg1.N) (i : S100000x64.Idx) :
    i ∈ ((cfg1.win 7).blk t).view.set ↔ ∀ a : Fin 2, win1_7.index t a * S20000x64.size a ≤ (i a).val ∧ (i a).val < win1_7.index t a * S20000x64.size a + S20000x64.size a := by
  show i ∈ ((View.whole main_v41).slice (win1_7.rect t)).set ↔ _
  rw [View.set_slice_whole, Rect.mem_set_unit]
  exact Iff.rfl

/-- Every row lies in the block of the point its row number divided by 20000 names. -/
theorem cover1 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : grid1.N = 5 := N_1
  let t : Fin cfg1.N := ⟨(i 0).val / 20000, by show (i 0).val / 20000 < grid1.N; omega⟩
  have e := idx_facts1 t
  have ht : t.val = (i 0).val / 20000 := rfl
  refine ⟨t, flush1_7 t, ?_⟩
  rw [mem_blk1]
  intro a
  match a with
  | ⟨0, _⟩ => show win1_7.index t (0 : Fin 2) * 20000 ≤ (i 0).val ∧ (i 0).val < win1_7.index t (0 : Fin 2) * 20000 + 20000; omega
  | ⟨1, _⟩ => show win1_7.index t (1 : Fin 2) * 64 ≤ (i 1).val ∧ (i 1).val < win1_7.index t (1 : Fin 2) * 64 + 64; omega

/-- The array the region leaves is that function of the arrays it reads. -/
theorem final1 (c : Dev nD) :
    (dat1 V c).arrAt 7 cfg1.N = featG (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) :=
  (dat1 V c).arrAt_eq_of_cover 7 _ (fun t _ => flushed1_eq V c t) cover1

/-- The reference's operand type at the ideal values. -/
abbrev RT (s : Shape) (φ : EltTy) : Type := Cert.ReferenceIdeal.Spec.T (F := Ideal) s φ

/-- Over plain functions: the one function of the arrays, at the row vectors as [1,64] rows, is the reference's feature layer. -/
theorem featG_eq_featN (x : RT S100000x64 .f32) (μ σ2 g b : RT S64 .f32) (W : RT S64x64 .f32) (bias : RT S64 .f32) :
    featG x (Cert.ReferenceIdeal.Spec.row1 μ) (Cert.ReferenceIdeal.Spec.row1 σ2) (Cert.ReferenceIdeal.Spec.row1 g)
        (Cert.ReferenceIdeal.Spec.row1 b) W (Cert.ReferenceIdeal.Spec.row1 bias)
      = (Cert.ReferenceIdeal.Spec.featN x μ σ2 g b W bias : S100000x64.Idx → EReal) := by
  funext i
  obtain ⟨r, q, rfl⟩ : ∃ (r : Fin 100000) (q : Fin 64), i = ix2 r q := ⟨i 0, i 1, eq_ix2 i⟩
  rw [Cert.ReferenceIdeal.FeatRead.featN_apply]
  show featAt x (fun k => Cert.ReferenceIdeal.Spec.row1 μ (ix2 (0 : Fin 1) k)) (fun k => Cert.ReferenceIdeal.Spec.row1 σ2 (ix2 (0 : Fin 1) k))
      (fun k => Cert.ReferenceIdeal.Spec.row1 g (ix2 (0 : Fin 1) k)) (fun k => Cert.ReferenceIdeal.Spec.row1 b (ix2 (0 : Fin 1) k)) W
      (fun k => Cert.ReferenceIdeal.Spec.row1 bias (ix2 (0 : Fin 1) k)) r q = _
  simp only [Cert.StatsBridge.row1_apply]

/-- The one function of the arrays respects equal arrays. -/
theorem featG_congr {X X' : S100000x64.Idx → EReal} {M M' S S' G G' B B' : S1x64.Idx → EReal} {Wt Wt' : S64x64.Idx → EReal}
    {Bi Bi' : S1x64.Idx → EReal} (h0 : X = X') (h1 : M = M') (h2 : S = S') (h3 : G = G') (h4 : B = B') (h5 : Wt = Wt')
    (h6 : Bi = Bi') : featG X M S G B Wt Bi = featG X' M' S' G' B' Wt' Bi' := by
  subst h0 h1 h2 h3 h4 h5 h6; rfl

/-- The array region 1 leaves is the reference's feature layer of the arrays it was entered with: the input array, the
    mean, variance, scale, shift and bias vectors as [1,64] rows, and the weight. -/
theorem feat1_val (c : Dev nD) (x : RT S100000x64 .f32) (μ σ2 g b : RT S64 .f32) (W : RT S64x64 .f32) (bias : RT S64 .f32)
    (h0 : V c (Pipeline.arrRef spec1 0) = x)
    (h1 : V c (Pipeline.arrRef spec1 1) = Cert.ReferenceIdeal.Spec.row1 μ)
    (h2 : V c (Pipeline.arrRef spec1 2) = Cert.ReferenceIdeal.Spec.row1 σ2)
    (h3 : V c (Pipeline.arrRef spec1 3) = Cert.ReferenceIdeal.Spec.row1 g)
    (h4 : V c (Pipeline.arrRef spec1 4) = Cert.ReferenceIdeal.Spec.row1 b)
    (h5 : V c (Pipeline.arrRef spec1 5) = W)
    (h6 : V c (Pipeline.arrRef spec1 6) = Cert.ReferenceIdeal.Spec.row1 bias) :
    (dat1 V c).arrAt 7 cfg1.N = Cert.ReferenceIdeal.Spec.featN x μ σ2 g b W bias :=
  (final1 V c).trans ((featG_congr h0 h1 h2 h3 h4 h5 h6).trans (featG_eq_featN x μ σ2 g b W bias))

end Blocks

end Cert.KernelIdeal.KFeat1

end
-- ==== Proof.KLin3.lean ====
/-
  Region 3 (batch-normalise, then project): the array the region leaves is, entry by entry, the sum over the 64
  features k of ((x[r,k] - mean[k]) * rsqrt(var[k] + eps) * gamma[k] + beta[k]) * W[k,c].  The region walks the
  100000 rows in five blocks of 20000; each block's result depends on that block's rows of x only, the row vectors
  and the weight being the same at every point, so the five written blocks are the five row ranges of ONE function
  of the arrays, and they cover every row.
-/
import proofs.«416283_j44736379355415_1_alg».proof.Proof.Gen.KernelIdeal.Frame
import proofs.«416283_j44736379355415_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.KLin3

open Cert.KernelIdeal Cert.KernelIdeal.Gen

/-! ## The value, entry by entry -/

/-- One normalised entry: (x - mean) * rsqrt(var + eps) * gamma + beta, eps the f32 word 0x3727C5AC. -/
def bnAt (xv μ σ2 g b : EReal) : EReal :=
  (xv - μ) * Ideal.rsqrt (σ2 + Ideal.ofBits .f32 0x3727C5AC#32) * g + b

/-- Entry (r, c) of the normalised rows times the weight: the sum over the 64 features. The row count is a
    parameter: a block of 20000 rows and the array of 100000 rows are read by the same formula. -/
def linAt {n : Nat} (x : (⟨2, ![n, 64]⟩ : Shape).Idx → EReal) (μ σ2 g b : S1x64.Idx → EReal) (W : S64x64.Idx → EReal)
    (r : Fin n) (c : Fin 64) : EReal :=
  ∑ k : Fin 64, bnAt (x (ix2 r k)) (μ (ix2 (0 : Fin 1) k)) (σ2 (ix2 (0 : Fin 1) k)) (g (ix2 (0 : Fin 1) k)) (b (ix2 (0 : Fin 1) k)) * W (ix2 k c)

/-- The whole array as one function of the arrays the region reads. -/
def linG (x : S100000x64.Idx → EReal) (μ σ2 g b : S1x64.Idx → EReal) (W : S64x64.Idx → EReal) : S100000x64.Idx → EReal :=
  fun i => linAt x μ σ2 g b W (i 0) (i 1)

/-! ## A product of rows by a 64 x 64 matrix, read at an entry -/

section Dot
variable {n : Nat} (w : DotDims.WF ⟨2, ![n, 64]⟩ ⟨2, ![64, 64]⟩ ⟨2, ![n, 64]⟩ [1] [0] [0] [1] [] [])

/-- The left operand is read at (row of the entry, contracted coordinate). -/
theorem lhs_rows (a : Fin n) (b c : Fin 64) :
    (⟨[1], [0], [0], [1], [], [], w⟩ : DotDims ⟨2, ![n, 64]⟩ ⟨2, ![64, 64]⟩ ⟨2, ![n, 64]⟩).lhsIdx (ix2 a b)
      ((contrEquiv1 _ 64 rfl rfl).symm c) = ix2 a c := by
  have c2 := contrEquiv1_symm_val
    (⟨[1], [0], [0], [1], [], [], w⟩ : DotDims ⟨2, ![n, 64]⟩ ⟨2, ![64, 64]⟩ ⟨2, ![n, 64]⟩) 64 rfl rfl c
  funext ax; apply Fin.ext
  match ax with
  | ⟨0, _⟩ => simp [DotDims.lhsIdx]; rfl
  | ⟨1, _⟩ => simp [DotDims.lhsIdx]; exact c2

/-- The right operand is read at (contracted coordinate, column of the entry). -/
theorem rhs_rows (a : Fin n) (b c : Fin 64) :
    (⟨[1], [0], [0], [1], [], [], w⟩ : DotDims ⟨2, ![n, 64]⟩ ⟨2, ![64, 64]⟩ ⟨2, ![n, 64]⟩).rhsIdx (ix2 a b)
      ((contrEquiv1 _ 64 rfl rfl).symm c) = ix2 c b := by
  have c2 := contrEquiv1_symm_val
    (⟨[1], [0], [0], [1], [], [], w⟩ : DotDims ⟨2, ![n, 64]⟩ ⟨2, ![64, 64]⟩ ⟨2, ![n, 64]⟩) 64 rfl rfl c
  funext ax; apply Fin.ext
  match ax with
  | ⟨0, _⟩ => simp [DotDims.rhsIdx]; exact c2
  | ⟨1, _⟩ => simp [DotDims.rhsIdx]; rfl

/-- So the contraction's sum is the sum over the 64 features of row entry times column entry. -/
theorem sum_rows (A : (⟨2, ![n, 64]⟩ : Shape).Idx → EReal) (B : S64x64.Idx → EReal) (a : Fin n) (b : Fin 64) :
    (∑ k : (⟨[1], [0], [0], [1], [], [], w⟩ : DotDims ⟨2, ![n, 64]⟩ ⟨2, ![64, 64]⟩ ⟨2, ![n, 64]⟩).contr.Idx,
        A ((⟨[1], [0], [0], [1], [], [], w⟩ : DotDims ⟨2, ![n, 64]⟩ ⟨2, ![64, 64]⟩ ⟨2, ![n, 64]⟩).lhsIdx (ix2 a b) k)
          * B ((⟨[1], [0], [0], [1], [], [], w⟩ : DotDims ⟨2, ![n, 64]⟩ ⟨2, ![64, 64]⟩ ⟨2, ![n, 64]⟩).rhsIdx (ix2 a b) k))
      = ∑ c : Fin 64, A (ix2 a c) * B (ix2 c b) := by
  rw [← Equiv.sum_comp (contrEquiv1 (⟨[1], [0], [0], [1], [], [], w⟩ : DotDims ⟨2, ![n, 64]⟩ ⟨2, ![64, 64]⟩ ⟨2, ![n, 64]⟩) 64 rfl rfl).symm]
  refine Finset.sum_congr rfl fun c _ => ?_
  rw [lhs_rows w a b c, rhs_rows w a b c]
end Dot

/-! ## The body's arithmetic at an entry of its block -/

/-- One normalised entry of the block, as the body computes it: the row vectors broadcast down the 20000 rows. -/
theorem hn3_apply (x0 : FVec Ideal S20000x64 .f32) (v m g b : FVec Ideal S1x64 .f32) (p : Fin 20000) (k : Fin 64) :
    addf (mulf (mulf (subf (shapeCast S20000x64 x0 shapeCasts_S20000x64_S20000x64)
            (broadcastTo S20000x64 (shapeCast S1x64 m shapeCasts_S1x64_S1x64) broadcasts_S1x64_S20000x64))
          (broadcastTo S20000x64 (rsqrt (addf (shapeCast S1x64 v shapeCasts_S1x64_S1x64) (broadcast S1x64 (Scalar.ofBits .f32 0x3727C5AC#32)))) broadcasts_S1x64_S20000x64))
        (broadcastTo S20000x64 (shapeCast S1x64 g shapeCasts_S1x64_S1x64) broadcasts_S1x64_S20000x64))
      (broadcastTo S20000x64 (shapeCast S1x64 b shapeCasts_S1x64_S1x64) broadcasts_S1x64_S20000x64) (ix2 p k)
      = bnAt (x0 (ix2 p k)) (m (ix2 (0 : Fin 1) k)) (v (ix2 (0 : Fin 1) k)) (g (ix2 (0 : Fin 1) k)) (b (ix2 (0 : Fin 1) k)) := by
  rw [addf_apply, mulf_apply, mulf_apply, subf_apply]
  rw [broadcastTo_1b_ab_apply, broadcastTo_1b_ab_apply, broadcastTo_1b_ab_apply, broadcastTo_1b_ab_apply]
  simp only [shapeCast_self]
  rfl

/-- The body's payload at entry (p, q) of its block: the sum over the features of the normalised row entries times
    the weight's column. -/
theorem pay3_apply (x0 : FVec Ideal S20000x64 .f32) (v m g b : FVec Ideal S1x64 .f32) (W : FVec Ideal S64x64 .f32)
    (p : Fin 20000) (q : Fin 64) :
    k3_pay1 (F := Ideal) x0 v m g b W (ix2 p q) = linAt x0 m v g b W p q := by
  unfold k3_pay1
  refine (Ideal.matmul_constant_zero_apply dot_S20000x64_S64x64_S20000x64_1_0_0_1_n_n none _ _ (ix2 p q)).trans ?_
  refine (sum_rows dot_S20000x64_S64x64_S20000x64_1_0_0_1_n_n_wf _ _ p q).trans ?_
  unfold linAt
  refine Finset.sum_congr rfl fun k _ => ?_
  rw [hn3_apply, shapeCast_self]

/-- The same at any entry of the block, against the whole array's function: when the block's rows of x are rows of
    the array X (the row of the block's entry being the row of the array's entry), the row vectors and the weight
    are the arrays', and the columns agree. -/
theorem point3_apply (X : S100000x64.Idx → EReal) (M S G B : S1x64.Idx → EReal) (Wt : S64x64.Idx → EReal)
    (x0 : FVec Ideal S20000x64 .f32) (v m g b : FVec Ideal S1x64 .f32) (W : FVec Ideal S64x64 .f32)
    (hm : m = M) (hv : v = S) (hg : g = G) (hb : b = B) (hW : W = Wt)
    (jb : S20000x64.Idx) (i : S100000x64.Idx)
    (hx : ∀ k : Fin 64, x0 (ix2 (jb 0) k) = X (ix2 (i 0) k)) (hq : (i 1).val = (jb 1).val) :
    k3_pay1 (F := Ideal) x0 v m g b W jb = linG X M S G B Wt i := by
  subst hm hv hg hb hW
  obtain ⟨p, q, rfl⟩ : ∃ (p : Fin 20000) (q : Fin 64), jb = ix2 p q := ⟨jb 0, jb 1, eq_ix2 jb⟩
  obtain ⟨r, c', rfl⟩ : ∃ (r : Fin 100000) (c' : Fin 64), i = ix2 r c' := ⟨i 0, i 1, eq_ix2 i⟩
  obtain rfl : c' = q := Fin.ext hq
  rw [pay3_apply]
  show linAt x0 m v g b W p c' = linAt X m v g b W r c'
  unfold linAt
  refine Finset.sum_congr rfl fun k _ => ?_
  have h : x0 (ix2 p k) = X (ix2 r k) := hx k
  rw [h]

/-! ## From blocks to the array -/

section Blocks
variable (V : (c : Dev nD) → (b : Ref sig .tc) → Buf (Elt Ideal) ((c : Thread nD τ).loc b))

theorem hz : (![0, 0] : Fin 2 → Nat) = fun _ => 0 := funext fun a => by fin_cases a <;> rfl

/-- The index maps over the five points, decided: the two windows over the rows sit at block t, the row vectors'
    and the weight's at block 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 5 :=
  (by decide +kernel : ∀ t : Fin grid3.N, _)

/-- Window 1's block is its whole [1,64] array at every point. -/
theorem iblk3_1 (c : Dev nD) (t : Fin cfg3.N) :
    (iblk3 V c 1 t : S1x64.Idx → EReal) = V c (Pipeline.arrRef spec3 1) := by
  obtain ⟨-, -, e0, e1, -⟩ := idx_facts3 t
  funext y
  unfold iblk3
  rw [View.read_apply]
  show V c (Pipeline.arrRef spec3 1) _ = V c (Pipeline.arrRef spec3 1) y
  congr 1
  funext a; apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- Window 2's block is its whole array at every point. -/
theorem iblk3_2 (c : Dev nD) (t : Fin cfg3.N) :
    (iblk3 V c 2 t : S1x64.Idx → EReal) = V c (Pipeline.arrRef spec3 2) := by
  have e := idx_facts3 t
  funext y
  unfold iblk3
  rw [View.read_apply]
  show V c (Pipeline.arrRef spec3 2) _ = V c (Pipeline.arrRef spec3 2) y
  congr 1
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- Window 3's block is its whole array at every point. -/
theorem iblk3_3 (c : Dev nD) (t : Fin cfg3.N) :
    (iblk3 V c 3 t : S1x64.Idx → EReal) = V c (Pipeline.arrRef spec3 3) := by
  have e := idx_facts3 t
  funext y
  unfold iblk3
  rw [View.read_apply]
  show V c (Pipeline.arrRef spec3 3) _ = V c (Pipeline.arrRef spec3 3) y
  congr 1
  funext a; apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Window 4's block is its whole array at every point. -/
theorem iblk3_4 (c : Dev nD) (t : Fin cfg3.N) :
    (iblk3 V c 4 t : S1x64.Idx → EReal) = V c (Pipeline.arrRef spec3 4) := by
  have e := idx_facts3 t
  funext y
  unfold iblk3
  rw [View.read_apply]
  show V c (Pipeline.arrRef spec3 4) _ = V c (Pipeline.arrRef spec3 4) y
  congr 1
  funext a; apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Window 5's block is its whole array at every point. -/
theorem iblk3_5 (c : Dev nD) (t : Fin cfg3.N) :
    (iblk3 V c 5 t : S64x64.Idx → EReal) = V c (Pipeline.arrRef spec3 5) := by
  have e := idx_facts3 t
  funext y
  unfold iblk3
  rw [View.read_apply]
  show V c (Pipeline.arrRef spec3 5) _ = V c (Pipeline.arrRef spec3 5) y
  congr 1
  funext a; apply Fin.ext
  match a with
  | ⟨0, _⟩ => show win3_5.index t (0 : Fin 2) * 64 + 1 * (y 0).val = (y 0).val; omega
  | ⟨1, _⟩ => show win3_5.index t (1 : Fin 2) * 64 + 1 * (y 1).val = (y 1).val; omega

/-- Window 0's block at point t is rows 20000 t … 20000 t + 19999 of its array. -/
theorem iblk3_0_apply (c : Dev nD) (t : Fin cfg3.N) (y : S20000x64.Idx) (i : S100000x64.Idx)
    (h0 : (i 0).val = 20000 * t.val + (y 0).val) (h1 : (i 1).val = (y 1).val) :
    (iblk3 V c 0 t : S20000x64.Idx → EReal) y = V c (Pipeline.arrRef spec3 0) i := by
  have e := idx_facts3 t
  unfold iblk3
  rw [View.read_apply]
  show V c (Pipeline.arrRef spec3 0) _ = V c (Pipeline.arrRef spec3 0) i
  congr 1
  funext a; apply Fin.ext
  match a with
  | ⟨0, _⟩ => show win3_0.index t (0 : Fin 2) * 20000 + 1 * (y 0).val = (i 0).val; omega
  | ⟨1, _⟩ => show win3_0.index t (1 : Fin 2) * 64 + 1 * (y 1).val = (i 1).val; omega

/-- Reading any function of the output array through point t's block: the function at the block's embedded index. -/
theorem read_blk3 (t : Fin cfg3.N) (G : S100000x64.Idx → EReal) (j : ((cfg3.win 6).xblock (grid3.coords t)).Idx) :
    ((cfg3.win 6).blk t).view.read (Elt Ideal) G j = G (((cfg3.win 6).blk t).view.emb j) := rfl

/-- What the write-back moves of a staging buffer's contents: all of it (the blocks tile the array). -/
theorem cut_blk3 (t : Fin cfg3.N) (X : S20000x64.Idx → EReal) (j : ((cfg3.win 6).xblock (grid3.coords t)).Idx) :
    (cfg3.win 6).cut (grid3.coords t) X j = X ((cfg3.win 6).xinj (grid3.coords t) j) := rfl

/-- What point t writes back is rows 20000 t … of the one function of the arrays. -/
theorem flushed3_eq (c : Dev nD) (t : Fin cfg3.N) :
    (dat3 V c).flushed 6 t = ((cfg3.win 6).blk t).view.read (Elt Ideal)
      (linG (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S20000x64) hz, View.ld_unit_zero (S := S1x64) hz, View.ld_unit_zero (S := S64x64) hz]
  have e := idx_facts3 t
  funext j
  refine (cut_blk3 t _ j).trans (Eq.trans ?_ (read_blk3 t _ j).symm)
  refine point3_apply (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (iblk3 V c 0 t) (iblk3 V c 2 t) (iblk3 V c 1 t) (iblk3 V c 3 t) (iblk3 V c 4 t) (iblk3 V c 5 t)
    (iblk3_1 V c t) (iblk3_2 V c t) (iblk3_3 V c t) (iblk3_4 V c t) (iblk3_5 V c t)
    ((cfg3.win 6).xinj (grid3.coords t) j) (((cfg3.win 6).blk t).view.emb j) (fun k => ?_) ?_
  · refine iblk3_0_apply V c t _ _ ?_ rfl
    show win3_6.index t (0 : Fin 2) * 20000 + 1 * (j 0).val = 20000 * t.val + (j 0).val
    omega
  · show win3_6.index t (1 : Fin 2) * 64 + 1 * (j 1).val = (j 1).val
    omega

/-- An index of the array is in point t's block iff each coordinate is in the block's range on its axis. -/
theorem mem_blk3 (t : Fin cfg3.N) (i : S100000x64.Idx) :
    i ∈ ((cfg3.win 6).blk t).view.set ↔ ∀ a : Fin 2, win3_6.index t a * S20000x64.size a ≤ (i a).val ∧ (i a).val < win3_6.index t a * S20000x64.size a + S20000x64.size a := by
  show i ∈ ((View.whole main_v57).slice (win3_6.rect t)).set ↔ _
  rw [View.set_slice_whole, Rect.mem_set_unit]
  exact Iff.rfl

/-- Every row lies in the block of the point its row number divided by 20000 names. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : grid3.N = 5 := N_3
  let t : Fin cfg3.N := ⟨(i 0).val / 20000, by show (i 0).val / 20000 < grid3.N; omega⟩
  have e := idx_facts3 t
  have ht : t.val = (i 0).val / 20000 := rfl
  refine ⟨t, flush3_6 t, ?_⟩
  rw [mem_blk3]
  intro a
  match a with
  | ⟨0, _⟩ => show win3_6.index t (0 : Fin 2) * 20000 ≤ (i 0).val ∧ (i 0).val < win3_6.index t (0 : Fin 2) * 20000 + 20000; omega
  | ⟨1, _⟩ => show win3_6.index t (1 : Fin 2) * 64 ≤ (i 1).val ∧ (i 1).val < win3_6.index t (1 : Fin 2) * 64 + 64; omega

/-- The array the region leaves is that function of the arrays it reads. -/
theorem final3 (c : Dev nD) :
    (dat3 V c).arrAt 6 cfg3.N = linG (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 V c).arrAt_eq_of_cover 6 _ (fun t _ => flushed3_eq V c t) cover3

end Blocks

/-! ## The reference's vector-level term is the same function -/

section SpecSide

/-- A [64] vector as a [1,64] row, read at (0, k): the vector at k. -/
theorem row1_apply (v : Cert.ReferenceIdeal.Spec.T (F := Ideal) Cert.ReferenceIdeal.S64 .f32) (k : Fin 64) :
    Cert.ReferenceIdeal.Spec.row1 v (ix2 (0 : Fin 1) k) = v (ix1 k) := by
  unfold Cert.ReferenceIdeal.Spec.row1
  exact broadcastInDim_apply _ _ v (ix2 (0 : Fin 1) k) (ix1 k) fun a => match a with | ⟨0, _⟩ => rfl

/-- The row repeated down the 100000 rows, read at (r, k): the row at (0, k). -/
theorem rows_apply (v : Cert.ReferenceIdeal.Spec.T (F := Ideal) Cert.ReferenceIdeal.S64 .f32) (r : Fin 100000) (k : Fin 64) :
    Cert.ReferenceIdeal.Spec.rows v (ix2 r k) = Cert.ReferenceIdeal.Spec.row1 v (ix2 (0 : Fin 1) k) := by
  unfold Cert.ReferenceIdeal.Spec.rows
  exact broadcastInDim_apply _ _ (Cert.ReferenceIdeal.Spec.row1 v) (ix2 r k) (ix2 (0 : Fin 1) k)
    fun a => match a with | ⟨0, _⟩ => rfl | ⟨1, _⟩ => rfl

/-- The row of rsqrt(var + u), read at (0, k): rsqrt of the var row's entry plus u's entry; host and kernel rsqrt are
    one function of the extended reals. -/
theorem row1_rsqrt_apply (σ2 u : Cert.ReferenceIdeal.Spec.T (F := Ideal) Cert.ReferenceIdeal.S64 .f32) (k : Fin 64) :
    (Cert.ReferenceIdeal.Spec.row1 (F := Ideal)
        (Host.rsqrt (F := Ideal) (s := Cert.ReferenceIdeal.S64) (φ := .f32)
          (addf (F := Ideal) (s := Cert.ReferenceIdeal.S64) (φ := .f32) σ2 u)) (ix2 (0 : Fin 1) k) : EReal)
      = Ideal.rsqrt (Cert.ReferenceIdeal.Spec.row1 (F := Ideal) σ2 (ix2 (0 : Fin 1) k) + u (ix1 k)) := by
  rw [row1_apply, row1_apply]
  rfl

/-- The reference's normalised array at (r, k). -/
theorem bnN_apply (x : Cert.ReferenceIdeal.Spec.T (F := Ideal) Cert.ReferenceIdeal.S100000x64 .f32)
    (μ σ2 g b : Cert.ReferenceIdeal.Spec.T (F := Ideal) Cert.ReferenceIdeal.S64 .f32) (r : Fin 100000) (k : Fin 64) :
    Cert.ReferenceIdeal.Spec.bnN x μ σ2 g b (ix2 r k)
      = bnAt (x (ix2 r k)) (Cert.ReferenceIdeal.Spec.row1 μ (ix2 (0 : Fin 1) k)) (Cert.ReferenceIdeal.Spec.row1 σ2 (ix2 (0 : Fin 1) k))
          (Cert.ReferenceIdeal.Spec.row1 g (ix2 (0 : Fin 1) k)) (Cert.ReferenceIdeal.Spec.row1 b (ix2 (0 : Fin 1) k)) := by
  unfold Cert.ReferenceIdeal.Spec.bnN
  rw [addf_apply, mulf_apply, mulf_apply, subf_apply, rows_apply, rows_apply, rows_apply, rows_apply]
  rw [row1_rsqrt_apply]
  rfl

/-- The reference's product of the normalised array by the weight is the entrywise function. -/
theorem linN_eq (x : Cert.ReferenceIdeal.Spec.T (F := Ideal) Cert.ReferenceIdeal.S100000x64 .f32)
    (μ σ2 g b : Cert.ReferenceIdeal.Spec.T (F := Ideal) Cert.ReferenceIdeal.S64 .f32)
    (W : Cert.ReferenceIdeal.Spec.T (F := Ideal) Cert.ReferenceIdeal.S64x64 .f32) :
    Cert.ReferenceIdeal.Spec.linN x μ σ2 g b W
      = linG x (Cert.ReferenceIdeal.Spec.row1 μ) (Cert.ReferenceIdeal.Spec.row1 σ2) (Cert.ReferenceIdeal.Spec.row1 g)
          (Cert.ReferenceIdeal.Spec.row1 b) W := by
  funext i
  obtain ⟨r, c', rfl⟩ : ∃ (r : Fin 100000) (c' : Fin 64), i = ix2 r c' := ⟨i 0, i 1, eq_ix2 i⟩
  unfold Cert.ReferenceIdeal.Spec.linN
  show FloatOps.dotGeneral Cert.ReferenceIdeal.dot_S100000x64_S64x64_S100000x64_1_0_0_1_n_n none _
      (Cert.ReferenceIdeal.Spec.bnN x μ σ2 g b) W (ix2 r c') = _
  refine (Ideal.dotGeneral_apply _ none _ _ _ (ix2 r c')).trans ?_
  refine (sum_rows Cert.ReferenceIdeal.Gen.dot_S100000x64_S64x64_S100000x64_1_0_0_1_n_n_wf _ _ r c').trans ?_
  show _ = linAt x _ _ _ _ W r c'
  unfold linAt
  refine Finset.sum_congr rfl fun k _ => ?_
  rw [bnN_apply]

end SpecSide

/-! ## The region's value -/

/-- Region 3 leaves the reference's BN-then-linear term of the arrays it reads. -/
theorem lin3_val (V : (c : Dev nD) → (b : Ref sig .tc) → Buf (Elt Ideal) ((c : Thread nD τ).loc b)) (c : Dev nD)
    (x : Cert.ReferenceIdeal.Spec.T (F := Ideal) Cert.ReferenceIdeal.S100000x64 .f32)
    (μ σ2 g b : Cert.ReferenceIdeal.Spec.T (F := Ideal) Cert.ReferenceIdeal.S64 .f32)
    (W : Cert.ReferenceIdeal.Spec.T (F := Ideal) Cert.ReferenceIdeal.S64x64 .f32)
    (h0 : V c (Pipeline.arrRef spec3 0) = x)
    (h1 : V c (Pipeline.arrRef spec3 1) = Cert.ReferenceIdeal.Spec.row1 μ)
    (h2 : V c (Pipeline.arrRef spec3 2) = Cert.ReferenceIdeal.Spec.row1 σ2)
    (h3 : V c (Pipeline.arrRef spec3 3) = Cert.ReferenceIdeal.Spec.row1 g)
    (h4 : V c (Pipeline.arrRef spec3 4) = Cert.ReferenceIdeal.Spec.row1 b)
    (h5 : V c (Pipeline.arrRef spec3 5) = W) :
    (dat3 V c).arrAt 6 cfg3.N = Cert.ReferenceIdeal.Spec.linN x μ σ2 g b W := by
  subst h0 h5
  rw [linN_eq, ← h1, ← h2, ← h3, ← h4]
  exact final3 V c

end Cert.KernelIdeal.KLin3

end
-- ==== Proof.KLin5.lean ====
/-
  Region 5 (batch-normalise, then project): the array the region leaves is, entry by entry, the sum over the 64
  features k of ((x[r,k] - mean[k]) * rsqrt(var[k] + eps) * gamma[k] + beta[k]) * W[k,c].  The region walks the
  100000 rows in five blocks of 20000; each block's result depends on that block's rows of x only, the row vectors
  and the weight being the same at every point, so the five written blocks are the five row ranges of ONE function
  of the arrays, and they cover every row.
-/
import proofs.«416283_j44736379355415_1_alg».proof.Proof.Gen.KernelIdeal.Frame
import proofs.«416283_j44736379355415_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.KLin5

open Cert.KernelIdeal Cert.KernelIdeal.Gen

/-! ## The value, entry by entry -/

/-- One normalised entry: (x - mean) * rsqrt(var + eps) * gamma + beta, eps the f32 word 0x3727C5AC. -/
def bnAt (xv μ σ2 g b : EReal) : EReal :=
  (xv - μ) * Ideal.rsqrt (σ2 + Ideal.ofBits .f32 0x3727C5AC#32) * g + b

/-- Entry (r, c) of the normalised rows times the weight: the sum over the 64 features. The row count is a
    parameter: a block of 20000 rows and the array of 100000 rows are read by the same formula. -/
def linAt {n : Nat} (x : (⟨2, ![n, 64]⟩ : Shape).Idx → EReal) (μ σ2 g b : S1x64.Idx → EReal) (W : S64x64.Idx → EReal)
    (r : Fin n) (c : Fin 64) : EReal :=
  ∑ k : Fin 64, bnAt (x (ix2 r k)) (μ (ix2 (0 : Fin 1) k)) (σ2 (ix2 (0 : Fin 1) k)) (g (ix2 (0 : Fin 1) k)) (b (ix2 (0 : Fin 1) k)) * W (ix2 k c)

/-- The whole array as one function of the arrays the region reads. -/
def linG (x : S100000x64.Idx → EReal) (μ σ2 g b : S1x64.Idx → EReal) (W : S64x64.Idx → EReal) : S100000x64.Idx → EReal :=
  fun i => linAt x μ σ2 g b W (i 0) (i 1)

/-! ## A product of rows by a 64 x 64 matrix, read at an entry -/

section Dot
variable {n : Nat} (w : DotDims.WF ⟨2, ![n, 64]⟩ ⟨2, ![64, 64]⟩ ⟨2, ![n, 64]⟩ [1] [0] [0] [1] [] [])

/-- The left operand is read at (row of the entry, contracted coordinate). -/
theorem lhs_rows (a : Fin n) (b c : Fin 64) :
    (⟨[1], [0], [0], [1], [], [], w⟩ : DotDims ⟨2, ![n, 64]⟩ ⟨2, ![64, 64]⟩ ⟨2, ![n, 64]⟩).lhsIdx (ix2 a b)
      ((contrEquiv1 _ 64 rfl rfl).symm c) = ix2 a c := by
  have c2 := contrEquiv1_symm_val
    (⟨[1], [0], [0], [1], [], [], w⟩ : DotDims ⟨2, ![n, 64]⟩ ⟨2, ![64, 64]⟩ ⟨2, ![n, 64]⟩) 64 rfl rfl c
  funext ax; apply Fin.ext
  match ax with
  | ⟨0, _⟩ => simp [DotDims.lhsIdx]; rfl
  | ⟨1, _⟩ => simp [DotDims.lhsIdx]; exact c2

/-- The right operand is read at (contracted coordinate, column of the entry). -/
theorem rhs_rows (a : Fin n) (b c : Fin 64) :
    (⟨[1], [0], [0], [1], [], [], w⟩ : DotDims ⟨2, ![n, 64]⟩ ⟨2, ![64, 64]⟩ ⟨2, ![n, 64]⟩).rhsIdx (ix2 a b)
      ((contrEquiv1 _ 64 rfl rfl).symm c) = ix2 c b := by
  have c2 := contrEquiv1_symm_val
    (⟨[1], [0], [0], [1], [], [], w⟩ : DotDims ⟨2, ![n, 64]⟩ ⟨2, ![64, 64]⟩ ⟨2, ![n, 64]⟩) 64 rfl rfl c
  funext ax; apply Fin.ext
  match ax with
  | ⟨0, _⟩ => simp [DotDims.rhsIdx]; exact c2
  | ⟨1, _⟩ => simp [DotDims.rhsIdx]; rfl

/-- So the contraction's sum is the sum over the 64 features of row entry times column entry. -/
theorem sum_rows (A : (⟨2, ![n, 64]⟩ : Shape).Idx → EReal) (B : S64x64.Idx → EReal) (a : Fin n) (b : Fin 64) :
    (∑ k : (⟨[1], [0], [0], [1], [], [], w⟩ : DotDims ⟨2, ![n, 64]⟩ ⟨2, ![64, 64]⟩ ⟨2, ![n, 64]⟩).contr.Idx,
        A ((⟨[1], [0], [0], [1], [], [], w⟩ : DotDims ⟨2, ![n, 64]⟩ ⟨2, ![64, 64]⟩ ⟨2, ![n, 64]⟩).lhsIdx (ix2 a b) k)
          * B ((⟨[1], [0], [0], [1], [], [], w⟩ : DotDims ⟨2, ![n, 64]⟩ ⟨2, ![64, 64]⟩ ⟨2, ![n, 64]⟩).rhsIdx (ix2 a b) k))
      = ∑ c : Fin 64, A (ix2 a c) * B (ix2 c b) := by
  rw [← Equiv.sum_comp (contrEquiv1 (⟨[1], [0], [0], [1], [], [], w⟩ : DotDims ⟨2, ![n, 64]⟩ ⟨2, ![64, 64]⟩ ⟨2, ![n, 64]⟩) 64 rfl rfl).symm]
  refine Finset.sum_congr rfl fun c _ => ?_
  rw [lhs_rows w a b c, rhs_rows w a b c]
end Dot

/-! ## The body's arithmetic at an entry of its block -/

/-- One normalised entry of the block, as the body computes it: the row vectors broadcast down the 20000 rows. -/
theorem hn5_apply (x0 : FVec Ideal S20000x64 .f32) (v m g b : FVec Ideal S1x64 .f32) (p : Fin 20000) (k : Fin 64) :
    addf (mulf (mulf (subf (shapeCast S20000x64 x0 shapeCasts_S20000x64_S20000x64)
            (broadcastTo S20000x64 (shapeCast S1x64 m shapeCasts_S1x64_S1x64) broadcasts_S1x64_S20000x64))
          (broadcastTo S20000x64 (rsqrt (addf (shapeCast S1x64 v shapeCasts_S1x64_S1x64) (broadcast S1x64 (Scalar.ofBits .f32 0x3727C5AC#32)))) broadcasts_S1x64_S20000x64))
        (broadcastTo S20000x64 (shapeCast S1x64 g shapeCasts_S1x64_S1x64) broadcasts_S1x64_S20000x64))
      (broadcastTo S20000x64 (shapeCast S1x64 b shapeCasts_S1x64_S1x64) broadcasts_S1x64_S20000x64) (ix2 p k)
      = bnAt (x0 (ix2 p k)) (m (ix2 (0 : Fin 1) k)) (v (ix2 (0 : Fin 1) k)) (g (ix2 (0 : Fin 1) k)) (b (ix2 (0 : Fin 1) k)) := by
  rw [addf_apply, mulf_apply, mulf_apply, subf_apply]
  rw [broadcastTo_1b_ab_apply, broadcastTo_1b_ab_apply, broadcastTo_1b_ab_apply, broadcastTo_1b_ab_apply]
  simp only [shapeCast_self]
  rfl

/-- The body's payload at entry (p, q) of its block: the sum over the features of the normalised row entries times
    the weight's column. -/
theorem pay5_apply (x0 : FVec Ideal S20000x64 .f32) (v m g b : FVec Ideal S1x64 .f32) (W : FVec Ideal S64x64 .f32)
    (p : Fin 20000) (q : Fin 64) :
    k5_pay1 (F := Ideal) x0 v m g b W (ix2 p q) = linAt x0 m v g b W p q := by
  unfold k5_pay1
  refine (Ideal.matmul_constant_zero_apply dot_S20000x64_S64x64_S20000x64_1_0_0_1_n_n none _ _ (ix2 p q)).trans ?_
  refine (sum_rows dot_S20000x64_S64x64_S20000x64_1_0_0_1_n_n_wf _ _ p q).trans ?_
  unfold linAt
  refine Finset.sum_congr rfl fun k _ => ?_
  rw [hn5_apply, shapeCast_self]

/-- The same at any entry of the block, against the whole array's function: when the block's rows of x are rows of
    the array X (the row of the block's entry being the row of the array's entry), the row vectors and the weight
    are the arrays', and the columns agree. -/
theorem point5_apply (X : S100000x64.Idx → EReal) (M S G B : S1x64.Idx → EReal) (Wt : S64x64.Idx → EReal)
    (x0 : FVec Ideal S20000x64 .f32) (v m g b : FVec Ideal S1x64 .f32) (W : FVec Ideal S64x64 .f32)
    (hm : m = M) (hv : v = S) (hg : g = G) (hb : b = B) (hW : W = Wt)
    (jb : S20000x64.Idx) (i : S100000x64.Idx)
    (hx : ∀ k : Fin 64, x0 (ix2 (jb 0) k) = X (ix2 (i 0) k)) (hq : (i 1).val = (jb 1).val) :
    k5_pay1 (F := Ideal) x0 v m g b W jb = linG X M S G B Wt i := by
  subst hm hv hg hb hW
  obtain ⟨p, q, rfl⟩ : ∃ (p : Fin 20000) (q : Fin 64), jb = ix2 p q := ⟨jb 0, jb 1, eq_ix2 jb⟩
  obtain ⟨r, c', rfl⟩ : ∃ (r : Fin 100000) (c' : Fin 64), i = ix2 r c' := ⟨i 0, i 1, eq_ix2 i⟩
  obtain rfl : c' = q := Fin.ext hq
  rw [pay5_apply]
  show linAt x0 m v g b W p c' = linAt X m v g b W r c'
  unfold linAt
  refine Finset.sum_congr rfl fun k _ => ?_
  have h : x0 (ix2 p k) = X (ix2 r k) := hx k
  rw [h]

/-! ## From blocks to the array -/

section Blocks
variable (V : (c : Dev nD) → (b : Ref sig .tc) → Buf (Elt Ideal) ((c : Thread nD τ).loc b))

theorem hz : (![0, 0] : Fin 2 → Nat) = fun _ => 0 := funext fun a => by fin_cases a <;> rfl

/-- The index maps over the five points, decided: the two windows over the rows sit at block t, the row vectors'
    and the weight's at block 0. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 ∧ t.val < 5 :=
  (by decide +kernel : ∀ t : Fin grid5.N, _)

/-- Window 1's block is its whole [1,64] array at every point. -/
theorem iblk5_1 (c : Dev nD) (t : Fin cfg5.N) :
    (iblk5 V c 1 t : S1x64.Idx → EReal) = V c (Pipeline.arrRef spec5 1) := by
  obtain ⟨-, -, e0, e1, -⟩ := idx_facts5 t
  funext y
  unfold iblk5
  rw [View.read_apply]
  show V c (Pipeline.arrRef spec5 1) _ = V c (Pipeline.arrRef spec5 1) y
  congr 1
  funext a; apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- Window 2's block is its whole array at every point. -/
theorem iblk5_2 (c : Dev nD) (t : Fin cfg5.N) :
    (iblk5 V c 2 t : S1x64.Idx → EReal) = V c (Pipeline.arrRef spec5 2) := by
  have e := idx_facts5 t
  funext y
  unfold iblk5
  rw [View.read_apply]
  show V c (Pipeline.arrRef spec5 2) _ = V c (Pipeline.arrRef spec5 2) y
  congr 1
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- Window 3's block is its whole array at every point. -/
theorem iblk5_3 (c : Dev nD) (t : Fin cfg5.N) :
    (iblk5 V c 3 t : S1x64.Idx → EReal) = V c (Pipeline.arrRef spec5 3) := by
  have e := idx_facts5 t
  funext y
  unfold iblk5
  rw [View.read_apply]
  show V c (Pipeline.arrRef spec5 3) _ = V c (Pipeline.arrRef spec5 3) y
  congr 1
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Window 4's block is its whole array at every point. -/
theorem iblk5_4 (c : Dev nD) (t : Fin cfg5.N) :
    (iblk5 V c 4 t : S1x64.Idx → EReal) = V c (Pipeline.arrRef spec5 4) := by
  have e := idx_facts5 t
  funext y
  unfold iblk5
  rw [View.read_apply]
  show V c (Pipeline.arrRef spec5 4) _ = V c (Pipeline.arrRef spec5 4) y
  congr 1
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- Window 5's block is its whole array at every point. -/
theorem iblk5_5 (c : Dev nD) (t : Fin cfg5.N) :
    (iblk5 V c 5 t : S64x64.Idx → EReal) = V c (Pipeline.arrRef spec5 5) := by
  have e := idx_facts5 t
  funext y
  unfold iblk5
  rw [View.read_apply]
  show V c (Pipeline.arrRef spec5 5) _ = V c (Pipeline.arrRef spec5 5) y
  congr 1
  funext a; apply Fin.ext
  match a with
  | ⟨0, _⟩ => show win5_5.index t (0 : Fin 2) * 64 + 1 * (y 0).val = (y 0).val; omega
  | ⟨1, _⟩ => show win5_5.index t (1 : Fin 2) * 64 + 1 * (y 1).val = (y 1).val; omega

/-- Window 0's block at point t is rows 20000 t … 20000 t + 19999 of its array. -/
theorem iblk5_0_apply (c : Dev nD) (t : Fin cfg5.N) (y : S20000x64.Idx) (i : S100000x64.Idx)
    (h0 : (i 0).val = 20000 * t.val + (y 0).val) (h1 : (i 1).val = (y 1).val) :
    (iblk5 V c 0 t : S20000x64.Idx → EReal) y = V c (Pipeline.arrRef spec5 0) i := by
  have e := idx_facts5 t
  unfold iblk5
  rw [View.read_apply]
  show V c (Pipeline.arrRef spec5 0) _ = V c (Pipeline.arrRef spec5 0) i
  congr 1
  funext a; apply Fin.ext
  match a with
  | ⟨0, _⟩ => show win5_0.index t (0 : Fin 2) * 20000 + 1 * (y 0).val = (i 0).val; omega
  | ⟨1, _⟩ => show win5_0.index t (1 : Fin 2) * 64 + 1 * (y 1).val = (i 1).val; omega

/-- Reading any function of the output array through point t's block: the function at the block's embedded index. -/
theorem read_blk5 (t : Fin cfg5.N) (G : S100000x64.Idx → EReal) (j : ((cfg5.win 6).xblock (grid5.coords t)).Idx) :
    ((cfg5.win 6).blk t).view.read (Elt Ideal) G j = G (((cfg5.win 6).blk t).view.emb j) := rfl

/-- What the write-back moves of a staging buffer's contents: all of it (the blocks tile the array). -/
theorem cut_blk5 (t : Fin cfg5.N) (X : S20000x64.Idx → EReal) (j : ((cfg5.win 6).xblock (grid5.coords t)).Idx) :
    (cfg5.win 6).cut (grid5.coords t) X j = X ((cfg5.win 6).xinj (grid5.coords t) j) := rfl

/-- What point t writes back is rows 20000 t … of the one function of the arrays. -/
theorem flushed5_eq (c : Dev nD) (t : Fin cfg5.N) :
    (dat5 V c).flushed 6 t = ((cfg5.win 6).blk t).view.read (Elt Ideal)
      (linG (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz]
  simp only [View.ld_unit_zero (S := S20000x64) hz, View.ld_unit_zero (S := S1x64) hz, View.ld_unit_zero (S := S64x64) hz]
  have e := idx_facts5 t
  funext j
  refine (cut_blk5 t _ j).trans (Eq.trans ?_ (read_blk5 t _ j).symm)
  refine point5_apply (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (iblk5 V c 0 t) (iblk5 V c 2 t) (iblk5 V c 1 t) (iblk5 V c 3 t) (iblk5 V c 4 t) (iblk5 V c 5 t)
    (iblk5_1 V c t) (iblk5_2 V c t) (iblk5_3 V c t) (iblk5_4 V c t) (iblk5_5 V c t)
    ((cfg5.win 6).xinj (grid5.coords t) j) (((cfg5.win 6).blk t).view.emb j) (fun k => ?_) ?_
  · refine iblk5_0_apply V c t _ _ ?_ rfl
    show win5_6.index t (0 : Fin 2) * 20000 + 1 * (j 0).val = 20000 * t.val + (j 0).val
    omega
  · show win5_6.index t (1 : Fin 2) * 64 + 1 * (j 1).val = (j 1).val
    omega

/-- An index of the array is in point t's block iff each coordinate is in the block's range on its axis. -/
theorem mem_blk5 (t : Fin cfg5.N) (i : S100000x64.Idx) :
    i ∈ ((cfg5.win 6).blk t).view.set ↔ ∀ a : Fin 2, win5_6.index t a * S20000x64.size a ≤ (i a).val ∧ (i a).val < win5_6.index t a * S20000x64.size a + S20000x64.size a := by
  show i ∈ ((View.whole main_v92).slice (win5_6.rect t)).set ↔ _
  rw [View.set_slice_whole, Rect.mem_set_unit]
  exact Iff.rfl

/-- Every row lies in the block of the point its row number divided by 20000 names. -/
theorem cover5 (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : grid5.N = 5 := N_5
  let t : Fin cfg5.N := ⟨(i 0).val / 20000, by show (i 0).val / 20000 < grid5.N; omega⟩
  have e := idx_facts5 t
  have ht : t.val = (i 0).val / 20000 := rfl
  refine ⟨t, flush5_6 t, ?_⟩
  rw [mem_blk5]
  intro a
  match a with
  | ⟨0, _⟩ => show win5_6.index t (0 : Fin 2) * 20000 ≤ (i 0).val ∧ (i 0).val < win5_6.index t (0 : Fin 2) * 20000 + 20000; omega
  | ⟨1, _⟩ => show win5_6.index t (1 : Fin 2) * 64 ≤ (i 1).val ∧ (i 1).val < win5_6.index t (1 : Fin 2) * 64 + 64; omega

/-- The array the region leaves is that function of the arrays it reads. -/
theorem final5 (c : Dev nD) :
    (dat5 V c).arrAt 6 cfg5.N = linG (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) :=
  (dat5 V c).arrAt_eq_of_cover 6 _ (fun t _ => flushed5_eq V c t) cover5

end Blocks

/-! ## The reference's vector-level term is the same function -/

section SpecSide

/-- A [64] vector as a [1,64] row, read at (0, k): the vector at k. -/
theorem row1_apply (v : Cert.ReferenceIdeal.Spec.T (F := Ideal) Cert.ReferenceIdeal.S64 .f32) (k : Fin 64) :
    Cert.ReferenceIdeal.Spec.row1 v (ix2 (0 : Fin 1) k) = v (ix1 k) := by
  unfold Cert.ReferenceIdeal.Spec.row1
  exact broadcastInDim_apply _ _ v (ix2 (0 : Fin 1) k) (ix1 k) fun a => match a with | ⟨0, _⟩ => rfl

/-- The row repeated down the 100000 rows, read at (r, k): the row at (0, k). -/
theorem rows_apply (v : Cert.ReferenceIdeal.Spec.T (F := Ideal) Cert.ReferenceIdeal.S64 .f32) (r : Fin 100000) (k : Fin 64) :
    Cert.ReferenceIdeal.Spec.rows v (ix2 r k) = Cert.ReferenceIdeal.Spec.row1 v (ix2 (0 : Fin 1) k) := by
  unfold Cert.ReferenceIdeal.Spec.rows
  exact broadcastInDim_apply _ _ (Cert.ReferenceIdeal.Spec.row1 v) (ix2 r k) (ix2 (0 : Fin 1) k)
    fun a => match a with | ⟨0, _⟩ => rfl | ⟨1, _⟩ => rfl

/-- The row of rsqrt(var + u), read at (0, k): rsqrt of the var row's entry plus u's entry; host and kernel rsqrt are
    one function of the extended reals. -/
theorem row1_rsqrt_apply (σ2 u : Cert.ReferenceIdeal.Spec.T (F := Ideal) Cert.ReferenceIdeal.S64 .f32) (k : Fin 64) :
    (Cert.ReferenceIdeal.Spec.row1 (F := Ideal)
        (Host.rsqrt (F := Ideal) (s := Cert.ReferenceIdeal.S64) (φ := .f32)
          (addf (F := Ideal) (s := Cert.ReferenceIdeal.S64) (φ := .f32) σ2 u)) (ix2 (0 : Fin 1) k) : EReal)
      = Ideal.rsqrt (Cert.ReferenceIdeal.Spec.row1 (F := Ideal) σ2 (ix2 (0 : Fin 1) k) + u (ix1 k)) := by
  rw [row1_apply, row1_apply]
  rfl

/-- The reference's normalised array at (r, k). -/
theorem bnN_apply (x : Cert.ReferenceIdeal.Spec.T (F := Ideal) Cert.ReferenceIdeal.S100000x64 .f32)
    (μ σ2 g b : Cert.ReferenceIdeal.Spec.T (F := Ideal) Cert.ReferenceIdeal.S64 .f32) (r : Fin 100000) (k : Fin 64) :
    Cert.ReferenceIdeal.Spec.bnN x μ σ2 g b (ix2 r k)
      = bnAt (x (ix2 r k)) (Cert.ReferenceIdeal.Spec.row1 μ (ix2 (0 : Fin 1) k)) (Cert.ReferenceIdeal.Spec.row1 σ2 (ix2 (0 : Fin 1) k))
          (Cert.ReferenceIdeal.Spec.row1 g (ix2 (0 : Fin 1) k)) (Cert.ReferenceIdeal.Spec.row1 b (ix2 (0 : Fin 1) k)) := by
  unfold Cert.ReferenceIdeal.Spec.bnN
  rw [addf_apply, mulf_apply, mulf_apply, subf_apply, rows_apply, rows_apply, rows_apply, rows_apply]
  rw [row1_rsqrt_apply]
  rfl

/-- The reference's product of the normalised array by the weight is the entrywise function. -/
theorem linN_eq (x : Cert.ReferenceIdeal.Spec.T (F := Ideal) Cert.ReferenceIdeal.S100000x64 .f32)
    (μ σ2 g b : Cert.ReferenceIdeal.Spec.T (F := Ideal) Cert.ReferenceIdeal.S64 .f32)
    (W : Cert.ReferenceIdeal.Spec.T (F := Ideal) Cert.ReferenceIdeal.S64x64 .f32) :
    Cert.ReferenceIdeal.Spec.linN x μ σ2 g b W
      = linG x (Cert.ReferenceIdeal.Spec.row1 μ) (Cert.ReferenceIdeal.Spec.row1 σ2) (Cert.ReferenceIdeal.Spec.row1 g)
          (Cert.ReferenceIdeal.Spec.row1 b) W := by
  funext i
  obtain ⟨r, c', rfl⟩ : ∃ (r : Fin 100000) (c' : Fin 64), i = ix2 r c' := ⟨i 0, i 1, eq_ix2 i⟩
  unfold Cert.ReferenceIdeal.Spec.linN
  show FloatOps.dotGeneral Cert.ReferenceIdeal.dot_S100000x64_S64x64_S100000x64_1_0_0_1_n_n none _
      (Cert.ReferenceIdeal.Spec.bnN x μ σ2 g b) W (ix2 r c') = _
  refine (Ideal.dotGeneral_apply _ none _ _ _ (ix2 r c')).trans ?_
  refine (sum_rows Cert.ReferenceIdeal.Gen.dot_S100000x64_S64x64_S100000x64_1_0_0_1_n_n_wf _ _ r c').trans ?_
  show _ = linAt x _ _ _ _ W r c'
  unfold linAt
  refine Finset.sum_congr rfl fun k _ => ?_
  rw [bnN_apply]

end SpecSide

/-! ## The region's value -/

/-- Region 5 leaves the reference's BN-then-linear term of the arrays it reads. -/
theorem lin5_val (V : (c : Dev nD) → (b : Ref sig .tc) → Buf (Elt Ideal) ((c : Thread nD τ).loc b)) (c : Dev nD)
    (x : Cert.ReferenceIdeal.Spec.T (F := Ideal) Cert.ReferenceIdeal.S100000x64 .f32)
    (μ σ2 g b : Cert.ReferenceIdeal.Spec.T (F := Ideal) Cert.ReferenceIdeal.S64 .f32)
    (W : Cert.ReferenceIdeal.Spec.T (F := Ideal) Cert.ReferenceIdeal.S64x64 .f32)
    (h0 : V c (Pipeline.arrRef spec5 0) = x)
    (h1 : V c (Pipeline.arrRef spec5 1) = Cert.ReferenceIdeal.Spec.row1 μ)
    (h2 : V c (Pipeline.arrRef spec5 2) = Cert.ReferenceIdeal.Spec.row1 σ2)
    (h3 : V c (Pipeline.arrRef spec5 3) = Cert.ReferenceIdeal.Spec.row1 g)
    (h4 : V c (Pipeline.arrRef spec5 4) = Cert.ReferenceIdeal.Spec.row1 b)
    (h5 : V c (Pipeline.arrRef spec5 5) = W) :
    (dat5 V c).arrAt 6 cfg5.N = Cert.ReferenceIdeal.Spec.linN x μ σ2 g b W := by
  subst h0 h5
  rw [linN_eq, ← h1, ← h2, ← h3, ← h4]
  exact final5 V c

end Cert.KernelIdeal.KLin5

end
-- ==== Proof.KLin7.lean ====
/-
  Region 7 (batch-normalise, then project): the array the region leaves is, entry by entry, the sum over the 64
  features k of ((x[r,k] - mean[k]) * rsqrt(var[k] + eps) * gamma[k] + beta[k]) * W[k,c].  The region walks the
  100000 rows in five blocks of 20000; each block's result depends on that block's rows of x only, the row vectors
  and the weight being the same at every point, so the five written blocks are the five row ranges of ONE function
  of the arrays, and they cover every row.
-/
import proofs.«416283_j44736379355415_1_alg».proof.Proof.Gen.KernelIdeal.Frame
import proofs.«416283_j44736379355415_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.KLin7

open Cert.KernelIdeal Cert.KernelIdeal.Gen

/-! ## The value, entry by entry -/

/-- One normalised entry: (x - mean) * rsqrt(var + eps) * gamma + beta, eps the f32 word 0x3727C5AC. -/
def bnAt (xv μ σ2 g b : EReal) : EReal :=
  (xv - μ) * Ideal.rsqrt (σ2 + Ideal.ofBits .f32 0x3727C5AC#32) * g + b

/-- Entry (r, c) of the normalised rows times the weight: the sum over the 64 features. The row count is a
    parameter: a block of 20000 rows and the array of 100000 rows are read by the same formula. -/
def linAt {n : Nat} (x : (⟨2, ![n, 64]⟩ : Shape).Idx → EReal) (μ σ2 g b : S1x64.Idx → EReal) (W : S64x64.Idx → EReal)
    (r : Fin n) (c : Fin 64) : EReal :=
  ∑ k : Fin 64, bnAt (x (ix2 r k)) (μ (ix2 (0 : Fin 1) k)) (σ2 (ix2 (0 : Fin 1) k)) (g (ix2 (0 : Fin 1) k)) (b (ix2 (0 : Fin 1) k)) * W (ix2 k c)

/-- The whole array as one function of the arrays the region reads. -/
def linG (x : S100000x64.Idx → EReal) (μ σ2 g b : S1x64.Idx → EReal) (W : S64x64.Idx → EReal) : S100000x64.Idx → EReal :=
  fun i => linAt x μ σ2 g b W (i 0) (i 1)

/-! ## A product of rows by a 64 x 64 matrix, read at an entry -/

section Dot
variable {n : Nat} (w : DotDims.WF ⟨2, ![n, 64]⟩ ⟨2, ![64, 64]⟩ ⟨2, ![n, 64]⟩ [1] [0] [0] [1] [] [])

/-- The left operand is read at (row of the entry, contracted coordinate). -/
theorem lhs_rows (a : Fin n) (b c : Fin 64) :
    (⟨[1], [0], [0], [1], [], [], w⟩ : DotDims ⟨2, ![n, 64]⟩ ⟨2, ![64, 64]⟩ ⟨2, ![n, 64]⟩).lhsIdx (ix2 a b)
      ((contrEquiv1 _ 64 rfl rfl).symm c) = ix2 a c := by
  have c2 := contrEquiv1_symm_val
    (⟨[1], [0], [0], [1], [], [], w⟩ : DotDims ⟨2, ![n, 64]⟩ ⟨2, ![64, 64]⟩ ⟨2, ![n, 64]⟩) 64 rfl rfl c
  funext ax; apply Fin.ext
  match ax with
  | ⟨0, _⟩ => simp [DotDims.lhsIdx]; rfl
  | ⟨1, _⟩ => simp [DotDims.lhsIdx]; exact c2

/-- The right operand is read at (contracted coordinate, column of the entry). -/
theorem rhs_rows (a : Fin n) (b c : Fin 64) :
    (⟨[1], [0], [0], [1], [], [], w⟩ : DotDims ⟨2, ![n, 64]⟩ ⟨2, ![64, 64]⟩ ⟨2, ![n, 64]⟩).rhsIdx (ix2 a b)
      ((contrEquiv1 _ 64 rfl rfl).symm c) = ix2 c b := by
  have c2 := contrEquiv1_symm_val
    (⟨[1], [0], [0], [1], [], [], w⟩ : DotDims ⟨2, ![n, 64]⟩ ⟨2, ![64, 64]⟩ ⟨2, ![n, 64]⟩) 64 rfl rfl c
  funext ax; apply Fin.ext
  match ax with
  | ⟨0, _⟩ => simp [DotDims.rhsIdx]; exact c2
  | ⟨1, _⟩ => simp [DotDims.rhsIdx]; rfl

/-- So the contraction's sum is the sum over the 64 features of row entry times column entry. -/
theorem sum_rows (A : (⟨2, ![n, 64]⟩ : Shape).Idx → EReal) (B : S64x64.Idx → EReal) (a : Fin n) (b : Fin 64) :
    (∑ k : (⟨[1], [0], [0], [1], [], [], w⟩ : DotDims ⟨2, ![n, 64]⟩ ⟨2, ![64, 64]⟩ ⟨2, ![n, 64]⟩).contr.Idx,
        A ((⟨[1], [0], [0], [1], [], [], w⟩ : DotDims ⟨2, ![n, 64]⟩ ⟨2, ![64, 64]⟩ ⟨2, ![n, 64]⟩).lhsIdx (ix2 a b) k)
          * B ((⟨[1], [0], [0], [1], [], [], w⟩ : DotDims ⟨2, ![n, 64]⟩ ⟨2, ![64, 64]⟩ ⟨2, ![n, 64]⟩).rhsIdx (ix2 a b) k))
      = ∑ c : Fin 64, A (ix2 a c) * B (ix2 c b) := by
  rw [← Equiv.sum_comp (contrEquiv1 (⟨[1], [0], [0], [1], [], [], w⟩ : DotDims ⟨2, ![n, 64]⟩ ⟨2, ![64, 64]⟩ ⟨2, ![n, 64]⟩) 64 rfl rfl).symm]
  refine Finset.sum_congr rfl fun c _ => ?_
  rw [lhs_rows w a b c, rhs_rows w a b c]
end Dot

/-! ## The body's arithmetic at an entry of its block -/

/-- One normalised entry of the block, as the body computes it: the row vectors broadcast down the 20000 rows. -/
theorem hn7_apply (x0 : FVec Ideal S20000x64 .f32) (v m g b : FVec Ideal S1x64 .f32) (p : Fin 20000) (k : Fin 64) :
    addf (mulf (mulf (subf (shapeCast S20000x64 x0 shapeCasts_S20000x64_S20000x64)
            (broadcastTo S20000x64 (shapeCast S1x64 m shapeCasts_S1x64_S1x64) broadcasts_S1x64_S20000x64))
          (broadcastTo S20000x64 (rsqrt (addf (shapeCast S1x64 v shapeCasts_S1x64_S1x64) (broadcast S1x64 (Scalar.ofBits .f32 0x3727C5AC#32)))) broadcasts_S1x64_S20000x64))
        (broadcastTo S20000x64 (shapeCast S1x64 g shapeCasts_S1x64_S1x64) broadcasts_S1x64_S20000x64))
      (broadcastTo S20000x64 (shapeCast S1x64 b shapeCasts_S1x64_S1x64) broadcasts_S1x64_S20000x64) (ix2 p k)
      = bnAt (x0 (ix2 p k)) (m (ix2 (0 : Fin 1) k)) (v (ix2 (0 : Fin 1) k)) (g (ix2 (0 : Fin 1) k)) (b (ix2 (0 : Fin 1) k)) := by
  rw [addf_apply, mulf_apply, mulf_apply, subf_apply]
  rw [broadcastTo_1b_ab_apply, broadcastTo_1b_ab_apply, broadcastTo_1b_ab_apply, broadcastTo_1b_ab_apply]
  simp only [shapeCast_self]
  rfl

/-- The body's payload at entry (p, q) of its block: the sum over the features of the normalised row entries times
    the weight's column. -/
theorem pay7_apply (x0 : FVec Ideal S20000x64 .f32) (v m g b : FVec Ideal S1x64 .f32) (W : FVec Ideal S64x64 .f32)
    (p : Fin 20000) (q : Fin 64) :
    k7_pay1 (F := Ideal) x0 v m g b W (ix2 p q) = linAt x0 m v g b W p q := by
  unfold k7_pay1
  refine (Ideal.matmul_constant_zero_apply dot_S20000x64_S64x64_S20000x64_1_0_0_1_n_n none _ _ (ix2 p q)).trans ?_
  refine (sum_rows dot_S20000x64_S64x64_S20000x64_1_0_0_1_n_n_wf _ _ p q).trans ?_
  unfold linAt
  refine Finset.sum_congr rfl fun k _ => ?_
  rw [hn7_apply, shapeCast_self]

/-- The same at any entry of the block, against the whole array's function: when the block's rows of x are rows of
    the array X (the row of the block's entry being the row of the array's entry), the row vectors and the weight
    are the arrays', and the columns agree. -/
theorem point7_apply (X : S100000x64.Idx → EReal) (M S G B : S1x64.Idx → EReal) (Wt : S64x64.Idx → EReal)
    (x0 : FVec Ideal S20000x64 .f32) (v m g b : FVec Ideal S1x64 .f32) (W : FVec Ideal S64x64 .f32)
    (hm : m = M) (hv : v = S) (hg : g = G) (hb : b = B) (hW : W = Wt)
    (jb : S20000x64.Idx) (i : S100000x64.Idx)
    (hx : ∀ k : Fin 64, x0 (ix2 (jb 0) k) = X (ix2 (i 0) k)) (hq : (i 1).val = (jb 1).val) :
    k7_pay1 (F := Ideal) x0 v m g b W jb = linG X M S G B Wt i := by
  subst hm hv hg hb hW
  obtain ⟨p, q, rfl⟩ : ∃ (p : Fin 20000) (q : Fin 64), jb = ix2 p q := ⟨jb 0, jb 1, eq_ix2 jb⟩
  obtain ⟨r, c', rfl⟩ : ∃ (r : Fin 100000) (c' : Fin 64), i = ix2 r c' := ⟨i 0, i 1, eq_ix2 i⟩
  obtain rfl : c' = q := Fin.ext hq
  rw [pay7_apply]
  show linAt x0 m v g b W p c' = linAt X m v g b W r c'
  unfold linAt
  refine Finset.sum_congr rfl fun k _ => ?_
  have h : x0 (ix2 p k) = X (ix2 r k) := hx k
  rw [h]

/-! ## From blocks to the array -/

section Blocks
variable (V : (c : Dev nD) → (b : Ref sig .tc) → Buf (Elt Ideal) ((c : Thread nD τ).loc b))

theorem hz : (![0, 0] : Fin 2 → Nat) = fun _ => 0 := funext fun a => by fin_cases a <;> rfl

/-- The index maps over the five points, decided: the two windows over the rows sit at block t, the row vectors'
    and the weight's at block 0. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 ∧ t.val < 5 :=
  (by decide +kernel : ∀ t : Fin grid7.N, _)

/-- Window 1's block is its whole [1,64] array at every point. -/
theorem iblk7_1 (c : Dev nD) (t : Fin cfg7.N) :
    (iblk7 V c 1 t : S1x64.Idx → EReal) = V c (Pipeline.arrRef spec7 1) := by
  obtain ⟨-, -, e0, e1, -⟩ := idx_facts7 t
  funext y
  unfold iblk7
  rw [View.read_apply]
  show V c (Pipeline.arrRef spec7 1) _ = V c (Pipeline.arrRef spec7 1) y
  congr 1
  funext a; apply Fin.ext
  match a with
  | ⟨0, _⟩ => show win7_1.index t (0 : Fin 2) * 1 + 1 * (y 0).val = (y 0).val; omega
  | ⟨1, _⟩ => show win7_1.index t (1 : Fin 2) * 64 + 1 * (y 1).val = (y 1).val; omega

/-- Window 2's block is its whole array at every point. -/
theorem iblk7_2 (c : Dev nD) (t : Fin cfg7.N) :
    (iblk7 V c 2 t : S1x64.Idx → EReal) = V c (Pipeline.arrRef spec7 2) := by
  have e := idx_facts7 t
  funext y
  unfold iblk7
  rw [View.read_apply]
  show V c (Pipeline.arrRef spec7 2) _ = V c (Pipeline.arrRef spec7 2) y
  congr 1
  funext a; apply Fin.ext
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- Window 3's block is its whole array at every point. -/
theorem iblk7_3 (c : Dev nD) (t : Fin cfg7.N) :
    (iblk7 V c 3 t : S1x64.Idx → EReal) = V c (Pipeline.arrRef spec7 3) := by
  have e := idx_facts7 t
  funext y
  unfold iblk7
  rw [View.read_apply]
  show V c (Pipeline.arrRef spec7 3) _ = V c (Pipeline.arrRef spec7 3) y
  congr 1
  funext a; apply Fin.ext
  match a with
  | ⟨0, _⟩ => show win7_3.index t (0 : Fin 2) * 1 + 1 * (y 0).val = (y 0).val; omega
  | ⟨1, _⟩ => show win7_3.index t (1 : Fin 2) * 64 + 1 * (y 1).val = (y 1).val; omega

/-- Window 4's block is its whole array at every point. -/
theorem iblk7_4 (c : Dev nD) (t : Fin cfg7.N) :
    (iblk7 V c 4 t : S1x64.Idx → EReal) = V c (Pipeline.arrRef spec7 4) := by
  have e := idx_facts7 t
  funext y
  unfold iblk7
  rw [View.read_apply]
  show V c (Pipeline.arrRef spec7 4) _ = V c (Pipeline.arrRef spec7 4) y
  congr 1
  funext a; apply Fin.ext
  match a with
  | ⟨0, _⟩ => show win7_4.index t (0 : Fin 2) * 1 + 1 * (y 0).val = (y 0).val; omega
  | ⟨1, _⟩ => show win7_4.index t (1 : Fin 2) * 64 + 1 * (y 1).val = (y 1).val; omega

/-- Window 5's block is its whole array at every point. -/
theorem iblk7_5 (c : Dev nD) (t : Fin cfg7.N) :
    (iblk7 V c 5 t : S64x64.Idx → EReal) = V c (Pipeline.arrRef spec7 5) := by
  have e := idx_facts7 t
  funext y
  unfold iblk7
  rw [View.read_apply]
  show V c (Pipeline.arrRef spec7 5) _ = V c (Pipeline.arrRef spec7 5) y
  congr 1
  funext a; apply Fin.ext
  match a with
  | ⟨0, _⟩ => show win7_5.index t (0 : Fin 2) * 64 + 1 * (y 0).val = (y 0).val; omega
  | ⟨1, _⟩ => show win7_5.index t (1 : Fin 2) * 64 + 1 * (y 1).val = (y 1).val; omega

/-- Window 0's block at point t is rows 20000 t … 20000 t + 19999 of its array. -/
theorem iblk7_0_apply (c : Dev nD) (t : Fin cfg7.N) (y : S20000x64.Idx) (i : S100000x64.Idx)
    (h0 : (i 0).val = 20000 * t.val + (y 0).val) (h1 : (i 1).val = (y 1).val) :
    (iblk7 V c 0 t : S20000x64.Idx → EReal) y = V c (Pipeline.arrRef spec7 0) i := by
  have e := idx_facts7 t
  unfold iblk7
  rw [View.read_apply]
  show V c (Pipeline.arrRef spec7 0) _ = V c (Pipeline.arrRef spec7 0) i
  congr 1
  funext a; apply Fin.ext
  match a with
  | ⟨0, _⟩ => show win7_0.index t (0 : Fin 2) * 20000 + 1 * (y 0).val = (i 0).val; omega
  | ⟨1, _⟩ => show win7_0.index t (1 : Fin 2) * 64 + 1 * (y 1).val = (i 1).val; omega

/-- Reading any function of the output array through point t's block: the function at the block's embedded index. -/
theorem read_blk7 (t : Fin cfg7.N) (G : S100000x64.Idx → EReal) (j : ((cfg7.win 6).xblock (grid7.coords t)).Idx) :
    ((cfg7.win 6).blk t).view.read (Elt Ideal) G j = G (((cfg7.win 6).blk t).view.emb j) := rfl

/-- What the write-back moves of a staging buffer's contents: all of it (the blocks tile the array). -/
theorem cut_blk7 (t : Fin cfg7.N) (X : S20000x64.Idx → EReal) (j : ((cfg7.win 6).xblock (grid7.coords t)).Idx) :
    (cfg7.win 6).cut (grid7.coords t) X j = X ((cfg7.win 6).xinj (grid7.coords t) j) := rfl

/-- What point t writes back is rows 20000 t … of the one function of the arrays. -/
theorem flushed7_eq (c : Dev nD) (t : Fin cfg7.N) :
    (dat7 V c).flushed 6 t = ((cfg7.win 6).blk t).view.read (Elt Ideal)
      (linG (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))) := by
  show (cfg7.win 6).cut (grid7.coords t) ((dat7 V c).after 6 t) = _
  rw [after7_6]
  unfold out7_6
  rw [View.canon_unit_zero hz]
  simp only [View.ld_unit_zero (S := S20000x64) hz, View.ld_unit_zero (S := S1x64) hz, View.ld_unit_zero (S := S64x64) hz]
  have e := idx_facts7 t
  funext j
  refine (cut_blk7 t _ j).trans (Eq.trans ?_ (read_blk7 t _ j).symm)
  refine point7_apply (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))
    (iblk7 V c 0 t) (iblk7 V c 2 t) (iblk7 V c 1 t) (iblk7 V c 3 t) (iblk7 V c 4 t) (iblk7 V c 5 t)
    (iblk7_1 V c t) (iblk7_2 V c t) (iblk7_3 V c t) (iblk7_4 V c t) (iblk7_5 V c t)
    ((cfg7.win 6).xinj (grid7.coords t) j) (((cfg7.win 6).blk t).view.emb j) (fun k => ?_) ?_
  · refine iblk7_0_apply V c t _ _ ?_ rfl
    show win7_6.index t (0 : Fin 2) * 20000 + 1 * (j 0).val = 20000 * t.val + (j 0).val
    omega
  · show win7_6.index t (1 : Fin 2) * 64 + 1 * (j 1).val = (j 1).val
    omega

/-- An index of the array is in point t's block iff each coordinate is in the block's range on its axis. -/
theorem mem_blk7 (t : Fin cfg7.N) (i : S100000x64.Idx) :
    i ∈ ((cfg7.win 6).blk t).view.set ↔ ∀ a : Fin 2, win7_6.index t a * S20000x64.size a ≤ (i a).val ∧ (i a).val < win7_6.index t a * S20000x64.size a + S20000x64.size a := by
  show i ∈ ((View.whole main_v127).slice (win7_6.rect t)).set ↔ _
  rw [View.set_slice_whole, Rect.mem_set_unit]
  exact Iff.rfl

/-- Every row lies in the block of the point its row number divided by 20000 names. -/
theorem cover7 (i : S100000x64.Idx) :
    ∃ t : Fin cfg7.N, (cfg7.win 6).flush t = true ∧ i ∈ ((cfg7.win 6).blk t).view.set := by
  have hi0 : (i 0).val < 100000 := (i 0).isLt
  have hi1 : (i 1).val < 64 := (i 1).isLt
  have hN : grid7.N = 5 := N_7
  let t : Fin cfg7.N := ⟨(i 0).val / 20000, by show (i 0).val / 20000 < grid7.N; omega⟩
  have e := idx_facts7 t
  have ht : t.val = (i 0).val / 20000 := rfl
  refine ⟨t, flush7_6 t, ?_⟩
  rw [mem_blk7]
  intro a
  match a with
  | ⟨0, _⟩ => show win7_6.index t (0 : Fin 2) * 20000 ≤ (i 0).val ∧ (i 0).val < win7_6.index t (0 : Fin 2) * 20000 + 20000; omega
  | ⟨1, _⟩ => show win7_6.index t (1 : Fin 2) * 64 ≤ (i 1).val ∧ (i 1).val < win7_6.index t (1 : Fin 2) * 64 + 64; omega

/-- The array the region leaves is that function of the arrays it reads. -/
theorem final7 (c : Dev nD) :
    (dat7 V c).arrAt 6 cfg7.N = linG (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5)) :=
  (dat7 V c).arrAt_eq_of_cover 6 _ (fun t _ => flushed7_eq V c t) cover7

end Blocks

/-! ## The reference's vector-level term is the same function -/

section SpecSide

/-- A [64] vector as a [1,64] row, read at (0, k): the vector at k. -/
theorem row1_apply (v : Cert.ReferenceIdeal.Spec.T (F := Ideal) Cert.ReferenceIdeal.S64 .f32) (k : Fin 64) :
    Cert.ReferenceIdeal.Spec.row1 v (ix2 (0 : Fin 1) k) = v (ix1 k) := by
  unfold Cert.ReferenceIdeal.Spec.row1
  exact broadcastInDim_apply _ _ v (ix2 (0 : Fin 1) k) (ix1 k) fun a => match a with | ⟨0, _⟩ => rfl

/-- The row repeated down the 100000 rows, read at (r, k): the row at (0, k). -/
theorem rows_apply (v : Cert.ReferenceIdeal.Spec.T (F := Ideal) Cert.ReferenceIdeal.S64 .f32) (r : Fin 100000) (k : Fin 64) :
    Cert.ReferenceIdeal.Spec.rows v (ix2 r k) = Cert.ReferenceIdeal.Spec.row1 v (ix2 (0 : Fin 1) k) := by
  unfold Cert.ReferenceIdeal.Spec.rows
  exact broadcastInDim_apply _ _ (Cert.ReferenceIdeal.Spec.row1 v) (ix2 r k) (ix2 (0 : Fin 1) k)
    fun a => match a with | ⟨0, _⟩ => rfl | ⟨1, _⟩ => rfl

/-- The row of rsqrt(var + u), read at (0, k): rsqrt of the var row's entry plus u's entry; host and kernel rsqrt are
    one function of the extended reals. -/
theorem row1_rsqrt_apply (σ2 u : Cert.ReferenceIdeal.Spec.T (F := Ideal) Cert.ReferenceIdeal.S64 .f32) (k : Fin 64) :
    (Cert.ReferenceIdeal.Spec.row1 (F := Ideal)
        (Host.rsqrt (F := Ideal) (s := Cert.ReferenceIdeal.S64) (φ := .f32)
          (addf (F := Ideal) (s := Cert.ReferenceIdeal.S64) (φ := .f32) σ2 u)) (ix2 (0 : Fin 1) k) : EReal)
      = Ideal.rsqrt (Cert.ReferenceIdeal.Spec.row1 (F := Ideal) σ2 (ix2 (0 : Fin 1) k) + u (ix1 k)) := by
  rw [row1_apply, row1_apply]
  rfl

/-- The reference's normalised array at (r, k). -/
theorem bnN_apply (x : Cert.ReferenceIdeal.Spec.T (F := Ideal) Cert.ReferenceIdeal.S100000x64 .f32)
    (μ σ2 g b : Cert.ReferenceIdeal.Spec.T (F := Ideal) Cert.ReferenceIdeal.S64 .f32) (r : Fin 100000) (k : Fin 64) :
    Cert.ReferenceIdeal.Spec.bnN x μ σ2 g b (ix2 r k)
      = bnAt (x (ix2 r k)) (Cert.ReferenceIdeal.Spec.row1 μ (ix2 (0 : Fin 1) k)) (Cert.ReferenceIdeal.Spec.row1 σ2 (ix2 (0 : Fin 1) k))
          (Cert.ReferenceIdeal.Spec.row1 g (ix2 (0 : Fin 1) k)) (Cert.ReferenceIdeal.Spec.row1 b (ix2 (0 : Fin 1) k)) := by
  unfold Cert.ReferenceIdeal.Spec.bnN
  rw [addf_apply, mulf_apply, mulf_apply, subf_apply, rows_apply, rows_apply, rows_apply, rows_apply]
  rw [row1_rsqrt_apply]
  rfl

/-- The reference's product of the normalised array by the weight is the entrywise function. -/
theorem linN_eq (x : Cert.ReferenceIdeal.Spec.T (F := Ideal) Cert.ReferenceIdeal.S100000x64 .f32)
    (μ σ2 g b : Cert.ReferenceIdeal.Spec.T (F := Ideal) Cert.ReferenceIdeal.S64 .f32)
    (W : Cert.ReferenceIdeal.Spec.T (F := Ideal) Cert.ReferenceIdeal.S64x64 .f32) :
    Cert.ReferenceIdeal.Spec.linN x μ σ2 g b W
      = linG x (Cert.ReferenceIdeal.Spec.row1 μ) (Cert.ReferenceIdeal.Spec.row1 σ2) (Cert.ReferenceIdeal.Spec.row1 g)
          (Cert.ReferenceIdeal.Spec.row1 b) W := by
  funext i
  obtain ⟨r, c', rfl⟩ : ∃ (r : Fin 100000) (c' : Fin 64), i = ix2 r c' := ⟨i 0, i 1, eq_ix2 i⟩
  unfold Cert.ReferenceIdeal.Spec.linN
  show FloatOps.dotGeneral Cert.ReferenceIdeal.dot_S100000x64_S64x64_S100000x64_1_0_0_1_n_n none _
      (Cert.ReferenceIdeal.Spec.bnN x μ σ2 g b) W (ix2 r c') = _
  refine (Ideal.dotGeneral_apply _ none _ _ _ (ix2 r c')).trans ?_
  refine (sum_rows Cert.ReferenceIdeal.Gen.dot_S100000x64_S64x64_S100000x64_1_0_0_1_n_n_wf _ _ r c').trans ?_
  show _ = linAt x _ _ _ _ W r c'
  unfold linAt
  refine Finset.sum_congr rfl fun k _ => ?_
  rw [bnN_apply]

end SpecSide

/-! ## The region's value -/

/-- Region 7 leaves the reference's BN-then-linear term of the arrays it reads. -/
theorem lin7_val (V : (c : Dev nD) → (b : Ref sig .tc) → Buf (Elt Ideal) ((c : Thread nD τ).loc b)) (c : Dev nD)
    (x : Cert.ReferenceIdeal.Spec.T (F := Ideal) Cert.ReferenceIdeal.S100000x64 .f32)
    (μ σ2 g b : Cert.ReferenceIdeal.Spec.T (F := Ideal) Cert.ReferenceIdeal.S64 .f32)
    (W : Cert.ReferenceIdeal.Spec.T (F := Ideal) Cert.ReferenceIdeal.S64x64 .f32)
    (h0 : V c (Pipeline.arrRef spec7 0) = x)
    (h1 : V c (Pipeline.arrRef spec7 1) = Cert.ReferenceIdeal.Spec.row1 μ)
    (h2 : V c (Pipeline.arrRef spec7 2) = Cert.ReferenceIdeal.Spec.row1 σ2)
    (h3 : V c (Pipeline.arrRef spec7 3) = Cert.ReferenceIdeal.Spec.row1 g)
    (h4 : V c (Pipeline.arrRef spec7 4) = Cert.ReferenceIdeal.Spec.row1 b)
    (h5 : V c (Pipeline.arrRef spec7 5) = W) :
    (dat7 V c).arrAt 6 cfg7.N = Cert.ReferenceIdeal.Spec.linN x μ σ2 g b W := by
  subst h0 h5
  rw [linN_eq, ← h1, ← h2, ← h3, ← h4]
  exact final7 V c

end Cert.KernelIdeal.KLin7

end
-- ==== Proof.KPool8.lean ====
/-
  Region 8 of the kernel program: graph pooling. The grid has five points; point `t` sees rows 20000 t … 20000 t + 19999
  of the node features `h` [100000, 64] and of the batch-index column [100000, 1], and one [128, 64] accumulator block
  whose index never moves. The first point stores zeros into the accumulator; every point then adds to it the product
  of the transposed one-hot matrix of its batch indices (entry (r, g) is 1 when the index word of row r equals the
  column number g, else 0) with its block of `h`, contracting the row axis. The accumulator is written back once, after
  the last point.

  So the result at (g, o) is the sum over all 100000 rows R of [bidx R = g] · h R o. The weights are exactly 0 and 1,
  and on the extended reals 0 · x = 0 and 1 · x = x for every x, infinite or not, so this is the sum of h R o over the
  rows whose index is g — with no finiteness needed, and by commutativity and associativity of + alone the five block
  sums in point order are the one sum over the rows.

  The reference scatters the rows of `h` into zeros [128, 64] at the row the index column names, adding. At the ideal
  values that is 0 plus the sum of the updates landing on (g, o): update (R, o') lands there when the index word of
  row R, read signed and not clamped, is g and o' = o; a word outside [0, 128) lands nowhere, and equally matches no
  column number of the kernel's comparison. The two sums agree term by term.
-/
import proofs.«416283_j44736379355415_1_alg».proof.Proof.Gen.KernelIdeal.Frame
import proofs.«416283_j44736379355415_1_alg».proof.Proof.Spec
import Idealize.ShloMosaic.Lib.Pipeline.Value
import Idealize.ShloMosaic.Lib.ValueIdx
import Idealize.ShloMosaic.Lib.WordArith
import Idealize.ShloMosaic.Lib.Tactic
import Idealize.ShloMosaic.PureOps.Ideal.Laws
import Mathlib.Logic.Equiv.Fin.Basic
import Mathlib.Algebra.BigOperators.Fin
import Mathlib.Algebra.BigOperators.Group.Finset.Piecewise
import Mathlib.Data.Fintype.BigOperators

noncomputable section

open Idealize.ShloMosaic Idealize.ShloMosaic.TcCoe Idealize.SL.Sem
open Idealize.ShloMosaic.Pipeline (Dat)
open Idealize.ShloMosaic.ValueIdx

/-! ## The reference's scatter, read at an index -/

namespace Cert.ReferenceIdeal.Pool8

open Cert.ReferenceIdeal

/-- The pooling scatter's dimension numbers: one start index per row of the updates, naming the result's row; the
    update's column is the window. -/
abbrev SD8 : ScatterDims (⟨2, ![128, 64]⟩ : Shape) (⟨2, ![100000, 1]⟩ : Shape) (⟨2, ![100000, 64]⟩ : Shape) :=
  scatter_S128x64_S100000x1_S100000x64_1_0_0_1

theorem siIdx_0 (r : Fin 100000) (o : Fin 64) (cc : Fin SD8.scatterDimsToOperandDims.length) :
    (SD8.siIdx (ix2 r o) cc 0).val = r.val := by
  unfold ScatterDims.siIdx
  rw [dif_neg (show ¬((0 : Fin 2).val = SD8.indexVectorDim) by decide)]
  unfold ScatterDims.siCoord
  rfl

theorem siIdx_1 (r : Fin 100000) (o : Fin 64) (cc : Fin SD8.scatterDimsToOperandDims.length) :
    (SD8.siIdx (ix2 r o) cc 1).val = 0 := by
  unfold ScatterDims.siIdx
  rw [dif_pos (show (1 : Fin 2).val = SD8.indexVectorDim by decide)]
  have h1 := cc.isLt
  have h2 : SD8.scatterDimsToOperandDims.length = 1 := rfl
  show cc.val = 0
  omega

theorem siIdx_eq (r : Fin 100000) (o : Fin 64) (cc : Fin SD8.scatterDimsToOperandDims.length) :
    SD8.siIdx (ix2 r o) cc = ix2 r 0 := by
  funext b
  apply Fin.ext
  match b with
  | ⟨0, _⟩ => exact siIdx_0 r o cc
  | ⟨1, _⟩ => exact siIdx_1 r o cc

theorem start_0 (r : Fin 100000) (o : Fin 64) (idx : IVec (⟨2, ![100000, 1]⟩ : Shape) 32) :
    SD8.start (ix2 r o) idx 0 = (idx (ix2 r 0)).toInt := by
  unfold ScatterDims.start
  rw [dif_pos (show (0 : Fin 2) ∈ SD8.scatterDimsToOperandDims by decide), siIdx_eq]

theorem start_1 (r : Fin 100000) (o : Fin 64) (idx : IVec (⟨2, ![100000, 1]⟩ : Shape) 32) :
    SD8.start (ix2 r o) idx 1 = 0 := by
  unfold ScatterDims.start
  rw [dif_neg (show ¬(1 : Fin 2) ∈ SD8.scatterDimsToOperandDims by decide)]

theorem window_0 (r : Fin 100000) (o : Fin 64) : SD8.window (ix2 r o) 0 = 0 := by
  unfold ScatterDims.window
  rw [dif_neg (show ¬(0 : Fin 2) ∈ SD8.sKept by decide)]

theorem window_1 (r : Fin 100000) (o : Fin 64) : SD8.window (ix2 r o) 1 = o.val := by
  unfold ScatterDims.window
  rw [dif_pos (show (1 : Fin 2) ∈ SD8.sKept by decide)]
  rfl

/-- The update at row `r`, column `o` lands on the result's entry (g, o') exactly when the row's index word, read
    signed, is `g` and the columns agree; a word outside [0, 128) lands nowhere. -/
theorem resultIdx_iff (r : Fin 100000) (o : Fin 64) (idx : IVec (⟨2, ![100000, 1]⟩ : Shape) 32) (g : Fin 128) (o' : Fin 64) :
    SD8.resultIdx? (ix2 r o) idx = some (ix2 g o') ↔ (idx (ix2 r 0)).toInt = (g.val : ℤ) ∧ o = o' := by
  have s0 := start_0 r o idx
  have s1 := start_1 r o idx
  have w0 := window_0 r o
  have w1 := window_1 r o
  have hg := g.isLt
  have ho := o.isLt
  unfold ScatterDims.resultIdx?
  split
  · rename_i hin
    have hin0 := hin 0
    rw [s0, w0] at hin0
    constructor
    · intro e
      have e' := Option.some.inj e
      have e0 : (SD8.start (ix2 r o) idx 0 + (SD8.window (ix2 r o) 0 : ℤ)).toNat = g.val := congrArg (fun f => (f 0).val) e'
      have e1 : (SD8.start (ix2 r o) idx 1 + (SD8.window (ix2 r o) 1 : ℤ)).toNat = o'.val := congrArg (fun f => (f 1).val) e'
      rw [s0, w0] at e0
      rw [s1, w1] at e1
      exact ⟨by omega, Fin.ext (by omega)⟩
    · rintro ⟨eg, rfl⟩
      refine congrArg some (funext fun a => Fin.ext ?_)
      match a with
      | ⟨0, _⟩ => show (SD8.start (ix2 r o) idx 0 + (SD8.window (ix2 r o) 0 : ℤ)).toNat = g.val; rw [s0, w0]; omega
      | ⟨1, _⟩ => show (SD8.start (ix2 r o) idx 1 + (SD8.window (ix2 r o) 1 : ℤ)).toNat = o.val; rw [s1, w1]; omega
  · rename_i hin
    constructor
    · intro e; exact absurd e (by simp)
    · rintro ⟨eg, rfl⟩
      exfalso
      apply hin
      intro a
      match a with
      | ⟨0, _⟩ => show 0 ≤ SD8.start (ix2 r o) idx 0 + (SD8.window (ix2 r o) 0 : ℤ) ∧ SD8.start (ix2 r o) idx 0 + (SD8.window (ix2 r o) 0 : ℤ) < (128 : ℕ)
                  rw [s0, w0]; omega
      | ⟨1, _⟩ => show 0 ≤ SD8.start (ix2 r o) idx 1 + (SD8.window (ix2 r o) 1 : ℤ) ∧ SD8.start (ix2 r o) idx 1 + (SD8.window (ix2 r o) 1 : ℤ) < (64 : ℕ)
                  rw [s1, w1]; omega

section Ref
open Cert.ReferenceIdeal

/-- The scatter's index column at row `R` is the batch index of node `R`. -/
theorem col1_apply (bidx : Spec.T (F := Ideal) S100000 .i32) (R : Fin 100000) :
    Spec.col1 bidx (ix2 R 0) = bidx (ix1 R) := by
  unfold Spec.col1
  exact broadcastInDim_apply _ _ bidx (ix2 R 0) (ix1 R) (fun a => by match a with | ⟨0, _⟩ => rfl)

/-- A word is the column number `g` exactly when it reads, signed, as `g`. -/
theorem word_eq_iff (b : BitVec 32) (g : Fin 128) : b.toInt = (g.val : ℤ) ↔ b = BitVec.ofNat 32 g.val := by
  have hs := Idealize.ShloMosaic.WordArith.toInt_ofNat_small g.val (by have := g.isLt; omega)
  constructor
  · intro e; exact BitVec.eq_of_toInt_eq (by rw [e, hs])
  · intro e; rw [e, hs]

/-- The reference's pooled features at (g, o): the sum of the features `h R o` over the nodes `R` whose batch index is `g`. -/
theorem poolN_apply (h : Spec.T (F := Ideal) S100000x64 .f32) (bidx : Spec.T (F := Ideal) S100000 .i32)
    (g : Fin 128) (o : Fin 64) :
    Spec.poolN h bidx (ix2 g o)
      = ∑ R : Fin 100000, if bidx (ix1 R) = BitVec.ofNat 32 g.val then h (ix2 R o) else 0 := by
  unfold Spec.poolN Host.scatterAdd
  rw [Ideal.hostScatterAdd_def]
  unfold Ideal.hostScatterAdd
  show Ideal.ofBits .f32 0x00000000#32 + _ = _
  rw [Ideal.ofBits_zero_f32, zero_add, Finset.sum_filter, sum_idx2]
  refine Finset.sum_congr rfl fun R _ => ?_
  simp only [resultIdx_iff, col1_apply, word_eq_iff]
  by_cases hb : bidx (ix1 R) = BitVec.ofNat 32 g.val
  · simp only [hb, true_and, if_true]
    exact (Finset.sum_ite_eq' Finset.univ o fun o' => h (ix2 R o')).trans (if_pos (Finset.mem_univ o))
  · simp only [hb, false_and, if_false]
    exact Finset.sum_const_zero

end Ref

end Cert.ReferenceIdeal.Pool8

/-! ## The kernel's accumulator, point by point -/

namespace Cert.KernelIdeal.KPool8

open Cert.KernelIdeal Cert.KernelIdeal.Gen

variable {F : FTy → Type} [FloatOps F]

theorem hz : (![0, 0] : Fin 2 → Nat) = fun _ => 0 := funext fun a => by fin_cases a <;> rfl

/-- At a point that is not the first the body leaves, in the accumulator's buffer holding `xo`, the payload of its
    one covering store over the two input blocks and `xo`. -/
theorem out_B (c : Dev nD) (i : grid8.Coords) (a1 : Memref sig .tc .vmem S20000x64 .f32) (h1 : a1.IsWhole)
    (a2 : Memref sig .tc .vmem S20000x1 .i32) (h2 : a2.IsWhole) (a3 : Memref sig .tc .vmem S128x64 .f32) (h3 : a3.IsWhole)
    (hc : ¬cond8_0 i) (x0 : Vec F S20000x64 .f32) (x1 : Vec F S20000x1 .i32) (xo : Vec F S128x64 .f32) :
    out8_B_2 c i a1 h1 a2 h2 a3 h3 hc x0 x1 xo = k8_pay2 x0 x1 xo := by
  unfold out8_B_2
  rw [View.read_writes_eq_canon _ _ _ (cover8_B_2 c i a1 h1 a2 h2 a3 h3 hc x0 x1 xo)]
  unfold kernelRun8_B
  dsimp only
  sl_unfold_words
  rw [View.canon_unit_zero hz]
  simp only [View.readAt_eq_ld, h1.read_unread, h2.read_unread, h3.read_unread, View.ld_unit_zero (S := S20000x64) hz,
    View.ld_unit_zero (S := S20000x1) hz, View.ld_unit_zero (S := S128x64) hz]

/-- At the first point the body stores the zero block, reads it back, and leaves the same payload over the zero block. -/
theorem out_A (c : Dev nD) (i : grid8.Coords) (a1 : Memref sig .tc .vmem S20000x64 .f32) (h1 : a1.IsWhole)
    (a2 : Memref sig .tc .vmem S20000x1 .i32) (h2 : a2.IsWhole) (a3 : Memref sig .tc .vmem S128x64 .f32) (h3 : a3.IsWhole)
    (hc : cond8_0 i) (x0 : Vec F S20000x64 .f32) (x1 : Vec F S20000x1 .i32) :
    out8_A_2 c i a1 h1 a2 h2 a3 h3 hc x0 x1 = k8_pay2 x0 x1 (k8_pay1 (F := F)) := by
  unfold out8_A_2
  rw [View.read_writes_eq_canon _ _ _ (cover8_A_2 c i a1 h1 a2 h2 a3 h3 hc x0 x1)]
  unfold kernelRun8_A
  dsimp only
  sl_unfold_words
  rw [View.canon_cons_unit_zero (S := S128x64) hz, View.readCov_unit_zero (S := S128x64) _ hz]
  simp only [View.readAt_eq_ld, h1.read_unread, h2.read_unread, View.ld_unit_zero (S := S20000x64) hz,
    View.ld_unit_zero (S := S20000x1) hz]

variable (V : (c : Dev nD) → (b : Ref sig .tc) → Buf (Elt F) ((c : Thread nD τ).loc b))

/-- Block `t` of the node features (rows 20000t …) and of the batch-index column, at their literal types. -/
abbrev hblk (c : Dev nD) (t : Fin cfg8.N) : Vec F S20000x64 .f32 := iblk8 V c 0 t
abbrev bblk (c : Dev nD) (t : Fin cfg8.N) : Vec F S20000x1 .i32 := iblk8 V c 1 t

/-- The accumulator after point `n`: the payload over block `n` and the accumulator before, from the zero block. -/
def chain (c : Dev nD) : (n : ℕ) → n < cfg8.N → Vec F S128x64 .f32
  | 0, h => k8_pay2 (hblk V c ⟨0, h⟩) (bblk V c ⟨0, h⟩) (k8_pay1 (F := F))
  | n + 1, h => k8_pay2 (hblk V c ⟨n + 1, h⟩) (bblk V c ⟨n + 1, h⟩) (chain c n (Nat.lt_of_succ_lt h))

theorem outsAt_eq (c : Dev nD) : ∀ (n : ℕ) (h : n < cfg8.N), outsAt8 V c n h = chain V c n h
  | 0, h => (outsAt8_A V c ⟨0, h⟩ rfl).trans (out_A ..)
  | n + 1, h => by
    have hN : cfg8.N = 5 := N_8
    have hB : ¬(⟨n + 1, h⟩ : Fin cfg8.N).val % 5 = 0 := by dsimp only; omega
    rw [outsAt8_B V c ⟨n + 1, h⟩ hB, out_B]
    show k8_pay2 _ _ (outsAt8 V c n _) = k8_pay2 _ _ (chain V c n _)
    rw [outsAt_eq c n]

/-- The accumulator after the last point, as contents of the result array (its one block is the array). -/
abbrev result (c : Dev nD) : Buf (Elt F) ((c : Thread nD τ).loc main_v148) := chain V c 4 (by rw [show cfg8.N = 5 from N_8]; decide)

theorem flushed_eq (c : Dev nD) (t : Fin cfg8.N) (hf : (cfg8.win 2).flush t = true) :
    (dat8 V c).flushed 2 t = ((cfg8.win 2).blk t).view.read (Elt F) (result V c) := by
  have hN : cfg8.N = 5 := N_8
  have h4 : t.val = 4 := by have := (flush8_2 t).mp hf; have := t.isLt; omega
  obtain rfl : t = t8_4 := Fin.ext h4
  show (cfg8.win 2).cut (grid8.coords t8_4) ((dat8 V c).after 2 t8_4) = _
  rw [after8_2, outsAt_eq]
  have hz' : (fun a => win8_2.index t8_4 a * main_v148.ty.shape.size a) = fun _ => 0 := funext fun a => by fin_cases a <;> decide
  exact (Memref.read_access_unit_zero (Elt F) main_v148 hz' (fun a => by rw [congrFun hz' a]; simp) (result V c)).symm

theorem final (c : Dev nD) : (dat8 V c).arrAt 2 cfg8.N = result V c :=
  (dat8 V c).arrAt_eq_of_cover 2 (result V c) (flushed_eq V c) fun i =>
    ⟨t8_4, (flush8_2 t8_4).mpr rfl, by
      show i ∈ ((View.whole main_v148).slice (win8_2.rect t8_4)).set
      rw [View.set_slice_whole, Rect.mem_set_unit]
      intro a
      have h0 : (i 0 : Nat) < 128 := (i 0).isLt
      have h1 : (i 1 : Nat) < 64 := (i 1).isLt
      match a with
      | ⟨0, _⟩ => show win8_2.index t8_4 0 * win8_2.size 0 ≤ (i 0 : Nat) ∧ (i 0 : Nat) < win8_2.index t8_4 0 * win8_2.size 0 + win8_2.xsize (grid8.coords t8_4) 0
                  rw [show win8_2.index t8_4 0 * win8_2.size 0 = 0 from by decide +kernel, show win8_2.xsize (grid8.coords t8_4) 0 = 128 from by decide +kernel]; omega
      | ⟨1, _⟩ => show win8_2.index t8_4 1 * win8_2.size 1 ≤ (i 1 : Nat) ∧ (i 1 : Nat) < win8_2.index t8_4 1 * win8_2.size 1 + win8_2.xsize (grid8.coords t8_4) 1
                  rw [show win8_2.index t8_4 1 * win8_2.size 1 = 0 from by decide +kernel, show win8_2.xsize (grid8.coords t8_4) 1 = 64 from by decide +kernel]; omega⟩

/-- The pooling matmul's dimension numbers: both operands contracted along their row axis. -/
abbrev D8 : DotDims S20000x128 S20000x64 S128x64 := dot_S20000x128_S20000x64_S128x64_0_0_1_1_n_n

theorem lhs_0 (i : S128x64.Idx) (q : D8.contr.Idx) : (D8.lhsIdx i q 0).val = (q ⟨0, by decide⟩).val :=
  D8.lhsIdx_val_of_single rfl i q
theorem lhs_1 (i : S128x64.Idx) (q : D8.contr.Idx) : (D8.lhsIdx i q 1).val = (i 0).val := by
  unfold DotDims.lhsIdx
  rw [dif_neg (show ¬(1 : Fin S20000x128.rank) ∈ D8.lhsBatch by decide), dif_pos (show (1 : Fin S20000x128.rank) ∈ D8.lhsNonContracting by decide)]
  rfl
theorem rhs_0 (i : S128x64.Idx) (q : D8.contr.Idx) : (D8.rhsIdx i q 0).val = (q ⟨0, by decide⟩).val :=
  D8.rhsIdx_val_of_single rfl i q
theorem rhs_1 (i : S128x64.Idx) (q : D8.contr.Idx) : (D8.rhsIdx i q 1).val = (i 1).val := by
  unfold DotDims.rhsIdx
  rw [dif_neg (show ¬(1 : Fin S20000x64.rank) ∈ D8.rhsBatch by decide), dif_pos (show (1 : Fin S20000x64.rank) ∈ D8.rhsNonContracting by decide)]
  rfl

/-- The one-hot weight of a row whose batch index word is `b`, in column `g`: the comparison's bit, widened, read as a float. -/
def hot (b : BitVec 32) (g : Fin 128) : EReal :=
  FloatOps.sitofp (F := Ideal) .f32 ((IntOp.cmpi .eq b (BitVec.ofNat 32 g.val)).setWidth 32)

theorem hot_eq (b : BitVec 32) (g : Fin 128) : hot b g = if b = BitVec.ofNat 32 g.val then 1 else 0 := by
  unfold hot
  by_cases h : b = BitVec.ofNat 32 g.val
  · rw [if_pos h, h]
    show (((((IntOp.cmpi .eq (BitVec.ofNat 32 g.val) (BitVec.ofNat 32 g.val)).setWidth 32).toInt : ℤ) : ℝ) : EReal) = 1
    simp [IntOp.cmpi]
  · rw [if_neg h]
    have hb : (b == BitVec.ofNat 32 g.val) = false := by simpa using h
    show (((((IntOp.cmpi .eq b (BitVec.ofNat 32 g.val)).setWidth 32).toInt : ℤ) : ℝ) : EReal) = 0
    simp [IntOp.cmpi, hb]

/-- The payload at an index: the accumulator there plus, over the block's rows, the one-hot weight times the feature. -/
theorem pay2_apply (x0 : Vec Ideal S20000x64 .f32) (x1 : Vec Ideal S20000x1 .i32) (xo : Vec Ideal S128x64 .f32)
    (g : Fin 128) (o : Fin 64) :
    k8_pay2 (F := Ideal) x0 x1 xo (ix2 g o) = xo (ix2 g o) + ∑ r : Fin 20000, hot (x1 (ix2 r 0)) g * x0 (ix2 r o) := by
  unfold k8_pay2
  simp only [shapeCast_self]
  rw [addf_apply]
  refine congrArg (xo (ix2 g o) + ·) ?_
  simp only [matmul]
  rw [Ideal.matmul_constant_zero_apply, ← Equiv.sum_comp (contrEquiv1 D8 20000 rfl rfl).symm]
  refine Finset.sum_congr rfl fun k _ => ?_
  have hk := contrEquiv1_symm_val D8 20000 rfl rfl k
  have el : D8.lhsIdx (ix2 g o) ((contrEquiv1 D8 20000 rfl rfl).symm k) = ix2 k g := funext fun a => Fin.ext (by
    match a with
    | ⟨0, _⟩ => exact (lhs_0 _ _).trans hk
    | ⟨1, _⟩ => exact lhs_1 _ _)
  have er : D8.rhsIdx (ix2 g o) ((contrEquiv1 D8 20000 rfl rfl).symm k) = ix2 k o := funext fun a => Fin.ext (by
    match a with
    | ⟨0, _⟩ => exact (rhs_0 _ _).trans hk
    | ⟨1, _⟩ => exact rhs_1 _ _)
  rw [el, er]
  refine congrArg (· * x0 (ix2 k o)) ?_
  show FloatOps.sitofp (F := Ideal) .f32 ((IntOp.cmpi .eq (broadcastTo S20000x128 x1 _ (ix2 k g))
    (iota .tc S20000x128 32 [1] _ (ix2 k g))).setWidth 32) = _
  rw [broadcastTo_apply x1 _ (ix2 k g) (ix2 k 0) (fun a => by match a with | ⟨0, _⟩ => rfl | ⟨1, _⟩ => rfl),
    iota_single_apply]
  rfl

theorem pay1_apply (i : S128x64.Idx) : k8_pay1 (F := Ideal) i = 0 := by
  unfold k8_pay1
  show Ideal.ofBits .f32 0x00000000#32 = 0
  exact Ideal.ofBits_zero_f32

section Blocks
variable (V : (c : Dev nD) → (b : Ref sig .tc) → Buf (Elt Ideal) ((c : Thread nD τ).loc b))

/-- Row `r` of block `t` of the node features is row `20000 t + r` of the array. -/
theorem hblk_apply (c : Dev nD) (h : Vec Ideal S100000x64 .f32) (h0 : V c (Pipeline.arrRef spec8 0) = h)
    (t : Fin cfg8.N) (r : Fin 20000) (o : Fin 64) :
    hblk V c t (ix2 r o) = h (ix2 (⟨20000 * t.val + r.val, by
      have := lt_of_lt_of_eq t.isLt (show cfg8.N = 5 from N_8); have := r.isLt; omega⟩ : Fin 100000) o) := by
  have hi : win8_0.index t 0 = t.val ∧ win8_0.index t 1 = 0 := by
    rcases fin_N8 t with rfl | rfl | rfl | rfl | rfl <;> decide
  subst h0
  show iblk8 V c 0 t (ix2 r o) = _
  unfold iblk8
  rw [View.read_apply]
  refine congrArg (V c (Pipeline.arrRef spec8 0)) (funext fun a => Fin.ext ?_)
  match a with
  | ⟨0, _⟩ => show win8_0.index t 0 * 20000 + 1 * r.val = 20000 * t.val + r.val; rw [hi.1]; omega
  | ⟨1, _⟩ => show win8_0.index t 1 * 64 + 1 * o.val = o.val; rw [hi.2]; omega

/-- Row `r` of block `t` of the batch-index column is row `20000 t + r` of the column. -/
theorem bblk_apply (c : Dev nD) (b : Vec Ideal S100000x1 .i32) (h1 : V c (Pipeline.arrRef spec8 1) = b)
    (t : Fin cfg8.N) (r : Fin 20000) :
    bblk V c t (ix2 r 0) = b (ix2 (⟨20000 * t.val + r.val, by
      have := lt_of_lt_of_eq t.isLt (show cfg8.N = 5 from N_8); have := r.isLt; omega⟩ : Fin 100000) 0) := by
  have hi : win8_1.index t 0 = t.val ∧ win8_1.index t 1 = 0 := by
    rcases fin_N8 t with rfl | rfl | rfl | rfl | rfl <;> decide
  subst h1
  show iblk8 V c 1 t (ix2 r 0) = _
  unfold iblk8
  rw [View.read_apply]
  refine congrArg (V c (Pipeline.arrRef spec8 1)) (funext fun a => Fin.ext ?_)
  match a with
  | ⟨0, _⟩ => show win8_1.index t 0 * 20000 + 1 * r.val = 20000 * t.val + r.val; rw [hi.1]; omega
  | ⟨1, _⟩ => show win8_1.index t 1 * 1 + 1 * 0 = 0; rw [hi.2]

end Blocks

/-- The 100000 rows are five blocks of 20000. -/
theorem sum_blocks {M : Type} [AddCommMonoid M] (f : Fin 100000 → M) :
    ∑ R, f R = ∑ t : Fin 5, ∑ r : Fin 20000, f ⟨20000 * t.val + r.val, by have := t.isLt; have := r.isLt; omega⟩ := by
  refine (Equiv.sum_comp (finProdFinEquiv (m := 5) (n := 20000)) f).symm.trans ?_
  rw [Fintype.sum_prod_type]
  refine Finset.sum_congr rfl fun t _ => Finset.sum_congr rfl fun r _ => congrArg f (Fin.ext ?_)
  show r.val + 20000 * t.val = 20000 * t.val + r.val
  omega

section Result
variable (V : (c : Dev nD) → (b : Ref sig .tc) → Buf (Elt Ideal) ((c : Thread nD τ).loc b))

/-- The accumulator after the five points, at (g, o): the sum over all 100000 rows of the one-hot weight times the feature. -/
theorem result_apply (c : Dev nD) (h : Vec Ideal S100000x64 .f32) (b : Vec Ideal S100000x1 .i32)
    (h0 : V c (Pipeline.arrRef spec8 0) = h) (h1 : V c (Pipeline.arrRef spec8 1) = b) (g : Fin 128) (o : Fin 64) :
    result V c (ix2 g o) = ∑ R : Fin 100000, hot (b (ix2 R 0)) g * h (ix2 R o) := by
  show chain V c 4 _ (ix2 g o) = _
  simp only [chain]
  rw [pay2_apply, pay2_apply, pay2_apply, pay2_apply, pay2_apply, pay1_apply, zero_add, sum_blocks, Fin.sum_univ_five]
  simp only [hblk_apply V c h h0, bblk_apply V c b h1]
  rfl

end Result

/-! ## The region's result is the reference's pooling -/

/-- The accumulator after the five points is the reference's pooled features, entry by entry. -/
theorem result_eq_pool (V : (c : Dev nD) → (b : Ref sig .tc) → Buf (Elt Ideal) ((c : Thread nD τ).loc b)) (c : Dev nD)
    (h : Cert.ReferenceIdeal.Spec.T (F := Ideal) Cert.ReferenceIdeal.S100000x64 .f32)
    (bidx : Cert.ReferenceIdeal.Spec.T (F := Ideal) Cert.ReferenceIdeal.S100000 .i32)
    (h0 : V c (Pipeline.arrRef spec8 0) = h)
    (h1 : V c (Pipeline.arrRef spec8 1) = Cert.ReferenceIdeal.Spec.col1 bidx) :
    (result V c : Vec Ideal S128x64 .f32) = (Cert.ReferenceIdeal.Spec.poolN h bidx : Vec Ideal S128x64 .f32) := by
  funext i
  obtain ⟨g, o, rfl⟩ : ∃ (g : Fin 128) (o : Fin 64), i = ix2 g o := ⟨i 0, i 1, eq_ix2 i⟩
  have e1 : (result V c (ix2 g o) : EReal)
      = ∑ R : Fin 100000, (hot (Cert.ReferenceIdeal.Spec.col1 bidx (ix2 R 0)) g * (h (ix2 R o) : EReal)) :=
    result_apply V c h (Cert.ReferenceIdeal.Spec.col1 bidx) h0 h1 g o
  have e2 : (Cert.ReferenceIdeal.Spec.poolN h bidx (ix2 g o) : EReal)
      = ∑ R : Fin 100000, (if bidx (ix1 R) = BitVec.ofNat 32 g.val then (h (ix2 R o) : EReal) else 0) :=
    Cert.ReferenceIdeal.Pool8.poolN_apply h bidx g o
  have e3 : ∀ R : Fin 100000, (hot (Cert.ReferenceIdeal.Spec.col1 bidx (ix2 R 0)) g * (h (ix2 R o) : EReal))
      = (if bidx (ix1 R) = BitVec.ofNat 32 g.val then (h (ix2 R o) : EReal) else 0) := fun R => by
    rw [Cert.ReferenceIdeal.Pool8.col1_apply, hot_eq]
    by_cases hb : bidx (ix1 R) = BitVec.ofNat 32 g.val
    · rw [if_pos hb, if_pos hb, one_mul]
    · rw [if_neg hb, if_neg hb, zero_mul]
  exact e1.trans ((Finset.sum_congr rfl fun R _ => e3 R).trans e2.symm)

/-- Region 8 leaves, in its result array, the reference's pooled features of the arrays it finds: the node features `h`
    in window 0 and the batch indices, as a column, in window 1. -/
theorem pool8_val (V : (c : Dev nD) → (b : Ref sig .tc) → Buf (Elt Ideal) ((c : Thread nD τ).loc b)) (c : Dev nD)
    (h : Cert.ReferenceIdeal.Spec.T (F := Ideal) Cert.ReferenceIdeal.S100000x64 .f32)
    (bidx : Cert.ReferenceIdeal.Spec.T (F := Ideal) Cert.ReferenceIdeal.S100000 .i32)
    (h0 : V c (Pipeline.arrRef spec8 0) = h)
    (h1 : V c (Pipeline.arrRef spec8 1) = Cert.ReferenceIdeal.Spec.col1 bidx) :
    (dat8 V c).arrAt 2 cfg8.N = Cert.ReferenceIdeal.Spec.poolN h bidx :=
  (final V c).trans (result_eq_pool V c h bidx h0 h1)

end Cert.KernelIdeal.KPool8

end
-- ==== Proof.KHost0.lean ====
/-
  The kernel program's first three host stretches (the edge lists with their self loops, the node
  degrees, and the symmetric edge normalisation) leave, at the source-index, destination-index and
  edge-weight buffers, the reference's specification functions of the edge array: the two programs
  run the same vector operations there, over shape records that are the same literal data.
-/
import proofs.«416283_j44736379355415_1_alg».proof.Proof.Gen.KernelIdeal.Launch
import proofs.«416283_j44736379355415_1_alg».proof.Proof.Spec

noncomputable section

namespace Cert.KernelIdeal.KHost

open Idealize.ShloMosaic Idealize.ShloMosaic.TcCoe
open Idealize.SL.Sem
open Cert.KernelIdeal Cert.KernelIdeal.Gen

variable {F : FTy → Type} [FloatOps F]

/-! ## The shape records of the two programs coincide

Each record is a structure of literal dimension lists closed by a well-formedness proof; the two
programs state the same lists, and two proofs of one proposition are equal. -/

theorem scatter_deg_eq :
    Cert.KernelIdeal.scatter_S100000_S1300000x1_S1300000_n_0_0_1
      = Cert.ReferenceIdeal.scatter_S100000_S1300000x1_S1300000_n_0_0_1 := rfl

theorem gather_deg_eq :
    Cert.KernelIdeal.gather_S100000_S1300000x1_S1300000_n_0_n_n_0_1_1
      = Cert.ReferenceIdeal.gather_S100000_S1300000x1_S1300000_n_0_n_n_0_1_1 := rfl

/-! ## After the first two stretches: index lists, unit weights, inverse square-root degrees -/

section FirstTwo

attribute [local irreducible] Host.reduce Host.reduceAdd Host.gather Host.scatterAdd Host.rsqrt

/-- Source indices after two stretches: row 0 of the edge array, then the self loops. -/
theorem src_two (W : Valuation τ sig (Elt F)) :
    StableHlo.after hostOps0_1 (StableHlo.after hostOps0 W) (main_v3 : DevRef τ sig)
      = Cert.ReferenceIdeal.Spec.srcIdx (W (main_arg1 : DevRef τ sig)) := by
  simp only [hostOps0, hostOps0_1, StableHlo.after_cons, StableHlo.after_nil]
  rfl

/-- Destination indices after two stretches: row 1 of the edge array, then the self loops. -/
theorem dst_two (W : Valuation τ sig (Elt F)) :
    StableHlo.after hostOps0_1 (StableHlo.after hostOps0 W) (main_v6 : DevRef τ sig)
      = Cert.ReferenceIdeal.Spec.dstIdx (W (main_arg1 : DevRef τ sig)) := by
  simp only [hostOps0, hostOps0_1, StableHlo.after_cons, StableHlo.after_nil]
  rfl

/-- The unit edge weights. -/
theorem ones_two (W : Valuation τ sig (Elt F)) :
    StableHlo.after hostOps0_1 (StableHlo.after hostOps0 W) (main_v7 : DevRef τ sig)
      = (Cert.ReferenceIdeal.Spec.onesE : Cert.ReferenceIdeal.Spec.T (F := F) Cert.ReferenceIdeal.S1300000 .f32) := by
  simp only [hostOps0, hostOps0_1, StableHlo.after_cons, StableHlo.after_nil]
  rfl

set_option maxRecDepth 8192 in
/-- The inverse square roots of the degrees (the unit weights summed by source index), zero where
    the degree is not positive. -/
theorem dinv_two (W : Valuation τ sig (Elt F)) :
    StableHlo.after hostOps0_1 (StableHlo.after hostOps0 W) (main_v14 : DevRef τ sig)
      = Cert.ReferenceIdeal.Spec.dinvN (W (main_arg1 : DevRef τ sig)) := by
  simp only [hostOps0, hostOps0_1, StableHlo.after_cons, StableHlo.after_nil]
  rfl

end FirstTwo

/-! ## The third stretch over arbitrary entry contents -/

section Third

attribute [local irreducible] Host.reduce Host.reduceAdd Host.gather Host.scatterAdd Host.rsqrt

/-- The third stretch writes neither index list. -/
theorem src_third (W : Valuation τ sig (Elt F)) :
    StableHlo.after hostOps0_2 W (main_v3 : DevRef τ sig) = W (main_v3 : DevRef τ sig) := by
  simp only [hostOps0_2, StableHlo.after_cons, StableHlo.after_nil]
  rfl

theorem dst_third (W : Valuation τ sig (Elt F)) :
    StableHlo.after hostOps0_2 W (main_v6 : DevRef τ sig) = W (main_v6 : DevRef τ sig) := by
  simp only [hostOps0_2, StableHlo.after_cons, StableHlo.after_nil]
  rfl

set_option maxRecDepth 8192 in
/-- The third stretch's product: the node vector read at the wrapped source indices, times the
    edge weights, times the node vector read at the wrapped destination indices. -/
theorem w_third (W : Valuation τ sig (Elt F)) :
    StableHlo.after hostOps0_2 W (main_v30 : DevRef τ sig)
      = (mulf
          (mulf
            (Host.gather Cert.ReferenceIdeal.gather_S100000_S1300000x1_S1300000_n_0_n_n_0_1_1
              (W (main_v14 : DevRef τ sig))
              (Cert.ReferenceIdeal.Spec.ecol (Cert.ReferenceIdeal.Spec.wrapIdx (W (main_v3 : DevRef τ sig)))))
            (W (main_v7 : DevRef τ sig)))
          (Host.gather Cert.ReferenceIdeal.gather_S100000_S1300000x1_S1300000_n_0_n_n_0_1_1
            (W (main_v14 : DevRef τ sig))
            (Cert.ReferenceIdeal.Spec.ecol (Cert.ReferenceIdeal.Spec.wrapIdx (W (main_v6 : DevRef τ sig)))))
          : Cert.ReferenceIdeal.Spec.T (F := F) Cert.ReferenceIdeal.S1300000 .f32) := by
  simp only [hostOps0_2, StableHlo.after_cons, StableHlo.after_nil]
  rfl

end Third

/-! ## The values after the three stretches -/

/-- The source indices: row 0 of the edge array followed by the self loops. -/
theorem norm_src (W : Valuation τ sig (Elt F)) :
    StableHlo.after hostOps0_2 (StableHlo.after hostOps0_1 (StableHlo.after hostOps0 W)) (main_v3 : DevRef τ sig)
      = Cert.ReferenceIdeal.Spec.srcIdx (W (main_arg1 : DevRef τ sig)) := by
  rw [src_third, src_two]

/-- The destination indices: row 1 of the edge array followed by the self loops. -/
theorem norm_dst (W : Valuation τ sig (Elt F)) :
    StableHlo.after hostOps0_2 (StableHlo.after hostOps0_1 (StableHlo.after hostOps0 W)) (main_v6 : DevRef τ sig)
      = Cert.ReferenceIdeal.Spec.dstIdx (W (main_arg1 : DevRef τ sig)) := by
  rw [dst_third, dst_two]

/-- The edge weights: the inverse square roots of the source-side degrees (zero where the degree is
    not positive), read at the wrapped source and destination indices and multiplied. -/
theorem norm_w (W : Valuation τ sig (Elt F)) :
    StableHlo.after hostOps0_2 (StableHlo.after hostOps0_1 (StableHlo.after hostOps0 W)) (main_v30 : DevRef τ sig)
      = Cert.ReferenceIdeal.Spec.edgeNorm (W (main_arg1 : DevRef τ sig)) := by
  rw [w_third, dinv_two, src_two, dst_two, ones_two]
  rfl

end Cert.KernelIdeal.KHost
-- ==== Proof.KHost1.lean ====
/-
  The values the first host stretch of the kernel program leaves, in the specification's terms:
  the column means and variances from the two accumulated sums, and the three [64] parameter
  vectors as [1,64] rows.
-/
import proofs.«416283_j44736379355415_1_alg».proof.Proof.Gen.KernelIdeal.Launch
import proofs.«416283_j44736379355415_1_alg».proof.Proof.Spec
import Idealize.ShloMosaic.Lib.StableHlo.Run
import Idealize.ShloMosaic.Lib.ValueLayout

noncomputable section

namespace Cert.KernelIdeal.KHost

open Idealize.ShloMosaic Idealize.ShloMosaic.TcCoe Idealize.ShloMosaic.ValueIdx
open Facts₀ Facts

variable {F : FTy → Type} [FloatOps F]

/-- A [64] vector reshaped to [1,64] is the same vector broadcast along a new leading unit axis:
    at (u, i) both read the operand at i. -/
theorem reshape_row1 (v : ReferenceIdeal.Spec.T (F := F) S64 .f32) (h : S64.ShapeCasts S1x64) :
    shapeCast S1x64 v h = ReferenceIdeal.Spec.row1 v := by
  funext (j : S1x64.Idx)
  obtain ⟨u, i, rfl⟩ : ∃ (u : Fin 1) (i : Fin 64), j = ix2 u i := ⟨j 0, j 1, eq_ix2 j⟩
  rw [shapeCast_a_1a_apply]
  unfold ReferenceIdeal.Spec.row1
  exact (broadcastInDim_apply _ _ _ _ (ix1 i) (fun a => match a with | ⟨0, _⟩ => rfl)).symm

attribute [local irreducible] Host.divf in
/-- The mean row: the accumulated column sums divided by the row count. -/
theorem h1_mean (W : Valuation τ sig (Elt F)) :
    StableHlo.after Gen.hostOps1 W (main_v33 : DevRef τ sig)
      = Host.divf (W (main_v31_0 : DevRef τ sig))
          (broadcastInDim S1x64 ![] bcast_S_S1x64 (constant S_ .f32 0x47C35000#32)) := by
  simp only [StableHlo.after_cons, StableHlo.after_nil]
  rfl

attribute [local irreducible] Host.divf in
/-- The variance row: the mean of squares minus the square of the mean. -/
theorem h1_var (W : Valuation τ sig (Elt F)) :
    StableHlo.after Gen.hostOps1 W (main_v37 : DevRef τ sig)
      = subf
          (Host.divf (W (main_v31_1 : DevRef τ sig))
            (broadcastInDim S1x64 ![] bcast_S_S1x64 (constant S_ .f32 0x47C35000#32)))
          (mulf
            (Host.divf (W (main_v31_0 : DevRef τ sig))
              (broadcastInDim S1x64 ![] bcast_S_S1x64 (constant S_ .f32 0x47C35000#32)))
            (Host.divf (W (main_v31_0 : DevRef τ sig))
              (broadcastInDim S1x64 ![] bcast_S_S1x64 (constant S_ .f32 0x47C35000#32)))) := by
  simp only [StableHlo.after_cons, StableHlo.after_nil]
  rfl

/-- The scale vector as a row. -/
theorem h1_g (W : Valuation τ sig (Elt F)) :
    StableHlo.after Gen.hostOps1 W (main_v38 : DevRef τ sig)
      = ReferenceIdeal.Spec.row1 (W (main_arg3 : DevRef τ sig)) := by
  after_results
  exact reshape_row1 (W (main_arg3 : DevRef τ sig)) shapeCasts_S64_S1x64

/-- The shift vector as a row. -/
theorem h1_b (W : Valuation τ sig (Elt F)) :
    StableHlo.after Gen.hostOps1 W (main_v39 : DevRef τ sig)
      = ReferenceIdeal.Spec.row1 (W (main_arg4 : DevRef τ sig)) := by
  after_results
  exact reshape_row1 (W (main_arg4 : DevRef τ sig)) shapeCasts_S64_S1x64

/-- The bias vector as a row. -/
theorem h1_bias (W : Valuation τ sig (Elt F)) :
    StableHlo.after Gen.hostOps1 W (main_v40 : DevRef τ sig)
      = ReferenceIdeal.Spec.row1 (W (main_arg6 : DevRef τ sig)) := by
  after_results
  exact reshape_row1 (W (main_arg6 : DevRef τ sig)) shapeCasts_S64_S1x64

end Cert.KernelIdeal.KHost
-- ==== Proof.KHost3.lean ====
/-
  The values the host stretch before the first layer's linear kernel leaves, in the
  specification's terms: the column means and variances from the two accumulated sums, layer 0's
  scale and shift vectors as [1,64] rows, and layer 0's weight matrix.
-/
import proofs.«416283_j44736379355415_1_alg».proof.Proof.Gen.KernelIdeal.Launch
import proofs.«416283_j44736379355415_1_alg».proof.Proof.Spec
import Idealize.ShloMosaic.Lib.StableHlo.Run
import Idealize.ShloMosaic.Lib.ValueLayout

noncomputable section

namespace Cert.KernelIdeal.KHost

open Idealize.ShloMosaic Idealize.ShloMosaic.TcCoe Idealize.ShloMosaic.ValueIdx
open Facts₀ Facts

variable {F : FTy → Type} [FloatOps F]

/-- A [64] vector reshaped to [1,64] is the same vector broadcast along a new leading unit axis:
    at (u, i) both read the operand at i. -/
private theorem reshape_row (v : ReferenceIdeal.Spec.T (F := F) S64 .f32) (h : S64.ShapeCasts S1x64) :
    shapeCast S1x64 v h = ReferenceIdeal.Spec.row1 v := by
  funext (j : S1x64.Idx)
  obtain ⟨u, i, rfl⟩ : ∃ (u : Fin 1) (i : Fin 64), j = ix2 u i := ⟨j 0, j 1, eq_ix2 j⟩
  rw [shapeCast_a_1a_apply]
  unfold ReferenceIdeal.Spec.row1
  exact (broadcastInDim_apply _ _ _ _ (ix1 i) (fun a => match a with | ⟨0, _⟩ => rfl)).symm

attribute [local irreducible] Host.divf in
/-- The mean row: the accumulated column sums divided by the row count. -/
theorem h3_mean (W : Valuation τ sig (Elt F)) :
    StableHlo.after Gen.hostOps3 W (main_v44 : DevRef τ sig)
      = Host.divf (W (main_v42_0 : DevRef τ sig))
          (broadcastInDim S1x64 ![] bcast_S_S1x64 (constant S_ .f32 0x47C35000#32)) := by
  simp only [StableHlo.after_cons, StableHlo.after_nil]
  rfl

attribute [local irreducible] Host.divf in
/-- The variance row: the mean of squares minus the square of the mean. -/
theorem h3_var (W : Valuation τ sig (Elt F)) :
    StableHlo.after Gen.hostOps3 W (main_v48 : DevRef τ sig)
      = subf
          (Host.divf (W (main_v42_1 : DevRef τ sig))
            (broadcastInDim S1x64 ![] bcast_S_S1x64 (constant S_ .f32 0x47C35000#32)))
          (mulf
            (Host.divf (W (main_v42_0 : DevRef τ sig))
              (broadcastInDim S1x64 ![] bcast_S_S1x64 (constant S_ .f32 0x47C35000#32)))
            (Host.divf (W (main_v42_0 : DevRef τ sig))
              (broadcastInDim S1x64 ![] bcast_S_S1x64 (constant S_ .f32 0x47C35000#32)))) := by
  simp only [StableHlo.after_cons, StableHlo.after_nil]
  rfl

/-- The layer's scale vector (its row of the [3,64] parameter) as a row. -/
theorem h3_g (W : Valuation τ sig (Elt F)) :
    StableHlo.after Gen.hostOps3 W (main_v55 : DevRef τ sig)
      = ReferenceIdeal.Spec.row1 (ReferenceIdeal.Spec.row3_0 (W (main_arg7 : DevRef τ sig))) := by
  after_results
  exact reshape_row (ReferenceIdeal.Spec.row3_0 (W (main_arg7 : DevRef τ sig))) shapeCasts_S64_S1x64

/-- The layer's shift vector (its row of the [3,64] parameter) as a row. -/
theorem h3_b (W : Valuation τ sig (Elt F)) :
    StableHlo.after Gen.hostOps3 W (main_v56 : DevRef τ sig)
      = ReferenceIdeal.Spec.row1 (ReferenceIdeal.Spec.row3_0 (W (main_arg8 : DevRef τ sig))) := by
  after_results
  exact reshape_row (ReferenceIdeal.Spec.row3_0 (W (main_arg8 : DevRef τ sig))) shapeCasts_S64_S1x64

/-- The layer's weight matrix: its [64,64] slab of the [3,64,64] parameter. -/
theorem h3_w (W : Valuation τ sig (Elt F)) :
    StableHlo.after Gen.hostOps3 W (main_v54 : DevRef τ sig)
      = ReferenceIdeal.Spec.mat3_0 (W (main_arg9 : DevRef τ sig)) := by
  after_results
  rfl

end Cert.KernelIdeal.KHost
-- ==== Proof.KHost5.lean ====
/-
  The values the host stretch before the second layer's linear kernel leaves, in the
  specification's terms: the column means and variances from the two accumulated sums, layer 1's
  scale and shift vectors as [1,64] rows, and layer 1's weight matrix.
-/
import proofs.«416283_j44736379355415_1_alg».proof.Proof.Gen.KernelIdeal.Launch
import proofs.«416283_j44736379355415_1_alg».proof.Proof.Spec
import Idealize.ShloMosaic.Lib.StableHlo.Run
import Idealize.ShloMosaic.Lib.ValueLayout

noncomputable section

namespace Cert.KernelIdeal.KHost

open Idealize.ShloMosaic Idealize.ShloMosaic.TcCoe Idealize.ShloMosaic.ValueIdx
open Facts₀ Facts

variable {F : FTy → Type} [FloatOps F]

/-- A [64] vector reshaped to [1,64] is the same vector broadcast along a new leading unit axis:
    at (u, i) both read the operand at i. -/
private theorem reshape_row (v : ReferenceIdeal.Spec.T (F := F) S64 .f32) (h : S64.ShapeCasts S1x64) :
    shapeCast S1x64 v h = ReferenceIdeal.Spec.row1 v := by
  funext (j : S1x64.Idx)
  obtain ⟨u, i, rfl⟩ : ∃ (u : Fin 1) (i : Fin 64), j = ix2 u i := ⟨j 0, j 1, eq_ix2 j⟩
  rw [shapeCast_a_1a_apply]
  unfold ReferenceIdeal.Spec.row1
  exact (broadcastInDim_apply _ _ _ _ (ix1 i) (fun a => match a with | ⟨0, _⟩ => rfl)).symm

attribute [local irreducible] Host.divf in
/-- The mean row: the accumulated column sums divided by the row count. -/
theorem h5_mean (W : Valuation τ sig (Elt F)) :
    StableHlo.after Gen.hostOps5 W (main_v79 : DevRef τ sig)
      = Host.divf (W (main_v77_0 : DevRef τ sig))
          (broadcastInDim S1x64 ![] bcast_S_S1x64 (constant S_ .f32 0x47C35000#32)) := by
  simp only [StableHlo.after_cons, StableHlo.after_nil]
  rfl

attribute [local irreducible] Host.divf in
/-- The variance row: the mean of squares minus the square of the mean. -/
theorem h5_var (W : Valuation τ sig (Elt F)) :
    StableHlo.after Gen.hostOps5 W (main_v83 : DevRef τ sig)
      = subf
          (Host.divf (W (main_v77_1 : DevRef τ sig))
            (broadcastInDim S1x64 ![] bcast_S_S1x64 (constant S_ .f32 0x47C35000#32)))
          (mulf
            (Host.divf (W (main_v77_0 : DevRef τ sig))
              (broadcastInDim S1x64 ![] bcast_S_S1x64 (constant S_ .f32 0x47C35000#32)))
            (Host.divf (W (main_v77_0 : DevRef τ sig))
              (broadcastInDim S1x64 ![] bcast_S_S1x64 (constant S_ .f32 0x47C35000#32)))) := by
  simp only [StableHlo.after_cons, StableHlo.after_nil]
  rfl

/-- The layer's scale vector (its row of the [3,64] parameter) as a row. -/
theorem h5_g (W : Valuation τ sig (Elt F)) :
    StableHlo.after Gen.hostOps5 W (main_v90 : DevRef τ sig)
      = ReferenceIdeal.Spec.row1 (ReferenceIdeal.Spec.row3_1 (W (main_arg7 : DevRef τ sig))) := by
  after_results
  exact reshape_row (ReferenceIdeal.Spec.row3_1 (W (main_arg7 : DevRef τ sig))) shapeCasts_S64_S1x64

/-- The layer's shift vector (its row of the [3,64] parameter) as a row. -/
theorem h5_b (W : Valuation τ sig (Elt F)) :
    StableHlo.after Gen.hostOps5 W (main_v91 : DevRef τ sig)
      = ReferenceIdeal.Spec.row1 (ReferenceIdeal.Spec.row3_1 (W (main_arg8 : DevRef τ sig))) := by
  after_results
  exact reshape_row (ReferenceIdeal.Spec.row3_1 (W (main_arg8 : DevRef τ sig))) shapeCasts_S64_S1x64

/-- The layer's weight matrix: its [64,64] slab of the [3,64,64] parameter. -/
theorem h5_w (W : Valuation τ sig (Elt F)) :
    StableHlo.after Gen.hostOps5 W (main_v89 : DevRef τ sig)
      = ReferenceIdeal.Spec.mat3_1 (W (main_arg9 : DevRef τ sig)) := by
  after_results
  rfl

end Cert.KernelIdeal.KHost
-- ==== Proof.KHost7.lean ====
/-
  The values the host stretch before the third layer's linear kernel leaves, in the
  specification's terms: the column means and variances from the two accumulated sums, layer 2's
  scale and shift vectors as [1,64] rows, and layer 2's weight matrix.
-/
import proofs.«416283_j44736379355415_1_alg».proof.Proof.Gen.KernelIdeal.Launch
import proofs.«416283_j44736379355415_1_alg».proof.Proof.Spec
import Idealize.ShloMosaic.Lib.StableHlo.Run
import Idealize.ShloMosaic.Lib.ValueLayout

noncomputable section

namespace Cert.KernelIdeal.KHost

open Idealize.ShloMosaic Idealize.ShloMosaic.TcCoe Idealize.ShloMosaic.ValueIdx
open Facts₀ Facts

variable {F : FTy → Type} [FloatOps F]

/-- A [64] vector reshaped to [1,64] is the same vector broadcast along a new leading unit axis:
    at (u, i) both read the operand at i. -/
private theorem reshape_row (v : ReferenceIdeal.Spec.T (F := F) S64 .f32) (h : S64.ShapeCasts S1x64) :
    shapeCast S1x64 v h = ReferenceIdeal.Spec.row1 v := by
  funext (j : S1x64.Idx)
  obtain ⟨u, i, rfl⟩ : ∃ (u : Fin 1) (i : Fin 64), j = ix2 u i := ⟨j 0, j 1, eq_ix2 j⟩
  rw [shapeCast_a_1a_apply]
  unfold ReferenceIdeal.Spec.row1
  exact (broadcastInDim_apply _ _ _ _ (ix1 i) (fun a => match a with | ⟨0, _⟩ => rfl)).symm

attribute [local irreducible] Host.divf in
/-- The mean row: the accumulated column sums divided by the row count. -/
theorem h7_mean (W : Valuation τ sig (Elt F)) :
    StableHlo.after Gen.hostOps7 W (main_v114 : DevRef τ sig)
      = Host.divf (W (main_v112_0 : DevRef τ sig))
          (broadcastInDim S1x64 ![] bcast_S_S1x64 (constant S_ .f32 0x47C35000#32)) := by
  simp only [StableHlo.after_cons, StableHlo.after_nil]
  rfl

attribute [local irreducible] Host.divf in
/-- The variance row: the mean of squares minus the square of the mean. -/
theorem h7_var (W : Valuation τ sig (Elt F)) :
    StableHlo.after Gen.hostOps7 W (main_v118 : DevRef τ sig)
      = subf
          (Host.divf (W (main_v112_1 : DevRef τ sig))
            (broadcastInDim S1x64 ![] bcast_S_S1x64 (constant S_ .f32 0x47C35000#32)))
          (mulf
            (Host.divf (W (main_v112_0 : DevRef τ sig))
              (broadcastInDim S1x64 ![] bcast_S_S1x64 (constant S_ .f32 0x47C35000#32)))
            (Host.divf (W (main_v112_0 : DevRef τ sig))
              (broadcastInDim S1x64 ![] bcast_S_S1x64 (constant S_ .f32 0x47C35000#32)))) := by
  simp only [StableHlo.after_cons, StableHlo.after_nil]
  rfl

/-- The layer's scale vector (its row of the [3,64] parameter) as a row. -/
theorem h7_g (W : Valuation τ sig (Elt F)) :
    StableHlo.after Gen.hostOps7 W (main_v125 : DevRef τ sig)
      = ReferenceIdeal.Spec.row1 (ReferenceIdeal.Spec.row3_2 (W (main_arg7 : DevRef τ sig))) := by
  after_results
  exact reshape_row (ReferenceIdeal.Spec.row3_2 (W (main_arg7 : DevRef τ sig))) shapeCasts_S64_S1x64

/-- The layer's shift vector (its row of the [3,64] parameter) as a row. -/
theorem h7_b (W : Valuation τ sig (Elt F)) :
    StableHlo.after Gen.hostOps7 W (main_v126 : DevRef τ sig)
      = ReferenceIdeal.Spec.row1 (ReferenceIdeal.Spec.row3_2 (W (main_arg8 : DevRef τ sig))) := by
  after_results
  exact reshape_row (ReferenceIdeal.Spec.row3_2 (W (main_arg8 : DevRef τ sig))) shapeCasts_S64_S1x64

/-- The layer's weight matrix: its [64,64] slab of the [3,64,64] parameter. -/
theorem h7_w (W : Valuation τ sig (Elt F)) :
    StableHlo.after Gen.hostOps7 W (main_v124 : DevRef τ sig)
      = ReferenceIdeal.Spec.mat3_2 (W (main_arg9 : DevRef τ sig)) := by
  after_results
  rfl

end Cert.KernelIdeal.KHost
-- ==== Proof.KHostAgg4.lean ====
/-
  The value the host stretches of the first message-passing layer leave, in the specification's
  terms: the rectified sum of the bias row and the scatter-add, over destination indices, of the
  edge-normalised rows gathered at the wrapped source indices.
-/
import proofs.«416283_j44736379355415_1_alg».proof.Proof.Gen.KernelIdeal.Launch
import proofs.«416283_j44736379355415_1_alg».proof.Proof.Spec
import Idealize.ShloMosaic.Lib.StableHlo.Run

noncomputable section

namespace Cert.KernelIdeal.KHost

open Idealize.ShloMosaic Idealize.ShloMosaic.TcCoe
open Facts₀ Facts

variable {F : FTy → Type} [FloatOps F]

/-- The two programs' gather records hold the same dimension numbers. -/
theorem agg4_gather_eq :
    gather_S100000x64_S1300000x1_S1300000x64_1_0_n_n_0_1_164
      = ReferenceIdeal.gather_S100000x64_S1300000x1_S1300000x64_1_0_n_n_0_1_164 := rfl

/-- The two programs' scatter records hold the same dimension numbers. -/
theorem agg4_scatter_eq :
    scatter_S100000x64_S1300000x1_S1300000x64_1_0_0_1
      = ReferenceIdeal.scatter_S100000x64_S1300000x1_S1300000x64_1_0_0_1 := rfl

attribute [local irreducible] Host.gather Host.scatterAdd in
/-- The layer's output: max(scatter-add(0, dst, norm * hw[wrap src]) + bias, 0). -/
theorem agg4_val (W : Valuation τ sig (Elt F)) :
    StableHlo.after Gen.hostOps4_1 (StableHlo.after Gen.hostOps4 W) (main_v76 : DevRef τ sig)
      = ReferenceIdeal.Spec.aggN (W (main_v57 : DevRef τ sig)) (W (main_v3 : DevRef τ sig))
          (W (main_v6 : DevRef τ sig)) (W (main_v30 : DevRef τ sig))
          (ReferenceIdeal.Spec.row3_0 (W (main_arg10 : DevRef τ sig))) := by
  simp only [StableHlo.after_cons, StableHlo.after_nil]
  rfl

end Cert.KernelIdeal.KHost
-- ==== Proof.KHostAgg6.lean ====
/-
  The value the host stretches of the second message-passing layer leave, in the specification's
  terms: the rectified sum of the bias row and the scatter-add, over destination indices, of the
  edge-normalised rows gathered at the wrapped source indices.
-/
import proofs.«416283_j44736379355415_1_alg».proof.Proof.Gen.KernelIdeal.Launch
import proofs.«416283_j44736379355415_1_alg».proof.Proof.Spec
import Idealize.ShloMosaic.Lib.StableHlo.Run

noncomputable section

namespace Cert.KernelIdeal.KHost

open Idealize.ShloMosaic Idealize.ShloMosaic.TcCoe
open Facts₀ Facts

variable {F : FTy → Type} [FloatOps F]

/-- The two programs' gather records hold the same dimension numbers. -/
theorem agg6_gather_eq :
    gather_S100000x64_S1300000x1_S1300000x64_1_0_n_n_0_1_164
      = ReferenceIdeal.gather_S100000x64_S1300000x1_S1300000x64_1_0_n_n_0_1_164 := rfl

/-- The two programs' scatter records hold the same dimension numbers. -/
theorem agg6_scatter_eq :
    scatter_S100000x64_S1300000x1_S1300000x64_1_0_0_1
      = ReferenceIdeal.scatter_S100000x64_S1300000x1_S1300000x64_1_0_0_1 := rfl

attribute [local irreducible] Host.gather Host.scatterAdd in
/-- The layer's output: max(scatter-add(0, dst, norm * hw[wrap src]) + bias, 0). -/
theorem agg6_val (W : Valuation τ sig (Elt F)) :
    StableHlo.after Gen.hostOps6_1 (StableHlo.after Gen.hostOps6 W) (main_v111 : DevRef τ sig)
      = ReferenceIdeal.Spec.aggN (W (main_v92 : DevRef τ sig)) (W (main_v3 : DevRef τ sig))
          (W (main_v6 : DevRef τ sig)) (W (main_v30 : DevRef τ sig))
          (ReferenceIdeal.Spec.row3_1 (W (main_arg10 : DevRef τ sig))) := by
  simp only [StableHlo.after_cons, StableHlo.after_nil]
  rfl

end Cert.KernelIdeal.KHost
-- ==== Proof.KHostAgg8.lean ====
/-
  The value the host stretches of the third message-passing layer leave, in the specification's
  terms: the rectified sum of the bias row and the scatter-add, over destination indices, of the
  edge-normalised rows gathered at the wrapped source indices.
-/
import proofs.«416283_j44736379355415_1_alg».proof.Proof.Gen.KernelIdeal.Launch
import proofs.«416283_j44736379355415_1_alg».proof.Proof.Spec
import Idealize.ShloMosaic.Lib.StableHlo.Run
import Idealize.ShloMosaic.Lib.ValueLayout

noncomputable section

namespace Cert.KernelIdeal.KHost

open Idealize.ShloMosaic Idealize.ShloMosaic.TcCoe
open Facts₀ Facts

variable {F : FTy → Type} [FloatOps F]

/-- The two programs' gather records hold the same dimension numbers. -/
theorem agg8_gather_eq :
    gather_S100000x64_S1300000x1_S1300000x64_1_0_n_n_0_1_164
      = ReferenceIdeal.gather_S100000x64_S1300000x1_S1300000x64_1_0_n_n_0_1_164 := rfl

/-- The two programs' scatter records hold the same dimension numbers. -/
theorem agg8_scatter_eq :
    scatter_S100000x64_S1300000x1_S1300000x64_1_0_0_1
      = ReferenceIdeal.scatter_S100000x64_S1300000x1_S1300000x64_1_0_0_1 := rfl

attribute [local irreducible] Host.gather Host.scatterAdd in
/-- The layer's output: max(scatter-add(0, dst, norm * hw[wrap src]) + bias, 0). -/
theorem agg8_val (W : Valuation τ sig (Elt F)) :
    StableHlo.after Gen.hostOps8_2 (StableHlo.after Gen.hostOps8_1 (StableHlo.after Gen.hostOps8 W)) (main_v146 : DevRef τ sig)
      = ReferenceIdeal.Spec.aggN (W (main_v127 : DevRef τ sig)) (W (main_v3 : DevRef τ sig))
          (W (main_v6 : DevRef τ sig)) (W (main_v30 : DevRef τ sig))
          (ReferenceIdeal.Spec.row3_2 (W (main_arg10 : DevRef τ sig))) := by
  simp only [StableHlo.after_cons, StableHlo.after_nil]
  rfl

open Idealize.ShloMosaic.ValueIdx in
/-- A [100000] index vector reshaped to [100000,1] is the same vector broadcast along a new
    trailing unit axis: at (i, u) both read the operand at i. -/
private theorem reshape_col (v : ReferenceIdeal.Spec.T (F := F) S100000 .i32) (h : S100000.ShapeCasts S100000x1) :
    shapeCast S100000x1 v h = ReferenceIdeal.Spec.col1 v := by
  funext (j : S100000x1.Idx)
  obtain ⟨i, u, rfl⟩ : ∃ (i : Fin 100000) (u : Fin 1), j = ix2 i u := ⟨j 0, j 1, eq_ix2 j⟩
  have e : shapeCast S100000x1 v h (ix2 i u) = v (ix1 i) :=
    shapeCast_apply v h _ _ (by
      have hu : u.val = 0 := by omega
      rw [Shape.rowMajor_val_two, Shape.rowMajor_val_one]
      show i.val = i.val * 1 + u.val
      rw [hu, Nat.mul_one, Nat.add_zero])
  rw [e]
  unfold ReferenceIdeal.Spec.col1
  exact (broadcastInDim_apply _ _ _ _ (ix1 i) (fun a => match a with | ⟨0, _⟩ => rfl)).symm

attribute [local irreducible] Host.gather Host.scatterAdd in
/-- The graph-index vector as the column the pooling kernel reads. -/
theorem agg8_bidx (W : Valuation τ sig (Elt F)) :
    StableHlo.after Gen.hostOps8_2 (StableHlo.after Gen.hostOps8_1 (StableHlo.after Gen.hostOps8 W)) (main_v147 : DevRef τ sig)
      = ReferenceIdeal.Spec.col1 (W (main_arg2 : DevRef τ sig)) := by
  simp only [StableHlo.after_cons, StableHlo.after_nil]
  exact reshape_col (W (main_arg2 : DevRef τ sig)) shapeCasts_S100000_S100000x1

end Cert.KernelIdeal.KHost
-- ==== Proof.KHostTail.lean ====
/-
  The kernel program's closing host stretches (batch normalisation over the 128 pooled rows, a
  linear layer with relu, a second normalisation and linear layer, and the row-wise log-softmax)
  leave at the result buffer the reference's tail function of the pooled array and the nine tail
  parameters: the two programs run the same vector operations there, over shape records that are
  the same literal data.
-/
import proofs.«416283_j44736379355415_1_alg».proof.Proof.Gen.KernelIdeal.Launch
import proofs.«416283_j44736379355415_1_alg».proof.Proof.Spec

noncomputable section

namespace Cert.KernelIdeal.KHost

open Idealize.ShloMosaic Idealize.ShloMosaic.TcCoe
open Idealize.SL.Sem
open Cert.KernelIdeal Cert.KernelIdeal.Gen

variable {F : FTy → Type} [FloatOps F]

/-! ## The contraction records of the two programs coincide

Each record is a structure of literal dimension lists closed by a well-formedness proof; the two
programs state the same lists, and two proofs of one proposition are equal. -/

theorem dot64_eq :
    Cert.KernelIdeal.dot_S128x64_S64x64_S128x64_1_0_0_1_n_n
      = Cert.ReferenceIdeal.dot_S128x64_S64x64_S128x64_1_0_0_1_n_n := rfl

theorem dot10_eq :
    Cert.KernelIdeal.dot_S128x64_S64x10_S128x10_1_0_0_1_n_n
      = Cert.ReferenceIdeal.dot_S128x64_S64x10_S128x10_1_0_0_1_n_n := rfl

section Stretches

attribute [local irreducible] Host.reduce Host.reduceAdd Host.divf Host.rsqrt Host.exp Host.log

/-! ## The column statistics: a mean stretch followed by the variance function's stretch -/

set_option maxRecDepth 8192 in
/-- The column means of the pooled array. -/
theorem mean_12 (W : Valuation τ sig (Elt F)) :
    StableHlo.after hostOps9_1 (StableHlo.after hostOps9 W) (main_v151 : DevRef τ sig)
      = Cert.ReferenceIdeal.Spec.mean128 (W (main_v148 : DevRef τ sig)) := by
  simp only [hostOps9, hostOps9_1, StableHlo.after_cons, StableHlo.after_nil]
  rfl

set_option maxRecDepth 8192 in
/-- The column variances of the pooled array: the mean squared deviation, the denominator being
    the row count less a zero correction. -/
theorem var_12 (W : Valuation τ sig (Elt F)) :
    StableHlo.after hostOps9_1 (StableHlo.after hostOps9 W) (main_v152 : DevRef τ sig)
      = Cert.ReferenceIdeal.Spec.var128 (W (main_v148 : DevRef τ sig)) := by
  simp only [hostOps9, hostOps9_1, StableHlo.after_cons, StableHlo.after_nil]
  rfl

set_option maxRecDepth 8192 in
/-- The column means of the hidden layer. -/
theorem mean_56 (W : Valuation τ sig (Elt F)) :
    StableHlo.after hostOps9_5 (StableHlo.after hostOps9_4 W) (main_v175 : DevRef τ sig)
      = Cert.ReferenceIdeal.Spec.mean128 (W (main_v172 : DevRef τ sig)) := by
  simp only [hostOps9_4, hostOps9_5, StableHlo.after_cons, StableHlo.after_nil]
  rfl

set_option maxRecDepth 8192 in
/-- The column variances of the hidden layer. -/
theorem var_56 (W : Valuation τ sig (Elt F)) :
    StableHlo.after hostOps9_5 (StableHlo.after hostOps9_4 W) (main_v176 : DevRef τ sig)
      = Cert.ReferenceIdeal.Spec.var128 (W (main_v172 : DevRef τ sig)) := by
  simp only [hostOps9_4, hostOps9_5, StableHlo.after_cons, StableHlo.after_nil]
  rfl

/-! ## The normalise-and-multiply stretches and the two closing functions, over arbitrary entry contents -/

set_option maxRecDepth 8192 in
/-- First linear layer before its relu: the normalised pooled array times the weight matrix, plus the bias row. -/
theorem lin_3 (W : Valuation τ sig (Elt F)) :
    StableHlo.after hostOps9_2 W (main_v171 : DevRef τ sig)
      = (addf
          (Host.dotGeneral Cert.ReferenceIdeal.dot_S128x64_S64x64_S128x64_1_0_0_1_n_n none
            (Cert.ReferenceIdeal.Spec.bn128 (W (main_v148 : DevRef τ sig)) (W (main_v151 : DevRef τ sig)) (W (main_v152 : DevRef τ sig)) (W (main_arg11 : DevRef τ sig)) (W (main_arg12 : DevRef τ sig)))
            (W (main_arg13 : DevRef τ sig)))
          (Cert.ReferenceIdeal.Spec.rows128 (W (main_arg14 : DevRef τ sig)))
          : Cert.ReferenceIdeal.Spec.T (F := F) Cert.ReferenceIdeal.S128x64 .f32) := by
  simp only [hostOps9_2, StableHlo.after_cons, StableHlo.after_nil]
  rfl

/-- The relu stretch. -/
theorem relu_4 (W : Valuation τ sig (Elt F)) :
    StableHlo.after hostOps9_3 W (main_v172 : DevRef τ sig) = Cert.ReferenceIdeal.Spec.relu128 (W (main_v171 : DevRef τ sig)) := by
  simp only [hostOps9_3, StableHlo.after_cons, StableHlo.after_nil]
  rfl

set_option maxRecDepth 8192 in
/-- Second linear layer: the normalised hidden layer times the [64,10] matrix, plus the bias row. -/
theorem lin_7 (W : Valuation τ sig (Elt F)) :
    StableHlo.after hostOps9_6 W (main_v195 : DevRef τ sig)
      = (addf
          (Host.dotGeneral Cert.ReferenceIdeal.dot_S128x64_S64x10_S128x10_1_0_0_1_n_n none
            (Cert.ReferenceIdeal.Spec.bn128 (W (main_v172 : DevRef τ sig)) (W (main_v175 : DevRef τ sig)) (W (main_v176 : DevRef τ sig)) (W (main_arg15 : DevRef τ sig)) (W (main_arg16 : DevRef τ sig)))
            (W (main_arg17 : DevRef τ sig)))
          (broadcastInDim Cert.ReferenceIdeal.S128x10 ![0, 1] Cert.ReferenceIdeal.Facts₀.bcast_S1x10_S128x10_0_1
            (broadcastInDim Cert.ReferenceIdeal.S1x10 ![1] Cert.ReferenceIdeal.Facts₀.bcast_S10_S1x10_1 (W (main_arg18 : DevRef τ sig))))
          : Cert.ReferenceIdeal.Spec.T (F := F) Cert.ReferenceIdeal.S128x10 .f32) := by
  simp only [hostOps9_6, StableHlo.after_cons, StableHlo.after_nil]
  rfl

set_option maxRecDepth 8192 in
/-- The log-softmax stretch: each row less its maximum, less the logarithm of the row's summed exponentials. -/
theorem lsm_8 (W : Valuation τ sig (Elt F)) :
    StableHlo.after hostOps9_7 W (main_v196 : DevRef τ sig) = Cert.ReferenceIdeal.Spec.logSoftmax (W (main_v195 : DevRef τ sig)) := by
  simp only [hostOps9_7, StableHlo.after_cons, StableHlo.after_nil]
  rfl

/-! ## Buffers a group of stretches does not write -/

theorem keep12_v148 (W : Valuation τ sig (Elt F)) :
    StableHlo.after hostOps9_1 (StableHlo.after hostOps9 W) (main_v148 : DevRef τ sig) = W (main_v148 : DevRef τ sig) := by
  simp only [hostOps9, hostOps9_1, StableHlo.after_cons, StableHlo.after_nil]
  rfl

theorem keep12_arg11 (W : Valuation τ sig (Elt F)) :
    StableHlo.after hostOps9_1 (StableHlo.after hostOps9 W) (main_arg11 : DevRef τ sig) = W (main_arg11 : DevRef τ sig) := by
  simp only [hostOps9, hostOps9_1, StableHlo.after_cons, StableHlo.after_nil]
  rfl

theorem keep12_arg12 (W : Valuation τ sig (Elt F)) :
    StableHlo.after hostOps9_1 (StableHlo.after hostOps9 W) (main_arg12 : DevRef τ sig) = W (main_arg12 : DevRef τ sig) := by
  simp only [hostOps9, hostOps9_1, StableHlo.after_cons, StableHlo.after_nil]
  rfl

theorem keep12_arg13 (W : Valuation τ sig (Elt F)) :
    StableHlo.after hostOps9_1 (StableHlo.after hostOps9 W) (main_arg13 : DevRef τ sig) = W (main_arg13 : DevRef τ sig) := by
  simp only [hostOps9, hostOps9_1, StableHlo.after_cons, StableHlo.after_nil]
  rfl

theorem keep12_arg14 (W : Valuation τ sig (Elt F)) :
    StableHlo.after hostOps9_1 (StableHlo.after hostOps9 W) (main_arg14 : DevRef τ sig) = W (main_arg14 : DevRef τ sig) := by
  simp only [hostOps9, hostOps9_1, StableHlo.after_cons, StableHlo.after_nil]
  rfl

theorem keep14_arg15 (W : Valuation τ sig (Elt F)) :
    StableHlo.after hostOps9_3 (StableHlo.after hostOps9_2 (StableHlo.after hostOps9_1 (StableHlo.after hostOps9 W))) (main_arg15 : DevRef τ sig) = W (main_arg15 : DevRef τ sig) := by
  simp only [hostOps9, hostOps9_1, hostOps9_2, hostOps9_3, StableHlo.after_cons, StableHlo.after_nil]
  rfl

theorem keep14_arg16 (W : Valuation τ sig (Elt F)) :
    StableHlo.after hostOps9_3 (StableHlo.after hostOps9_2 (StableHlo.after hostOps9_1 (StableHlo.after hostOps9 W))) (main_arg16 : DevRef τ sig) = W (main_arg16 : DevRef τ sig) := by
  simp only [hostOps9, hostOps9_1, hostOps9_2, hostOps9_3, StableHlo.after_cons, StableHlo.after_nil]
  rfl

theorem keep14_arg17 (W : Valuation τ sig (Elt F)) :
    StableHlo.after hostOps9_3 (StableHlo.after hostOps9_2 (StableHlo.after hostOps9_1 (StableHlo.after hostOps9 W))) (main_arg17 : DevRef τ sig) = W (main_arg17 : DevRef τ sig) := by
  simp only [hostOps9, hostOps9_1, hostOps9_2, hostOps9_3, StableHlo.after_cons, StableHlo.after_nil]
  rfl

theorem keep14_arg18 (W : Valuation τ sig (Elt F)) :
    StableHlo.after hostOps9_3 (StableHlo.after hostOps9_2 (StableHlo.after hostOps9_1 (StableHlo.after hostOps9 W))) (main_arg18 : DevRef τ sig) = W (main_arg18 : DevRef τ sig) := by
  simp only [hostOps9, hostOps9_1, hostOps9_2, hostOps9_3, StableHlo.after_cons, StableHlo.after_nil]
  rfl

theorem keep56_v172 (W : Valuation τ sig (Elt F)) :
    StableHlo.after hostOps9_5 (StableHlo.after hostOps9_4 W) (main_v172 : DevRef τ sig) = W (main_v172 : DevRef τ sig) := by
  simp only [hostOps9_4, hostOps9_5, StableHlo.after_cons, StableHlo.after_nil]
  rfl

theorem keep56_arg15 (W : Valuation τ sig (Elt F)) :
    StableHlo.after hostOps9_5 (StableHlo.after hostOps9_4 W) (main_arg15 : DevRef τ sig) = W (main_arg15 : DevRef τ sig) := by
  simp only [hostOps9_4, hostOps9_5, StableHlo.after_cons, StableHlo.after_nil]
  rfl

theorem keep56_arg16 (W : Valuation τ sig (Elt F)) :
    StableHlo.after hostOps9_5 (StableHlo.after hostOps9_4 W) (main_arg16 : DevRef τ sig) = W (main_arg16 : DevRef τ sig) := by
  simp only [hostOps9_4, hostOps9_5, StableHlo.after_cons, StableHlo.after_nil]
  rfl

theorem keep56_arg17 (W : Valuation τ sig (Elt F)) :
    StableHlo.after hostOps9_5 (StableHlo.after hostOps9_4 W) (main_arg17 : DevRef τ sig) = W (main_arg17 : DevRef τ sig) := by
  simp only [hostOps9_4, hostOps9_5, StableHlo.after_cons, StableHlo.after_nil]
  rfl

theorem keep56_arg18 (W : Valuation τ sig (Elt F)) :
    StableHlo.after hostOps9_5 (StableHlo.after hostOps9_4 W) (main_arg18 : DevRef τ sig) = W (main_arg18 : DevRef τ sig) := by
  simp only [hostOps9_4, hostOps9_5, StableHlo.after_cons, StableHlo.after_nil]
  rfl

end Stretches

/-! ## The tail's value -/

/-- The hidden layer after the first four stretches. -/
theorem hidden_val (W : Valuation τ sig (Elt F)) :
    StableHlo.after hostOps9_3 (StableHlo.after hostOps9_2 (StableHlo.after hostOps9_1 (StableHlo.after hostOps9 W)))
        (main_v172 : DevRef τ sig)
      = Cert.ReferenceIdeal.Spec.tailHidden (W (main_v148 : DevRef τ sig)) (W (main_arg11 : DevRef τ sig)) (W (main_arg12 : DevRef τ sig)) (W (main_arg13 : DevRef τ sig)) (W (main_arg14 : DevRef τ sig)) := by
  rw [relu_4, lin_3, mean_12, var_12, keep12_v148, keep12_arg11, keep12_arg12, keep12_arg13, keep12_arg14]
  rfl

/-- The result after the eight stretches: the reference's tail of the pooled array and the parameters. -/
theorem tail_val (W : Valuation τ sig (Elt F)) :
    StableHlo.after hostOps9_7 (StableHlo.after hostOps9_6 (StableHlo.after hostOps9_5 (StableHlo.after hostOps9_4
      (StableHlo.after hostOps9_3 (StableHlo.after hostOps9_2 (StableHlo.after hostOps9_1 (StableHlo.after hostOps9 W)))))))
        (main_v196 : DevRef τ sig)
      = Cert.ReferenceIdeal.Spec.tailN (W (main_v148 : DevRef τ sig)) (W (main_arg11 : DevRef τ sig)) (W (main_arg12 : DevRef τ sig)) (W (main_arg13 : DevRef τ sig)) (W (main_arg14 : DevRef τ sig))
          (W (main_arg15 : DevRef τ sig)) (W (main_arg16 : DevRef τ sig)) (W (main_arg17 : DevRef τ sig)) (W (main_arg18 : DevRef τ sig)) := by
  rw [lsm_8, lin_7, mean_56, var_56, keep56_v172, keep56_arg15, keep56_arg16, keep56_arg17, keep56_arg18,
    hidden_val, keep14_arg15, keep14_arg16, keep14_arg17, keep14_arg18]
  rfl

end Cert.KernelIdeal.KHost
-- ==== Proof.KVal.lean ====
/- The kernel program's result as the specification's value of the launch arguments: the valuations at the segment
   boundaries are walked stage by stage — each host stretch leaves the specification's function of its inputs, each statistics
   kernel the column sums and sums of squares (hence, on finite data, the reference's mean and variance), each
   normalise-and-multiply kernel the reference's product, the pooling kernel the reference's segment sums. -/
import proofs.«416283_j44736379355415_1_alg».proof.Proof.KRun
import proofs.«416283_j44736379355415_1_alg».proof.Proof.Gen.Pre_finite_inputs
import proofs.«416283_j44736379355415_1_alg».proof.Proof.KWalk
import proofs.«416283_j44736379355415_1_alg».proof.Proof.KWalks
import proofs.«416283_j44736379355415_1_alg».proof.Proof.Spec
import proofs.«416283_j44736379355415_1_alg».proof.Proof.KSpec
import proofs.«416283_j44736379355415_1_alg».proof.Proof.Fin
import proofs.«416283_j44736379355415_1_alg».proof.Proof.PreFin
import proofs.«416283_j44736379355415_1_alg».proof.Proof.FinStages
import proofs.«416283_j44736379355415_1_alg».proof.Proof.FinAgg
import proofs.«416283_j44736379355415_1_alg».proof.Proof.StatsBridge
import proofs.«416283_j44736379355415_1_alg».proof.Proof.KStats0
import proofs.«416283_j44736379355415_1_alg».proof.Proof.KStats2
import proofs.«416283_j44736379355415_1_alg».proof.Proof.KStats4
import proofs.«416283_j44736379355415_1_alg».proof.Proof.KStats6
import proofs.«416283_j44736379355415_1_alg».proof.Proof.KFeat1
import proofs.«416283_j44736379355415_1_alg».proof.Proof.KLin3
import proofs.«416283_j44736379355415_1_alg».proof.Proof.KLin5
import proofs.«416283_j44736379355415_1_alg».proof.Proof.KLin7
import proofs.«416283_j44736379355415_1_alg».proof.Proof.KPool8
import proofs.«416283_j44736379355415_1_alg».proof.Proof.KHost0
import proofs.«416283_j44736379355415_1_alg».proof.Proof.KHost1
import proofs.«416283_j44736379355415_1_alg».proof.Proof.KHost3
import proofs.«416283_j44736379355415_1_alg».proof.Proof.KHost5
import proofs.«416283_j44736379355415_1_alg».proof.Proof.KHost7
import proofs.«416283_j44736379355415_1_alg».proof.Proof.KHostAgg4
import proofs.«416283_j44736379355415_1_alg».proof.Proof.KHostAgg6
import proofs.«416283_j44736379355415_1_alg».proof.Proof.KHostAgg8
import proofs.«416283_j44736379355415_1_alg».proof.Proof.KHostTail

set_option maxRecDepth 16384
set_option quotPrecheck false

noncomputable section

namespace Cert.KernelIdeal.KVal

open Idealize.ShloMosaic Idealize.ShloMosaic.TcCoe Idealize.SL.Sem
open Cert.KernelIdeal Cert.KernelIdeal.Gen Cert.KernelIdeal.KWalk Cert.ReferenceIdeal.Spec Cert.FinSpec

variable (m : (ℓ : Loc nD τ sig) → Buf (Elt Ideal) ℓ) (ρ : Dev nD → PrngReg) (c : Dev nD)

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)
local notation "a17" => m ((c.tc : Thread nD τ).loc main_arg17)
local notation "a18" => m ((c.tc : Thread nD τ).loc main_arg18)

/-! ## The stage values, as the specification names them -/

/-- The feature layer's output. -/
def xh0 : T (F := Ideal) Cert.ReferenceIdeal.S100000x64 .f32 := featN (F := Ideal) a0 (meanN a0) (varN a0) a3 a4 a5 a6
/-- Layer 0: the normalised product and the aggregated, rectified messages. -/
def xhw0 : T (F := Ideal) Cert.ReferenceIdeal.S100000x64 .f32 := linN (F := Ideal) (xh0 m c) (meanN (xh0 m c)) (varN (xh0 m c)) (row3_0 a7) (row3_0 a8) (mat3_0 a9)
def xh1 : T (F := Ideal) Cert.ReferenceIdeal.S100000x64 .f32 := aggN (F := Ideal) (xhw0 m c) (srcIdx a1) (dstIdx a1) (edgeNorm a1) (row3_0 a10)
/-- Layer 1: the normalised product and the aggregated, rectified messages. -/
def xhw1 : T (F := Ideal) Cert.ReferenceIdeal.S100000x64 .f32 := linN (F := Ideal) (xh1 m c) (meanN (xh1 m c)) (varN (xh1 m c)) (row3_1 a7) (row3_1 a8) (mat3_1 a9)
def xh2 : T (F := Ideal) Cert.ReferenceIdeal.S100000x64 .f32 := aggN (F := Ideal) (xhw1 m c) (srcIdx a1) (dstIdx a1) (edgeNorm a1) (row3_1 a10)
/-- Layer 2: the normalised product and the aggregated, rectified messages. -/
def xhw2 : T (F := Ideal) Cert.ReferenceIdeal.S100000x64 .f32 := linN (F := Ideal) (xh2 m c) (meanN (xh2 m c)) (varN (xh2 m c)) (row3_2 a7) (row3_2 a8) (mat3_2 a9)
def xh3 : T (F := Ideal) Cert.ReferenceIdeal.S100000x64 .f32 := aggN (F := Ideal) (xhw2 m c) (srcIdx a1) (dstIdx a1) (edgeNorm a1) (row3_2 a10)

/-! ## Finiteness of the data the statistics kernels read -/

section
variable (hpre : Cert.Pre_KernelIdeal m)
include hpre

theorem fin_h0 : isFin (xh0 m c) :=
  Cert.FinStages.featN_fin _ _ _ _ _ (Cert.PreFin.fin_arg0 m hpre c) (Cert.PreFin.fin_arg3 m hpre c) (Cert.PreFin.fin_arg4 m hpre c) (Cert.PreFin.fin_arg5 m hpre c) (Cert.PreFin.fin_arg6 m hpre c)
theorem fin_hw0 : isFin (xhw0 m c) :=
  Cert.FinStages.linN_fin _ _ _ _ (fin_h0 m c hpre) (Cert.FinStages.row3_0_fin _ (Cert.PreFin.fin_arg7 m hpre c)) (Cert.FinStages.row3_0_fin _ (Cert.PreFin.fin_arg8 m hpre c)) (Cert.FinStages.mat3_0_fin _ (Cert.PreFin.fin_arg9 m hpre c))
theorem fin_h1 : isFin (xh1 m c) :=
  Cert.FinStages.aggN_fin _ _ _ _ _ (fin_hw0 m c hpre) (Cert.FinStages.edgeNorm_fin _) (Cert.FinStages.row3_0_fin _ (Cert.PreFin.fin_arg10 m hpre c))
theorem fin_hw1 : isFin (xhw1 m c) :=
  Cert.FinStages.linN_fin _ _ _ _ (fin_h1 m c hpre) (Cert.FinStages.row3_1_fin _ (Cert.PreFin.fin_arg7 m hpre c)) (Cert.FinStages.row3_1_fin _ (Cert.PreFin.fin_arg8 m hpre c)) (Cert.FinStages.mat3_1_fin _ (Cert.PreFin.fin_arg9 m hpre c))
theorem fin_h2 : isFin (xh2 m c) :=
  Cert.FinStages.aggN_fin _ _ _ _ _ (fin_hw1 m c hpre) (Cert.FinStages.edgeNorm_fin _) (Cert.FinStages.row3_1_fin _ (Cert.PreFin.fin_arg10 m hpre c))
theorem fin_hw2 : isFin (xhw2 m c) :=
  Cert.FinStages.linN_fin _ _ _ _ (fin_h2 m c hpre) (Cert.FinStages.row3_2_fin _ (Cert.PreFin.fin_arg7 m hpre c)) (Cert.FinStages.row3_2_fin _ (Cert.PreFin.fin_arg8 m hpre c)) (Cert.FinStages.mat3_2_fin _ (Cert.PreFin.fin_arg9 m hpre c))
theorem fin_h3 : isFin (xh3 m c) :=
  Cert.FinStages.aggN_fin _ _ _ _ _ (fin_hw2 m c hpre) (Cert.FinStages.edgeNorm_fin _) (Cert.FinStages.row3_2_fin _ (Cert.PreFin.fin_arg10 m hpre c))
end

/-! ## The edge lists and weights (host stretches before the first kernel) -/

theorem t_src : W3 m ρ c (Proc.devRef .tc main_v3) = srcIdx a1 := Cert.KernelIdeal.KHost.norm_src (W0 m ρ c)
theorem t_dst : W3 m ρ c (Proc.devRef .tc main_v6) = dstIdx a1 := Cert.KernelIdeal.KHost.norm_dst (W0 m ρ c)
theorem t_nrm : W3 m ρ c (Proc.devRef .tc main_v30) = edgeNorm a1 := Cert.KernelIdeal.KHost.norm_w (W0 m ρ c)

/-! ## The feature layer -/

theorem t_sum0 : W4 m ρ c (Proc.devRef .tc main_v31_0) = Cert.KSpec.colSum a0 :=
  (W4_arr m ρ c 1).trans (Cert.KernelIdeal.KStats0.stats0_val (V3 m ρ) c a0 (wk_W3_arg0 m ρ c)).1
theorem t_sq0 : W4 m ρ c (Proc.devRef .tc main_v31_1) = Cert.KSpec.colSumSq a0 :=
  (W4_arr m ρ c 2).trans (Cert.KernelIdeal.KStats0.stats0_val (V3 m ρ) c a0 (wk_W3_arg0 m ρ c)).2

theorem t_mean0 : W5 m ρ c (Proc.devRef .tc main_v33) = row1 (meanN a0) :=
  (Cert.KernelIdeal.KHost.h1_mean (W4 m ρ c)).trans (by rw [t_sum0 m ρ c]; exact Cert.StatsBridge.mean_bridge _ a0)
theorem t_var0 (hpre : Cert.Pre_KernelIdeal m) : W5 m ρ c (Proc.devRef .tc main_v37) = row1 (varN a0) :=
  (Cert.KernelIdeal.KHost.h1_var (W4 m ρ c)).trans (by rw [t_sum0 m ρ c, t_sq0 m ρ c]; exact Cert.StatsBridge.var_bridge _ a0 (Cert.PreFin.fin_arg0 m hpre c))
theorem t_g0 : W5 m ρ c (Proc.devRef .tc main_v38) = row1 a3 :=
  (Cert.KernelIdeal.KHost.h1_g (W4 m ρ c)).trans (congrArg row1 (wk_W4_arg3 m ρ c))
theorem t_b0 : W5 m ρ c (Proc.devRef .tc main_v39) = row1 a4 :=
  (Cert.KernelIdeal.KHost.h1_b (W4 m ρ c)).trans (congrArg row1 (wk_W4_arg4 m ρ c))
theorem t_bias0 : W5 m ρ c (Proc.devRef .tc main_v40) = row1 a6 :=
  (Cert.KernelIdeal.KHost.h1_bias (W4 m ρ c)).trans (congrArg row1 (wk_W4_arg6 m ρ c))

theorem t_h0 (hpre : Cert.Pre_KernelIdeal m) : W6 m ρ c (Proc.devRef .tc main_v41) = xh0 m c :=
  (W6_arr m ρ c 7).trans (Cert.KernelIdeal.KFeat1.feat1_val (V5 m ρ) c a0 (meanN a0) (varN a0) a3 a4 a5 a6
    (wk_W5_arg0 m ρ c) (t_mean0 m ρ c) (t_var0 m ρ c hpre) (t_g0 m ρ c) (t_b0 m ρ c)
    (wk_W5_arg5 m ρ c) (t_bias0 m ρ c))

/-! ## Layer 0 -/

theorem t_sum1 (hpre : Cert.Pre_KernelIdeal m) : W7 m ρ c (Proc.devRef .tc main_v42_0) = Cert.KSpec.colSum (xh0 m c) :=
  (W7_arr m ρ c 1).trans (Cert.KernelIdeal.KStats2.stats2_val (V6 m ρ) c (xh0 m c) (t_h0 m ρ c hpre)).1
theorem t_sq1 (hpre : Cert.Pre_KernelIdeal m) : W7 m ρ c (Proc.devRef .tc main_v42_1) = Cert.KSpec.colSumSq (xh0 m c) :=
  (W7_arr m ρ c 2).trans (Cert.KernelIdeal.KStats2.stats2_val (V6 m ρ) c (xh0 m c) (t_h0 m ρ c hpre)).2
theorem t_mean1 (hpre : Cert.Pre_KernelIdeal m) : W8 m ρ c (Proc.devRef .tc main_v44) = row1 (meanN (xh0 m c)) :=
  (Cert.KernelIdeal.KHost.h3_mean (W7 m ρ c)).trans (by rw [t_sum1 m ρ c hpre]; exact Cert.StatsBridge.mean_bridge _ (xh0 m c))
theorem t_var1 (hpre : Cert.Pre_KernelIdeal m) : W8 m ρ c (Proc.devRef .tc main_v48) = row1 (varN (xh0 m c)) :=
  (Cert.KernelIdeal.KHost.h3_var (W7 m ρ c)).trans (by rw [t_sum1 m ρ c hpre, t_sq1 m ρ c hpre]; exact Cert.StatsBridge.var_bridge _ (xh0 m c) (fin_h0 m c hpre))
theorem t_g1 : W8 m ρ c (Proc.devRef .tc main_v55) = row1 (row3_0 a7) :=
  (Cert.KernelIdeal.KHost.h3_g (W7 m ρ c)).trans (congrArg (fun v => row1 (row3_0 v)) (wk_W7_arg7 m ρ c))
theorem t_b1 : W8 m ρ c (Proc.devRef .tc main_v56) = row1 (row3_0 a8) :=
  (Cert.KernelIdeal.KHost.h3_b (W7 m ρ c)).trans (congrArg (fun v => row1 (row3_0 v)) (wk_W7_arg8 m ρ c))
theorem t_w1 : W8 m ρ c (Proc.devRef .tc main_v54) = mat3_0 a9 :=
  (Cert.KernelIdeal.KHost.h3_w (W7 m ρ c)).trans (congrArg mat3_0 (wk_W7_arg9 m ρ c))

theorem t_hw0 (hpre : Cert.Pre_KernelIdeal m) : W9 m ρ c (Proc.devRef .tc main_v57) = xhw0 m c :=
  (W9_arr m ρ c 6).trans (Cert.KernelIdeal.KLin3.lin3_val (V8 m ρ) c (xh0 m c) (meanN (xh0 m c)) (varN (xh0 m c)) (row3_0 a7) (row3_0 a8) (mat3_0 a9)
    ((wk_W8_v41_W6 m ρ c).trans (t_h0 m ρ c hpre))
    (t_mean1 m ρ c hpre) (t_var1 m ρ c hpre) (t_g1 m ρ c) (t_b1 m ρ c) (t_w1 m ρ c))

theorem t_h1 (hpre : Cert.Pre_KernelIdeal m) : W11 m ρ c (Proc.devRef .tc main_v76) = xh1 m c := by
  have e1 : W9 m ρ c (Proc.devRef .tc main_v57) = xhw0 m c := t_hw0 m ρ c hpre
  have e2 : W9 m ρ c (Proc.devRef .tc main_v3) = srcIdx a1 := (wk_W9_v3_W3 m ρ c).trans (t_src m ρ c)
  have e3 : W9 m ρ c (Proc.devRef .tc main_v6) = dstIdx a1 := (wk_W9_v6_W3 m ρ c).trans (t_dst m ρ c)
  have e4 : W9 m ρ c (Proc.devRef .tc main_v30) = edgeNorm a1 := (wk_W9_v30_W3 m ρ c).trans (t_nrm m ρ c)
  have e5 : W9 m ρ c (Proc.devRef .tc main_arg10) = a10 := wk_W9_arg10 m ρ c
  refine (Cert.KernelIdeal.KHost.agg4_val (W9 m ρ c)).trans ?_
  rw [e1, e2, e3, e4, e5]; rfl

/-! ## Layer 1 -/

theorem t_sum2 (hpre : Cert.Pre_KernelIdeal m) : W12 m ρ c (Proc.devRef .tc main_v77_0) = Cert.KSpec.colSum (xh1 m c) :=
  (W12_arr m ρ c 1).trans (Cert.KernelIdeal.KStats4.stats4_val (V11 m ρ) c (xh1 m c) (t_h1 m ρ c hpre)).1
theorem t_sq2 (hpre : Cert.Pre_KernelIdeal m) : W12 m ρ c (Proc.devRef .tc main_v77_1) = Cert.KSpec.colSumSq (xh1 m c) :=
  (W12_arr m ρ c 2).trans (Cert.KernelIdeal.KStats4.stats4_val (V11 m ρ) c (xh1 m c) (t_h1 m ρ c hpre)).2
theorem t_mean2 (hpre : Cert.Pre_KernelIdeal m) : W13 m ρ c (Proc.devRef .tc main_v79) = row1 (meanN (xh1 m c)) :=
  (Cert.KernelIdeal.KHost.h5_mean (W12 m ρ c)).trans (by rw [t_sum2 m ρ c hpre]; exact Cert.StatsBridge.mean_bridge _ (xh1 m c))
theorem t_var2 (hpre : Cert.Pre_KernelIdeal m) : W13 m ρ c (Proc.devRef .tc main_v83) = row1 (varN (xh1 m c)) :=
  (Cert.KernelIdeal.KHost.h5_var (W12 m ρ c)).trans (by rw [t_sum2 m ρ c hpre, t_sq2 m ρ c hpre]; exact Cert.StatsBridge.var_bridge _ (xh1 m c) (fin_h1 m c hpre))
theorem t_g2 : W13 m ρ c (Proc.devRef .tc main_v90) = row1 (row3_1 a7) :=
  (Cert.KernelIdeal.KHost.h5_g (W12 m ρ c)).trans (congrArg (fun v => row1 (row3_1 v)) (wk_W12_arg7 m ρ c))
theorem t_b2 : W13 m ρ c (Proc.devRef .tc main_v91) = row1 (row3_1 a8) :=
  (Cert.KernelIdeal.KHost.h5_b (W12 m ρ c)).trans (congrArg (fun v => row1 (row3_1 v)) (wk_W12_arg8 m ρ c))
theorem t_w2 : W13 m ρ c (Proc.devRef .tc main_v89) = mat3_1 a9 :=
  (Cert.KernelIdeal.KHost.h5_w (W12 m ρ c)).trans (congrArg mat3_1 (wk_W12_arg9 m ρ c))

theorem t_hw1 (hpre : Cert.Pre_KernelIdeal m) : W14 m ρ c (Proc.devRef .tc main_v92) = xhw1 m c :=
  (W14_arr m ρ c 6).trans (Cert.KernelIdeal.KLin5.lin5_val (V13 m ρ) c (xh1 m c) (meanN (xh1 m c)) (varN (xh1 m c)) (row3_1 a7) (row3_1 a8) (mat3_1 a9)
    ((wk_W13_v76_W11 m ρ c).trans (t_h1 m ρ c hpre))
    (t_mean2 m ρ c hpre) (t_var2 m ρ c hpre) (t_g2 m ρ c) (t_b2 m ρ c) (t_w2 m ρ c))

theorem t_h2 (hpre : Cert.Pre_KernelIdeal m) : W16 m ρ c (Proc.devRef .tc main_v111) = xh2 m c := by
  have e1 : W14 m ρ c (Proc.devRef .tc main_v92) = xhw1 m c := t_hw1 m ρ c hpre
  have e2 : W14 m ρ c (Proc.devRef .tc main_v3) = srcIdx a1 := (wk_W14_v3_W3 m ρ c).trans (t_src m ρ c)
  have e3 : W14 m ρ c (Proc.devRef .tc main_v6) = dstIdx a1 := (wk_W14_v6_W3 m ρ c).trans (t_dst m ρ c)
  have e4 : W14 m ρ c (Proc.devRef .tc main_v30) = edgeNorm a1 := (wk_W14_v30_W3 m ρ c).trans (t_nrm m ρ c)
  have e5 : W14 m ρ c (Proc.devRef .tc main_arg10) = a10 := wk_W14_arg10 m ρ c
  refine (Cert.KernelIdeal.KHost.agg6_val (W14 m ρ c)).trans ?_
  rw [e1, e2, e3, e4, e5]; rfl

/-! ## Layer 2 -/

theorem t_sum3 (hpre : Cert.Pre_KernelIdeal m) : W17 m ρ c (Proc.devRef .tc main_v112_0) = Cert.KSpec.colSum (xh2 m c) :=
  (W17_arr m ρ c 1).trans (Cert.KernelIdeal.KStats6.stats6_val (V16 m ρ) c (xh2 m c) (t_h2 m ρ c hpre)).1
theorem t_sq3 (hpre : Cert.Pre_KernelIdeal m) : W17 m ρ c (Proc.devRef .tc main_v112_1) = Cert.KSpec.colSumSq (xh2 m c) :=
  (W17_arr m ρ c 2).trans (Cert.KernelIdeal.KStats6.stats6_val (V16 m ρ) c (xh2 m c) (t_h2 m ρ c hpre)).2
theorem t_mean3 (hpre : Cert.Pre_KernelIdeal m) : W18 m ρ c (Proc.devRef .tc main_v114) = row1 (meanN (xh2 m c)) :=
  (Cert.KernelIdeal.KHost.h7_mean (W17 m ρ c)).trans (by rw [t_sum3 m ρ c hpre]; exact Cert.StatsBridge.mean_bridge _ (xh2 m c))
theorem t_var3 (hpre : Cert.Pre_KernelIdeal m) : W18 m ρ c (Proc.devRef .tc main_v118) = row1 (varN (xh2 m c)) :=
  (Cert.KernelIdeal.KHost.h7_var (W17 m ρ c)).trans (by rw [t_sum3 m ρ c hpre, t_sq3 m ρ c hpre]; exact Cert.StatsBridge.var_bridge _ (xh2 m c) (fin_h2 m c hpre))
theorem t_g3 : W18 m ρ c (Proc.devRef .tc main_v125) = row1 (row3_2 a7) :=
  (Cert.KernelIdeal.KHost.h7_g (W17 m ρ c)).trans (congrArg (fun v => row1 (row3_2 v)) (wk_W17_arg7 m ρ c))
theorem t_b3 : W18 m ρ c (Proc.devRef .tc main_v126) = row1 (row3_2 a8) :=
  (Cert.KernelIdeal.KHost.h7_b (W17 m ρ c)).trans (congrArg (fun v => row1 (row3_2 v)) (wk_W17_arg8 m ρ c))
theorem t_w3 : W18 m ρ c (Proc.devRef .tc main_v124) = mat3_2 a9 :=
  (Cert.KernelIdeal.KHost.h7_w (W17 m ρ c)).trans (congrArg mat3_2 (wk_W17_arg9 m ρ c))

theorem t_hw2 (hpre : Cert.Pre_KernelIdeal m) : W19 m ρ c (Proc.devRef .tc main_v127) = xhw2 m c :=
  (W19_arr m ρ c 6).trans (Cert.KernelIdeal.KLin7.lin7_val (V18 m ρ) c (xh2 m c) (meanN (xh2 m c)) (varN (xh2 m c)) (row3_2 a7) (row3_2 a8) (mat3_2 a9)
    ((wk_W18_v111_W16 m ρ c).trans (t_h2 m ρ c hpre))
    (t_mean3 m ρ c hpre) (t_var3 m ρ c hpre) (t_g3 m ρ c) (t_b3 m ρ c) (t_w3 m ρ c))

theorem t_h3 (hpre : Cert.Pre_KernelIdeal m) : W22 m ρ c (Proc.devRef .tc main_v146) = xh3 m c := by
  have e1 : W19 m ρ c (Proc.devRef .tc main_v127) = xhw2 m c := t_hw2 m ρ c hpre
  have e2 : W19 m ρ c (Proc.devRef .tc main_v3) = srcIdx a1 := (wk_W19_v3_W3 m ρ c).trans (t_src m ρ c)
  have e3 : W19 m ρ c (Proc.devRef .tc main_v6) = dstIdx a1 := (wk_W19_v6_W3 m ρ c).trans (t_dst m ρ c)
  have e4 : W19 m ρ c (Proc.devRef .tc main_v30) = edgeNorm a1 := (wk_W19_v30_W3 m ρ c).trans (t_nrm m ρ c)
  have e5 : W19 m ρ c (Proc.devRef .tc main_arg10) = a10 := wk_W19_arg10 m ρ c
  refine (Cert.KernelIdeal.KHost.agg8_val (W19 m ρ c)).trans ?_
  rw [e1, e2, e3, e4, e5]; rfl

/-! ## Pooling and the tail -/

theorem t_bidx : W22 m ρ c (Proc.devRef .tc main_v147) = col1 a2 :=
  (Cert.KernelIdeal.KHost.agg8_bidx (W19 m ρ c)).trans (congrArg col1 (wk_W19_arg2 m ρ c))

theorem t_hg (hpre : Cert.Pre_KernelIdeal m) : W23 m ρ c (Proc.devRef .tc main_v148) = poolN (xh3 m c) a2 :=
  (W23_arr m ρ c 2).trans (Cert.KernelIdeal.KPool8.pool8_val (V22 m ρ) c (xh3 m c) a2 (t_h3 m ρ c hpre) (t_bidx m ρ c))

theorem t_out (hpre : Cert.Pre_KernelIdeal m) : W31 m ρ c (Proc.devRef .tc main_v196) = tailN (poolN (xh3 m c) a2) a11 a12 a13 a14 a15 a16 a17 a18 := by
  have e0 := t_hg m ρ c hpre
  have e11 : W23 m ρ c (Proc.devRef .tc main_arg11) = a11 := wk_W23_arg11 m ρ c
  have e12 : W23 m ρ c (Proc.devRef .tc main_arg12) = a12 := wk_W23_arg12 m ρ c
  have e13 : W23 m ρ c (Proc.devRef .tc main_arg13) = a13 := wk_W23_arg13 m ρ c
  have e14 : W23 m ρ c (Proc.devRef .tc main_arg14) = a14 := wk_W23_arg14 m ρ c
  have e15 : W23 m ρ c (Proc.devRef .tc main_arg15) = a15 := wk_W23_arg15 m ρ c
  have e16 : W23 m ρ c (Proc.devRef .tc main_arg16) = a16 := wk_W23_arg16 m ρ c
  have e17 : W23 m ρ c (Proc.devRef .tc main_arg17) = a17 := wk_W23_arg17 m ρ c
  have e18 : W23 m ρ c (Proc.devRef .tc main_arg18) = a18 := wk_W23_arg18 m ρ c
  refine (Cert.KernelIdeal.KHost.tail_val (W23 m ρ c)).trans ?_
  rw [e0, e11, e12, e13, e14, e15, e16, e17, e18]

/-- The kernel program's result buffer at the last boundary is the specification's value of the launch arguments. -/
theorem result_eq (hpre : Cert.Pre_KernelIdeal m) :
    W31 m ρ c (Proc.devRef .tc main_v196) = total (F := Ideal) a0 a1 a2 a3 a4 a5 a6 a7 a8 a9 a10 a11 a12 a13 a14 a15 a16 a17 a18 :=
  (t_out m ρ c hpre).trans rfl

end Cert.KernelIdeal.KVal

end
-- ==== Proof.ROps.lean ====
/- The reference program's @main as ONE straight line of operations: each statement of main_part0 .. main_part4 in
   order, a call of a module-local function replaced by the function's operations over that call's record
   (unfolding the definition is the inlining). The line is cut into seven lists by the buffer written; ops is
   their concatenation. Written by the script named on line 1 from proof/ReferenceIdeal.lean. -/
import proofs.«416283_j44736379355415_1_alg».proof.ReferenceIdeal
import proofs.«416283_j44736379355415_1_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- 41 operations: the edge lists with the self loops appended, the degrees, the edge norm: up to the operation writing main_v30. -/
abbrev opsNorm : List (HloOp τ sig (Elt F)) :=
  [ nullary main_v0 (iotaInDim S100000 32 0),
    unary main_arg1 main_v1 ((extractStridedSlice S1x1200000 ![0, 0] · slices_S2x1200000_S1x1200000_0_0) : (⟨S2x1200000, .i32⟩ : BufTy).Contents (Elt F) → (⟨S1x1200000, .i32⟩ : BufTy).Contents (Elt F)),
    reshape main_v1 main_v2 rfl shapeCasts_S1x1200000_S1200000,
    binary main_v2 main_v0 main_v3 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    unary main_arg1 main_v4 ((extractStridedSlice S1x1200000 ![1, 0] · slices_S2x1200000_S1x1200000_1_0) : (⟨S2x1200000, .i32⟩ : BufTy).Contents (Elt F) → (⟨S1x1200000, .i32⟩ : BufTy).Contents (Elt F)),
    reshape main_v4 main_v5 rfl shapeCasts_S1x1200000_S1200000,
    binary main_v5 main_v0 main_v6 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    nullary main_cst (constant S_ .f32 0x3F800000#32),
    unary main_cst main_v7 (broadcastInDim S1300000 ![] bcast_S_S1300000 : (⟨S_, .f32⟩ : BufTy).Contents (Elt F) → (⟨S1300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v3 main_v9 (broadcastInDim S1300000x1 ![0] bcast_S1300000_S1300000x1_0 : (⟨S1300000, .i32⟩ : BufTy).Contents (Elt F) → (⟨S1300000x1, .i32⟩ : BufTy).Contents (Elt F)),
    ternary main_v8 main_v9 main_v7 main_v10 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v12 : TRef sig ⟨S100000, .i1⟩) (.of main_v13 : TRef sig ⟨S100000, .f32⟩) main_call0.v1 main_call0.v2 select,
    nullary main_c (constantI S_ 32 0#32),
    unary main_c main_v15 (broadcastInDim S1300000 ![] bcast_S_S1300000 : (⟨S_, .i32⟩ : BufTy).Contents (Elt F) → (⟨S1300000, .i32⟩ : BufTy).Contents (Elt F)),
    binary main_v3 main_v15 main_v16 (cmpi .slt : (⟨S1300000, .i32⟩ : BufTy).Contents (Elt F) → (⟨S1300000, .i32⟩ : BufTy).Contents (Elt F) → (⟨S1300000, .i1⟩ : BufTy).Contents (Elt F)),
    nullary main_c_3 (constantI S_ 32 100000#32),
    unary main_c_3 main_v17 (broadcastInDim S1300000 ![] bcast_S_S1300000 : (⟨S_, .i32⟩ : BufTy).Contents (Elt F) → (⟨S1300000, .i32⟩ : BufTy).Contents (Elt F)),
    binary main_v3 main_v17 main_v18 (addi : (⟨S1300000, .i32⟩ : BufTy).Contents (Elt F) → (⟨S1300000, .i32⟩ : BufTy).Contents (Elt F) → (⟨S1300000, .i32⟩ : BufTy).Contents (Elt F)),
    ternary main_v16 main_v18 main_v3 main_v19 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v19 main_v20 (broadcastInDim S1300000x1 ![0] bcast_S1300000_S1300000x1_0 : (⟨S1300000, .i32⟩ : BufTy).Contents (Elt F) → (⟨S1300000x1, .i32⟩ : BufTy).Contents (Elt F)),
    binary main_v14 main_v20 main_v21 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    binary main_v21 main_v7 main_v22 (mulf : (⟨S1300000, .f32⟩ : BufTy).Contents (Elt F) → (⟨S1300000, .f32⟩ : BufTy).Contents (Elt F) → (⟨S1300000, .f32⟩ : BufTy).Contents (Elt F)),
    nullary main_c_4 (constantI S_ 32 0#32),
    unary main_c_4 main_v23 (broadcastInDim S1300000 ![] bcast_S_S1300000 : (⟨S_, .i32⟩ : BufTy).Contents (Elt F) → (⟨S1300000, .i32⟩ : BufTy).Contents (Elt F)),
    binary main_v6 main_v23 main_v24 (cmpi .slt : (⟨S1300000, .i32⟩ : BufTy).Contents (Elt F) → (⟨S1300000, .i32⟩ : BufTy).Contents (Elt F) → (⟨S1300000, .i1⟩ : BufTy).Contents (Elt F)),
    nullary main_c_5 (constantI S_ 32 100000#32),
    unary main_c_5 main_v25 (broadcastInDim S1300000 ![] bcast_S_S1300000 : (⟨S_, .i32⟩ : BufTy).Contents (Elt F) → (⟨S1300000, .i32⟩ : BufTy).Contents (Elt F)),
    binary main_v6 main_v25 main_v26 (addi : (⟨S1300000, .i32⟩ : BufTy).Contents (Elt F) → (⟨S1300000, .i32⟩ : BufTy).Contents (Elt F) → (⟨S1300000, .i32⟩ : BufTy).Contents (Elt F)),
    ternary main_v24 main_v26 main_v6 main_v27 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v27 main_v28 (broadcastInDim S1300000x1 ![0] bcast_S1300000_S1300000x1_0 : (⟨S1300000, .i32⟩ : BufTy).Contents (Elt F) → (⟨S1300000x1, .i32⟩ : BufTy).Contents (Elt F)),
    binary main_v14 main_v28 main_v29 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    binary main_v22 main_v29 main_v30 (mulf : (⟨S1300000, .f32⟩ : BufTy).Contents (Elt F) → (⟨S1300000, .f32⟩ : BufTy).Contents (Elt F) → (⟨S1300000, .f32⟩ : BufTy).Contents (Elt F)) ]

/-- 51 operations: the batch statistics of the input, its normalization, the feature matmul, bias and relu: main_v31 .. main_v54. -/
abbrev opsFeat : List (HloOp τ sig (Elt F)) :=
  [ nullary main_cst_6 (constant S_ .f32 0x00000000#32),
    binary main_arg0 main_cst_6 main_v31 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_7 (constant S_ .f32 0x47C35000#32),
    unary main_cst_7 main_v32 (broadcastInDim S64 ![] bcast_S_S64 : (⟨S_, .f32⟩ : BufTy).Contents (Elt F) → (⟨S64, .f32⟩ : BufTy).Contents (Elt F)),
    binary main_v31 main_v32 main_v33 (Host.divf : (⟨S64, .f32⟩ : BufTy).Contents (Elt F) → (⟨S64, .f32⟩ : BufTy).Contents (Elt F) → (⟨S64, .f32⟩ : BufTy).Contents (Elt F)),
    nullary main_c_8 (constantI S_ 32 0#32),
    TRef.nullary main_call1.cst (constant S_ .f32 0x00000000#32),
    TRef.binary (.of main_arg0 : TRef sig ⟨S100000x64, .f32⟩) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (.of main_arg0 : TRef sig ⟨S100000x64, .f32⟩) main_call1.v4 main_call1.v5 subf,
    TRef.binary main_call1.v5 main_call1.v5 main_call1.v6 mulf,
    TRef.unary (.of main_c_8 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v33 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_arg0 main_v36 main_v37 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3727C5AC#32),
    unary main_cst_9 main_v38 (broadcastInDim S64 ![] bcast_S_S64 : (⟨S_, .f32⟩ : BufTy).Contents (Elt F) → (⟨S64, .f32⟩ : BufTy).Contents (Elt F)),
    binary main_v34 main_v38 main_v39 (addf : (⟨S64, .f32⟩ : BufTy).Contents (Elt F) → (⟨S64, .f32⟩ : BufTy).Contents (Elt F) → (⟨S64, .f32⟩ : BufTy).Contents (Elt F)),
    unary main_v39 main_v40 (Host.rsqrt : (⟨S64, .f32⟩ : BufTy).Contents (Elt F) → (⟨S64, .f32⟩ : BufTy).Contents (Elt F)),
    unary main_v40 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v37 main_v42 main_v43 (mulf : (⟨S100000x64, .f32⟩ : BufTy).Contents (Elt F) → (⟨S100000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (mulf : (⟨S100000x64, .f32⟩ : BufTy).Contents (Elt F) → (⟨S100000x64, .f32⟩ : BufTy).Contents (Elt F) → (⟨S100000x64, .f32⟩ : BufTy).Contents (Elt F)),
    unary main_arg4 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v50 main_v52 main_v53 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v53 : TRef sig ⟨S100000x64, .f32⟩) main_call2.v0 main_call2.v1 maximumf ]

/-- 75 operations: layer 0 (statistics, normalization, matmul, gather, scale, scatter-add, bias, relu): main_v55 .. main_v99. -/
abbrev opsL0 : List (HloOp τ sig (Elt F)) :=
  [ unary main_arg7 main_v55 ((extractStridedSlice S1x64 ![0, 0] · slices_S3x64_S1x64_0_0) : (⟨S3x64, .f32⟩ : BufTy).Contents (Elt F) → (⟨S1x64, .f32⟩ : BufTy).Contents (Elt F)),
    reshape main_v55 main_v56 rfl shapeCasts_S1x64_S64,
    unary main_arg8 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    nullary main_cst_10 (constant S_ .f32 0x00000000#32),
    binary main_v54 main_cst_10 main_v59 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_11 (constant S_ .f32 0x47C35000#32),
    unary main_cst_11 main_v60 (broadcastInDim S64 ![] bcast_S_S64 : (⟨S_, .f32⟩ : BufTy).Contents (Elt F) → (⟨S64, .f32⟩ : BufTy).Contents (Elt F)),
    binary main_v59 main_v60 main_v61 (Host.divf : (⟨S64, .f32⟩ : BufTy).Contents (Elt F) → (⟨S64, .f32⟩ : BufTy).Contents (Elt F) → (⟨S64, .f32⟩ : BufTy).Contents (Elt F)),
    nullary main_c_12 (constantI S_ 32 0#32),
    TRef.nullary main_call3.cst (constant S_ .f32 0x00000000#32),
    TRef.binary (.of main_v54 : TRef sig ⟨S100000x64, .f32⟩) main_call3.cst main_call3.v0 (fun x v => Host.reduceAdd x v reducesTo_S100000x64_S64_d0 h_S_),
    TRef.unary main_call3.v0 main_call3.v1 (broadcastInDim S1x64 ![1] bcast_S64_S1x64_1),
    TRef.nullary main_call3.cst_0 (constant S_ .f32 0x47C35000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S100000x64 ![0, 1] bcast_S1x64_S100000x64_0_1),
    TRef.binary (.of main_v54 : TRef sig ⟨S100000x64, .f32⟩) main_call3.v4 main_call3.v5 subf,
    TRef.binary main_call3.v5 main_call3.v5 main_call3.v6 mulf,
    TRef.unary (.of main_c_12 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v61 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v54 main_v64 main_v65 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v65 main_v70 main_v71 (mulf : (⟨S100000x64, .f32⟩ : BufTy).Contents (Elt F) → (⟨S100000x64, .f32⟩ : BufTy).Contents (Elt F) → (⟨S100000x64, .f32⟩ : BufTy).Contents (Elt F)),
    unary main_v56 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (mulf : (⟨S100000x64, .f32⟩ : BufTy).Contents (Elt F) → (⟨S100000x64, .f32⟩ : BufTy).Contents (Elt F) → (⟨S100000x64, .f32⟩ : BufTy).Contents (Elt F)),
    unary main_v58 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    unary main_arg9 main_v78 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v78 main_v79 rfl shapeCasts_S1x64x64_S64x64,
    unary main_arg10 main_v80 ((extractStridedSlice S1x64 ![0, 0] · slices_S3x64_S1x64_0_0) : (⟨S3x64, .f32⟩ : BufTy).Contents (Elt F) → (⟨S1x64, .f32⟩ : BufTy).Contents (Elt F)),
    reshape main_v80 main_v81 rfl shapeCasts_S1x64_S64,
    binary main_v77 main_v79 main_v82 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v83 (broadcastInDim S1300000x1 ![0] bcast_S1300000_S1300000x1_0 : (⟨S1300000, .f32⟩ : BufTy).Contents (Elt F) → (⟨S1300000x1, .f32⟩ : BufTy).Contents (Elt F)),
    nullary main_c_14 (constantI S_ 32 0#32),
    unary main_c_14 main_v84 (broadcastInDim S1300000 ![] bcast_S_S1300000 : (⟨S_, .i32⟩ : BufTy).Contents (Elt F) → (⟨S1300000, .i32⟩ : BufTy).Contents (Elt F)),
    binary main_v3 main_v84 main_v85 (cmpi .slt : (⟨S1300000, .i32⟩ : BufTy).Contents (Elt F) → (⟨S1300000, .i32⟩ : BufTy).Contents (Elt F) → (⟨S1300000, .i1⟩ : BufTy).Contents (Elt F)),
    nullary main_c_15 (constantI S_ 32 100000#32),
    unary main_c_15 main_v86 (broadcastInDim S1300000 ![] bcast_S_S1300000 : (⟨S_, .i32⟩ : BufTy).Contents (Elt F) → (⟨S1300000, .i32⟩ : BufTy).Contents (Elt F)),
    binary main_v3 main_v86 main_v87 (addi : (⟨S1300000, .i32⟩ : BufTy).Contents (Elt F) → (⟨S1300000, .i32⟩ : BufTy).Contents (Elt F) → (⟨S1300000, .i32⟩ : BufTy).Contents (Elt F)),
    ternary main_v85 main_v87 main_v3 main_v88 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v88 main_v89 (broadcastInDim S1300000x1 ![0] bcast_S1300000_S1300000x1_0 : (⟨S1300000, .i32⟩ : BufTy).Contents (Elt F) → (⟨S1300000x1, .i32⟩ : BufTy).Contents (Elt F)),
    binary main_v82 main_v89 main_v90 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v83 main_v91 (broadcastInDim S1300000x64 ![0, 1] bcast_S1300000x1_S1300000x64_0_1 : (⟨S1300000x1, .f32⟩ : BufTy).Contents (Elt F) → (⟨S1300000x64, .f32⟩ : BufTy).Contents (Elt F)),
    binary main_v91 main_v90 main_v92 (mulf : (⟨S1300000x64, .f32⟩ : BufTy).Contents (Elt F) → (⟨S1300000x64, .f32⟩ : BufTy).Contents (Elt F) → (⟨S1300000x64, .f32⟩ : BufTy).Contents (Elt F)),
    nullary main_cst_16 (constant S_ .f32 0x00000000#32),
    unary main_cst_16 main_v93 (broadcastInDim S100000x64 ![] bcast_S_S100000x64 : (⟨S_, .f32⟩ : BufTy).Contents (Elt F) → (⟨S100000x64, .f32⟩ : BufTy).Contents (Elt F)),
    unary main_v6 main_v94 (broadcastInDim S1300000x1 ![0] bcast_S1300000_S1300000x1_0 : (⟨S1300000, .i32⟩ : BufTy).Contents (Elt F) → (⟨S1300000x1, .i32⟩ : BufTy).Contents (Elt F)),
    ternary main_v93 main_v94 main_v92 main_v95 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v81 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v95 main_v97 main_v98 (addf : (⟨S100000x64, .f32⟩ : BufTy).Contents (Elt F) → (⟨S100000x64, .f32⟩ : BufTy).Contents (Elt F) → (⟨S100000x64, .f32⟩ : BufTy).Contents (Elt F)),
    TRef.nullary main_call4.cst (constant S_ .f32 0x00000000#32),
    TRef.unary main_call4.cst main_call4.v0 (broadcastInDim S100000x64 ![] bcast_S_S100000x64),
    TRef.binary (.of main_v98 : TRef sig ⟨S100000x64, .f32⟩) main_call4.v0 main_call4.v1 maximumf ]

/-- 75 operations: layer 1: main_v100 .. main_v144. -/
abbrev opsL1 : List (HloOp τ sig (Elt F)) :=
  [ unary main_arg7 main_v100 ((extractStridedSlice S1x64 ![1, 0] · slices_S3x64_S1x64_1_0) : (⟨S3x64, .f32⟩ : BufTy).Contents (Elt F) → (⟨S1x64, .f32⟩ : BufTy).Contents (Elt F)),
    reshape main_v100 main_v101 rfl shapeCasts_S1x64_S64,
    unary main_arg8 main_v102 ((extractStridedSlice S1x64 ![1, 0] · slices_S3x64_S1x64_1_0) : (⟨S3x64, .f32⟩ : BufTy).Contents (Elt F) → (⟨S1x64, .f32⟩ : BufTy).Contents (Elt F)),
    reshape main_v102 main_v103 rfl shapeCasts_S1x64_S64,
    nullary main_cst_17 (constant S_ .f32 0x00000000#32),
    binary main_v99 main_cst_17 main_v104 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v105 (broadcastInDim S64 ![] bcast_S_S64 : (⟨S_, .f32⟩ : BufTy).Contents (Elt F) → (⟨S64, .f32⟩ : BufTy).Contents (Elt F)),
    binary main_v104 main_v105 main_v106 (Host.divf : (⟨S64, .f32⟩ : BufTy).Contents (Elt F) → (⟨S64, .f32⟩ : BufTy).Contents (Elt F) → (⟨S64, .f32⟩ : BufTy).Contents (Elt F)),
    nullary main_c_19 (constantI S_ 32 0#32),
    TRef.nullary main_call5.cst (constant S_ .f32 0x00000000#32),
    TRef.binary (.of main_v99 : TRef sig ⟨S100000x64, .f32⟩) main_call5.cst main_call5.v0 (fun x v => Host.reduceAdd x v reducesTo_S100000x64_S64_d0 h_S_),
    TRef.unary main_call5.v0 main_call5.v1 (broadcastInDim S1x64 ![1] bcast_S64_S1x64_1),
    TRef.nullary main_call5.cst_0 (constant S_ .f32 0x47C35000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S100000x64 ![0, 1] bcast_S1x64_S100000x64_0_1),
    TRef.binary (.of main_v99 : TRef sig ⟨S100000x64, .f32⟩) main_call5.v4 main_call5.v5 subf,
    TRef.binary main_call5.v5 main_call5.v5 main_call5.v6 mulf,
    TRef.unary (.of main_c_19 : TRef sig ⟨S_, .i32⟩) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b),
    unary main_v106 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v99 main_v109 main_v110 (subf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3727C5AC#32),
    unary main_cst_20 main_v111 (broadcastInDim S64 ![] bcast_S_S64 : (⟨S_, .f32⟩ : BufTy).Contents (Elt F) → (⟨S64, .f32⟩ : BufTy).Contents (Elt F)),
    binary main_v107 main_v111 main_v112 (addf : (⟨S64, .f32⟩ : BufTy).Contents (Elt F) → (⟨S64, .f32⟩ : BufTy).Contents (Elt F) → (⟨S64, .f32⟩ : BufTy).Contents (Elt F)),
    unary main_v112 main_v113 (Host.rsqrt : (⟨S64, .f32⟩ : BufTy).Contents (Elt F) → (⟨S64, .f32⟩ : BufTy).Contents (Elt F)),
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S100000x64 ![0, 1] bcast_S1x64_S100000x64_0_1 : (⟨S1x64, .f32⟩ : BufTy).Contents (Elt F) → (⟨S100000x64, .f32⟩ : BufTy).Contents (Elt F)),
    binary main_v110 main_v115 main_v116 (mulf : (⟨S100000x64, .f32⟩ : BufTy).Contents (Elt F) → (⟨S100000x64, .f32⟩ : BufTy).Contents (Elt F) → (⟨S100000x64, .f32⟩ : BufTy).Contents (Elt F)),
    unary main_v101 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v116 main_v118 main_v119 (mulf : (⟨S100000x64, .f32⟩ : BufTy).Contents (Elt F) → (⟨S100000x64, .f32⟩ : BufTy).Contents (Elt F) → (⟨S100000x64, .f32⟩ : BufTy).Contents (Elt F)),
    unary main_v103 main_v120 (broadcastInDim S1x64 ![1] bcast_S64_S1x64_1 : (⟨S64, .f32⟩ : BufTy).Contents (Elt F) → (⟨S1x64, .f32⟩ : BufTy).Contents (Elt F)),
    unary main_v120 main_v121 (broadcastInDim S100000x64 ![0, 1] bcast_S1x64_S100000x64_0_1 : (⟨S1x64, .f32⟩ : BufTy).Contents (Elt F) → (⟨S100000x64, .f32⟩ : BufTy).Contents (Elt F)),
    binary main_v119 main_v121 main_v122 (addf : (⟨S100000x64, .f32⟩ : BufTy).Contents (Elt F) → (⟨S100000x64, .f32⟩ : BufTy).Contents (Elt F) → (⟨S100000x64, .f32⟩ : BufTy).Contents (Elt F)),
    unary main_arg9 main_v123 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v123 main_v124 rfl shapeCasts_S1x64x64_S64x64,
    unary main_arg10 main_v125 ((extractStridedSlice S1x64 ![1, 0] · slices_S3x64_S1x64_1_0) : (⟨S3x64, .f32⟩ : BufTy).Contents (Elt F) → (⟨S1x64, .f32⟩ : BufTy).Contents (Elt F)),
    reshape main_v125 main_v126 rfl shapeCasts_S1x64_S64,
    binary main_v122 main_v124 main_v127 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v128 (broadcastInDim S1300000x1 ![0] bcast_S1300000_S1300000x1_0 : (⟨S1300000, .f32⟩ : BufTy).Contents (Elt F) → (⟨S1300000x1, .f32⟩ : BufTy).Contents (Elt F)),
    nullary main_c_21 (constantI S_ 32 0#32),
    unary main_c_21 main_v129 (broadcastInDim S1300000 ![] bcast_S_S1300000 : (⟨S_, .i32⟩ : BufTy).Contents (Elt F) → (⟨S1300000, .i32⟩ : BufTy).Contents (Elt F)),
    binary main_v3 main_v129 main_v130 (cmpi .slt : (⟨S1300000, .i32⟩ : BufTy).Contents (Elt F) → (⟨S1300000, .i32⟩ : BufTy).Contents (Elt F) → (⟨S1300000, .i1⟩ : BufTy).Contents (Elt F)),
    nullary main_c_22 (constantI S_ 32 100000#32),
    unary main_c_22 main_v131 (broadcastInDim S1300000 ![] bcast_S_S1300000 : (⟨S_, .i32⟩ : BufTy).Contents (Elt F) → (⟨S1300000, .i32⟩ : BufTy).Contents (Elt F)),
    binary main_v3 main_v131 main_v132 (addi : (⟨S1300000, .i32⟩ : BufTy).Contents (Elt F) → (⟨S1300000, .i32⟩ : BufTy).Contents (Elt F) → (⟨S1300000, .i32⟩ : BufTy).Contents (Elt F)),
    ternary main_v130 main_v132 main_v3 main_v133 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v133 main_v134 (broadcastInDim S1300000x1 ![0] bcast_S1300000_S1300000x1_0 : (⟨S1300000, .i32⟩ : BufTy).Contents (Elt F) → (⟨S1300000x1, .i32⟩ : BufTy).Contents (Elt F)),
    binary main_v127 main_v134 main_v135 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v128 main_v136 (broadcastInDim S1300000x64 ![0, 1] bcast_S1300000x1_S1300000x64_0_1 : (⟨S1300000x1, .f32⟩ : BufTy).Contents (Elt F) → (⟨S1300000x64, .f32⟩ : BufTy).Contents (Elt F)),
    binary main_v136 main_v135 main_v137 (mulf : (⟨S1300000x64, .f32⟩ : BufTy).Contents (Elt F) → (⟨S1300000x64, .f32⟩ : BufTy).Contents (Elt F) → (⟨S1300000x64, .f32⟩ : BufTy).Contents (Elt F)),
    nullary main_cst_23 (constant S_ .f32 0x00000000#32),
    unary main_cst_23 main_v138 (broadcastInDim S100000x64 ![] bcast_S_S100000x64 : (⟨S_, .f32⟩ : BufTy).Contents (Elt F) → (⟨S100000x64, .f32⟩ : BufTy).Contents (Elt F)),
    unary main_v6 main_v139 (broadcastInDim S1300000x1 ![0] bcast_S1300000_S1300000x1_0 : (⟨S1300000, .i32⟩ : BufTy).Contents (Elt F) → (⟨S1300000x1, .i32⟩ : BufTy).Contents (Elt F)),
    ternary main_v138 main_v139 main_v137 main_v140 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v126 main_v141 (broadcastInDim S1x64 ![1] bcast_S64_S1x64_1 : (⟨S64, .f32⟩ : BufTy).Contents (Elt F) → (⟨S1x64, .f32⟩ : BufTy).Contents (Elt F)),
    unary main_v141 main_v142 (broadcastInDim S100000x64 ![0, 1] bcast_S1x64_S100000x64_0_1 : (⟨S1x64, .f32⟩ : BufTy).Contents (Elt F) → (⟨S100000x64, .f32⟩ : BufTy).Contents (Elt F)),
    binary main_v140 main_v142 main_v143 (addf : (⟨S100000x64, .f32⟩ : BufTy).Contents (Elt F) → (⟨S100000x64, .f32⟩ : BufTy).Contents (Elt F) → (⟨S100000x64, .f32⟩ : BufTy).Contents (Elt F)),
    TRef.nullary main_call6.cst (constant S_ .f32 0x00000000#32),
    TRef.unary main_call6.cst main_call6.v0 (broadcastInDim S100000x64 ![] bcast_S_S100000x64),
    TRef.binary (.of main_v143 : TRef sig ⟨S100000x64, .f32⟩) main_call6.v0 main_call6.v1 maximumf ]

/-- 75 operations: layer 2: main_v145 .. main_v189. -/
abbrev opsL2 : List (HloOp τ sig (Elt F)) :=
  [ unary main_arg7 main_v145 ((extractStridedSlice S1x64 ![2, 0] · slices_S3x64_S1x64_2_0) : (⟨S3x64, .f32⟩ : BufTy).Contents (Elt F) → (⟨S1x64, .f32⟩ : BufTy).Contents (Elt F)),
    reshape main_v145 main_v146 rfl shapeCasts_S1x64_S64,
    unary main_arg8 main_v147 ((extractStridedSlice S1x64 ![2, 0] · slices_S3x64_S1x64_2_0) : (⟨S3x64, .f32⟩ : BufTy).Contents (Elt F) → (⟨S1x64, .f32⟩ : BufTy).Contents (Elt F)),
    reshape main_v147 main_v148 rfl shapeCasts_S1x64_S64,
    nullary main_cst_24 (constant S_ .f32 0x00000000#32),
    binary main_v144 main_cst_24 main_v149 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_25 (constant S_ .f32 0x47C35000#32),
    unary main_cst_25 main_v150 (broadcastInDim S64 ![] bcast_S_S64 : (⟨S_, .f32⟩ : BufTy).Contents (Elt F) → (⟨S64, .f32⟩ : BufTy).Contents (Elt F)),
    binary main_v149 main_v150 main_v151 (Host.divf : (⟨S64, .f32⟩ : BufTy).Contents (Elt F) → (⟨S64, .f32⟩ : BufTy).Contents (Elt F) → (⟨S64, .f32⟩ : BufTy).Contents (Elt F)),
    nullary main_c_26 (constantI S_ 32 0#32),
    TRef.nullary main_call7.cst (constant S_ .f32 0x00000000#32),
    TRef.binary (.of main_v144 : TRef sig ⟨S100000x64, .f32⟩) main_call7.cst main_call7.v0 (fun x v => Host.reduceAdd x v reducesTo_S100000x64_S64_d0 h_S_),
    TRef.unary main_call7.v0 main_call7.v1 (broadcastInDim S1x64 ![1] bcast_S64_S1x64_1),
    TRef.nullary main_call7.cst_0 (constant S_ .f32 0x47C35000#32),
    TRef.unary main_call7.cst_0 main_call7.v2 (broadcastInDim S1x64 ![] bcast_S_S1x64),
    TRef.binary main_call7.v1 main_call7.v2 main_call7.v3 Host.divf,
    TRef.unary main_call7.v3 main_call7.v4 (broadcastInDim S100000x64 ![0, 1] bcast_S1x64_S100000x64_0_1),
    TRef.binary (.of main_v144 : TRef sig ⟨S100000x64, .f32⟩) main_call7.v4 main_call7.v5 subf,
    TRef.binary main_call7.v5 main_call7.v5 main_call7.v6 mulf,
    TRef.unary (.of main_c_26 : TRef sig ⟨S_, .i32⟩) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x64_S64_d0 h_S_),
    TRef.unary main_call7.v8 main_call7.v10 (broadcastInDim S64 ![] bcast_S_S64),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S64 ![] bcast_S_S64),
    TRef.ternary main_call7.v12 main_call7.v11 main_call7.call0.v1 main_call7.call0.v2 (fun p a b => select (broadcastInDim S64 ![] bcast_S_S64 p) a b),
    unary main_v151 main_v153 (broadcastInDim S1x64 ![1] bcast_S64_S1x64_1 : (⟨S64, .f32⟩ : BufTy).Contents (Elt F) → (⟨S1x64, .f32⟩ : BufTy).Contents (Elt F)),
    unary main_v153 main_v154 (broadcastInDim S100000x64 ![0, 1] bcast_S1x64_S100000x64_0_1 : (⟨S1x64, .f32⟩ : BufTy).Contents (Elt F) → (⟨S100000x64, .f32⟩ : BufTy).Contents (Elt F)),
    binary main_v144 main_v154 main_v155 (subf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x3727C5AC#32),
    unary main_cst_27 main_v156 (broadcastInDim S64 ![] bcast_S_S64 : (⟨S_, .f32⟩ : BufTy).Contents (Elt F) → (⟨S64, .f32⟩ : BufTy).Contents (Elt F)),
    binary main_v152 main_v156 main_v157 (addf : (⟨S64, .f32⟩ : BufTy).Contents (Elt F) → (⟨S64, .f32⟩ : BufTy).Contents (Elt F) → (⟨S64, .f32⟩ : BufTy).Contents (Elt F)),
    unary main_v157 main_v158 (Host.rsqrt : (⟨S64, .f32⟩ : BufTy).Contents (Elt F) → (⟨S64, .f32⟩ : BufTy).Contents (Elt F)),
    unary main_v158 main_v159 (broadcastInDim S1x64 ![1] bcast_S64_S1x64_1 : (⟨S64, .f32⟩ : BufTy).Contents (Elt F) → (⟨S1x64, .f32⟩ : BufTy).Contents (Elt F)),
    unary main_v159 main_v160 (broadcastInDim S100000x64 ![0, 1] bcast_S1x64_S100000x64_0_1 : (⟨S1x64, .f32⟩ : BufTy).Contents (Elt F) → (⟨S100000x64, .f32⟩ : BufTy).Contents (Elt F)),
    binary main_v155 main_v160 main_v161 (mulf : (⟨S100000x64, .f32⟩ : BufTy).Contents (Elt F) → (⟨S100000x64, .f32⟩ : BufTy).Contents (Elt F) → (⟨S100000x64, .f32⟩ : BufTy).Contents (Elt F)),
    unary main_v146 main_v162 (broadcastInDim S1x64 ![1] bcast_S64_S1x64_1 : (⟨S64, .f32⟩ : BufTy).Contents (Elt F) → (⟨S1x64, .f32⟩ : BufTy).Contents (Elt F)),
    unary main_v162 main_v163 (broadcastInDim S100000x64 ![0, 1] bcast_S1x64_S100000x64_0_1 : (⟨S1x64, .f32⟩ : BufTy).Contents (Elt F) → (⟨S100000x64, .f32⟩ : BufTy).Contents (Elt F)),
    binary main_v161 main_v163 main_v164 (mulf : (⟨S100000x64, .f32⟩ : BufTy).Contents (Elt F) → (⟨S100000x64, .f32⟩ : BufTy).Contents (Elt F) → (⟨S100000x64, .f32⟩ : BufTy).Contents (Elt F)),
    unary main_v148 main_v165 (broadcastInDim S1x64 ![1] bcast_S64_S1x64_1 : (⟨S64, .f32⟩ : BufTy).Contents (Elt F) → (⟨S1x64, .f32⟩ : BufTy).Contents (Elt F)),
    unary main_v165 main_v166 (broadcastInDim S100000x64 ![0, 1] bcast_S1x64_S100000x64_0_1 : (⟨S1x64, .f32⟩ : BufTy).Contents (Elt F) → (⟨S100000x64, .f32⟩ : BufTy).Contents (Elt F)),
    binary main_v164 main_v166 main_v167 (addf : (⟨S100000x64, .f32⟩ : BufTy).Contents (Elt F) → (⟨S100000x64, .f32⟩ : BufTy).Contents (Elt F) → (⟨S100000x64, .f32⟩ : BufTy).Contents (Elt F)),
    unary main_arg9 main_v168 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v168 main_v169 rfl shapeCasts_S1x64x64_S64x64,
    unary main_arg10 main_v170 ((extractStridedSlice S1x64 ![2, 0] · slices_S3x64_S1x64_2_0) : (⟨S3x64, .f32⟩ : BufTy).Contents (Elt F) → (⟨S1x64, .f32⟩ : BufTy).Contents (Elt F)),
    reshape main_v170 main_v171 rfl shapeCasts_S1x64_S64,
    binary main_v167 main_v169 main_v172 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v173 (broadcastInDim S1300000x1 ![0] bcast_S1300000_S1300000x1_0 : (⟨S1300000, .f32⟩ : BufTy).Contents (Elt F) → (⟨S1300000x1, .f32⟩ : BufTy).Contents (Elt F)),
    nullary main_c_28 (constantI S_ 32 0#32),
    unary main_c_28 main_v174 (broadcastInDim S1300000 ![] bcast_S_S1300000 : (⟨S_, .i32⟩ : BufTy).Contents (Elt F) → (⟨S1300000, .i32⟩ : BufTy).Contents (Elt F)),
    binary main_v3 main_v174 main_v175 (cmpi .slt : (⟨S1300000, .i32⟩ : BufTy).Contents (Elt F) → (⟨S1300000, .i32⟩ : BufTy).Contents (Elt F) → (⟨S1300000, .i1⟩ : BufTy).Contents (Elt F)),
    nullary main_c_29 (constantI S_ 32 100000#32),
    unary main_c_29 main_v176 (broadcastInDim S1300000 ![] bcast_S_S1300000 : (⟨S_, .i32⟩ : BufTy).Contents (Elt F) → (⟨S1300000, .i32⟩ : BufTy).Contents (Elt F)),
    binary main_v3 main_v176 main_v177 (addi : (⟨S1300000, .i32⟩ : BufTy).Contents (Elt F) → (⟨S1300000, .i32⟩ : BufTy).Contents (Elt F) → (⟨S1300000, .i32⟩ : BufTy).Contents (Elt F)),
    ternary main_v175 main_v177 main_v3 main_v178 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v178 main_v179 (broadcastInDim S1300000x1 ![0] bcast_S1300000_S1300000x1_0 : (⟨S1300000, .i32⟩ : BufTy).Contents (Elt F) → (⟨S1300000x1, .i32⟩ : BufTy).Contents (Elt F)),
    binary main_v172 main_v179 main_v180 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v173 main_v181 (broadcastInDim S1300000x64 ![0, 1] bcast_S1300000x1_S1300000x64_0_1 : (⟨S1300000x1, .f32⟩ : BufTy).Contents (Elt F) → (⟨S1300000x64, .f32⟩ : BufTy).Contents (Elt F)),
    binary main_v181 main_v180 main_v182 (mulf : (⟨S1300000x64, .f32⟩ : BufTy).Contents (Elt F) → (⟨S1300000x64, .f32⟩ : BufTy).Contents (Elt F) → (⟨S1300000x64, .f32⟩ : BufTy).Contents (Elt F)),
    nullary main_cst_30 (constant S_ .f32 0x00000000#32),
    unary main_cst_30 main_v183 (broadcastInDim S100000x64 ![] bcast_S_S100000x64 : (⟨S_, .f32⟩ : BufTy).Contents (Elt F) → (⟨S100000x64, .f32⟩ : BufTy).Contents (Elt F)),
    unary main_v6 main_v184 (broadcastInDim S1300000x1 ![0] bcast_S1300000_S1300000x1_0 : (⟨S1300000, .i32⟩ : BufTy).Contents (Elt F) → (⟨S1300000x1, .i32⟩ : BufTy).Contents (Elt F)),
    ternary main_v183 main_v184 main_v182 main_v185 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v171 main_v186 (broadcastInDim S1x64 ![1] bcast_S64_S1x64_1 : (⟨S64, .f32⟩ : BufTy).Contents (Elt F) → (⟨S1x64, .f32⟩ : BufTy).Contents (Elt F)),
    unary main_v186 main_v187 (broadcastInDim S100000x64 ![0, 1] bcast_S1x64_S100000x64_0_1 : (⟨S1x64, .f32⟩ : BufTy).Contents (Elt F) → (⟨S100000x64, .f32⟩ : BufTy).Contents (Elt F)),
    binary main_v185 main_v187 main_v188 (addf : (⟨S100000x64, .f32⟩ : BufTy).Contents (Elt F) → (⟨S100000x64, .f32⟩ : BufTy).Contents (Elt F) → (⟨S100000x64, .f32⟩ : BufTy).Contents (Elt F)),
    TRef.nullary main_call8.cst (constant S_ .f32 0x00000000#32),
    TRef.unary main_call8.cst main_call8.v0 (broadcastInDim S100000x64 ![] bcast_S_S100000x64),
    TRef.binary (.of main_v188 : TRef sig ⟨S100000x64, .f32⟩) main_call8.v0 main_call8.v1 maximumf ]

/-- 4 operations: the segment sum over the batch index: main_v190 .. main_v192. -/
abbrev opsPool : List (HloOp τ sig (Elt F)) :=
  [ nullary main_cst_31 (constant S_ .f32 0x00000000#32),
    unary main_cst_31 main_v190 (broadcastInDim S128x64 ![] bcast_S_S128x64 : (⟨S_, .f32⟩ : BufTy).Contents (Elt F) → (⟨S128x64, .f32⟩ : BufTy).Contents (Elt F)),
    unary main_arg2 main_v191 (broadcastInDim S100000x1 ![0] bcast_S100000_S100000x1_0 : (⟨S100000, .i32⟩ : BufTy).Contents (Elt F) → (⟨S100000x1, .i32⟩ : BufTy).Contents (Elt F)),
    ternary main_v190 main_v191 main_v189 main_v192 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)) ]

/-- 114 operations: the tail (normalization, linear, relu, normalization, linear, log-softmax): main_v193 .. main_v240. -/
abbrev opsTail : List (HloOp τ sig (Elt F)) :=
  [ nullary main_cst_32 (constant S_ .f32 0x00000000#32),
    binary main_v192 main_cst_32 main_v193 ((fun x v => Host.reduceAdd x v reducesTo_S128x64_S64_d0 h_S_) : (⟨S128x64, .f32⟩ : BufTy).Contents (Elt F) → (⟨S_, .f32⟩ : BufTy).Contents (Elt F) → (⟨S64, .f32⟩ : BufTy).Contents (Elt F)),
    nullary main_cst_33 (constant S_ .f32 0x43000000#32),
    unary main_cst_33 main_v194 (broadcastInDim S64 ![] bcast_S_S64 : (⟨S_, .f32⟩ : BufTy).Contents (Elt F) → (⟨S64, .f32⟩ : BufTy).Contents (Elt F)),
    binary main_v193 main_v194 main_v195 (Host.divf : (⟨S64, .f32⟩ : BufTy).Contents (Elt F) → (⟨S64, .f32⟩ : BufTy).Contents (Elt F) → (⟨S64, .f32⟩ : BufTy).Contents (Elt F)),
    nullary main_c_34 (constantI S_ 32 0#32),
    TRef.nullary main_call9.cst (constant S_ .f32 0x00000000#32),
    TRef.binary (.of main_v192 : TRef sig ⟨S128x64, .f32⟩) main_call9.cst main_call9.v0 (fun x v => Host.reduceAdd x v reducesTo_S128x64_S64_d0 h_S_),
    TRef.unary main_call9.v0 main_call9.v1 (broadcastInDim S1x64 ![1] bcast_S64_S1x64_1),
    TRef.nullary main_call9.cst_0 (constant S_ .f32 0x43000000#32),
    TRef.unary main_call9.cst_0 main_call9.v2 (broadcastInDim S1x64 ![] bcast_S_S1x64),
    TRef.binary main_call9.v1 main_call9.v2 main_call9.v3 Host.divf,
    TRef.unary main_call9.v3 main_call9.v4 (broadcastInDim S128x64 ![0, 1] bcast_S1x64_S128x64_0_1),
    TRef.binary (.of main_v192 : TRef sig ⟨S128x64, .f32⟩) main_call9.v4 main_call9.v5 subf,
    TRef.binary main_call9.v5 main_call9.v5 main_call9.v6 mulf,
    TRef.unary (.of main_c_34 : TRef sig ⟨S_, .i32⟩) main_call9.v7 (sitofp .f32),
    TRef.nullary main_call9.cst_1 (constant S_ .f32 0x43000000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S128x64_S64_d0 h_S_),
    TRef.unary main_call9.v8 main_call9.v10 (broadcastInDim S64 ![] bcast_S_S64),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S64 ![] bcast_S_S64),
    TRef.ternary main_call9.v12 main_call9.v11 main_call9.call0.v1 main_call9.call0.v2 (fun p a b => select (broadcastInDim S64 ![] bcast_S_S64 p) a b),
    unary main_v195 main_v197 (broadcastInDim S1x64 ![1] bcast_S64_S1x64_1 : (⟨S64, .f32⟩ : BufTy).Contents (Elt F) → (⟨S1x64, .f32⟩ : BufTy).Contents (Elt F)),
    unary main_v197 main_v198 (broadcastInDim S128x64 ![0, 1] bcast_S1x64_S128x64_0_1 : (⟨S1x64, .f32⟩ : BufTy).Contents (Elt F) → (⟨S128x64, .f32⟩ : BufTy).Contents (Elt F)),
    binary main_v192 main_v198 main_v199 (subf : (⟨S128x64, .f32⟩ : BufTy).Contents (Elt F) → (⟨S128x64, .f32⟩ : BufTy).Contents (Elt F) → (⟨S128x64, .f32⟩ : BufTy).Contents (Elt F)),
    nullary main_cst_35 (constant S_ .f32 0x3727C5AC#32),
    unary main_cst_35 main_v200 (broadcastInDim S64 ![] bcast_S_S64 : (⟨S_, .f32⟩ : BufTy).Contents (Elt F) → (⟨S64, .f32⟩ : BufTy).Contents (Elt F)),
    binary main_v196 main_v200 main_v201 (addf : (⟨S64, .f32⟩ : BufTy).Contents (Elt F) → (⟨S64, .f32⟩ : BufTy).Contents (Elt F) → (⟨S64, .f32⟩ : BufTy).Contents (Elt F)),
    unary main_v201 main_v202 (Host.rsqrt : (⟨S64, .f32⟩ : BufTy).Contents (Elt F) → (⟨S64, .f32⟩ : BufTy).Contents (Elt F)),
    unary main_v202 main_v203 (broadcastInDim S1x64 ![1] bcast_S64_S1x64_1 : (⟨S64, .f32⟩ : BufTy).Contents (Elt F) → (⟨S1x64, .f32⟩ : BufTy).Contents (Elt F)),
    unary main_v203 main_v204 (broadcastInDim S128x64 ![0, 1] bcast_S1x64_S128x64_0_1 : (⟨S1x64, .f32⟩ : BufTy).Contents (Elt F) → (⟨S128x64, .f32⟩ : BufTy).Contents (Elt F)),
    binary main_v199 main_v204 main_v205 (mulf : (⟨S128x64, .f32⟩ : BufTy).Contents (Elt F) → (⟨S128x64, .f32⟩ : BufTy).Contents (Elt F) → (⟨S128x64, .f32⟩ : BufTy).Contents (Elt F)),
    unary main_arg11 main_v206 (broadcastInDim S1x64 ![1] bcast_S64_S1x64_1 : (⟨S64, .f32⟩ : BufTy).Contents (Elt F) → (⟨S1x64, .f32⟩ : BufTy).Contents (Elt F)),
    unary main_v206 main_v207 (broadcastInDim S128x64 ![0, 1] bcast_S1x64_S128x64_0_1 : (⟨S1x64, .f32⟩ : BufTy).Contents (Elt F) → (⟨S128x64, .f32⟩ : BufTy).Contents (Elt F)),
    binary main_v205 main_v207 main_v208 (mulf : (⟨S128x64, .f32⟩ : BufTy).Contents (Elt F) → (⟨S128x64, .f32⟩ : BufTy).Contents (Elt F) → (⟨S128x64, .f32⟩ : BufTy).Contents (Elt F)),
    unary main_arg12 main_v209 (broadcastInDim S1x64 ![1] bcast_S64_S1x64_1 : (⟨S64, .f32⟩ : BufTy).Contents (Elt F) → (⟨S1x64, .f32⟩ : BufTy).Contents (Elt F)),
    unary main_v209 main_v210 (broadcastInDim S128x64 ![0, 1] bcast_S1x64_S128x64_0_1 : (⟨S1x64, .f32⟩ : BufTy).Contents (Elt F) → (⟨S128x64, .f32⟩ : BufTy).Contents (Elt F)),
    binary main_v208 main_v210 main_v211 (addf : (⟨S128x64, .f32⟩ : BufTy).Contents (Elt F) → (⟨S128x64, .f32⟩ : BufTy).Contents (Elt F) → (⟨S128x64, .f32⟩ : BufTy).Contents (Elt F)),
    binary main_v211 main_arg13 main_v212 ((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F)),
    unary main_arg14 main_v213 (broadcastInDim S1x64 ![1] bcast_S64_S1x64_1 : (⟨S64, .f32⟩ : BufTy).Contents (Elt F) → (⟨S1x64, .f32⟩ : BufTy).Contents (Elt F)),
    unary main_v213 main_v214 (broadcastInDim S128x64 ![0, 1] bcast_S1x64_S128x64_0_1 : (⟨S1x64, .f32⟩ : BufTy).Contents (Elt F) → (⟨S128x64, .f32⟩ : BufTy).Contents (Elt F)),
    binary main_v212 main_v214 main_v215 (addf : (⟨S128x64, .f32⟩ : BufTy).Contents (Elt F) → (⟨S128x64, .f32⟩ : BufTy).Contents (Elt F) → (⟨S128x64, .f32⟩ : BufTy).Contents (Elt F)),
    TRef.nullary main_call10.cst (constant S_ .f32 0x00000000#32),
    TRef.unary main_call10.cst main_call10.v0 (broadcastInDim S128x64 ![] bcast_S_S128x64),
    TRef.binary (.of main_v215 : TRef sig ⟨S128x64, .f32⟩) main_call10.v0 main_call10.v1 maximumf,
    nullary main_cst_36 (constant S_ .f32 0x00000000#32),
    binary main_v216 main_cst_36 main_v217 ((fun x v => Host.reduceAdd x v reducesTo_S128x64_S64_d0 h_S_) : (⟨S128x64, .f32⟩ : BufTy).Contents (Elt F) → (⟨S_, .f32⟩ : BufTy).Contents (Elt F) → (⟨S64, .f32⟩ : BufTy).Contents (Elt F)),
    nullary main_cst_37 (constant S_ .f32 0x43000000#32),
    unary main_cst_37 main_v218 (broadcastInDim S64 ![] bcast_S_S64 : (⟨S_, .f32⟩ : BufTy).Contents (Elt F) → (⟨S64, .f32⟩ : BufTy).Contents (Elt F)),
    binary main_v217 main_v218 main_v219 (Host.divf : (⟨S64, .f32⟩ : BufTy).Contents (Elt F) → (⟨S64, .f32⟩ : BufTy).Contents (Elt F) → (⟨S64, .f32⟩ : BufTy).Contents (Elt F)),
    nullary main_c_38 (constantI S_ 32 0#32),
    TRef.nullary main_call11.cst (constant S_ .f32 0x00000000#32),
    TRef.binary (.of main_v216 : TRef sig ⟨S128x64, .f32⟩) main_call11.cst main_call11.v0 (fun x v => Host.reduceAdd x v reducesTo_S128x64_S64_d0 h_S_),
    TRef.unary main_call11.v0 main_call11.v1 (broadcastInDim S1x64 ![1] bcast_S64_S1x64_1),
    TRef.nullary main_call11.cst_0 (constant S_ .f32 0x43000000#32),
    TRef.unary main_call11.cst_0 main_call11.v2 (broadcastInDim S1x64 ![] bcast_S_S1x64),
    TRef.binary main_call11.v1 main_call11.v2 main_call11.v3 Host.divf,
    TRef.unary main_call11.v3 main_call11.v4 (broadcastInDim S128x64 ![0, 1] bcast_S1x64_S128x64_0_1),
    TRef.binary (.of main_v216 : TRef sig ⟨S128x64, .f32⟩) main_call11.v4 main_call11.v5 subf,
    TRef.binary main_call11.v5 main_call11.v5 main_call11.v6 mulf,
    TRef.unary (.of main_c_38 : TRef sig ⟨S_, .i32⟩) main_call11.v7 (sitofp .f32),
    TRef.nullary main_call11.cst_1 (constant S_ .f32 0x43000000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S128x64_S64_d0 h_S_),
    TRef.unary main_call11.v8 main_call11.v10 (broadcastInDim S64 ![] bcast_S_S64),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S64 ![] bcast_S_S64),
    TRef.ternary main_call11.v12 main_call11.v11 main_call11.call0.v1 main_call11.call0.v2 (fun p a b => select (broadcastInDim S64 ![] bcast_S_S64 p) a b),
    unary main_v219 main_v221 (broadcastInDim S1x64 ![1] bcast_S64_S1x64_1 : (⟨S64, .f32⟩ : BufTy).Contents (Elt F) → (⟨S1x64, .f32⟩ : BufTy).Contents (Elt F)),
    unary main_v221 main_v222 (broadcastInDim S128x64 ![0, 1] bcast_S1x64_S128x64_0_1 : (⟨S1x64, .f32⟩ : BufTy).Contents (Elt F) → (⟨S128x64, .f32⟩ : BufTy).Contents (Elt F)),
    binary main_v216 main_v222 main_v223 (subf : (⟨S128x64, .f32⟩ : BufTy).Contents (Elt F) → (⟨S128x64, .f32⟩ : BufTy).Contents (Elt F) → (⟨S128x64, .f32⟩ : BufTy).Contents (Elt F)),
    nullary main_cst_39 (constant S_ .f32 0x3727C5AC#32),
    unary main_cst_39 main_v224 (broadcastInDim S64 ![] bcast_S_S64 : (⟨S_, .f32⟩ : BufTy).Contents (Elt F) → (⟨S64, .f32⟩ : BufTy).Contents (Elt F)),
    binary main_v220 main_v224 main_v225 (addf : (⟨S64, .f32⟩ : BufTy).Contents (Elt F) → (⟨S64, .f32⟩ : BufTy).Contents (Elt F) → (⟨S64, .f32⟩ : BufTy).Contents (Elt F)),
    unary main_v225 main_v226 (Host.rsqrt : (⟨S64, .f32⟩ : BufTy).Contents (Elt F) → (⟨S64, .f32⟩ : BufTy).Contents (Elt F)),
    unary main_v226 main_v227 (broadcastInDim S1x64 ![1] bcast_S64_S1x64_1 : (⟨S64, .f32⟩ : BufTy).Contents (Elt F) → (⟨S1x64, .f32⟩ : BufTy).Contents (Elt F)),
    unary main_v227 main_v228 (broadcastInDim S128x64 ![0, 1] bcast_S1x64_S128x64_0_1 : (⟨S1x64, .f32⟩ : BufTy).Contents (Elt F) → (⟨S128x64, .f32⟩ : BufTy).Contents (Elt F)),
    binary main_v223 main_v228 main_v229 (mulf : (⟨S128x64, .f32⟩ : BufTy).Contents (Elt F) → (⟨S128x64, .f32⟩ : BufTy).Contents (Elt F) → (⟨S128x64, .f32⟩ : BufTy).Contents (Elt F)),
    unary main_arg15 main_v230 (broadcastInDim S1x64 ![1] bcast_S64_S1x64_1 : (⟨S64, .f32⟩ : BufTy).Contents (Elt F) → (⟨S1x64, .f32⟩ : BufTy).Contents (Elt F)),
    unary main_v230 main_v231 (broadcastInDim S128x64 ![0, 1] bcast_S1x64_S128x64_0_1 : (⟨S1x64, .f32⟩ : BufTy).Contents (Elt F) → (⟨S128x64, .f32⟩ : BufTy).Contents (Elt F)),
    binary main_v229 main_v231 main_v232 (mulf : (⟨S128x64, .f32⟩ : BufTy).Contents (Elt F) → (⟨S128x64, .f32⟩ : BufTy).Contents (Elt F) → (⟨S128x64, .f32⟩ : BufTy).Contents (Elt F)),
    unary main_arg16 main_v233 (broadcastInDim S1x64 ![1] bcast_S64_S1x64_1 : (⟨S64, .f32⟩ : BufTy).Contents (Elt F) → (⟨S1x64, .f32⟩ : BufTy).Contents (Elt F)),
    unary main_v233 main_v234 (broadcastInDim S128x64 ![0, 1] bcast_S1x64_S128x64_0_1 : (⟨S1x64, .f32⟩ : BufTy).Contents (Elt F) → (⟨S128x64, .f32⟩ : BufTy).Contents (Elt F)),
    binary main_v232 main_v234 main_v235 (addf : (⟨S128x64, .f32⟩ : BufTy).Contents (Elt F) → (⟨S128x64, .f32⟩ : BufTy).Contents (Elt F) → (⟨S128x64, .f32⟩ : BufTy).Contents (Elt F)),
    binary main_v235 main_arg17 main_v236 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    unary main_arg18 main_v237 (broadcastInDim S1x10 ![1] bcast_S10_S1x10_1 : (⟨S10, .f32⟩ : BufTy).Contents (Elt F) → (⟨S1x10, .f32⟩ : BufTy).Contents (Elt F)),
    unary main_v237 main_v238 (broadcastInDim S128x10 ![0, 1] bcast_S1x10_S128x10_0_1 : (⟨S1x10, .f32⟩ : BufTy).Contents (Elt F) → (⟨S128x10, .f32⟩ : BufTy).Contents (Elt F)),
    binary main_v236 main_v238 main_v239 (addf : (⟨S128x10, .f32⟩ : BufTy).Contents (Elt F) → (⟨S128x10, .f32⟩ : BufTy).Contents (Elt F) → (⟨S128x10, .f32⟩ : BufTy).Contents (Elt F)),
    TRef.nullary main_call12.cst (constant S_ .f32 0xFF800000#32),
    TRef.binary (.of main_v239 : TRef sig ⟨S128x10, .f32⟩) main_call12.cst main_call12.v0 (fun x v => Host.reduce FloatOps.maximumf x v reducesTo_S128x10_S128_d1 h_S_),
    TRef.nullary main_call12.cst_0 (constant S_ .f32 0xFF800000#32),
    TRef.unary main_call12.cst_0 main_call12.v1 (broadcastInDim S128 ![] bcast_S_S128),
    TRef.binary main_call12.v1 main_call12.v0 main_call12.v2 maximumf,
    TRef.unary main_call12.v2 main_call12.v3 (broadcastInDim S128x1 ![0] bcast_S128_S128x1_0),
    TRef.unary main_call12.v3 main_call12.v4 (broadcastInDim S128x10 ![0, 1] bcast_S128x1_S128x10_0_1),
    TRef.binary (.of main_v239 : TRef sig ⟨S128x10, .f32⟩) main_call12.v4 main_call12.v5 subf,
    TRef.unary main_call12.v5 main_call12.v6 Host.exp,
    TRef.nullary main_call12.cst_1 (constant S_ .f32 0x00000000#32),
    TRef.binary main_call12.v6 main_call12.cst_1 main_call12.v7 (fun x v => Host.reduceAdd x v reducesTo_S128x10_S128_d1 h_S_),
    TRef.unary main_call12.v7 main_call12.v8 (broadcastInDim S128x1 ![0] bcast_S128_S128x1_0),
    TRef.unary main_call12.v8 main_call12.v9 Host.log,
    TRef.unary main_call12.v9 main_call12.v10 (broadcastInDim S128x10 ![0, 1] bcast_S128x1_S128x10_0_1),
    TRef.binary main_call12.v5 main_call12.v10 main_call12.v11 subf ]

/-- @main's 435 operations, in order. -/
abbrev ops : List (HloOp τ sig (Elt F)) :=
  opsNorm ++ opsFeat ++ opsL0 ++ opsL1 ++ opsL2 ++ opsPool ++ opsTail

end Cert.ReferenceIdeal.RRun

end
-- ==== Proof.RRun.lean ====
/- The reference program's run. @main (proof/ReferenceIdeal.lean) is the straight line `ops` of ROps.lean: shown window by
   window (main_part0 .. main_part4, each against the list of its own operations) and joined, two lines run one after
   the other being their concatenation run as one. The signature scopes no TensorCore buffer and no semaphore, every
   operation touches TensorCore references only and determines what it writes; so from any memory with zero counters
   every weakly fair execution of @main terminates with each TensorCore buffer at the fold of the operations' results
   over the launch contents (`run_all`). The window lists hold the same 435 operations as ROps.lean's seven, in the same
   order, cut at the windows' ends instead of by the buffer written (`ops_eq_parts`). -/
import proofs.«416283_j44736379355415_1_alg».proof.Proof.ROps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! ## @main's windows as lists

The same 435 operations cut where @main's five windows end: a window is then a line of at most 104 operations, short
enough to compare with its list statement by statement. -/

/-- main_part0's 83 operations, in order. -/
abbrev main_part0_ops : List (HloOp τ sig (Elt F)) :=
  [ nullary main_v0 (iotaInDim S100000 32 0),
    unary main_arg1 main_v1 ((extractStridedSlice S1x1200000 ![0, 0] · slices_S2x1200000_S1x1200000_0_0) : (⟨S2x1200000, .i32⟩ : BufTy).Contents (Elt F) → (⟨S1x1200000, .i32⟩ : BufTy).Contents (Elt F)),
    reshape main_v1 main_v2 rfl shapeCasts_S1x1200000_S1200000,
    binary main_v2 main_v0 main_v3 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    unary main_arg1 main_v4 ((extractStridedSlice S1x1200000 ![1, 0] · slices_S2x1200000_S1x1200000_1_0) : (⟨S2x1200000, .i32⟩ : BufTy).Contents (Elt F) → (⟨S1x1200000, .i32⟩ : BufTy).Contents (Elt F)),
    reshape main_v4 main_v5 rfl shapeCasts_S1x1200000_S1200000,
    binary main_v5 main_v0 main_v6 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    nullary main_cst (constant S_ .f32 0x3F800000#32),
    unary main_cst main_v7 (broadcastInDim S1300000 ![] bcast_S_S1300000 : (⟨S_, .f32⟩ : BufTy).Contents (Elt F) → (⟨S1300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v3 main_v9 (broadcastInDim S1300000x1 ![0] bcast_S1300000_S1300000x1_0 : (⟨S1300000, .i32⟩ : BufTy).Contents (Elt F) → (⟨S1300000x1, .i32⟩ : BufTy).Contents (Elt F)),
    ternary main_v8 main_v9 main_v7 main_v10 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v12 : TRef sig ⟨S100000, .i1⟩) (.of main_v13 : TRef sig ⟨S100000, .f32⟩) main_call0.v1 main_call0.v2 select,
    nullary main_c (constantI S_ 32 0#32),
    unary main_c main_v15 (broadcastInDim S1300000 ![] bcast_S_S1300000 : (⟨S_, .i32⟩ : BufTy).Contents (Elt F) → (⟨S1300000, .i32⟩ : BufTy).Contents (Elt F)),
    binary main_v3 main_v15 main_v16 (cmpi .slt : (⟨S1300000, .i32⟩ : BufTy).Contents (Elt F) → (⟨S1300000, .i32⟩ : BufTy).Contents (Elt F) → (⟨S1300000, .i1⟩ : BufTy).Contents (Elt F)),
    nullary main_c_3 (constantI S_ 32 100000#32),
    unary main_c_3 main_v17 (broadcastInDim S1300000 ![] bcast_S_S1300000 : (⟨S_, .i32⟩ : BufTy).Contents (Elt F) → (⟨S1300000, .i32⟩ : BufTy).Contents (Elt F)),
    binary main_v3 main_v17 main_v18 (addi : (⟨S1300000, .i32⟩ : BufTy).Contents (Elt F) → (⟨S1300000, .i32⟩ : BufTy).Contents (Elt F) → (⟨S1300000, .i32⟩ : BufTy).Contents (Elt F)),
    ternary main_v16 main_v18 main_v3 main_v19 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v19 main_v20 (broadcastInDim S1300000x1 ![0] bcast_S1300000_S1300000x1_0 : (⟨S1300000, .i32⟩ : BufTy).Contents (Elt F) → (⟨S1300000x1, .i32⟩ : BufTy).Contents (Elt F)),
    binary main_v14 main_v20 main_v21 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    binary main_v21 main_v7 main_v22 (mulf : (⟨S1300000, .f32⟩ : BufTy).Contents (Elt F) → (⟨S1300000, .f32⟩ : BufTy).Contents (Elt F) → (⟨S1300000, .f32⟩ : BufTy).Contents (Elt F)),
    nullary main_c_4 (constantI S_ 32 0#32),
    unary main_c_4 main_v23 (broadcastInDim S1300000 ![] bcast_S_S1300000 : (⟨S_, .i32⟩ : BufTy).Contents (Elt F) → (⟨S1300000, .i32⟩ : BufTy).Contents (Elt F)),
    binary main_v6 main_v23 main_v24 (cmpi .slt : (⟨S1300000, .i32⟩ : BufTy).Contents (Elt F) → (⟨S1300000, .i32⟩ : BufTy).Contents (Elt F) → (⟨S1300000, .i1⟩ : BufTy).Contents (Elt F)),
    nullary main_c_5 (constantI S_ 32 100000#32),
    unary main_c_5 main_v25 (broadcastInDim S1300000 ![] bcast_S_S1300000 : (⟨S_, .i32⟩ : BufTy).Contents (Elt F) → (⟨S1300000, .i32⟩ : BufTy).Contents (Elt F)),
    binary main_v6 main_v25 main_v26 (addi : (⟨S1300000, .i32⟩ : BufTy).Contents (Elt F) → (⟨S1300000, .i32⟩ : BufTy).Contents (Elt F) → (⟨S1300000, .i32⟩ : BufTy).Contents (Elt F)),
    ternary main_v24 main_v26 main_v6 main_v27 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v27 main_v28 (broadcastInDim S1300000x1 ![0] bcast_S1300000_S1300000x1_0 : (⟨S1300000, .i32⟩ : BufTy).Contents (Elt F) → (⟨S1300000x1, .i32⟩ : BufTy).Contents (Elt F)),
    binary main_v14 main_v28 main_v29 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    binary main_v22 main_v29 main_v30 (mulf : (⟨S1300000, .f32⟩ : BufTy).Contents (Elt F) → (⟨S1300000, .f32⟩ : BufTy).Contents (Elt F) → (⟨S1300000, .f32⟩ : BufTy).Contents (Elt F)),
    nullary main_cst_6 (constant S_ .f32 0x00000000#32),
    binary main_arg0 main_cst_6 main_v31 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_7 (constant S_ .f32 0x47C35000#32),
    unary main_cst_7 main_v32 (broadcastInDim S64 ![] bcast_S_S64 : (⟨S_, .f32⟩ : BufTy).Contents (Elt F) → (⟨S64, .f32⟩ : BufTy).Contents (Elt F)),
    binary main_v31 main_v32 main_v33 (Host.divf : (⟨S64, .f32⟩ : BufTy).Contents (Elt F) → (⟨S64, .f32⟩ : BufTy).Contents (Elt F) → (⟨S64, .f32⟩ : BufTy).Contents (Elt F)),
    nullary main_c_8 (constantI S_ 32 0#32),
    TRef.nullary main_call1.cst (constant S_ .f32 0x00000000#32),
    TRef.binary (.of main_arg0 : TRef sig ⟨S100000x64, .f32⟩) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (.of main_arg0 : TRef sig ⟨S100000x64, .f32⟩) main_call1.v4 main_call1.v5 subf,
    TRef.binary main_call1.v5 main_call1.v5 main_call1.v6 mulf,
    TRef.unary (.of main_c_8 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v33 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_arg0 main_v36 main_v37 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3727C5AC#32),
    unary main_cst_9 main_v38 (broadcastInDim S64 ![] bcast_S_S64 : (⟨S_, .f32⟩ : BufTy).Contents (Elt F) → (⟨S64, .f32⟩ : BufTy).Contents (Elt F)),
    binary main_v34 main_v38 main_v39 (addf : (⟨S64, .f32⟩ : BufTy).Contents (Elt F) → (⟨S64, .f32⟩ : BufTy).Contents (Elt F) → (⟨S64, .f32⟩ : BufTy).Contents (Elt F)),
    unary main_v39 main_v40 (Host.rsqrt : (⟨S64, .f32⟩ : BufTy).Contents (Elt F) → (⟨S64, .f32⟩ : BufTy).Contents (Elt F)),
    unary main_v40 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v37 main_v42 main_v43 (mulf : (⟨S100000x64, .f32⟩ : BufTy).Contents (Elt F) → (⟨S100000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (mulf : (⟨S100000x64, .f32⟩ : BufTy).Contents (Elt F) → (⟨S100000x64, .f32⟩ : BufTy).Contents (Elt F) → (⟨S100000x64, .f32⟩ : BufTy).Contents (Elt F)),
    unary main_arg4 main_v47 (broadcastInDim S1x64 ![1] bcast_S64_S1x64_1 : (⟨S64, .f32⟩ : BufTy).Contents (Elt F) → (⟨S1x64, .f32⟩ : BufTy).Contents (Elt F)) ]

/-- main_part1's 85 operations, in order. -/
abbrev main_part1_ops : List (HloOp τ sig (Elt F)) :=
  [ unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v50 main_v52 main_v53 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v53 : TRef sig ⟨S100000x64, .f32⟩) main_call2.v0 main_call2.v1 maximumf,
    unary main_arg7 main_v55 ((extractStridedSlice S1x64 ![0, 0] · slices_S3x64_S1x64_0_0) : (⟨S3x64, .f32⟩ : BufTy).Contents (Elt F) → (⟨S1x64, .f32⟩ : BufTy).Contents (Elt F)),
    reshape main_v55 main_v56 rfl shapeCasts_S1x64_S64,
    unary main_arg8 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    nullary main_cst_10 (constant S_ .f32 0x00000000#32),
    binary main_v54 main_cst_10 main_v59 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_11 (constant S_ .f32 0x47C35000#32),
    unary main_cst_11 main_v60 (broadcastInDim S64 ![] bcast_S_S64 : (⟨S_, .f32⟩ : BufTy).Contents (Elt F) → (⟨S64, .f32⟩ : BufTy).Contents (Elt F)),
    binary main_v59 main_v60 main_v61 (Host.divf : (⟨S64, .f32⟩ : BufTy).Contents (Elt F) → (⟨S64, .f32⟩ : BufTy).Contents (Elt F) → (⟨S64, .f32⟩ : BufTy).Contents (Elt F)),
    nullary main_c_12 (constantI S_ 32 0#32),
    TRef.nullary main_call3.cst (constant S_ .f32 0x00000000#32),
    TRef.binary (.of main_v54 : TRef sig ⟨S100000x64, .f32⟩) main_call3.cst main_call3.v0 (fun x v => Host.reduceAdd x v reducesTo_S100000x64_S64_d0 h_S_),
    TRef.unary main_call3.v0 main_call3.v1 (broadcastInDim S1x64 ![1] bcast_S64_S1x64_1),
    TRef.nullary main_call3.cst_0 (constant S_ .f32 0x47C35000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S100000x64 ![0, 1] bcast_S1x64_S100000x64_0_1),
    TRef.binary (.of main_v54 : TRef sig ⟨S100000x64, .f32⟩) main_call3.v4 main_call3.v5 subf,
    TRef.binary main_call3.v5 main_call3.v5 main_call3.v6 mulf,
    TRef.unary (.of main_c_12 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v61 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v54 main_v64 main_v65 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v65 main_v70 main_v71 (mulf : (⟨S100000x64, .f32⟩ : BufTy).Contents (Elt F) → (⟨S100000x64, .f32⟩ : BufTy).Contents (Elt F) → (⟨S100000x64, .f32⟩ : BufTy).Contents (Elt F)),
    unary main_v56 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (mulf : (⟨S100000x64, .f32⟩ : BufTy).Contents (Elt F) → (⟨S100000x64, .f32⟩ : BufTy).Contents (Elt F) → (⟨S100000x64, .f32⟩ : BufTy).Contents (Elt F)),
    unary main_v58 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    unary main_arg9 main_v78 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v78 main_v79 rfl shapeCasts_S1x64x64_S64x64,
    unary main_arg10 main_v80 ((extractStridedSlice S1x64 ![0, 0] · slices_S3x64_S1x64_0_0) : (⟨S3x64, .f32⟩ : BufTy).Contents (Elt F) → (⟨S1x64, .f32⟩ : BufTy).Contents (Elt F)),
    reshape main_v80 main_v81 rfl shapeCasts_S1x64_S64,
    binary main_v77 main_v79 main_v82 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v83 (broadcastInDim S1300000x1 ![0] bcast_S1300000_S1300000x1_0 : (⟨S1300000, .f32⟩ : BufTy).Contents (Elt F) → (⟨S1300000x1, .f32⟩ : BufTy).Contents (Elt F)),
    nullary main_c_14 (constantI S_ 32 0#32),
    unary main_c_14 main_v84 (broadcastInDim S1300000 ![] bcast_S_S1300000 : (⟨S_, .i32⟩ : BufTy).Contents (Elt F) → (⟨S1300000, .i32⟩ : BufTy).Contents (Elt F)),
    binary main_v3 main_v84 main_v85 (cmpi .slt : (⟨S1300000, .i32⟩ : BufTy).Contents (Elt F) → (⟨S1300000, .i32⟩ : BufTy).Contents (Elt F) → (⟨S1300000, .i1⟩ : BufTy).Contents (Elt F)),
    nullary main_c_15 (constantI S_ 32 100000#32),
    unary main_c_15 main_v86 (broadcastInDim S1300000 ![] bcast_S_S1300000 : (⟨S_, .i32⟩ : BufTy).Contents (Elt F) → (⟨S1300000, .i32⟩ : BufTy).Contents (Elt F)),
    binary main_v3 main_v86 main_v87 (addi : (⟨S1300000, .i32⟩ : BufTy).Contents (Elt F) → (⟨S1300000, .i32⟩ : BufTy).Contents (Elt F) → (⟨S1300000, .i32⟩ : BufTy).Contents (Elt F)),
    ternary main_v85 main_v87 main_v3 main_v88 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v88 main_v89 (broadcastInDim S1300000x1 ![0] bcast_S1300000_S1300000x1_0 : (⟨S1300000, .i32⟩ : BufTy).Contents (Elt F) → (⟨S1300000x1, .i32⟩ : BufTy).Contents (Elt F)),
    binary main_v82 main_v89 main_v90 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v83 main_v91 (broadcastInDim S1300000x64 ![0, 1] bcast_S1300000x1_S1300000x64_0_1 : (⟨S1300000x1, .f32⟩ : BufTy).Contents (Elt F) → (⟨S1300000x64, .f32⟩ : BufTy).Contents (Elt F)),
    binary main_v91 main_v90 main_v92 (mulf : (⟨S1300000x64, .f32⟩ : BufTy).Contents (Elt F) → (⟨S1300000x64, .f32⟩ : BufTy).Contents (Elt F) → (⟨S1300000x64, .f32⟩ : BufTy).Contents (Elt F)),
    nullary main_cst_16 (constant S_ .f32 0x00000000#32),
    unary main_cst_16 main_v93 (broadcastInDim S100000x64 ![] bcast_S_S100000x64 : (⟨S_, .f32⟩ : BufTy).Contents (Elt F) → (⟨S100000x64, .f32⟩ : BufTy).Contents (Elt F)),
    unary main_v6 main_v94 (broadcastInDim S1300000x1 ![0] bcast_S1300000_S1300000x1_0 : (⟨S1300000, .i32⟩ : BufTy).Contents (Elt F) → (⟨S1300000x1, .i32⟩ : BufTy).Contents (Elt F)),
    ternary main_v93 main_v94 main_v92 main_v95 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v81 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v95 main_v97 main_v98 (addf : (⟨S100000x64, .f32⟩ : BufTy).Contents (Elt F) → (⟨S100000x64, .f32⟩ : BufTy).Contents (Elt F) → (⟨S100000x64, .f32⟩ : BufTy).Contents (Elt F)),
    TRef.nullary main_call4.cst (constant S_ .f32 0x00000000#32),
    TRef.unary main_call4.cst main_call4.v0 (broadcastInDim S100000x64 ![] bcast_S_S100000x64),
    TRef.binary (.of main_v98 : TRef sig ⟨S100000x64, .f32⟩) main_call4.v0 main_call4.v1 maximumf,
    unary main_arg7 main_v100 ((extractStridedSlice S1x64 ![1, 0] · slices_S3x64_S1x64_1_0) : (⟨S3x64, .f32⟩ : BufTy).Contents (Elt F) → (⟨S1x64, .f32⟩ : BufTy).Contents (Elt F)) ]

/-- main_part2's 83 operations, in order. -/
abbrev main_part2_ops : List (HloOp τ sig (Elt F)) :=
  [ reshape main_v100 main_v101 rfl shapeCasts_S1x64_S64,
    unary main_arg8 main_v102 ((extractStridedSlice S1x64 ![1, 0] · slices_S3x64_S1x64_1_0) : (⟨S3x64, .f32⟩ : BufTy).Contents (Elt F) → (⟨S1x64, .f32⟩ : BufTy).Contents (Elt F)),
    reshape main_v102 main_v103 rfl shapeCasts_S1x64_S64,
    nullary main_cst_17 (constant S_ .f32 0x00000000#32),
    binary main_v99 main_cst_17 main_v104 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v105 (broadcastInDim S64 ![] bcast_S_S64 : (⟨S_, .f32⟩ : BufTy).Contents (Elt F) → (⟨S64, .f32⟩ : BufTy).Contents (Elt F)),
    binary main_v104 main_v105 main_v106 (Host.divf : (⟨S64, .f32⟩ : BufTy).Contents (Elt F) → (⟨S64, .f32⟩ : BufTy).Contents (Elt F) → (⟨S64, .f32⟩ : BufTy).Contents (Elt F)),
    nullary main_c_19 (constantI S_ 32 0#32),
    TRef.nullary main_call5.cst (constant S_ .f32 0x00000000#32),
    TRef.binary (.of main_v99 : TRef sig ⟨S100000x64, .f32⟩) main_call5.cst main_call5.v0 (fun x v => Host.reduceAdd x v reducesTo_S100000x64_S64_d0 h_S_),
    TRef.unary main_call5.v0 main_call5.v1 (broadcastInDim S1x64 ![1] bcast_S64_S1x64_1),
    TRef.nullary main_call5.cst_0 (constant S_ .f32 0x47C35000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S100000x64 ![0, 1] bcast_S1x64_S100000x64_0_1),
    TRef.binary (.of main_v99 : TRef sig ⟨S100000x64, .f32⟩) main_call5.v4 main_call5.v5 subf,
    TRef.binary main_call5.v5 main_call5.v5 main_call5.v6 mulf,
    TRef.unary (.of main_c_19 : TRef sig ⟨S_, .i32⟩) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b),
    unary main_v106 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v99 main_v109 main_v110 (subf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3727C5AC#32),
    unary main_cst_20 main_v111 (broadcastInDim S64 ![] bcast_S_S64 : (⟨S_, .f32⟩ : BufTy).Contents (Elt F) → (⟨S64, .f32⟩ : BufTy).Contents (Elt F)),
    binary main_v107 main_v111 main_v112 (addf : (⟨S64, .f32⟩ : BufTy).Contents (Elt F) → (⟨S64, .f32⟩ : BufTy).Contents (Elt F) → (⟨S64, .f32⟩ : BufTy).Contents (Elt F)),
    unary main_v112 main_v113 (Host.rsqrt : (⟨S64, .f32⟩ : BufTy).Contents (Elt F) → (⟨S64, .f32⟩ : BufTy).Contents (Elt F)),
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S100000x64 ![0, 1] bcast_S1x64_S100000x64_0_1 : (⟨S1x64, .f32⟩ : BufTy).Contents (Elt F) → (⟨S100000x64, .f32⟩ : BufTy).Contents (Elt F)),
    binary main_v110 main_v115 main_v116 (mulf : (⟨S100000x64, .f32⟩ : BufTy).Contents (Elt F) → (⟨S100000x64, .f32⟩ : BufTy).Contents (Elt F) → (⟨S100000x64, .f32⟩ : BufTy).Contents (Elt F)),
    unary main_v101 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v116 main_v118 main_v119 (mulf : (⟨S100000x64, .f32⟩ : BufTy).Contents (Elt F) → (⟨S100000x64, .f32⟩ : BufTy).Contents (Elt F) → (⟨S100000x64, .f32⟩ : BufTy).Contents (Elt F)),
    unary main_v103 main_v120 (broadcastInDim S1x64 ![1] bcast_S64_S1x64_1 : (⟨S64, .f32⟩ : BufTy).Contents (Elt F) → (⟨S1x64, .f32⟩ : BufTy).Contents (Elt F)),
    unary main_v120 main_v121 (broadcastInDim S100000x64 ![0, 1] bcast_S1x64_S100000x64_0_1 : (⟨S1x64, .f32⟩ : BufTy).Contents (Elt F) → (⟨S100000x64, .f32⟩ : BufTy).Contents (Elt F)),
    binary main_v119 main_v121 main_v122 (addf : (⟨S100000x64, .f32⟩ : BufTy).Contents (Elt F) → (⟨S100000x64, .f32⟩ : BufTy).Contents (Elt F) → (⟨S100000x64, .f32⟩ : BufTy).Contents (Elt F)),
    unary main_arg9 main_v123 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v123 main_v124 rfl shapeCasts_S1x64x64_S64x64,
    unary main_arg10 main_v125 ((extractStridedSlice S1x64 ![1, 0] · slices_S3x64_S1x64_1_0) : (⟨S3x64, .f32⟩ : BufTy).Contents (Elt F) → (⟨S1x64, .f32⟩ : BufTy).Contents (Elt F)),
    reshape main_v125 main_v126 rfl shapeCasts_S1x64_S64,
    binary main_v122 main_v124 main_v127 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v128 (broadcastInDim S1300000x1 ![0] bcast_S1300000_S1300000x1_0 : (⟨S1300000, .f32⟩ : BufTy).Contents (Elt F) → (⟨S1300000x1, .f32⟩ : BufTy).Contents (Elt F)),
    nullary main_c_21 (constantI S_ 32 0#32),
    unary main_c_21 main_v129 (broadcastInDim S1300000 ![] bcast_S_S1300000 : (⟨S_, .i32⟩ : BufTy).Contents (Elt F) → (⟨S1300000, .i32⟩ : BufTy).Contents (Elt F)),
    binary main_v3 main_v129 main_v130 (cmpi .slt : (⟨S1300000, .i32⟩ : BufTy).Contents (Elt F) → (⟨S1300000, .i32⟩ : BufTy).Contents (Elt F) → (⟨S1300000, .i1⟩ : BufTy).Contents (Elt F)),
    nullary main_c_22 (constantI S_ 32 100000#32),
    unary main_c_22 main_v131 (broadcastInDim S1300000 ![] bcast_S_S1300000 : (⟨S_, .i32⟩ : BufTy).Contents (Elt F) → (⟨S1300000, .i32⟩ : BufTy).Contents (Elt F)),
    binary main_v3 main_v131 main_v132 (addi : (⟨S1300000, .i32⟩ : BufTy).Contents (Elt F) → (⟨S1300000, .i32⟩ : BufTy).Contents (Elt F) → (⟨S1300000, .i32⟩ : BufTy).Contents (Elt F)),
    ternary main_v130 main_v132 main_v3 main_v133 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v133 main_v134 (broadcastInDim S1300000x1 ![0] bcast_S1300000_S1300000x1_0 : (⟨S1300000, .i32⟩ : BufTy).Contents (Elt F) → (⟨S1300000x1, .i32⟩ : BufTy).Contents (Elt F)),
    binary main_v127 main_v134 main_v135 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v128 main_v136 (broadcastInDim S1300000x64 ![0, 1] bcast_S1300000x1_S1300000x64_0_1 : (⟨S1300000x1, .f32⟩ : BufTy).Contents (Elt F) → (⟨S1300000x64, .f32⟩ : BufTy).Contents (Elt F)),
    binary main_v136 main_v135 main_v137 (mulf : (⟨S1300000x64, .f32⟩ : BufTy).Contents (Elt F) → (⟨S1300000x64, .f32⟩ : BufTy).Contents (Elt F) → (⟨S1300000x64, .f32⟩ : BufTy).Contents (Elt F)),
    nullary main_cst_23 (constant S_ .f32 0x00000000#32),
    unary main_cst_23 main_v138 (broadcastInDim S100000x64 ![] bcast_S_S100000x64 : (⟨S_, .f32⟩ : BufTy).Contents (Elt F) → (⟨S100000x64, .f32⟩ : BufTy).Contents (Elt F)),
    unary main_v6 main_v139 (broadcastInDim S1300000x1 ![0] bcast_S1300000_S1300000x1_0 : (⟨S1300000, .i32⟩ : BufTy).Contents (Elt F) → (⟨S1300000x1, .i32⟩ : BufTy).Contents (Elt F)),
    ternary main_v138 main_v139 main_v137 main_v140 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v126 main_v141 (broadcastInDim S1x64 ![1] bcast_S64_S1x64_1 : (⟨S64, .f32⟩ : BufTy).Contents (Elt F) → (⟨S1x64, .f32⟩ : BufTy).Contents (Elt F)),
    unary main_v141 main_v142 (broadcastInDim S100000x64 ![0, 1] bcast_S1x64_S100000x64_0_1 : (⟨S1x64, .f32⟩ : BufTy).Contents (Elt F) → (⟨S100000x64, .f32⟩ : BufTy).Contents (Elt F)),
    binary main_v140 main_v142 main_v143 (addf : (⟨S100000x64, .f32⟩ : BufTy).Contents (Elt F) → (⟨S100000x64, .f32⟩ : BufTy).Contents (Elt F) → (⟨S100000x64, .f32⟩ : BufTy).Contents (Elt F)),
    TRef.nullary main_call6.cst (constant S_ .f32 0x00000000#32),
    TRef.unary main_call6.cst main_call6.v0 (broadcastInDim S100000x64 ![] bcast_S_S100000x64),
    TRef.binary (.of main_v143 : TRef sig ⟨S100000x64, .f32⟩) main_call6.v0 main_call6.v1 maximumf,
    unary main_arg7 main_v145 ((extractStridedSlice S1x64 ![2, 0] · slices_S3x64_S1x64_2_0) : (⟨S3x64, .f32⟩ : BufTy).Contents (Elt F) → (⟨S1x64, .f32⟩ : BufTy).Contents (Elt F)),
    reshape main_v145 main_v146 rfl shapeCasts_S1x64_S64,
    unary main_arg8 main_v147 ((extractStridedSlice S1x64 ![2, 0] · slices_S3x64_S1x64_2_0) : (⟨S3x64, .f32⟩ : BufTy).Contents (Elt F) → (⟨S1x64, .f32⟩ : BufTy).Contents (Elt F)),
    reshape main_v147 main_v148 rfl shapeCasts_S1x64_S64,
    nullary main_cst_24 (constant S_ .f32 0x00000000#32),
    binary main_v144 main_cst_24 main_v149 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_25 (constant S_ .f32 0x47C35000#32),
    unary main_cst_25 main_v150 (broadcastInDim S64 ![] bcast_S_S64 : (⟨S_, .f32⟩ : BufTy).Contents (Elt F) → (⟨S64, .f32⟩ : BufTy).Contents (Elt F)),
    binary main_v149 main_v150 main_v151 (Host.divf : (⟨S64, .f32⟩ : BufTy).Contents (Elt F) → (⟨S64, .f32⟩ : BufTy).Contents (Elt F) → (⟨S64, .f32⟩ : BufTy).Contents (Elt F)) ]

/-- main_part3's 104 operations, in order. -/
abbrev main_part3_ops : List (HloOp τ sig (Elt F)) :=
  [ nullary main_c_26 (constantI S_ 32 0#32),
    TRef.nullary main_call7.cst (constant S_ .f32 0x00000000#32),
    TRef.binary (.of main_v144 : TRef sig ⟨S100000x64, .f32⟩) main_call7.cst main_call7.v0 (fun x v => Host.reduceAdd x v reducesTo_S100000x64_S64_d0 h_S_),
    TRef.unary main_call7.v0 main_call7.v1 (broadcastInDim S1x64 ![1] bcast_S64_S1x64_1),
    TRef.nullary main_call7.cst_0 (constant S_ .f32 0x47C35000#32),
    TRef.unary main_call7.cst_0 main_call7.v2 (broadcastInDim S1x64 ![] bcast_S_S1x64),
    TRef.binary main_call7.v1 main_call7.v2 main_call7.v3 Host.divf,
    TRef.unary main_call7.v3 main_call7.v4 (broadcastInDim S100000x64 ![0, 1] bcast_S1x64_S100000x64_0_1),
    TRef.binary (.of main_v144 : TRef sig ⟨S100000x64, .f32⟩) main_call7.v4 main_call7.v5 subf,
    TRef.binary main_call7.v5 main_call7.v5 main_call7.v6 mulf,
    TRef.unary (.of main_c_26 : TRef sig ⟨S_, .i32⟩) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x64_S64_d0 h_S_),
    TRef.unary main_call7.v8 main_call7.v10 (broadcastInDim S64 ![] bcast_S_S64),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S64 ![] bcast_S_S64),
    TRef.ternary main_call7.v12 main_call7.v11 main_call7.call0.v1 main_call7.call0.v2 (fun p a b => select (broadcastInDim S64 ![] bcast_S_S64 p) a b),
    unary main_v151 main_v153 (broadcastInDim S1x64 ![1] bcast_S64_S1x64_1 : (⟨S64, .f32⟩ : BufTy).Contents (Elt F) → (⟨S1x64, .f32⟩ : BufTy).Contents (Elt F)),
    unary main_v153 main_v154 (broadcastInDim S100000x64 ![0, 1] bcast_S1x64_S100000x64_0_1 : (⟨S1x64, .f32⟩ : BufTy).Contents (Elt F) → (⟨S100000x64, .f32⟩ : BufTy).Contents (Elt F)),
    binary main_v144 main_v154 main_v155 (subf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x3727C5AC#32),
    unary main_cst_27 main_v156 (broadcastInDim S64 ![] bcast_S_S64 : (⟨S_, .f32⟩ : BufTy).Contents (Elt F) → (⟨S64, .f32⟩ : BufTy).Contents (Elt F)),
    binary main_v152 main_v156 main_v157 (addf : (⟨S64, .f32⟩ : BufTy).Contents (Elt F) → (⟨S64, .f32⟩ : BufTy).Contents (Elt F) → (⟨S64, .f32⟩ : BufTy).Contents (Elt F)),
    unary main_v157 main_v158 (Host.rsqrt : (⟨S64, .f32⟩ : BufTy).Contents (Elt F) → (⟨S64, .f32⟩ : BufTy).Contents (Elt F)),
    unary main_v158 main_v159 (broadcastInDim S1x64 ![1] bcast_S64_S1x64_1 : (⟨S64, .f32⟩ : BufTy).Contents (Elt F) → (⟨S1x64, .f32⟩ : BufTy).Contents (Elt F)),
    unary main_v159 main_v160 (broadcastInDim S100000x64 ![0, 1] bcast_S1x64_S100000x64_0_1 : (⟨S1x64, .f32⟩ : BufTy).Contents (Elt F) → (⟨S100000x64, .f32⟩ : BufTy).Contents (Elt F)),
    binary main_v155 main_v160 main_v161 (mulf : (⟨S100000x64, .f32⟩ : BufTy).Contents (Elt F) → (⟨S100000x64, .f32⟩ : BufTy).Contents (Elt F) → (⟨S100000x64, .f32⟩ : BufTy).Contents (Elt F)),
    unary main_v146 main_v162 (broadcastInDim S1x64 ![1] bcast_S64_S1x64_1 : (⟨S64, .f32⟩ : BufTy).Contents (Elt F) → (⟨S1x64, .f32⟩ : BufTy).Contents (Elt F)),
    unary main_v162 main_v163 (broadcastInDim S100000x64 ![0, 1] bcast_S1x64_S100000x64_0_1 : (⟨S1x64, .f32⟩ : BufTy).Contents (Elt F) → (⟨S100000x64, .f32⟩ : BufTy).Contents (Elt F)),
    binary main_v161 main_v163 main_v164 (mulf : (⟨S100000x64, .f32⟩ : BufTy).Contents (Elt F) → (⟨S100000x64, .f32⟩ : BufTy).Contents (Elt F) → (⟨S100000x64, .f32⟩ : BufTy).Contents (Elt F)),
    unary main_v148 main_v165 (broadcastInDim S1x64 ![1] bcast_S64_S1x64_1 : (⟨S64, .f32⟩ : BufTy).Contents (Elt F) → (⟨S1x64, .f32⟩ : BufTy).Contents (Elt F)),
    unary main_v165 main_v166 (broadcastInDim S100000x64 ![0, 1] bcast_S1x64_S100000x64_0_1 : (⟨S1x64, .f32⟩ : BufTy).Contents (Elt F) → (⟨S100000x64, .f32⟩ : BufTy).Contents (Elt F)),
    binary main_v164 main_v166 main_v167 (addf : (⟨S100000x64, .f32⟩ : BufTy).Contents (Elt F) → (⟨S100000x64, .f32⟩ : BufTy).Contents (Elt F) → (⟨S100000x64, .f32⟩ : BufTy).Contents (Elt F)),
    unary main_arg9 main_v168 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v168 main_v169 rfl shapeCasts_S1x64x64_S64x64,
    unary main_arg10 main_v170 ((extractStridedSlice S1x64 ![2, 0] · slices_S3x64_S1x64_2_0) : (⟨S3x64, .f32⟩ : BufTy).Contents (Elt F) → (⟨S1x64, .f32⟩ : BufTy).Contents (Elt F)),
    reshape main_v170 main_v171 rfl shapeCasts_S1x64_S64,
    binary main_v167 main_v169 main_v172 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v173 (broadcastInDim S1300000x1 ![0] bcast_S1300000_S1300000x1_0 : (⟨S1300000, .f32⟩ : BufTy).Contents (Elt F) → (⟨S1300000x1, .f32⟩ : BufTy).Contents (Elt F)),
    nullary main_c_28 (constantI S_ 32 0#32),
    unary main_c_28 main_v174 (broadcastInDim S1300000 ![] bcast_S_S1300000 : (⟨S_, .i32⟩ : BufTy).Contents (Elt F) → (⟨S1300000, .i32⟩ : BufTy).Contents (Elt F)),
    binary main_v3 main_v174 main_v175 (cmpi .slt : (⟨S1300000, .i32⟩ : BufTy).Contents (Elt F) → (⟨S1300000, .i32⟩ : BufTy).Contents (Elt F) → (⟨S1300000, .i1⟩ : BufTy).Contents (Elt F)),
    nullary main_c_29 (constantI S_ 32 100000#32),
    unary main_c_29 main_v176 (broadcastInDim S1300000 ![] bcast_S_S1300000 : (⟨S_, .i32⟩ : BufTy).Contents (Elt F) → (⟨S1300000, .i32⟩ : BufTy).Contents (Elt F)),
    binary main_v3 main_v176 main_v177 (addi : (⟨S1300000, .i32⟩ : BufTy).Contents (Elt F) → (⟨S1300000, .i32⟩ : BufTy).Contents (Elt F) → (⟨S1300000, .i32⟩ : BufTy).Contents (Elt F)),
    ternary main_v175 main_v177 main_v3 main_v178 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v178 main_v179 (broadcastInDim S1300000x1 ![0] bcast_S1300000_S1300000x1_0 : (⟨S1300000, .i32⟩ : BufTy).Contents (Elt F) → (⟨S1300000x1, .i32⟩ : BufTy).Contents (Elt F)),
    binary main_v172 main_v179 main_v180 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v173 main_v181 (broadcastInDim S1300000x64 ![0, 1] bcast_S1300000x1_S1300000x64_0_1 : (⟨S1300000x1, .f32⟩ : BufTy).Contents (Elt F) → (⟨S1300000x64, .f32⟩ : BufTy).Contents (Elt F)),
    binary main_v181 main_v180 main_v182 (mulf : (⟨S1300000x64, .f32⟩ : BufTy).Contents (Elt F) → (⟨S1300000x64, .f32⟩ : BufTy).Contents (Elt F) → (⟨S1300000x64, .f32⟩ : BufTy).Contents (Elt F)),
    nullary main_cst_30 (constant S_ .f32 0x00000000#32),
    unary main_cst_30 main_v183 (broadcastInDim S100000x64 ![] bcast_S_S100000x64 : (⟨S_, .f32⟩ : BufTy).Contents (Elt F) → (⟨S100000x64, .f32⟩ : BufTy).Contents (Elt F)),
    unary main_v6 main_v184 (broadcastInDim S1300000x1 ![0] bcast_S1300000_S1300000x1_0 : (⟨S1300000, .i32⟩ : BufTy).Contents (Elt F) → (⟨S1300000x1, .i32⟩ : BufTy).Contents (Elt F)),
    ternary main_v183 main_v184 main_v182 main_v185 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v171 main_v186 (broadcastInDim S1x64 ![1] bcast_S64_S1x64_1 : (⟨S64, .f32⟩ : BufTy).Contents (Elt F) → (⟨S1x64, .f32⟩ : BufTy).Contents (Elt F)),
    unary main_v186 main_v187 (broadcastInDim S100000x64 ![0, 1] bcast_S1x64_S100000x64_0_1 : (⟨S1x64, .f32⟩ : BufTy).Contents (Elt F) → (⟨S100000x64, .f32⟩ : BufTy).Contents (Elt F)),
    binary main_v185 main_v187 main_v188 (addf : (⟨S100000x64, .f32⟩ : BufTy).Contents (Elt F) → (⟨S100000x64, .f32⟩ : BufTy).Contents (Elt F) → (⟨S100000x64, .f32⟩ : BufTy).Contents (Elt F)),
    TRef.nullary main_call8.cst (constant S_ .f32 0x00000000#32),
    TRef.unary main_call8.cst main_call8.v0 (broadcastInDim S100000x64 ![] bcast_S_S100000x64),
    TRef.binary (.of main_v188 : TRef sig ⟨S100000x64, .f32⟩) main_call8.v0 main_call8.v1 maximumf,
    nullary main_cst_31 (constant S_ .f32 0x00000000#32),
    unary main_cst_31 main_v190 (broadcastInDim S128x64 ![] bcast_S_S128x64 : (⟨S_, .f32⟩ : BufTy).Contents (Elt F) → (⟨S128x64, .f32⟩ : BufTy).Contents (Elt F)),
    unary main_arg2 main_v191 (broadcastInDim S100000x1 ![0] bcast_S100000_S100000x1_0 : (⟨S100000, .i32⟩ : BufTy).Contents (Elt F) → (⟨S100000x1, .i32⟩ : BufTy).Contents (Elt F)),
    ternary main_v190 main_v191 main_v189 main_v192 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_32 (constant S_ .f32 0x00000000#32),
    binary main_v192 main_cst_32 main_v193 ((fun x v => Host.reduceAdd x v reducesTo_S128x64_S64_d0 h_S_) : (⟨S128x64, .f32⟩ : BufTy).Contents (Elt F) → (⟨S_, .f32⟩ : BufTy).Contents (Elt F) → (⟨S64, .f32⟩ : BufTy).Contents (Elt F)),
    nullary main_cst_33 (constant S_ .f32 0x43000000#32),
    unary main_cst_33 main_v194 (broadcastInDim S64 ![] bcast_S_S64 : (⟨S_, .f32⟩ : BufTy).Contents (Elt F) → (⟨S64, .f32⟩ : BufTy).Contents (Elt F)),
    binary main_v193 main_v194 main_v195 (Host.divf : (⟨S64, .f32⟩ : BufTy).Contents (Elt F) → (⟨S64, .f32⟩ : BufTy).Contents (Elt F) → (⟨S64, .f32⟩ : BufTy).Contents (Elt F)),
    nullary main_c_34 (constantI S_ 32 0#32),
    TRef.nullary main_call9.cst (constant S_ .f32 0x00000000#32),
    TRef.binary (.of main_v192 : TRef sig ⟨S128x64, .f32⟩) main_call9.cst main_call9.v0 (fun x v => Host.reduceAdd x v reducesTo_S128x64_S64_d0 h_S_),
    TRef.unary main_call9.v0 main_call9.v1 (broadcastInDim S1x64 ![1] bcast_S64_S1x64_1),
    TRef.nullary main_call9.cst_0 (constant S_ .f32 0x43000000#32),
    TRef.unary main_call9.cst_0 main_call9.v2 (broadcastInDim S1x64 ![] bcast_S_S1x64),
    TRef.binary main_call9.v1 main_call9.v2 main_call9.v3 Host.divf,
    TRef.unary main_call9.v3 main_call9.v4 (broadcastInDim S128x64 ![0, 1] bcast_S1x64_S128x64_0_1),
    TRef.binary (.of main_v192 : TRef sig ⟨S128x64, .f32⟩) main_call9.v4 main_call9.v5 subf,
    TRef.binary main_call9.v5 main_call9.v5 main_call9.v6 mulf,
    TRef.unary (.of main_c_34 : TRef sig ⟨S_, .i32⟩) main_call9.v7 (sitofp .f32),
    TRef.nullary main_call9.cst_1 (constant S_ .f32 0x43000000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S128x64_S64_d0 h_S_),
    TRef.unary main_call9.v8 main_call9.v10 (broadcastInDim S64 ![] bcast_S_S64),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S64 ![] bcast_S_S64),
    TRef.ternary main_call9.v12 main_call9.v11 main_call9.call0.v1 main_call9.call0.v2 (fun p a b => select (broadcastInDim S64 ![] bcast_S_S64 p) a b),
    unary main_v195 main_v197 (broadcastInDim S1x64 ![1] bcast_S64_S1x64_1 : (⟨S64, .f32⟩ : BufTy).Contents (Elt F) → (⟨S1x64, .f32⟩ : BufTy).Contents (Elt F)),
    unary main_v197 main_v198 (broadcastInDim S128x64 ![0, 1] bcast_S1x64_S128x64_0_1 : (⟨S1x64, .f32⟩ : BufTy).Contents (Elt F) → (⟨S128x64, .f32⟩ : BufTy).Contents (Elt F)),
    binary main_v192 main_v198 main_v199 (subf : (⟨S128x64, .f32⟩ : BufTy).Contents (Elt F) → (⟨S128x64, .f32⟩ : BufTy).Contents (Elt F) → (⟨S128x64, .f32⟩ : BufTy).Contents (Elt F)),
    nullary main_cst_35 (constant S_ .f32 0x3727C5AC#32),
    unary main_cst_35 main_v200 (broadcastInDim S64 ![] bcast_S_S64 : (⟨S_, .f32⟩ : BufTy).Contents (Elt F) → (⟨S64, .f32⟩ : BufTy).Contents (Elt F)),
    binary main_v196 main_v200 main_v201 (addf : (⟨S64, .f32⟩ : BufTy).Contents (Elt F) → (⟨S64, .f32⟩ : BufTy).Contents (Elt F) → (⟨S64, .f32⟩ : BufTy).Contents (Elt F)) ]

/-- main_part4's 80 operations, in order. -/
abbrev main_part4_ops : List (HloOp τ sig (Elt F)) :=
  [ unary main_v201 main_v202 (Host.rsqrt : (⟨S64, .f32⟩ : BufTy).Contents (Elt F) → (⟨S64, .f32⟩ : BufTy).Contents (Elt F)),
    unary main_v202 main_v203 (broadcastInDim S1x64 ![1] bcast_S64_S1x64_1 : (⟨S64, .f32⟩ : BufTy).Contents (Elt F) → (⟨S1x64, .f32⟩ : BufTy).Contents (Elt F)),
    unary main_v203 main_v204 (broadcastInDim S128x64 ![0, 1] bcast_S1x64_S128x64_0_1 : (⟨S1x64, .f32⟩ : BufTy).Contents (Elt F) → (⟨S128x64, .f32⟩ : BufTy).Contents (Elt F)),
    binary main_v199 main_v204 main_v205 (mulf : (⟨S128x64, .f32⟩ : BufTy).Contents (Elt F) → (⟨S128x64, .f32⟩ : BufTy).Contents (Elt F) → (⟨S128x64, .f32⟩ : BufTy).Contents (Elt F)),
    unary main_arg11 main_v206 (broadcastInDim S1x64 ![1] bcast_S64_S1x64_1 : (⟨S64, .f32⟩ : BufTy).Contents (Elt F) → (⟨S1x64, .f32⟩ : BufTy).Contents (Elt F)),
    unary main_v206 main_v207 (broadcastInDim S128x64 ![0, 1] bcast_S1x64_S128x64_0_1 : (⟨S1x64, .f32⟩ : BufTy).Contents (Elt F) → (⟨S128x64, .f32⟩ : BufTy).Contents (Elt F)),
    binary main_v205 main_v207 main_v208 (mulf : (⟨S128x64, .f32⟩ : BufTy).Contents (Elt F) → (⟨S128x64, .f32⟩ : BufTy).Contents (Elt F) → (⟨S128x64, .f32⟩ : BufTy).Contents (Elt F)),
    unary main_arg12 main_v209 (broadcastInDim S1x64 ![1] bcast_S64_S1x64_1 : (⟨S64, .f32⟩ : BufTy).Contents (Elt F) → (⟨S1x64, .f32⟩ : BufTy).Contents (Elt F)),
    unary main_v209 main_v210 (broadcastInDim S128x64 ![0, 1] bcast_S1x64_S128x64_0_1 : (⟨S1x64, .f32⟩ : BufTy).Contents (Elt F) → (⟨S128x64, .f32⟩ : BufTy).Contents (Elt F)),
    binary main_v208 main_v210 main_v211 (addf : (⟨S128x64, .f32⟩ : BufTy).Contents (Elt F) → (⟨S128x64, .f32⟩ : BufTy).Contents (Elt F) → (⟨S128x64, .f32⟩ : BufTy).Contents (Elt F)),
    binary main_v211 main_arg13 main_v212 ((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F)),
    unary main_arg14 main_v213 (broadcastInDim S1x64 ![1] bcast_S64_S1x64_1 : (⟨S64, .f32⟩ : BufTy).Contents (Elt F) → (⟨S1x64, .f32⟩ : BufTy).Contents (Elt F)),
    unary main_v213 main_v214 (broadcastInDim S128x64 ![0, 1] bcast_S1x64_S128x64_0_1 : (⟨S1x64, .f32⟩ : BufTy).Contents (Elt F) → (⟨S128x64, .f32⟩ : BufTy).Contents (Elt F)),
    binary main_v212 main_v214 main_v215 (addf : (⟨S128x64, .f32⟩ : BufTy).Contents (Elt F) → (⟨S128x64, .f32⟩ : BufTy).Contents (Elt F) → (⟨S128x64, .f32⟩ : BufTy).Contents (Elt F)),
    TRef.nullary main_call10.cst (constant S_ .f32 0x00000000#32),
    TRef.unary main_call10.cst main_call10.v0 (broadcastInDim S128x64 ![] bcast_S_S128x64),
    TRef.binary (.of main_v215 : TRef sig ⟨S128x64, .f32⟩) main_call10.v0 main_call10.v1 maximumf,
    nullary main_cst_36 (constant S_ .f32 0x00000000#32),
    binary main_v216 main_cst_36 main_v217 ((fun x v => Host.reduceAdd x v reducesTo_S128x64_S64_d0 h_S_) : (⟨S128x64, .f32⟩ : BufTy).Contents (Elt F) → (⟨S_, .f32⟩ : BufTy).Contents (Elt F) → (⟨S64, .f32⟩ : BufTy).Contents (Elt F)),
    nullary main_cst_37 (constant S_ .f32 0x43000000#32),
    unary main_cst_37 main_v218 (broadcastInDim S64 ![] bcast_S_S64 : (⟨S_, .f32⟩ : BufTy).Contents (Elt F) → (⟨S64, .f32⟩ : BufTy).Contents (Elt F)),
    binary main_v217 main_v218 main_v219 (Host.divf : (⟨S64, .f32⟩ : BufTy).Contents (Elt F) → (⟨S64, .f32⟩ : BufTy).Contents (Elt F) → (⟨S64, .f32⟩ : BufTy).Contents (Elt F)),
    nullary main_c_38 (constantI S_ 32 0#32),
    TRef.nullary main_call11.cst (constant S_ .f32 0x00000000#32),
    TRef.binary (.of main_v216 : TRef sig ⟨S128x64, .f32⟩) main_call11.cst main_call11.v0 (fun x v => Host.reduceAdd x v reducesTo_S128x64_S64_d0 h_S_),
    TRef.unary main_call11.v0 main_call11.v1 (broadcastInDim S1x64 ![1] bcast_S64_S1x64_1),
    TRef.nullary main_call11.cst_0 (constant S_ .f32 0x43000000#32),
    TRef.unary main_call11.cst_0 main_call11.v2 (broadcastInDim S1x64 ![] bcast_S_S1x64),
    TRef.binary main_call11.v1 main_call11.v2 main_call11.v3 Host.divf,
    TRef.unary main_call11.v3 main_call11.v4 (broadcastInDim S128x64 ![0, 1] bcast_S1x64_S128x64_0_1),
    TRef.binary (.of main_v216 : TRef sig ⟨S128x64, .f32⟩) main_call11.v4 main_call11.v5 subf,
    TRef.binary main_call11.v5 main_call11.v5 main_call11.v6 mulf,
    TRef.unary (.of main_c_38 : TRef sig ⟨S_, .i32⟩) main_call11.v7 (sitofp .f32),
    TRef.nullary main_call11.cst_1 (constant S_ .f32 0x43000000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S128x64_S64_d0 h_S_),
    TRef.unary main_call11.v8 main_call11.v10 (broadcastInDim S64 ![] bcast_S_S64),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S64 ![] bcast_S_S64),
    TRef.ternary main_call11.v12 main_call11.v11 main_call11.call0.v1 main_call11.call0.v2 (fun p a b => select (broadcastInDim S64 ![] bcast_S_S64 p) a b),
    unary main_v219 main_v221 (broadcastInDim S1x64 ![1] bcast_S64_S1x64_1 : (⟨S64, .f32⟩ : BufTy).Contents (Elt F) → (⟨S1x64, .f32⟩ : BufTy).Contents (Elt F)),
    unary main_v221 main_v222 (broadcastInDim S128x64 ![0, 1] bcast_S1x64_S128x64_0_1 : (⟨S1x64, .f32⟩ : BufTy).Contents (Elt F) → (⟨S128x64, .f32⟩ : BufTy).Contents (Elt F)),
    binary main_v216 main_v222 main_v223 (subf : (⟨S128x64, .f32⟩ : BufTy).Contents (Elt F) → (⟨S128x64, .f32⟩ : BufTy).Contents (Elt F) → (⟨S128x64, .f32⟩ : BufTy).Contents (Elt F)),
    nullary main_cst_39 (constant S_ .f32 0x3727C5AC#32),
    unary main_cst_39 main_v224 (broadcastInDim S64 ![] bcast_S_S64 : (⟨S_, .f32⟩ : BufTy).Contents (Elt F) → (⟨S64, .f32⟩ : BufTy).Contents (Elt F)),
    binary main_v220 main_v224 main_v225 (addf : (⟨S64, .f32⟩ : BufTy).Contents (Elt F) → (⟨S64, .f32⟩ : BufTy).Contents (Elt F) → (⟨S64, .f32⟩ : BufTy).Contents (Elt F)),
    unary main_v225 main_v226 (Host.rsqrt : (⟨S64, .f32⟩ : BufTy).Contents (Elt F) → (⟨S64, .f32⟩ : BufTy).Contents (Elt F)),
    unary main_v226 main_v227 (broadcastInDim S1x64 ![1] bcast_S64_S1x64_1 : (⟨S64, .f32⟩ : BufTy).Contents (Elt F) → (⟨S1x64, .f32⟩ : BufTy).Contents (Elt F)),
    unary main_v227 main_v228 (broadcastInDim S128x64 ![0, 1] bcast_S1x64_S128x64_0_1 : (⟨S1x64, .f32⟩ : BufTy).Contents (Elt F) → (⟨S128x64, .f32⟩ : BufTy).Contents (Elt F)),
    binary main_v223 main_v228 main_v229 (mulf : (⟨S128x64, .f32⟩ : BufTy).Contents (Elt F) → (⟨S128x64, .f32⟩ : BufTy).Contents (Elt F) → (⟨S128x64, .f32⟩ : BufTy).Contents (Elt F)),
    unary main_arg15 main_v230 (broadcastInDim S1x64 ![1] bcast_S64_S1x64_1 : (⟨S64, .f32⟩ : BufTy).Contents (Elt F) → (⟨S1x64, .f32⟩ : BufTy).Contents (Elt F)),
    unary main_v230 main_v231 (broadcastInDim S128x64 ![0, 1] bcast_S1x64_S128x64_0_1 : (⟨S1x64, .f32⟩ : BufTy).Contents (Elt F) → (⟨S128x64, .f32⟩ : BufTy).Contents (Elt F)),
    binary main_v229 main_v231 main_v232 (mulf : (⟨S128x64, .f32⟩ : BufTy).Contents (Elt F) → (⟨S128x64, .f32⟩ : BufTy).Contents (Elt F) → (⟨S128x64, .f32⟩ : BufTy).Contents (Elt F)),
    unary main_arg16 main_v233 (broadcastInDim S1x64 ![1] bcast_S64_S1x64_1 : (⟨S64, .f32⟩ : BufTy).Contents (Elt F) → (⟨S1x64, .f32⟩ : BufTy).Contents (Elt F)),
    unary main_v233 main_v234 (broadcastInDim S128x64 ![0, 1] bcast_S1x64_S128x64_0_1 : (⟨S1x64, .f32⟩ : BufTy).Contents (Elt F) → (⟨S128x64, .f32⟩ : BufTy).Contents (Elt F)),
    binary main_v232 main_v234 main_v235 (addf : (⟨S128x64, .f32⟩ : BufTy).Contents (Elt F) → (⟨S128x64, .f32⟩ : BufTy).Contents (Elt F) → (⟨S128x64, .f32⟩ : BufTy).Contents (Elt F)),
    binary main_v235 main_arg17 main_v236 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    unary main_arg18 main_v237 (broadcastInDim S1x10 ![1] bcast_S10_S1x10_1 : (⟨S10, .f32⟩ : BufTy).Contents (Elt F) → (⟨S1x10, .f32⟩ : BufTy).Contents (Elt F)),
    unary main_v237 main_v238 (broadcastInDim S128x10 ![0, 1] bcast_S1x10_S128x10_0_1 : (⟨S1x10, .f32⟩ : BufTy).Contents (Elt F) → (⟨S128x10, .f32⟩ : BufTy).Contents (Elt F)),
    binary main_v236 main_v238 main_v239 (addf : (⟨S128x10, .f32⟩ : BufTy).Contents (Elt F) → (⟨S128x10, .f32⟩ : BufTy).Contents (Elt F) → (⟨S128x10, .f32⟩ : BufTy).Contents (Elt F)),
    TRef.nullary main_call12.cst (constant S_ .f32 0xFF800000#32),
    TRef.binary (.of main_v239 : TRef sig ⟨S128x10, .f32⟩) main_call12.cst main_call12.v0 (fun x v => Host.reduce FloatOps.maximumf x v reducesTo_S128x10_S128_d1 h_S_),
    TRef.nullary main_call12.cst_0 (constant S_ .f32 0xFF800000#32),
    TRef.unary main_call12.cst_0 main_call12.v1 (broadcastInDim S128 ![] bcast_S_S128),
    TRef.binary main_call12.v1 main_call12.v0 main_call12.v2 maximumf,
    TRef.unary main_call12.v2 main_call12.v3 (broadcastInDim S128x1 ![0] bcast_S128_S128x1_0),
    TRef.unary main_call12.v3 main_call12.v4 (broadcastInDim S128x10 ![0, 1] bcast_S128x1_S128x10_0_1),
    TRef.binary (.of main_v239 : TRef sig ⟨S128x10, .f32⟩) main_call12.v4 main_call12.v5 subf,
    TRef.unary main_call12.v5 main_call12.v6 Host.exp,
    TRef.nullary main_call12.cst_1 (constant S_ .f32 0x00000000#32),
    TRef.binary main_call12.v6 main_call12.cst_1 main_call12.v7 (fun x v => Host.reduceAdd x v reducesTo_S128x10_S128_d1 h_S_),
    TRef.unary main_call12.v7 main_call12.v8 (broadcastInDim S128x1 ![0] bcast_S128_S128x1_0),
    TRef.unary main_call12.v8 main_call12.v9 Host.log,
    TRef.unary main_call12.v9 main_call12.v10 (broadcastInDim S128x10 ![0, 1] bcast_S128x1_S128x10_0_1),
    TRef.binary main_call12.v5 main_call12.v10 main_call12.v11 subf ]
/-! ## @main is the line -/

-- the binds of a window re-associated: one level of recursion per statement
set_option maxRecDepth 8192 in
/-- Window 0 is its list run in order: the functions' definitions unfolded at their calls, both sides are one chain
    of steps once sequencing is re-associated. -/
theorem main_part0_eq (c : Dev nD) : main_part0 (F := F) c = seq main_part0_ops := by
  simp only [main_part0, fn_where.body, fn_var.body, fn_where_0.body, seq, bind_assoc, pure_bind]
  rfl

-- the binds of a window re-associated: one level of recursion per statement
set_option maxRecDepth 8192 in
/-- Window 1 is its list run in order: the functions' definitions unfolded at their calls, both sides are one chain
    of steps once sequencing is re-associated. -/
theorem main_part1_eq (c : Dev nD) : main_part1 (F := F) c = seq main_part1_ops := by
  simp only [main_part1, fn_relu.body, fn_var_1.body, fn_where_0.body, seq, bind_assoc, pure_bind]
  rfl

-- the binds of a window re-associated: one level of recursion per statement
set_option maxRecDepth 8192 in
/-- Window 2 is its list run in order: the functions' definitions unfolded at their calls, both sides are one chain
    of steps once sequencing is re-associated. -/
theorem main_part2_eq (c : Dev nD) : main_part2 (F := F) c = seq main_part2_ops := by
  simp only [main_part2, fn_var_1.body, fn_where_0.body, fn_relu.body, seq, bind_assoc, pure_bind]
  rfl

-- the binds of a window re-associated: one level of recursion per statement
set_option maxRecDepth 8192 in
/-- Window 3 is its list run in order: the functions' definitions unfolded at their calls, both sides are one chain
    of steps once sequencing is re-associated. -/
theorem main_part3_eq (c : Dev nD) : main_part3 (F := F) c = seq main_part3_ops := by
  simp only [main_part3, fn_var_1.body, fn_var_2.body, fn_where_0.body, fn_relu.body, seq, bind_assoc, pure_bind]
  rfl

-- the binds of a window re-associated: one level of recursion per statement
set_option maxRecDepth 8192 in
/-- Window 4 is its list run in order: the functions' definitions unfolded at their calls, both sides are one chain
    of steps once sequencing is re-associated (the window ends in the return, as the list's run does: the two chains
    are then the same term). -/
theorem main_part4_eq (c : Dev nD) : main_part4 (F := F) c = seq main_part4_ops := by
  simp only [main_part4, fn_relu_3.body, fn_var_2.body, fn_where_0.body, fn_log_softmax.body, seq, bind_assoc, pure_bind]

set_option maxRecDepth 8192 in
/-- The seven lists cut by the buffer written and the five cut by window are one list of operations. -/
theorem ops_eq_parts : (ops : List (HloOp τ sig (Elt F)))
    = main_part0_ops ++ (main_part1_ops ++ (main_part2_ops ++ (main_part3_ops ++ main_part4_ops))) := rfl

/-- @main is the straight line of its 435 operations: window by window, two lines run one after the other being
    their concatenation run as one. -/
theorem main_eq (c : Dev nD) : main (F := F) c = seq ops := by
  rw [ops_eq_parts]
  simp only [seq_append, ← main_part0_eq c, ← main_part1_eq c, ← main_part2_eq c, ← main_part3_eq c, ← main_part4_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation of opsNorm touches TensorCore references only (one lemma per operation, in order). -/
theorem opsNorm_sub : (opsNorm : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩

set_option maxRecDepth 8192 in
/-- Each operation of opsFeat touches TensorCore references only (one lemma per operation, in order). -/
theorem opsFeat_sub : (opsFeat : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub ..⟩

set_option maxRecDepth 8192 in
/-- Each operation of opsL0 touches TensorCore references only (one lemma per operation, in order). -/
theorem opsL0_sub : (opsL0 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., reshape_bufs_sub .., unary_bufs_sub .., reshape_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub ..⟩

set_option maxRecDepth 8192 in
/-- Each operation of opsL1 touches TensorCore references only (one lemma per operation, in order). -/
theorem opsL1_sub : (opsL1 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., reshape_bufs_sub .., unary_bufs_sub .., reshape_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub ..⟩

set_option maxRecDepth 8192 in
/-- Each operation of opsL2 touches TensorCore references only (one lemma per operation, in order). -/
theorem opsL2_sub : (opsL2 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., reshape_bufs_sub .., unary_bufs_sub .., reshape_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub ..⟩

set_option maxRecDepth 8192 in
/-- Each operation of opsPool touches TensorCore references only (one lemma per operation, in order). -/
theorem opsPool_sub : (opsPool : List (HloOp τ sig (Elt F))).Forall fun op => op.bufs ⊆ tcRefs τ sig :=
  ⟨nullary_bufs_sub .., unary_bufs_sub .., unary_bufs_sub .., ternary_bufs_sub ..⟩

set_option maxRecDepth 8192 in
/-- Each operation of opsTail touches TensorCore references only (one lemma per operation, in order). -/
theorem opsTail_sub : (opsTail : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-- Every operation of the line touches TensorCore references only. -/
theorem ops_sub : (ops : List (HloOp τ sig (Elt F))).Forall fun op => op.bufs ⊆ tcRefs τ sig :=
  List.forall_append.mpr ⟨List.forall_append.mpr ⟨List.forall_append.mpr ⟨List.forall_append.mpr
    ⟨List.forall_append.mpr ⟨List.forall_append.mpr ⟨opsNorm_sub, opsFeat_sub⟩, opsL0_sub⟩, opsL1_sub⟩, opsL2_sub⟩,
    opsPool_sub⟩, opsTail_sub⟩

set_option maxRecDepth 8192 in
/-- Each operation of opsNorm determines what it writes. -/
theorem opsNorm_fresh : ∀ op ∈ (opsNorm : List (HloOp τ sig (Elt F))), op.fresh = ∅ := by
  intro _ h; (repeat (cases h with | head => rfl | tail _ h => ?_)); exact nomatch h

set_option maxRecDepth 8192 in
/-- Each operation of opsFeat determines what it writes. -/
theorem opsFeat_fresh : ∀ op ∈ (opsFeat : List (HloOp τ sig (Elt F))), op.fresh = ∅ := by
  intro _ h; (repeat (cases h with | head => rfl | tail _ h => ?_)); exact nomatch h

set_option maxRecDepth 8192 in
/-- Each operation of opsL0 determines what it writes. -/
theorem opsL0_fresh : ∀ op ∈ (opsL0 : List (HloOp τ sig (Elt F))), op.fresh = ∅ := by
  intro _ h; (repeat (cases h with | head => rfl | tail _ h => ?_)); exact nomatch h

set_option maxRecDepth 8192 in
/-- Each operation of opsL1 determines what it writes. -/
theorem opsL1_fresh : ∀ op ∈ (opsL1 : List (HloOp τ sig (Elt F))), op.fresh = ∅ := by
  intro _ h; (repeat (cases h with | head => rfl | tail _ h => ?_)); exact nomatch h

set_option maxRecDepth 8192 in
/-- Each operation of opsL2 determines what it writes. -/
theorem opsL2_fresh : ∀ op ∈ (opsL2 : List (HloOp τ sig (Elt F))), op.fresh = ∅ := by
  intro _ h; (repeat (cases h with | head => rfl | tail _ h => ?_)); exact nomatch h

set_option maxRecDepth 8192 in
/-- Each operation of opsPool determines what it writes. -/
theorem opsPool_fresh : ∀ op ∈ (opsPool : List (HloOp τ sig (Elt F))), op.fresh = ∅ := by
  intro _ h; (repeat (cases h with | head => rfl | tail _ h => ?_)); exact nomatch h

set_option maxRecDepth 8192 in
/-- Each operation of opsTail determines what it writes. -/
theorem opsTail_fresh : ∀ op ∈ (opsTail : List (HloOp τ sig (Elt F))), op.fresh = ∅ := by
  intro _ h; (repeat (cases h with | head => rfl | tail _ h => ?_)); exact nomatch h

/-- Every operation of the line determines what it writes (none is an uninitialised allocation). -/
theorem ops_fresh : ∀ op ∈ (ops : List (HloOp τ sig (Elt F))), op.fresh = ∅ := by
  intro op h
  simp only [ops, List.mem_append] at h
  rcases h with (((((h | h) | h) | h) | h) | h) | h
  exacts [opsNorm_fresh op h, opsFeat_fresh op h, opsL0_fresh op h, opsL1_fresh op h, opsL2_fresh op h,
    opsPool_fresh op h, opsTail_fresh op h]

/-! ## The run -/

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RRun

end
-- ==== Proof.RValFrame.lean ====
/-
  The reference line in pieces: the fold over two lines in a row, and, for each of the seven pieces, the
  list of buffers its operations write; a buffer outside the list keeps its contents through the piece.
-/
import proofs.«416283_j44736379355415_1_alg».proof.Proof.ROps

noncomputable section

namespace Cert.ReferenceIdeal.RVal

open Cert.ReferenceIdeal Idealize.ShloMosaic Idealize.ShloMosaic.TcCoe Idealize.SL.Sem Idealize.ShloMosaic.StableHlo

variable {F : FTy → Type} [FloatOps F]

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffers the operations of `opsNorm` write, in order. -/
def normW : List (Ref sig .tc) :=
  [
    main_v0, main_v1, main_v2, main_v3, main_v4, main_v5,
    main_v6, main_cst, main_v7, main_cst_0, main_v8, main_v9,
    main_v10, main_cst_1, main_v11, main_v12, main_v13, main_cst_2,
    main_call0.v0.ref, main_call0.v1.ref, main_call0.v2.ref, main_c, main_v15, main_v16,
    main_c_3, main_v17, main_v18, main_v19, main_v20, main_v21,
    main_v22, main_c_4, main_v23, main_v24, main_c_5, main_v25,
    main_v26, main_v27, main_v28, main_v29, main_v30 ]

theorem norm_writes :
    (RRun.opsNorm (F := F)).Forall fun op => op.writes ⊆ ((normW).map (Proc.devRef (τ := τ) .tc)).toFinset := by
  simp only [RRun.opsNorm, List.Forall, nullary_writes, unary_writes, binary_writes, ternary_writes, reshape_writes,
    Finset.singleton_subset_iff, List.mem_toFinset]
  repeat' apply And.intro
  all_goals exact List.mem_map.mpr ⟨_, by decide, rfl⟩

/-- A buffer `opsNorm` does not write keeps its contents through it. -/
theorem norm_frame (W : Valuation τ sig (Elt F)) {r : Ref sig .tc} (hr : r ∉ normW) :
    after RRun.opsNorm W (Proc.devRef .tc r) = W (Proc.devRef .tc r) :=
  after_of_writes_sub _ W norm_writes hr

/-- The buffers the operations of `opsFeat` write, in order. -/
def featW : List (Ref sig .tc) :=
  [
    main_cst_6, main_v31, main_cst_7, main_v32, main_v33, main_c_8,
    main_call1.cst.ref, main_call1.v0.ref, main_call1.v1.ref, main_call1.cst_0.ref, main_call1.v2.ref, main_call1.v3.ref,
    main_call1.v4.ref, main_call1.v5.ref, main_call1.v6.ref, main_call1.v7.ref, main_call1.cst_1.ref, main_call1.v8.ref,
    main_call1.cst_2.ref, main_call1.v9.ref, main_call1.v10.ref, main_call1.v11.ref, main_call1.cst_3.ref, main_call1.v12.ref,
    main_call1.cst_4.ref, main_call1.call0.v0.ref, main_call1.call0.v1.ref, main_call1.call0.v2.ref, main_v35, main_v36,
    main_v37, main_cst_9, main_v38, main_v39, main_v40, main_v41,
    main_v42, main_v43, main_v44, main_v45, main_v46, main_v47,
    main_v48, main_v49, main_v50, main_v51, main_v52, main_v53,
    main_call2.cst.ref, main_call2.v0.ref, main_call2.v1.ref ]

theorem feat_writes :
    (RRun.opsFeat (F := F)).Forall fun op => op.writes ⊆ ((featW).map (Proc.devRef (τ := τ) .tc)).toFinset := by
  simp only [RRun.opsFeat, List.Forall, nullary_writes, unary_writes, binary_writes, ternary_writes, reshape_writes,
    Finset.singleton_subset_iff, List.mem_toFinset]
  repeat' apply And.intro
  all_goals exact List.mem_map.mpr ⟨_, by decide, rfl⟩

/-- A buffer `opsFeat` does not write keeps its contents through it. -/
theorem feat_frame (W : Valuation τ sig (Elt F)) {r : Ref sig .tc} (hr : r ∉ featW) :
    after RRun.opsFeat W (Proc.devRef .tc r) = W (Proc.devRef .tc r) :=
  after_of_writes_sub _ W feat_writes hr

/-- The buffers the operations of `opsL0` write, in order. -/
def l0W : List (Ref sig .tc) :=
  [
    main_v55, main_v56, main_v57, main_v58, main_cst_10, main_v59,
    main_cst_11, main_v60, main_v61, main_c_12, main_call3.cst.ref, main_call3.v0.ref,
    main_call3.v1.ref, main_call3.cst_0.ref, main_call3.v2.ref, main_call3.v3.ref, main_call3.v4.ref, main_call3.v5.ref,
    main_call3.v6.ref, main_call3.v7.ref, main_call3.cst_1.ref, main_call3.v8.ref, main_call3.cst_2.ref, main_call3.v9.ref,
    main_call3.v10.ref, main_call3.v11.ref, main_call3.cst_3.ref, main_call3.v12.ref, main_call3.cst_4.ref, main_call3.call0.v0.ref,
    main_call3.call0.v1.ref, main_call3.call0.v2.ref, main_v63, main_v64, main_v65, main_cst_13,
    main_v66, main_v67, main_v68, main_v69, main_v70, main_v71,
    main_v72, main_v73, main_v74, main_v75, main_v76, main_v77,
    main_v78, main_v79, main_v80, main_v81, main_v82, main_v83,
    main_c_14, main_v84, main_v85, main_c_15, main_v86, main_v87,
    main_v88, main_v89, main_v90, main_v91, main_v92, main_cst_16,
    main_v93, main_v94, main_v95, main_v96, main_v97, main_v98,
    main_call4.cst.ref, main_call4.v0.ref, main_call4.v1.ref ]

theorem l0_writes :
    (RRun.opsL0 (F := F)).Forall fun op => op.writes ⊆ ((l0W).map (Proc.devRef (τ := τ) .tc)).toFinset := by
  simp only [RRun.opsL0, List.Forall, nullary_writes, unary_writes, binary_writes, ternary_writes, reshape_writes,
    Finset.singleton_subset_iff, List.mem_toFinset]
  repeat' apply And.intro
  all_goals exact List.mem_map.mpr ⟨_, by decide, rfl⟩

/-- A buffer `opsL0` does not write keeps its contents through it. -/
theorem l0_frame (W : Valuation τ sig (Elt F)) {r : Ref sig .tc} (hr : r ∉ l0W) :
    after RRun.opsL0 W (Proc.devRef .tc r) = W (Proc.devRef .tc r) :=
  after_of_writes_sub _ W l0_writes hr

/-- The buffers the operations of `opsL1` write, in order. -/
def l1W : List (Ref sig .tc) :=
  [
    main_v100, main_v101, main_v102, main_v103, main_cst_17, main_v104,
    main_cst_18, main_v105, main_v106, main_c_19, main_call5.cst.ref, main_call5.v0.ref,
    main_call5.v1.ref, main_call5.cst_0.ref, main_call5.v2.ref, main_call5.v3.ref, main_call5.v4.ref, main_call5.v5.ref,
    main_call5.v6.ref, main_call5.v7.ref, main_call5.cst_1.ref, main_call5.v8.ref, main_call5.cst_2.ref, main_call5.v9.ref,
    main_call5.v10.ref, main_call5.v11.ref, main_call5.cst_3.ref, main_call5.v12.ref, main_call5.cst_4.ref, main_call5.call0.v0.ref,
    main_call5.call0.v1.ref, main_call5.call0.v2.ref, main_v108, main_v109, main_v110, main_cst_20,
    main_v111, main_v112, main_v113, main_v114, main_v115, main_v116,
    main_v117, main_v118, main_v119, main_v120, main_v121, main_v122,
    main_v123, main_v124, main_v125, main_v126, main_v127, main_v128,
    main_c_21, main_v129, main_v130, main_c_22, main_v131, main_v132,
    main_v133, main_v134, main_v135, main_v136, main_v137, main_cst_23,
    main_v138, main_v139, main_v140, main_v141, main_v142, main_v143,
    main_call6.cst.ref, main_call6.v0.ref, main_call6.v1.ref ]

theorem l1_writes :
    (RRun.opsL1 (F := F)).Forall fun op => op.writes ⊆ ((l1W).map (Proc.devRef (τ := τ) .tc)).toFinset := by
  simp only [RRun.opsL1, List.Forall, nullary_writes, unary_writes, binary_writes, ternary_writes, reshape_writes,
    Finset.singleton_subset_iff, List.mem_toFinset]
  repeat' apply And.intro
  all_goals exact List.mem_map.mpr ⟨_, by decide, rfl⟩

/-- A buffer `opsL1` does not write keeps its contents through it. -/
theorem l1_frame (W : Valuation τ sig (Elt F)) {r : Ref sig .tc} (hr : r ∉ l1W) :
    after RRun.opsL1 W (Proc.devRef .tc r) = W (Proc.devRef .tc r) :=
  after_of_writes_sub _ W l1_writes hr

/-- The buffers the operations of `opsL2` write, in order. -/
def l2W : List (Ref sig .tc) :=
  [
    main_v145, main_v146, main_v147, main_v148, main_cst_24, main_v149,
    main_cst_25, main_v150, main_v151, main_c_26, main_call7.cst.ref, main_call7.v0.ref,
    main_call7.v1.ref, main_call7.cst_0.ref, main_call7.v2.ref, main_call7.v3.ref, main_call7.v4.ref, main_call7.v5.ref,
    main_call7.v6.ref, main_call7.v7.ref, main_call7.cst_1.ref, main_call7.v8.ref, main_call7.cst_2.ref, main_call7.v9.ref,
    main_call7.v10.ref, main_call7.v11.ref, main_call7.cst_3.ref, main_call7.v12.ref, main_call7.cst_4.ref, main_call7.call0.v0.ref,
    main_call7.call0.v1.ref, main_call7.call0.v2.ref, main_v153, main_v154, main_v155, main_cst_27,
    main_v156, main_v157, main_v158, main_v159, main_v160, main_v161,
    main_v162, main_v163, main_v164, main_v165, main_v166, main_v167,
    main_v168, main_v169, main_v170, main_v171, main_v172, main_v173,
    main_c_28, main_v174, main_v175, main_c_29, main_v176, main_v177,
    main_v178, main_v179, main_v180, main_v181, main_v182, main_cst_30,
    main_v183, main_v184, main_v185, main_v186, main_v187, main_v188,
    main_call8.cst.ref, main_call8.v0.ref, main_call8.v1.ref ]

theorem l2_writes :
    (RRun.opsL2 (F := F)).Forall fun op => op.writes ⊆ ((l2W).map (Proc.devRef (τ := τ) .tc)).toFinset := by
  simp only [RRun.opsL2, List.Forall, nullary_writes, unary_writes, binary_writes, ternary_writes, reshape_writes,
    Finset.singleton_subset_iff, List.mem_toFinset]
  repeat' apply And.intro
  all_goals exact List.mem_map.mpr ⟨_, by decide, rfl⟩

/-- A buffer `opsL2` does not write keeps its contents through it. -/
theorem l2_frame (W : Valuation τ sig (Elt F)) {r : Ref sig .tc} (hr : r ∉ l2W) :
    after RRun.opsL2 W (Proc.devRef .tc r) = W (Proc.devRef .tc r) :=
  after_of_writes_sub _ W l2_writes hr

/-- The buffers the operations of `opsPool` write, in order. -/
def poolW : List (Ref sig .tc) :=
  [
    main_cst_31, main_v190, main_v191, main_v192 ]

theorem pool_writes :
    (RRun.opsPool (F := F)).Forall fun op => op.writes ⊆ ((poolW).map (Proc.devRef (τ := τ) .tc)).toFinset := by
  simp only [RRun.opsPool, List.Forall, nullary_writes, unary_writes, binary_writes, ternary_writes, reshape_writes,
    Finset.singleton_subset_iff, List.mem_toFinset]
  repeat' apply And.intro
  all_goals exact List.mem_map.mpr ⟨_, by decide, rfl⟩

/-- A buffer `opsPool` does not write keeps its contents through it. -/
theorem pool_frame (W : Valuation τ sig (Elt F)) {r : Ref sig .tc} (hr : r ∉ poolW) :
    after RRun.opsPool W (Proc.devRef .tc r) = W (Proc.devRef .tc r) :=
  after_of_writes_sub _ W pool_writes hr

/-- The buffers the operations of `opsTail` write, in order. -/
def tailW : List (Ref sig .tc) :=
  [
    main_cst_32, main_v193, main_cst_33, main_v194, main_v195, main_c_34,
    main_call9.cst.ref, main_call9.v0.ref, main_call9.v1.ref, main_call9.cst_0.ref, main_call9.v2.ref, main_call9.v3.ref,
    main_call9.v4.ref, main_call9.v5.ref, main_call9.v6.ref, main_call9.v7.ref, main_call9.cst_1.ref, main_call9.v8.ref,
    main_call9.cst_2.ref, main_call9.v9.ref, main_call9.v10.ref, main_call9.v11.ref, main_call9.cst_3.ref, main_call9.v12.ref,
    main_call9.cst_4.ref, main_call9.call0.v0.ref, main_call9.call0.v1.ref, main_call9.call0.v2.ref, main_v197, main_v198,
    main_v199, main_cst_35, main_v200, main_v201, main_v202, main_v203,
    main_v204, main_v205, main_v206, main_v207, main_v208, main_v209,
    main_v210, main_v211, main_v212, main_v213, main_v214, main_v215,
    main_call10.cst.ref, main_call10.v0.ref, main_call10.v1.ref, main_cst_36, main_v217, main_cst_37,
    main_v218, main_v219, main_c_38, main_call11.cst.ref, main_call11.v0.ref, main_call11.v1.ref,
    main_call11.cst_0.ref, main_call11.v2.ref, main_call11.v3.ref, main_call11.v4.ref, main_call11.v5.ref, main_call11.v6.ref,
    main_call11.v7.ref, main_call11.cst_1.ref, main_call11.v8.ref, main_call11.cst_2.ref, main_call11.v9.ref, main_call11.v10.ref,
    main_call11.v11.ref, main_call11.cst_3.ref, main_call11.v12.ref, main_call11.cst_4.ref, main_call11.call0.v0.ref, main_call11.call0.v1.ref,
    main_call11.call0.v2.ref, main_v221, main_v222, main_v223, main_cst_39, main_v224,
    main_v225, main_v226, main_v227, main_v228, main_v229, main_v230,
    main_v231, main_v232, main_v233, main_v234, main_v235, main_v236,
    main_v237, main_v238, main_v239, main_call12.cst.ref, main_call12.v0.ref, main_call12.cst_0.ref,
    main_call12.v1.ref, main_call12.v2.ref, main_call12.v3.ref, main_call12.v4.ref, main_call12.v5.ref, main_call12.v6.ref,
    main_call12.cst_1.ref, main_call12.v7.ref, main_call12.v8.ref, main_call12.v9.ref, main_call12.v10.ref, main_call12.v11.ref ]

theorem tail_writes :
    (RRun.opsTail (F := F)).Forall fun op => op.writes ⊆ ((tailW).map (Proc.devRef (τ := τ) .tc)).toFinset := by
  simp only [RRun.opsTail, List.Forall, nullary_writes, unary_writes, binary_writes, ternary_writes, reshape_writes,
    Finset.singleton_subset_iff, List.mem_toFinset]
  repeat' apply And.intro
  all_goals exact List.mem_map.mpr ⟨_, by decide, rfl⟩

/-- A buffer `opsTail` does not write keeps its contents through it. -/
theorem tail_frame (W : Valuation τ sig (Elt F)) {r : Ref sig .tc} (hr : r ∉ tailW) :
    after RRun.opsTail W (Proc.devRef .tc r) = W (Proc.devRef .tc r) :=
  after_of_writes_sub _ W tail_writes hr

end Cert.ReferenceIdeal.RVal
-- ==== Proof.RValA.lean ====
/-
  What the first, second and sixth pieces of the reference line leave at the buffers later pieces read:
  the edge lists and the edge normalisation, the feature layer, the pooled sums.
-/
import proofs.«416283_j44736379355415_1_alg».proof.Proof.ROps
import proofs.«416283_j44736379355415_1_alg».proof.Proof.Spec

noncomputable section

namespace Cert.ReferenceIdeal.RVal

open Cert.ReferenceIdeal Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 1000000 in
/-- The source indices: row 0 of the edges followed by the self loops. -/
theorem norm_src (W : Valuation τ sig (Elt F)) :
    after RRun.opsNorm W (main_v3 : DevRef τ sig) = Spec.srcIdx (W (main_arg1 : DevRef τ sig)) := by
  simp only [after_cons, after_nil]
  rfl

attribute [local irreducible] Host.reduce Host.reduceAdd Host.gather Host.scatterAdd in
set_option maxRecDepth 8192 in
set_option maxHeartbeats 1000000 in
/-- The destination indices: row 1 of the edges followed by the self loops. -/
theorem norm_dst (W : Valuation τ sig (Elt F)) :
    after RRun.opsNorm W (main_v6 : DevRef τ sig) = Spec.dstIdx (W (main_arg1 : DevRef τ sig)) := by
  simp only [after_cons, after_nil]
  rfl

attribute [local irreducible] Host.reduce Host.reduceAdd Host.gather Host.scatterAdd in
set_option maxRecDepth 8192 in
set_option maxHeartbeats 1000000 in
/-- The per-edge normalisation. -/
theorem norm_nrm (W : Valuation τ sig (Elt F)) :
    after RRun.opsNorm W (main_v30 : DevRef τ sig) = Spec.edgeNorm (W (main_arg1 : DevRef τ sig)) := by
  simp only [after_cons, after_nil]
  rfl

attribute [local irreducible] Host.reduce Host.reduceAdd Host.gather Host.scatterAdd in
set_option maxRecDepth 8192 in
set_option maxHeartbeats 1000000 in
/-- The feature layer from the input, its batch statistics and the layer's parameters. -/
theorem feat_val (W : Valuation τ sig (Elt F)) :
    after RRun.opsFeat W (main_v54 : DevRef τ sig)
      = Spec.featN (W (main_arg0 : DevRef τ sig)) (Spec.meanN (W (main_arg0 : DevRef τ sig)))
          (Spec.varN (W (main_arg0 : DevRef τ sig))) (W (main_arg3 : DevRef τ sig)) (W (main_arg4 : DevRef τ sig))
          (W (main_arg5 : DevRef τ sig)) (W (main_arg6 : DevRef τ sig)) := by
  simp only [after_cons, after_nil]
  rfl

attribute [local irreducible] Host.reduce Host.reduceAdd Host.gather Host.scatterAdd in
set_option maxRecDepth 8192 in
set_option maxHeartbeats 1000000 in
/-- The pooled sums of the last layer's rows by graph index. -/
theorem pool_val (W : Valuation τ sig (Elt F)) :
    after RRun.opsPool W (main_v192 : DevRef τ sig)
      = Spec.poolN (W (main_v189 : DevRef τ sig)) (W (main_arg2 : DevRef τ sig)) := by
  simp only [after_cons, after_nil]
  rfl

end Cert.ReferenceIdeal.RVal
-- ==== Proof.RValL0.lean ====
/-
  The reference's layer 0 as one value: from the layer's input, the edge lists, the edge
  normalisation and the layer's parameters, the operations of this stretch leave the
  specification's layer function: the column statistics of the input, the normalisation with the
  layer's scale and shift, the product with the layer's matrix, and the normalised messages
  gathered at the sources, summed at the destinations, biased and rectified.
-/
import proofs.«416283_j44736379355415_1_alg».proof.Proof.ROps
import proofs.«416283_j44736379355415_1_alg».proof.Proof.Spec
import Idealize.ShloMosaic.Lib.StableHlo.Run

noncomputable section

namespace Cert.ReferenceIdeal.RVal

open Idealize.ShloMosaic Idealize.ShloMosaic.TcCoe

variable {F : FTy → Type} [FloatOps F]

attribute [local irreducible] Host.reduceAdd Host.divf Host.rsqrt Host.gather Host.scatterAdd in
set_option maxRecDepth 8192 in
set_option maxHeartbeats 400000 in
/-- The stretch's last buffer holds the layer function of the stretch's inputs: each operation's
    result read back through the chain is the corresponding subterm of the specification, the
    variance function's operations included. -/
theorem layer0_val (W : Valuation τ sig (Elt F)) :
    StableHlo.after RRun.opsL0 W (main_v99 : DevRef τ sig)
      = Spec.layerN (W (main_v54 : DevRef τ sig)) (W (main_v3 : DevRef τ sig)) (W (main_v6 : DevRef τ sig))
          (W (main_v30 : DevRef τ sig)) (Spec.row3_0 (W (main_arg7 : DevRef τ sig)))
          (Spec.row3_0 (W (main_arg8 : DevRef τ sig))) (Spec.mat3_0 (W (main_arg9 : DevRef τ sig)))
          (Spec.row3_0 (W (main_arg10 : DevRef τ sig))) := by
  simp only [StableHlo.after_cons, StableHlo.after_nil]
  rfl

end Cert.ReferenceIdeal.RVal
-- ==== Proof.RValL1.lean ====
/-
  The reference's layer 1 as one value: from the layer's input, the edge lists, the edge
  normalisation and the layer's parameters, the operations of this stretch leave the
  specification's layer function: the column statistics of the input, the normalisation with the
  layer's scale and shift, the product with the layer's matrix, and the normalised messages
  gathered at the sources, summed at the destinations, biased and rectified.
-/
import proofs.«416283_j44736379355415_1_alg».proof.Proof.ROps
import proofs.«416283_j44736379355415_1_alg».proof.Proof.Spec
import Idealize.ShloMosaic.Lib.StableHlo.Run

noncomputable section

namespace Cert.ReferenceIdeal.RVal

open Idealize.ShloMosaic Idealize.ShloMosaic.TcCoe

variable {F : FTy → Type} [FloatOps F]

attribute [local irreducible] Host.reduceAdd Host.divf Host.rsqrt Host.gather Host.scatterAdd in
set_option maxRecDepth 8192 in
set_option maxHeartbeats 400000 in
/-- The stretch's last buffer holds the layer function of the stretch's inputs: each operation's
    result read back through the chain is the corresponding subterm of the specification, the
    variance function's operations included. -/
theorem layer1_val (W : Valuation τ sig (Elt F)) :
    StableHlo.after RRun.opsL1 W (main_v144 : DevRef τ sig)
      = Spec.layerN (W (main_v99 : DevRef τ sig)) (W (main_v3 : DevRef τ sig)) (W (main_v6 : DevRef τ sig))
          (W (main_v30 : DevRef τ sig)) (Spec.row3_1 (W (main_arg7 : DevRef τ sig)))
          (Spec.row3_1 (W (main_arg8 : DevRef τ sig))) (Spec.mat3_1 (W (main_arg9 : DevRef τ sig)))
          (Spec.row3_1 (W (main_arg10 : DevRef τ sig))) := by
  simp only [StableHlo.after_cons, StableHlo.after_nil]
  rfl

end Cert.ReferenceIdeal.RVal
-- ==== Proof.RValL2.lean ====
/-
  The reference's layer 2 as one value: from the layer's input, the edge lists, the edge
  normalisation and the layer's parameters, the operations of this stretch leave the
  specification's layer function: the column statistics of the input, the normalisation with the
  layer's scale and shift, the product with the layer's matrix, and the normalised messages
  gathered at the sources, summed at the destinations, biased and rectified.
-/
import proofs.«416283_j44736379355415_1_alg».proof.Proof.ROps
import proofs.«416283_j44736379355415_1_alg».proof.Proof.Spec
import Idealize.ShloMosaic.Lib.StableHlo.Run

noncomputable section

namespace Cert.ReferenceIdeal.RVal

open Idealize.ShloMosaic Idealize.ShloMosaic.TcCoe

variable {F : FTy → Type} [FloatOps F]

attribute [local irreducible] Host.reduceAdd Host.divf Host.rsqrt Host.gather Host.scatterAdd in
set_option maxRecDepth 8192 in
set_option maxHeartbeats 400000 in
/-- The stretch's last buffer holds the layer function of the stretch's inputs: each operation's
    result read back through the chain is the corresponding subterm of the specification, the
    variance function's operations included. -/
theorem layer2_val (W : Valuation τ sig (Elt F)) :
    StableHlo.after RRun.opsL2 W (main_v189 : DevRef τ sig)
      = Spec.layerN (W (main_v144 : DevRef τ sig)) (W (main_v3 : DevRef τ sig)) (W (main_v6 : DevRef τ sig))
          (W (main_v30 : DevRef τ sig)) (Spec.row3_2 (W (main_arg7 : DevRef τ sig)))
          (Spec.row3_2 (W (main_arg8 : DevRef τ sig))) (Spec.mat3_2 (W (main_arg9 : DevRef τ sig)))
          (Spec.row3_2 (W (main_arg10 : DevRef τ sig))) := by
  simp only [StableHlo.after_cons, StableHlo.after_nil]
  rfl

end Cert.ReferenceIdeal.RVal
-- ==== Proof.RValTail.lean ====
/- the tail of the reference line (the 114 operations after the pooled array main_v192) computes
   Spec.tailN: the line is cut into seven pieces by the value computed (statistics, normalisation, hidden layer,
   statistics, normalisation, logits, log-softmax); each piece's value is read off its fold from any contents, a
   buffer a piece does not write keeps its contents, and the pieces compose. -/
import proofs.«416283_j44736379355415_1_alg».proof.Proof.ROps
import proofs.«416283_j44736379355415_1_alg».proof.Proof.Spec

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the fold over the second from the fold over the first. -/
private theorem after_app' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app' l₁ l₂]

/-! ## The tail's line, cut by the value computed -/

/-- The statistics of the pooled array: column means (main_v195) and column variances (main_v196). -/
abbrev tailA : List (HloOp τ sig (Elt F)) :=
  [ nullary main_cst_32 (constant S_ .f32 0x00000000#32),
    binary main_v192 main_cst_32 main_v193 ((fun x v => Host.reduceAdd x v reducesTo_S128x64_S64_d0 h_S_) : (⟨S128x64, .f32⟩ : BufTy).Contents (Elt F) → (⟨S_, .f32⟩ : BufTy).Contents (Elt F) → (⟨S64, .f32⟩ : BufTy).Contents (Elt F)),
    nullary main_cst_33 (constant S_ .f32 0x43000000#32),
    unary main_cst_33 main_v194 (broadcastInDim S64 ![] bcast_S_S64 : (⟨S_, .f32⟩ : BufTy).Contents (Elt F) → (⟨S64, .f32⟩ : BufTy).Contents (Elt F)),
    binary main_v193 main_v194 main_v195 (Host.divf : (⟨S64, .f32⟩ : BufTy).Contents (Elt F) → (⟨S64, .f32⟩ : BufTy).Contents (Elt F) → (⟨S64, .f32⟩ : BufTy).Contents (Elt F)),
    nullary main_c_34 (constantI S_ 32 0#32),
    TRef.nullary main_call9.cst (constant S_ .f32 0x00000000#32),
    TRef.binary (.of main_v192 : TRef sig ⟨S128x64, .f32⟩) main_call9.cst main_call9.v0 (fun x v => Host.reduceAdd x v reducesTo_S128x64_S64_d0 h_S_),
    TRef.unary main_call9.v0 main_call9.v1 (broadcastInDim S1x64 ![1] bcast_S64_S1x64_1),
    TRef.nullary main_call9.cst_0 (constant S_ .f32 0x43000000#32),
    TRef.unary main_call9.cst_0 main_call9.v2 (broadcastInDim S1x64 ![] bcast_S_S1x64),
    TRef.binary main_call9.v1 main_call9.v2 main_call9.v3 Host.divf,
    TRef.unary main_call9.v3 main_call9.v4 (broadcastInDim S128x64 ![0, 1] bcast_S1x64_S128x64_0_1),
    TRef.binary (.of main_v192 : TRef sig ⟨S128x64, .f32⟩) main_call9.v4 main_call9.v5 subf,
    TRef.binary main_call9.v5 main_call9.v5 main_call9.v6 mulf,
    TRef.unary (.of main_c_34 : TRef sig ⟨S_, .i32⟩) main_call9.v7 (sitofp .f32),
    TRef.nullary main_call9.cst_1 (constant S_ .f32 0x43000000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S128x64_S64_d0 h_S_),
    TRef.unary main_call9.v8 main_call9.v10 (broadcastInDim S64 ![] bcast_S_S64),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S64 ![] bcast_S_S64),
    TRef.ternary main_call9.v12 main_call9.v11 main_call9.call0.v1 main_call9.call0.v2 (fun p a b => select (broadcastInDim S64 ![] bcast_S_S64 p) a b) ]

/-- The buffers `tailA` writes, in order. -/
def tailAW : List (Ref sig .tc) :=
  [ main_cst_32, main_v193, main_cst_33, main_v194, main_v195, main_c_34, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref ]

theorem tailA_writes :
    (tailA (F := F)).Forall fun op => op.writes ⊆ ((tailAW).map (Proc.devRef (τ := τ) .tc)).toFinset := by
  simp only [tailA, List.Forall, nullary_writes, unary_writes, binary_writes, ternary_writes, reshape_writes,
    Finset.singleton_subset_iff, List.mem_toFinset]
  repeat' apply And.intro
  all_goals exact List.mem_map.mpr ⟨_, by decide, rfl⟩

/-- A buffer `tailA` does not write keeps its contents through it. -/
theorem tailA_frame (W : Valuation τ sig (Elt F)) {r : Ref sig .tc} (hr : r ∉ tailAW) :
    after tailA W (Proc.devRef .tc r) = W (Proc.devRef .tc r) :=
  after_of_writes_sub _ W tailA_writes hr

/-- The first normalisation (main_v211). -/
abbrev tailB : List (HloOp τ sig (Elt F)) :=
  [ unary main_v195 main_v197 (broadcastInDim S1x64 ![1] bcast_S64_S1x64_1 : (⟨S64, .f32⟩ : BufTy).Contents (Elt F) → (⟨S1x64, .f32⟩ : BufTy).Contents (Elt F)),
    unary main_v197 main_v198 (broadcastInDim S128x64 ![0, 1] bcast_S1x64_S128x64_0_1 : (⟨S1x64, .f32⟩ : BufTy).Contents (Elt F) → (⟨S128x64, .f32⟩ : BufTy).Contents (Elt F)),
    binary main_v192 main_v198 main_v199 (subf : (⟨S128x64, .f32⟩ : BufTy).Contents (Elt F) → (⟨S128x64, .f32⟩ : BufTy).Contents (Elt F) → (⟨S128x64, .f32⟩ : BufTy).Contents (Elt F)),
    nullary main_cst_35 (constant S_ .f32 0x3727C5AC#32),
    unary main_cst_35 main_v200 (broadcastInDim S64 ![] bcast_S_S64 : (⟨S_, .f32⟩ : BufTy).Contents (Elt F) → (⟨S64, .f32⟩ : BufTy).Contents (Elt F)),
    binary main_v196 main_v200 main_v201 (addf : (⟨S64, .f32⟩ : BufTy).Contents (Elt F) → (⟨S64, .f32⟩ : BufTy).Contents (Elt F) → (⟨S64, .f32⟩ : BufTy).Contents (Elt F)),
    unary main_v201 main_v202 (Host.rsqrt : (⟨S64, .f32⟩ : BufTy).Contents (Elt F) → (⟨S64, .f32⟩ : BufTy).Contents (Elt F)),
    unary main_v202 main_v203 (broadcastInDim S1x64 ![1] bcast_S64_S1x64_1 : (⟨S64, .f32⟩ : BufTy).Contents (Elt F) → (⟨S1x64, .f32⟩ : BufTy).Contents (Elt F)),
    unary main_v203 main_v204 (broadcastInDim S128x64 ![0, 1] bcast_S1x64_S128x64_0_1 : (⟨S1x64, .f32⟩ : BufTy).Contents (Elt F) → (⟨S128x64, .f32⟩ : BufTy).Contents (Elt F)),
    binary main_v199 main_v204 main_v205 (mulf : (⟨S128x64, .f32⟩ : BufTy).Contents (Elt F) → (⟨S128x64, .f32⟩ : BufTy).Contents (Elt F) → (⟨S128x64, .f32⟩ : BufTy).Contents (Elt F)),
    unary main_arg11 main_v206 (broadcastInDim S1x64 ![1] bcast_S64_S1x64_1 : (⟨S64, .f32⟩ : BufTy).Contents (Elt F) → (⟨S1x64, .f32⟩ : BufTy).Contents (Elt F)),
    unary main_v206 main_v207 (broadcastInDim S128x64 ![0, 1] bcast_S1x64_S128x64_0_1 : (⟨S1x64, .f32⟩ : BufTy).Contents (Elt F) → (⟨S128x64, .f32⟩ : BufTy).Contents (Elt F)),
    binary main_v205 main_v207 main_v208 (mulf : (⟨S128x64, .f32⟩ : BufTy).Contents (Elt F) → (⟨S128x64, .f32⟩ : BufTy).Contents (Elt F) → (⟨S128x64, .f32⟩ : BufTy).Contents (Elt F)),
    unary main_arg12 main_v209 (broadcastInDim S1x64 ![1] bcast_S64_S1x64_1 : (⟨S64, .f32⟩ : BufTy).Contents (Elt F) → (⟨S1x64, .f32⟩ : BufTy).Contents (Elt F)),
    unary main_v209 main_v210 (broadcastInDim S128x64 ![0, 1] bcast_S1x64_S128x64_0_1 : (⟨S1x64, .f32⟩ : BufTy).Contents (Elt F) → (⟨S128x64, .f32⟩ : BufTy).Contents (Elt F)),
    binary main_v208 main_v210 main_v211 (addf : (⟨S128x64, .f32⟩ : BufTy).Contents (Elt F) → (⟨S128x64, .f32⟩ : BufTy).Contents (Elt F) → (⟨S128x64, .f32⟩ : BufTy).Contents (Elt F)) ]

/-- The buffers `tailB` writes, in order. -/
def tailBW : List (Ref sig .tc) :=
  [ main_v197, main_v198, main_v199, main_cst_35, main_v200, main_v201, main_v202, main_v203, main_v204, main_v205, main_v206, main_v207, main_v208, main_v209, main_v210, main_v211 ]

theorem tailB_writes :
    (tailB (F := F)).Forall fun op => op.writes ⊆ ((tailBW).map (Proc.devRef (τ := τ) .tc)).toFinset := by
  simp only [tailB, List.Forall, nullary_writes, unary_writes, binary_writes, ternary_writes, reshape_writes,
    Finset.singleton_subset_iff, List.mem_toFinset]
  repeat' apply And.intro
  all_goals exact List.mem_map.mpr ⟨_, by decide, rfl⟩

/-- A buffer `tailB` does not write keeps its contents through it. -/
theorem tailB_frame (W : Valuation τ sig (Elt F)) {r : Ref sig .tc} (hr : r ∉ tailBW) :
    after tailB W (Proc.devRef .tc r) = W (Proc.devRef .tc r) :=
  after_of_writes_sub _ W tailB_writes hr

/-- The hidden layer: matrix product, bias, maximum with 0 (main_v216). -/
abbrev tailC : List (HloOp τ sig (Elt F)) :=
  [ binary main_v211 main_arg13 main_v212 ((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F)),
    unary main_arg14 main_v213 (broadcastInDim S1x64 ![1] bcast_S64_S1x64_1 : (⟨S64, .f32⟩ : BufTy).Contents (Elt F) → (⟨S1x64, .f32⟩ : BufTy).Contents (Elt F)),
    unary main_v213 main_v214 (broadcastInDim S128x64 ![0, 1] bcast_S1x64_S128x64_0_1 : (⟨S1x64, .f32⟩ : BufTy).Contents (Elt F) → (⟨S128x64, .f32⟩ : BufTy).Contents (Elt F)),
    binary main_v212 main_v214 main_v215 (addf : (⟨S128x64, .f32⟩ : BufTy).Contents (Elt F) → (⟨S128x64, .f32⟩ : BufTy).Contents (Elt F) → (⟨S128x64, .f32⟩ : BufTy).Contents (Elt F)),
    TRef.nullary main_call10.cst (constant S_ .f32 0x00000000#32),
    TRef.unary main_call10.cst main_call10.v0 (broadcastInDim S128x64 ![] bcast_S_S128x64),
    TRef.binary (.of main_v215 : TRef sig ⟨S128x64, .f32⟩) main_call10.v0 main_call10.v1 maximumf ]

/-- The buffers `tailC` writes, in order. -/
def tailCW : List (Ref sig .tc) :=
  [ main_v212, main_v213, main_v214, main_v215, main_call10.cst.ref, main_call10.v0.ref, main_call10.v1.ref ]

theorem tailC_writes :
    (tailC (F := F)).Forall fun op => op.writes ⊆ ((tailCW).map (Proc.devRef (τ := τ) .tc)).toFinset := by
  simp only [tailC, List.Forall, nullary_writes, unary_writes, binary_writes, ternary_writes, reshape_writes,
    Finset.singleton_subset_iff, List.mem_toFinset]
  repeat' apply And.intro
  all_goals exact List.mem_map.mpr ⟨_, by decide, rfl⟩

/-- A buffer `tailC` does not write keeps its contents through it. -/
theorem tailC_frame (W : Valuation τ sig (Elt F)) {r : Ref sig .tc} (hr : r ∉ tailCW) :
    after tailC W (Proc.devRef .tc r) = W (Proc.devRef .tc r) :=
  after_of_writes_sub _ W tailC_writes hr

/-- The statistics of the hidden layer: column means (main_v219) and column variances (main_v220). -/
abbrev tailD : List (HloOp τ sig (Elt F)) :=
  [ nullary main_cst_36 (constant S_ .f32 0x00000000#32),
    binary main_v216 main_cst_36 main_v217 ((fun x v => Host.reduceAdd x v reducesTo_S128x64_S64_d0 h_S_) : (⟨S128x64, .f32⟩ : BufTy).Contents (Elt F) → (⟨S_, .f32⟩ : BufTy).Contents (Elt F) → (⟨S64, .f32⟩ : BufTy).Contents (Elt F)),
    nullary main_cst_37 (constant S_ .f32 0x43000000#32),
    unary main_cst_37 main_v218 (broadcastInDim S64 ![] bcast_S_S64 : (⟨S_, .f32⟩ : BufTy).Contents (Elt F) → (⟨S64, .f32⟩ : BufTy).Contents (Elt F)),
    binary main_v217 main_v218 main_v219 (Host.divf : (⟨S64, .f32⟩ : BufTy).Contents (Elt F) → (⟨S64, .f32⟩ : BufTy).Contents (Elt F) → (⟨S64, .f32⟩ : BufTy).Contents (Elt F)),
    nullary main_c_38 (constantI S_ 32 0#32),
    TRef.nullary main_call11.cst (constant S_ .f32 0x00000000#32),
    TRef.binary (.of main_v216 : TRef sig ⟨S128x64, .f32⟩) main_call11.cst main_call11.v0 (fun x v => Host.reduceAdd x v reducesTo_S128x64_S64_d0 h_S_),
    TRef.unary main_call11.v0 main_call11.v1 (broadcastInDim S1x64 ![1] bcast_S64_S1x64_1),
    TRef.nullary main_call11.cst_0 (constant S_ .f32 0x43000000#32),
    TRef.unary main_call11.cst_0 main_call11.v2 (broadcastInDim S1x64 ![] bcast_S_S1x64),
    TRef.binary main_call11.v1 main_call11.v2 main_call11.v3 Host.divf,
    TRef.unary main_call11.v3 main_call11.v4 (broadcastInDim S128x64 ![0, 1] bcast_S1x64_S128x64_0_1),
    TRef.binary (.of main_v216 : TRef sig ⟨S128x64, .f32⟩) main_call11.v4 main_call11.v5 subf,
    TRef.binary main_call11.v5 main_call11.v5 main_call11.v6 mulf,
    TRef.unary (.of main_c_38 : TRef sig ⟨S_, .i32⟩) main_call11.v7 (sitofp .f32),
    TRef.nullary main_call11.cst_1 (constant S_ .f32 0x43000000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S128x64_S64_d0 h_S_),
    TRef.unary main_call11.v8 main_call11.v10 (broadcastInDim S64 ![] bcast_S_S64),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S64 ![] bcast_S_S64),
    TRef.ternary main_call11.v12 main_call11.v11 main_call11.call0.v1 main_call11.call0.v2 (fun p a b => select (broadcastInDim S64 ![] bcast_S_S64 p) a b) ]

/-- The buffers `tailD` writes, in order. -/
def tailDW : List (Ref sig .tc) :=
  [ main_cst_36, main_v217, main_cst_37, main_v218, main_v219, main_c_38, main_call11.cst.ref, main_call11.v0.ref, main_call11.v1.ref, main_call11.cst_0.ref, main_call11.v2.ref, main_call11.v3.ref, main_call11.v4.ref, main_call11.v5.ref, main_call11.v6.ref, main_call11.v7.ref, main_call11.cst_1.ref, main_call11.v8.ref, main_call11.cst_2.ref, main_call11.v9.ref, main_call11.v10.ref, main_call11.v11.ref, main_call11.cst_3.ref, main_call11.v12.ref, main_call11.cst_4.ref, main_call11.call0.v0.ref, main_call11.call0.v1.ref, main_call11.call0.v2.ref ]

theorem tailD_writes :
    (tailD (F := F)).Forall fun op => op.writes ⊆ ((tailDW).map (Proc.devRef (τ := τ) .tc)).toFinset := by
  simp only [tailD, List.Forall, nullary_writes, unary_writes, binary_writes, ternary_writes, reshape_writes,
    Finset.singleton_subset_iff, List.mem_toFinset]
  repeat' apply And.intro
  all_goals exact List.mem_map.mpr ⟨_, by decide, rfl⟩

/-- A buffer `tailD` does not write keeps its contents through it. -/
theorem tailD_frame (W : Valuation τ sig (Elt F)) {r : Ref sig .tc} (hr : r ∉ tailDW) :
    after tailD W (Proc.devRef .tc r) = W (Proc.devRef .tc r) :=
  after_of_writes_sub _ W tailD_writes hr

/-- The second normalisation (main_v235). -/
abbrev tailE : List (HloOp τ sig (Elt F)) :=
  [ unary main_v219 main_v221 (broadcastInDim S1x64 ![1] bcast_S64_S1x64_1 : (⟨S64, .f32⟩ : BufTy).Contents (Elt F) → (⟨S1x64, .f32⟩ : BufTy).Contents (Elt F)),
    unary main_v221 main_v222 (broadcastInDim S128x64 ![0, 1] bcast_S1x64_S128x64_0_1 : (⟨S1x64, .f32⟩ : BufTy).Contents (Elt F) → (⟨S128x64, .f32⟩ : BufTy).Contents (Elt F)),
    binary main_v216 main_v222 main_v223 (subf : (⟨S128x64, .f32⟩ : BufTy).Contents (Elt F) → (⟨S128x64, .f32⟩ : BufTy).Contents (Elt F) → (⟨S128x64, .f32⟩ : BufTy).Contents (Elt F)),
    nullary main_cst_39 (constant S_ .f32 0x3727C5AC#32),
    unary main_cst_39 main_v224 (broadcastInDim S64 ![] bcast_S_S64 : (⟨S_, .f32⟩ : BufTy).Contents (Elt F) → (⟨S64, .f32⟩ : BufTy).Contents (Elt F)),
    binary main_v220 main_v224 main_v225 (addf : (⟨S64, .f32⟩ : BufTy).Contents (Elt F) → (⟨S64, .f32⟩ : BufTy).Contents (Elt F) → (⟨S64, .f32⟩ : BufTy).Contents (Elt F)),
    unary main_v225 main_v226 (Host.rsqrt : (⟨S64, .f32⟩ : BufTy).Contents (Elt F) → (⟨S64, .f32⟩ : BufTy).Contents (Elt F)),
    unary main_v226 main_v227 (broadcastInDim S1x64 ![1] bcast_S64_S1x64_1 : (⟨S64, .f32⟩ : BufTy).Contents (Elt F) → (⟨S1x64, .f32⟩ : BufTy).Contents (Elt F)),
    unary main_v227 main_v228 (broadcastInDim S128x64 ![0, 1] bcast_S1x64_S128x64_0_1 : (⟨S1x64, .f32⟩ : BufTy).Contents (Elt F) → (⟨S128x64, .f32⟩ : BufTy).Contents (Elt F)),
    binary main_v223 main_v228 main_v229 (mulf : (⟨S128x64, .f32⟩ : BufTy).Contents (Elt F) → (⟨S128x64, .f32⟩ : BufTy).Contents (Elt F) → (⟨S128x64, .f32⟩ : BufTy).Contents (Elt F)),
    unary main_arg15 main_v230 (broadcastInDim S1x64 ![1] bcast_S64_S1x64_1 : (⟨S64, .f32⟩ : BufTy).Contents (Elt F) → (⟨S1x64, .f32⟩ : BufTy).Contents (Elt F)),
    unary main_v230 main_v231 (broadcastInDim S128x64 ![0, 1] bcast_S1x64_S128x64_0_1 : (⟨S1x64, .f32⟩ : BufTy).Contents (Elt F) → (⟨S128x64, .f32⟩ : BufTy).Contents (Elt F)),
    binary main_v229 main_v231 main_v232 (mulf : (⟨S128x64, .f32⟩ : BufTy).Contents (Elt F) → (⟨S128x64, .f32⟩ : BufTy).Contents (Elt F) → (⟨S128x64, .f32⟩ : BufTy).Contents (Elt F)),
    unary main_arg16 main_v233 (broadcastInDim S1x64 ![1] bcast_S64_S1x64_1 : (⟨S64, .f32⟩ : BufTy).Contents (Elt F) → (⟨S1x64, .f32⟩ : BufTy).Contents (Elt F)),
    unary main_v233 main_v234 (broadcastInDim S128x64 ![0, 1] bcast_S1x64_S128x64_0_1 : (⟨S1x64, .f32⟩ : BufTy).Contents (Elt F) → (⟨S128x64, .f32⟩ : BufTy).Contents (Elt F)),
    binary main_v232 main_v234 main_v235 (addf : (⟨S128x64, .f32⟩ : BufTy).Contents (Elt F) → (⟨S128x64, .f32⟩ : BufTy).Contents (Elt F) → (⟨S128x64, .f32⟩ : BufTy).Contents (Elt F)) ]

/-- The buffers `tailE` writes, in order. -/
def tailEW : List (Ref sig .tc) :=
  [ main_v221, main_v222, main_v223, main_cst_39, main_v224, main_v225, main_v226, main_v227, main_v228, main_v229, main_v230, main_v231, main_v232, main_v233, main_v234, main_v235 ]

theorem tailE_writes :
    (tailE (F := F)).Forall fun op => op.writes ⊆ ((tailEW).map (Proc.devRef (τ := τ) .tc)).toFinset := by
  simp only [tailE, List.Forall, nullary_writes, unary_writes, binary_writes, ternary_writes, reshape_writes,
    Finset.singleton_subset_iff, List.mem_toFinset]
  repeat' apply And.intro
  all_goals exact List.mem_map.mpr ⟨_, by decide, rfl⟩

/-- A buffer `tailE` does not write keeps its contents through it. -/
theorem tailE_frame (W : Valuation τ sig (Elt F)) {r : Ref sig .tc} (hr : r ∉ tailEW) :
    after tailE W (Proc.devRef .tc r) = W (Proc.devRef .tc r) :=
  after_of_writes_sub _ W tailE_writes hr

/-- The logits: matrix product and bias (main_v239). -/
abbrev tailF : List (HloOp τ sig (Elt F)) :=
  [ binary main_v235 main_arg17 main_v236 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    unary main_arg18 main_v237 (broadcastInDim S1x10 ![1] bcast_S10_S1x10_1 : (⟨S10, .f32⟩ : BufTy).Contents (Elt F) → (⟨S1x10, .f32⟩ : BufTy).Contents (Elt F)),
    unary main_v237 main_v238 (broadcastInDim S128x10 ![0, 1] bcast_S1x10_S128x10_0_1 : (⟨S1x10, .f32⟩ : BufTy).Contents (Elt F) → (⟨S128x10, .f32⟩ : BufTy).Contents (Elt F)),
    binary main_v236 main_v238 main_v239 (addf : (⟨S128x10, .f32⟩ : BufTy).Contents (Elt F) → (⟨S128x10, .f32⟩ : BufTy).Contents (Elt F) → (⟨S128x10, .f32⟩ : BufTy).Contents (Elt F)) ]

/-- The buffers `tailF` writes, in order. -/
def tailFW : List (Ref sig .tc) :=
  [ main_v236, main_v237, main_v238, main_v239 ]

theorem tailF_writes :
    (tailF (F := F)).Forall fun op => op.writes ⊆ ((tailFW).map (Proc.devRef (τ := τ) .tc)).toFinset := by
  simp only [tailF, List.Forall, nullary_writes, unary_writes, binary_writes, ternary_writes, reshape_writes,
    Finset.singleton_subset_iff, List.mem_toFinset]
  repeat' apply And.intro
  all_goals exact List.mem_map.mpr ⟨_, by decide, rfl⟩

/-- A buffer `tailF` does not write keeps its contents through it. -/
theorem tailF_frame (W : Valuation τ sig (Elt F)) {r : Ref sig .tc} (hr : r ∉ tailFW) :
    after tailF W (Proc.devRef .tc r) = W (Proc.devRef .tc r) :=
  after_of_writes_sub _ W tailF_writes hr

/-- The log-softmax along the ten classes (main_v240). -/
abbrev tailG : List (HloOp τ sig (Elt F)) :=
  [ TRef.nullary main_call12.cst (constant S_ .f32 0xFF800000#32),
    TRef.binary (.of main_v239 : TRef sig ⟨S128x10, .f32⟩) main_call12.cst main_call12.v0 (fun x v => Host.reduce FloatOps.maximumf x v reducesTo_S128x10_S128_d1 h_S_),
    TRef.nullary main_call12.cst_0 (constant S_ .f32 0xFF800000#32),
    TRef.unary main_call12.cst_0 main_call12.v1 (broadcastInDim S128 ![] bcast_S_S128),
    TRef.binary main_call12.v1 main_call12.v0 main_call12.v2 maximumf,
    TRef.unary main_call12.v2 main_call12.v3 (broadcastInDim S128x1 ![0] bcast_S128_S128x1_0),
    TRef.unary main_call12.v3 main_call12.v4 (broadcastInDim S128x10 ![0, 1] bcast_S128x1_S128x10_0_1),
    TRef.binary (.of main_v239 : TRef sig ⟨S128x10, .f32⟩) main_call12.v4 main_call12.v5 subf,
    TRef.unary main_call12.v5 main_call12.v6 Host.exp,
    TRef.nullary main_call12.cst_1 (constant S_ .f32 0x00000000#32),
    TRef.binary main_call12.v6 main_call12.cst_1 main_call12.v7 (fun x v => Host.reduceAdd x v reducesTo_S128x10_S128_d1 h_S_),
    TRef.unary main_call12.v7 main_call12.v8 (broadcastInDim S128x1 ![0] bcast_S128_S128x1_0),
    TRef.unary main_call12.v8 main_call12.v9 Host.log,
    TRef.unary main_call12.v9 main_call12.v10 (broadcastInDim S128x10 ![0, 1] bcast_S128x1_S128x10_0_1),
    TRef.binary main_call12.v5 main_call12.v10 main_call12.v11 subf ]

/-- The buffers `tailG` writes, in order. -/
def tailGW : List (Ref sig .tc) :=
  [ main_call12.cst.ref, main_call12.v0.ref, main_call12.cst_0.ref, main_call12.v1.ref, main_call12.v2.ref, main_call12.v3.ref, main_call12.v4.ref, main_call12.v5.ref, main_call12.v6.ref, main_call12.cst_1.ref, main_call12.v7.ref, main_call12.v8.ref, main_call12.v9.ref, main_call12.v10.ref, main_call12.v11.ref ]

theorem tailG_writes :
    (tailG (F := F)).Forall fun op => op.writes ⊆ ((tailGW).map (Proc.devRef (τ := τ) .tc)).toFinset := by
  simp only [tailG, List.Forall, nullary_writes, unary_writes, binary_writes, ternary_writes, reshape_writes,
    Finset.singleton_subset_iff, List.mem_toFinset]
  repeat' apply And.intro
  all_goals exact List.mem_map.mpr ⟨_, by decide, rfl⟩

/-- A buffer `tailG` does not write keeps its contents through it. -/
theorem tailG_frame (W : Valuation τ sig (Elt F)) {r : Ref sig .tc} (hr : r ∉ tailGW) :
    after tailG W (Proc.devRef .tc r) = W (Proc.devRef .tc r) :=
  after_of_writes_sub _ W tailG_writes hr

/-- The seven pieces in a row are the tail's line. -/
theorem opsTail_eq : (RRun.opsTail (F := F)) = tailA ++ (tailB ++ (tailC ++ (tailD ++ (tailE ++ (tailF ++ tailG))))) := rfl

/-! ## What each piece computes, from any contents -/

section values
attribute [local irreducible] Host.reduce Host.reduceAdd

set_option maxRecDepth 8192 in
set_option maxHeartbeats 400000 in
theorem tailA_mean (W : Valuation τ sig (Elt F)) :
    after tailA W (main_v195 : DevRef τ sig) = Spec.mean128 (W main_v192) := by
  simp only [tailA, after_cons, after_nil]
  rfl

set_option maxRecDepth 8192 in
set_option maxHeartbeats 400000 in
theorem tailA_var (W : Valuation τ sig (Elt F)) :
    after tailA W (main_v196 : DevRef τ sig) = Spec.var128 (W main_v192) := by
  simp only [tailA, after_cons, after_nil]
  rfl

set_option maxRecDepth 8192 in
set_option maxHeartbeats 400000 in
theorem tailB_val (W : Valuation τ sig (Elt F)) :
    after tailB W (main_v211 : DevRef τ sig)
      = Spec.bn128 (W main_v192) (W main_v195) (W main_v196) (W main_arg11) (W main_arg12) := by
  simp only [tailB, after_cons, after_nil]
  rfl

theorem tailC_val (W : Valuation τ sig (Elt F)) :
    after tailC W (main_v216 : DevRef τ sig)
      = Spec.relu128 (addf (Host.dotGeneral dot_S128x64_S64x64_S128x64_1_0_0_1_n_n none (W main_v211) (W main_arg13))
          (Spec.rows128 (W main_arg14))) := by
  simp only [tailC, after_cons, after_nil]
  rfl

set_option maxRecDepth 8192 in
set_option maxHeartbeats 400000 in
theorem tailD_mean (W : Valuation τ sig (Elt F)) :
    after tailD W (main_v219 : DevRef τ sig) = Spec.mean128 (W main_v216) := by
  simp only [tailD, after_cons, after_nil]
  rfl

set_option maxRecDepth 8192 in
set_option maxHeartbeats 400000 in
theorem tailD_var (W : Valuation τ sig (Elt F)) :
    after tailD W (main_v220 : DevRef τ sig) = Spec.var128 (W main_v216) := by
  simp only [tailD, after_cons, after_nil]
  rfl

set_option maxRecDepth 8192 in
set_option maxHeartbeats 400000 in
theorem tailE_val (W : Valuation τ sig (Elt F)) :
    after tailE W (main_v235 : DevRef τ sig)
      = Spec.bn128 (W main_v216) (W main_v219) (W main_v220) (W main_arg15) (W main_arg16) := by
  simp only [tailE, after_cons, after_nil]
  rfl

theorem tailF_val (W : Valuation τ sig (Elt F)) :
    after tailF W (main_v239 : DevRef τ sig)
      = addf (Host.dotGeneral dot_S128x64_S64x10_S128x10_1_0_0_1_n_n none (W main_v235) (W main_arg17))
          (broadcastInDim S128x10 ![0, 1] bcast_S1x10_S128x10_0_1 (broadcastInDim S1x10 ![1] bcast_S10_S1x10_1 (W main_arg18))) := by
  simp only [tailF, after_cons, after_nil]
  rfl

set_option maxRecDepth 8192 in
set_option maxHeartbeats 400000 in
theorem tailG_val (W : Valuation τ sig (Elt F)) :
    after tailG W (main_v240 : DevRef τ sig) = Spec.logSoftmax (W main_v239) := by
  simp only [tailG, after_cons, after_nil]
  rfl

end values

/-! ## The tail's value -/

/-- The tail of the reference line computes Spec.tailN of the pooled array and the eight tail parameters. -/
theorem tail_val (W : Valuation τ sig (Elt F)) :
    after RRun.opsTail W (main_v240 : DevRef τ sig)
      = Spec.tailN (W main_v192) (W main_arg11) (W main_arg12) (W main_arg13) (W main_arg14) (W main_arg15)
          (W main_arg16) (W main_arg17) (W main_arg18) := by
  rw [opsTail_eq, after_app', after_app', after_app', after_app', after_app', after_app']
  rw [tailG_val, tailF_val, tailE_val, tailE_frame _ (r := main_arg17) (by decide), tailE_frame _ (r := main_arg18) (by decide)]
  rw [tailD_mean, tailD_var, tailD_frame _ (r := main_v216) (by decide), tailD_frame _ (r := main_arg15) (by decide), tailD_frame _ (r := main_arg16) (by decide), tailD_frame _ (r := main_arg17) (by decide), tailD_frame _ (r := main_arg18) (by decide)]
  rw [tailC_val, tailC_frame _ (r := main_arg15) (by decide), tailC_frame _ (r := main_arg16) (by decide), tailC_frame _ (r := main_arg17) (by decide), tailC_frame _ (r := main_arg18) (by decide)]
  rw [tailB_val, tailB_frame _ (r := main_arg13) (by decide), tailB_frame _ (r := main_arg14) (by decide), tailB_frame _ (r := main_arg15) (by decide), tailB_frame _ (r := main_arg16) (by decide), tailB_frame _ (r := main_arg17) (by decide), tailB_frame _ (r := main_arg18) (by decide)]
  rw [tailA_mean, tailA_var, tailA_frame _ (r := main_v192) (by decide), tailA_frame _ (r := main_arg11) (by decide), tailA_frame _ (r := main_arg12) (by decide), tailA_frame _ (r := main_arg13) (by decide), tailA_frame _ (r := main_arg14) (by decide), tailA_frame _ (r := main_arg15) (by decide), tailA_frame _ (r := main_arg16) (by decide), tailA_frame _ (r := main_arg17) (by decide), tailA_frame _ (r := main_arg18) (by decide)]
  rfl

end Cert.ReferenceIdeal.RVal

end
-- ==== Proof.RVal.lean ====
/-
  What the reference line leaves at its result buffer: the seven pieces' values chained, each piece reading
  the arguments and the earlier pieces' results through the pieces that do not write them.
-/
import proofs.«416283_j44736379355415_1_alg».proof.Proof.RValFrame
import proofs.«416283_j44736379355415_1_alg».proof.Proof.RValA
import proofs.«416283_j44736379355415_1_alg».proof.Proof.RValL0
import proofs.«416283_j44736379355415_1_alg».proof.Proof.RValL1
import proofs.«416283_j44736379355415_1_alg».proof.Proof.RValL2
import proofs.«416283_j44736379355415_1_alg».proof.Proof.RValTail

noncomputable section

namespace Cert.ReferenceIdeal.RVal

open Cert.ReferenceIdeal Idealize.ShloMosaic Idealize.ShloMosaic.TcCoe Idealize.SL.Sem Idealize.ShloMosaic.StableHlo

variable {F : FTy → Type} [FloatOps F]

section Composition

variable (V : Valuation τ sig (Elt F))

/-- The whole line is its seven pieces in a row. -/
theorem ops_split :
    after RRun.ops V = after RRun.opsTail (after RRun.opsPool (after RRun.opsL2 (after RRun.opsL1 (after RRun.opsL0 (after RRun.opsFeat (after RRun.opsNorm V)))))) := by
  show after (RRun.opsNorm ++ RRun.opsFeat ++ RRun.opsL0 ++ RRun.opsL1 ++ RRun.opsL2 ++ RRun.opsPool ++ RRun.opsTail) V = _
  rw [after_app, after_app, after_app, after_app, after_app, after_app]

/-! A buffer none of the first k pieces writes holds after them what it held at the start. -/

theorem thru2 {r : Ref sig .tc} (h1 : r ∉ normW) (h2 : r ∉ featW) :
    after RRun.opsFeat (after RRun.opsNorm V) (Proc.devRef .tc r) = V (Proc.devRef .tc r) :=
  (feat_frame _ h2).trans (norm_frame V h1)

theorem thru3 {r : Ref sig .tc} (h1 : r ∉ normW) (h2 : r ∉ featW) (h3 : r ∉ l0W) :
    after RRun.opsL0 (after RRun.opsFeat (after RRun.opsNorm V)) (Proc.devRef .tc r) = V (Proc.devRef .tc r) :=
  (l0_frame _ h3).trans (thru2 V h1 h2)

theorem thru4 {r : Ref sig .tc} (h1 : r ∉ normW) (h2 : r ∉ featW) (h3 : r ∉ l0W) (h4 : r ∉ l1W) :
    after RRun.opsL1 (after RRun.opsL0 (after RRun.opsFeat (after RRun.opsNorm V))) (Proc.devRef .tc r) = V (Proc.devRef .tc r) :=
  (l1_frame _ h4).trans (thru3 V h1 h2 h3)

theorem thru5 {r : Ref sig .tc} (h1 : r ∉ normW) (h2 : r ∉ featW) (h3 : r ∉ l0W) (h4 : r ∉ l1W) (h5 : r ∉ l2W) :
    after RRun.opsL2 (after RRun.opsL1 (after RRun.opsL0 (after RRun.opsFeat (after RRun.opsNorm V)))) (Proc.devRef .tc r) = V (Proc.devRef .tc r) :=
  (l2_frame _ h5).trans (thru4 V h1 h2 h3 h4)

theorem thru6 {r : Ref sig .tc} (h1 : r ∉ normW) (h2 : r ∉ featW) (h3 : r ∉ l0W) (h4 : r ∉ l1W) (h5 : r ∉ l2W) (h6 : r ∉ poolW) :
    after RRun.opsPool (after RRun.opsL2 (after RRun.opsL1 (after RRun.opsL0 (after RRun.opsFeat (after RRun.opsNorm V))))) (Proc.devRef .tc r) = V (Proc.devRef .tc r) :=
  (pool_frame _ h6).trans (thru5 V h1 h2 h3 h4 h5)

/-! The edge lists and the edge normalisation, read by each of the three layers. -/

theorem src2 : after RRun.opsFeat (after RRun.opsNorm V) (main_v3 : DevRef τ sig) = Spec.srcIdx (V (main_arg1 : DevRef τ sig)) :=
  (feat_frame _ (r := main_v3) (by decide)).trans (norm_src V)
theorem src3 : after RRun.opsL0 (after RRun.opsFeat (after RRun.opsNorm V)) (main_v3 : DevRef τ sig) = Spec.srcIdx (V (main_arg1 : DevRef τ sig)) :=
  (l0_frame _ (r := main_v3) (by decide)).trans (src2 V)
theorem src4 : after RRun.opsL1 (after RRun.opsL0 (after RRun.opsFeat (after RRun.opsNorm V))) (main_v3 : DevRef τ sig) = Spec.srcIdx (V (main_arg1 : DevRef τ sig)) :=
  (l1_frame _ (r := main_v3) (by decide)).trans (src3 V)

theorem dst2 : after RRun.opsFeat (after RRun.opsNorm V) (main_v6 : DevRef τ sig) = Spec.dstIdx (V (main_arg1 : DevRef τ sig)) :=
  (feat_frame _ (r := main_v6) (by decide)).trans (norm_dst V)
theorem dst3 : after RRun.opsL0 (after RRun.opsFeat (after RRun.opsNorm V)) (main_v6 : DevRef τ sig) = Spec.dstIdx (V (main_arg1 : DevRef τ sig)) :=
  (l0_frame _ (r := main_v6) (by decide)).trans (dst2 V)
theorem dst4 : after RRun.opsL1 (after RRun.opsL0 (after RRun.opsFeat (after RRun.opsNorm V))) (main_v6 : DevRef τ sig) = Spec.dstIdx (V (main_arg1 : DevRef τ sig)) :=
  (l1_frame _ (r := main_v6) (by decide)).trans (dst3 V)

theorem nrm2 : after RRun.opsFeat (after RRun.opsNorm V) (main_v30 : DevRef τ sig) = Spec.edgeNorm (V (main_arg1 : DevRef τ sig)) :=
  (feat_frame _ (r := main_v30) (by decide)).trans (norm_nrm V)
theorem nrm3 : after RRun.opsL0 (after RRun.opsFeat (after RRun.opsNorm V)) (main_v30 : DevRef τ sig) = Spec.edgeNorm (V (main_arg1 : DevRef τ sig)) :=
  (l0_frame _ (r := main_v30) (by decide)).trans (nrm2 V)
theorem nrm4 : after RRun.opsL1 (after RRun.opsL0 (after RRun.opsFeat (after RRun.opsNorm V))) (main_v30 : DevRef τ sig) = Spec.edgeNorm (V (main_arg1 : DevRef τ sig)) :=
  (l1_frame _ (r := main_v30) (by decide)).trans (nrm3 V)

/-! The stages of the reference, each from the one before and the arguments. -/

/-- The feature layer of the input. -/
def stage0 : Spec.T (F := F) S100000x64 .f32 :=
  Spec.featN (V (main_arg0 : DevRef τ sig)) (Spec.meanN (V (main_arg0 : DevRef τ sig))) (Spec.varN (V (main_arg0 : DevRef τ sig))) (V (main_arg3 : DevRef τ sig)) (V (main_arg4 : DevRef τ sig)) (V (main_arg5 : DevRef τ sig)) (V (main_arg6 : DevRef τ sig))
/-- After the first graph layer. -/
def stage1 : Spec.T (F := F) S100000x64 .f32 :=
  Spec.layerN (stage0 V) (Spec.srcIdx (V (main_arg1 : DevRef τ sig))) (Spec.dstIdx (V (main_arg1 : DevRef τ sig))) (Spec.edgeNorm (V (main_arg1 : DevRef τ sig)))
    (Spec.row3_0 (V (main_arg7 : DevRef τ sig))) (Spec.row3_0 (V (main_arg8 : DevRef τ sig))) (Spec.mat3_0 (V (main_arg9 : DevRef τ sig))) (Spec.row3_0 (V (main_arg10 : DevRef τ sig)))
/-- After the second graph layer. -/
def stage2 : Spec.T (F := F) S100000x64 .f32 :=
  Spec.layerN (stage1 V) (Spec.srcIdx (V (main_arg1 : DevRef τ sig))) (Spec.dstIdx (V (main_arg1 : DevRef τ sig))) (Spec.edgeNorm (V (main_arg1 : DevRef τ sig)))
    (Spec.row3_1 (V (main_arg7 : DevRef τ sig))) (Spec.row3_1 (V (main_arg8 : DevRef τ sig))) (Spec.mat3_1 (V (main_arg9 : DevRef τ sig))) (Spec.row3_1 (V (main_arg10 : DevRef τ sig)))
/-- After the third graph layer. -/
def stage3 : Spec.T (F := F) S100000x64 .f32 :=
  Spec.layerN (stage2 V) (Spec.srcIdx (V (main_arg1 : DevRef τ sig))) (Spec.dstIdx (V (main_arg1 : DevRef τ sig))) (Spec.edgeNorm (V (main_arg1 : DevRef τ sig)))
    (Spec.row3_2 (V (main_arg7 : DevRef τ sig))) (Spec.row3_2 (V (main_arg8 : DevRef τ sig))) (Spec.mat3_2 (V (main_arg9 : DevRef τ sig))) (Spec.row3_2 (V (main_arg10 : DevRef τ sig)))
/-- The pooled sums. -/
def stageG : Spec.T (F := F) S128x64 .f32 := Spec.poolN (stage3 V) (V (main_arg2 : DevRef τ sig))

theorem at_feat : after RRun.opsFeat (after RRun.opsNorm V) (main_v54 : DevRef τ sig) = stage0 V := by
  unfold stage0
  rw [feat_val, norm_frame V (r := main_arg0) (by decide), norm_frame V (r := main_arg3) (by decide),
    norm_frame V (r := main_arg4) (by decide), norm_frame V (r := main_arg5) (by decide),
    norm_frame V (r := main_arg6) (by decide)]

theorem at_l0 : after RRun.opsL0 (after RRun.opsFeat (after RRun.opsNorm V)) (main_v99 : DevRef τ sig) = stage1 V := by
  unfold stage1
  rw [layer0_val, at_feat V, src2 V, dst2 V, nrm2 V,
    thru2 V (r := main_arg7) (by decide) (by decide),
    thru2 V (r := main_arg8) (by decide) (by decide),
    thru2 V (r := main_arg9) (by decide) (by decide),
    thru2 V (r := main_arg10) (by decide) (by decide)]

theorem at_l1 : after RRun.opsL1 (after RRun.opsL0 (after RRun.opsFeat (after RRun.opsNorm V))) (main_v144 : DevRef τ sig) = stage2 V := by
  unfold stage2
  rw [layer1_val, at_l0 V, src3 V, dst3 V, nrm3 V,
    thru3 V (r := main_arg7) (by decide) (by decide) (by decide),
    thru3 V (r := main_arg8) (by decide) (by decide) (by decide),
    thru3 V (r := main_arg9) (by decide) (by decide) (by decide),
    thru3 V (r := main_arg10) (by decide) (by decide) (by decide)]

theorem at_l2 : after RRun.opsL2 (after RRun.opsL1 (after RRun.opsL0 (after RRun.opsFeat (after RRun.opsNorm V)))) (main_v189 : DevRef τ sig) = stage3 V := by
  unfold stage3
  rw [layer2_val, at_l1 V, src4 V, dst4 V, nrm4 V,
    thru4 V (r := main_arg7) (by decide) (by decide) (by decide) (by decide),
    thru4 V (r := main_arg8) (by decide) (by decide) (by decide) (by decide),
    thru4 V (r := main_arg9) (by decide) (by decide) (by decide) (by decide),
    thru4 V (r := main_arg10) (by decide) (by decide) (by decide) (by decide)]

theorem at_pool : after RRun.opsPool (after RRun.opsL2 (after RRun.opsL1 (after RRun.opsL0 (after RRun.opsFeat (after RRun.opsNorm V))))) (main_v192 : DevRef τ sig) = stageG V := by
  unfold stageG
  rw [pool_val, at_l2 V, thru5 V (r := main_arg2) (by decide) (by decide) (by decide) (by decide) (by decide)]

end Composition

/-- What the reference line leaves at its result buffer: the specification's total function of the arguments. -/
theorem result_eq (V : Valuation τ sig (Elt F)) :
    after RRun.ops V (main_v240 : DevRef τ sig)
      = Spec.total (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [ops_split, tail_val, at_pool V,
    thru6 V (r := main_arg11) (by decide) (by decide) (by decide) (by decide) (by decide) (by decide),
    thru6 V (r := main_arg12) (by decide) (by decide) (by decide) (by decide) (by decide) (by decide),
    thru6 V (r := main_arg13) (by decide) (by decide) (by decide) (by decide) (by decide) (by decide),
    thru6 V (r := main_arg14) (by decide) (by decide) (by decide) (by decide) (by decide) (by decide),
    thru6 V (r := main_arg15) (by decide) (by decide) (by decide) (by decide) (by decide) (by decide),
    thru6 V (r := main_arg16) (by decide) (by decide) (by decide) (by decide) (by decide) (by decide),
    thru6 V (r := main_arg17) (by decide) (by decide) (by decide) (by decide) (by decide) (by decide),
    thru6 V (r := main_arg18) (by decide) (by decide) (by decide) (by decide) (by decide) (by decide)]
  rfl

end Cert.ReferenceIdeal.RVal
-- ==== Proof.RArgs.lean ====
/- The reference program's arguments end as given: no operation of @main's line writes one. Every operation of
   the line writes one buffer, whose index among the program's buffers is 19 or more; the nineteen arguments are
   the buffers 0 to 18. -/
import proofs.«416283_j44736379355415_1_alg».proof.Proof.ROps

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- Every buffer the operation writes is a TensorCore reference of index at least `n`. -/
def WritesFrom (n : Nat) (op : HloOp τ sig (Elt F)) : Prop :=
  ∀ b ∈ op.writes, ∃ y : Ref sig .tc, b = Proc.devRef (τ := τ) .tc y ∧ n ≤ y.idx.val

/-- A reference of index below `n` keeps its contents through a line whose operations all write from `n` on. -/
theorem after_of_writesFrom {n : Nat} {r : Ref sig .tc} (ops : List (HloOp τ sig (Elt F)))
    (V : Valuation τ sig (Elt F)) (hW : ops.Forall (WritesFrom n)) (hr : r.idx.val < n) :
    StableHlo.after ops V (Proc.devRef .tc r) = V (Proc.devRef .tc r) :=
  StableHlo.after_of_forall_not_mem ops V fun op hop hb => by
    obtain ⟨y, he, hy⟩ := (List.forall_iff_forall_mem.mp hW) op hop _ hb
    have hry : r = y := Proc.devRef_injective _ he
    subst hry
    omega

/-! ### Each of the seven lists writes from buffer 19 on -/

theorem opsNorm_from : (RRun.opsNorm (F := F)).Forall (WritesFrom 19) := by
  simp only [RRun.opsNorm, List.Forall, WritesFrom, StableHlo.nullary_writes, StableHlo.unary_writes,
    StableHlo.binary_writes, StableHlo.ternary_writes, StableHlo.reshape_writes, Finset.mem_singleton, forall_eq]
  repeat' apply And.intro
  all_goals exact ⟨_, rfl, by decide⟩

theorem opsFeat_from : (RRun.opsFeat (F := F)).Forall (WritesFrom 19) := by
  simp only [RRun.opsFeat, List.Forall, WritesFrom, StableHlo.nullary_writes, StableHlo.unary_writes,
    StableHlo.binary_writes, StableHlo.ternary_writes, StableHlo.reshape_writes, Finset.mem_singleton, forall_eq]
  repeat' apply And.intro
  all_goals exact ⟨_, rfl, by decide⟩

theorem opsL0_from : (RRun.opsL0 (F := F)).Forall (WritesFrom 19) := by
  simp only [RRun.opsL0, List.Forall, WritesFrom, StableHlo.nullary_writes, StableHlo.unary_writes,
    StableHlo.binary_writes, StableHlo.ternary_writes, StableHlo.reshape_writes, Finset.mem_singleton, forall_eq]
  repeat' apply And.intro
  all_goals exact ⟨_, rfl, by decide⟩

theorem opsL1_from : (RRun.opsL1 (F := F)).Forall (WritesFrom 19) := by
  simp only [RRun.opsL1, List.Forall, WritesFrom, StableHlo.nullary_writes, StableHlo.unary_writes,
    StableHlo.binary_writes, StableHlo.ternary_writes, StableHlo.reshape_writes, Finset.mem_singleton, forall_eq]
  repeat' apply And.intro
  all_goals exact ⟨_, rfl, by decide⟩

theorem opsL2_from : (RRun.opsL2 (F := F)).Forall (WritesFrom 19) := by
  simp only [RRun.opsL2, List.Forall, WritesFrom, StableHlo.nullary_writes, StableHlo.unary_writes,
    StableHlo.binary_writes, StableHlo.ternary_writes, StableHlo.reshape_writes, Finset.mem_singleton, forall_eq]
  repeat' apply And.intro
  all_goals exact ⟨_, rfl, by decide⟩

theorem opsPool_from : (RRun.opsPool (F := F)).Forall (WritesFrom 19) := by
  simp only [RRun.opsPool, List.Forall, WritesFrom, StableHlo.nullary_writes, StableHlo.unary_writes,
    StableHlo.binary_writes, StableHlo.ternary_writes, StableHlo.reshape_writes, Finset.mem_singleton, forall_eq]
  repeat' apply And.intro
  all_goals exact ⟨_, rfl, by decide⟩

theorem opsTail_from : (RRun.opsTail (F := F)).Forall (WritesFrom 19) := by
  simp only [RRun.opsTail, List.Forall, WritesFrom, StableHlo.nullary_writes, StableHlo.unary_writes,
    StableHlo.binary_writes, StableHlo.ternary_writes, StableHlo.reshape_writes, Finset.mem_singleton, forall_eq]
  repeat' apply And.intro
  all_goals exact ⟨_, rfl, by decide⟩

/-- The whole line writes from buffer 19 on. -/
theorem ops_from : (RRun.ops (F := F)).Forall (WritesFrom 19) :=
  List.forall_append.mpr ⟨List.forall_append.mpr ⟨List.forall_append.mpr ⟨List.forall_append.mpr
    ⟨List.forall_append.mpr ⟨List.forall_append.mpr ⟨opsNorm_from, opsFeat_from⟩, opsL0_from⟩, opsL1_from⟩,
    opsL2_from⟩, opsPool_from⟩, opsTail_from⟩

/-! ### The arguments -/

theorem arg_eq_0 (V : Valuation τ sig (Elt F)) :
    StableHlo.after RRun.ops V (main_arg0 : DevRef τ sig) = V (main_arg0 : DevRef τ sig) :=
  after_of_writesFrom RRun.ops V ops_from (by decide)

theorem arg_eq_1 (V : Valuation τ sig (Elt F)) :
    StableHlo.after RRun.ops V (main_arg1 : DevRef τ sig) = V (main_arg1 : DevRef τ sig) :=
  after_of_writesFrom RRun.ops V ops_from (by decide)

theorem arg_eq_2 (V : Valuation τ sig (Elt F)) :
    StableHlo.after RRun.ops V (main_arg2 : DevRef τ sig) = V (main_arg2 : DevRef τ sig) :=
  after_of_writesFrom RRun.ops V ops_from (by decide)

theorem arg_eq_3 (V : Valuation τ sig (Elt F)) :
    StableHlo.after RRun.ops V (main_arg3 : DevRef τ sig) = V (main_arg3 : DevRef τ sig) :=
  after_of_writesFrom RRun.ops V ops_from (by decide)

theorem arg_eq_4 (V : Valuation τ sig (Elt F)) :
    StableHlo.after RRun.ops V (main_arg4 : DevRef τ sig) = V (main_arg4 : DevRef τ sig) :=
  after_of_writesFrom RRun.ops V ops_from (by decide)

theorem arg_eq_5 (V : Valuation τ sig (Elt F)) :
    StableHlo.after RRun.ops V (main_arg5 : DevRef τ sig) = V (main_arg5 : DevRef τ sig) :=
  after_of_writesFrom RRun.ops V ops_from (by decide)

theorem arg_eq_6 (V : Valuation τ sig (Elt F)) :
    StableHlo.after RRun.ops V (main_arg6 : DevRef τ sig) = V (main_arg6 : DevRef τ sig) :=
  after_of_writesFrom RRun.ops V ops_from (by decide)

theorem arg_eq_7 (V : Valuation τ sig (Elt F)) :
    StableHlo.after RRun.ops V (main_arg7 : DevRef τ sig) = V (main_arg7 : DevRef τ sig) :=
  after_of_writesFrom RRun.ops V ops_from (by decide)

theorem arg_eq_8 (V : Valuation τ sig (Elt F)) :
    StableHlo.after RRun.ops V (main_arg8 : DevRef τ sig) = V (main_arg8 : DevRef τ sig) :=
  after_of_writesFrom RRun.ops V ops_from (by decide)

theorem arg_eq_9 (V : Valuation τ sig (Elt F)) :
    StableHlo.after RRun.ops V (main_arg9 : DevRef τ sig) = V (main_arg9 : DevRef τ sig) :=
  after_of_writesFrom RRun.ops V ops_from (by decide)

theorem arg_eq_10 (V : Valuation τ sig (Elt F)) :
    StableHlo.after RRun.ops V (main_arg10 : DevRef τ sig) = V (main_arg10 : DevRef τ sig) :=
  after_of_writesFrom RRun.ops V ops_from (by decide)

theorem arg_eq_11 (V : Valuation τ sig (Elt F)) :
    StableHlo.after RRun.ops V (main_arg11 : DevRef τ sig) = V (main_arg11 : DevRef τ sig) :=
  after_of_writesFrom RRun.ops V ops_from (by decide)

theorem arg_eq_12 (V : Valuation τ sig (Elt F)) :
    StableHlo.after RRun.ops V (main_arg12 : DevRef τ sig) = V (main_arg12 : DevRef τ sig) :=
  after_of_writesFrom RRun.ops V ops_from (by decide)

theorem arg_eq_13 (V : Valuation τ sig (Elt F)) :
    StableHlo.after RRun.ops V (main_arg13 : DevRef τ sig) = V (main_arg13 : DevRef τ sig) :=
  after_of_writesFrom RRun.ops V ops_from (by decide)

theorem arg_eq_14 (V : Valuation τ sig (Elt F)) :
    StableHlo.after RRun.ops V (main_arg14 : DevRef τ sig) = V (main_arg14 : DevRef τ sig) :=
  after_of_writesFrom RRun.ops V ops_from (by decide)

theorem arg_eq_15 (V : Valuation τ sig (Elt F)) :
    StableHlo.after RRun.ops V (main_arg15 : DevRef τ sig) = V (main_arg15 : DevRef τ sig) :=
  after_of_writesFrom RRun.ops V ops_from (by decide)

theorem arg_eq_16 (V : Valuation τ sig (Elt F)) :
    StableHlo.after RRun.ops V (main_arg16 : DevRef τ sig) = V (main_arg16 : DevRef τ sig) :=
  after_of_writesFrom RRun.ops V ops_from (by decide)

theorem arg_eq_17 (V : Valuation τ sig (Elt F)) :
    StableHlo.after RRun.ops V (main_arg17 : DevRef τ sig) = V (main_arg17 : DevRef τ sig) :=
  after_of_writesFrom RRun.ops V ops_from (by decide)

theorem arg_eq_18 (V : Valuation τ sig (Elt F)) :
    StableHlo.after RRun.ops V (main_arg18 : DevRef τ sig) = V (main_arg18 : DevRef τ sig) :=
  after_of_writesFrom RRun.ops V ops_from (by decide)

end Cert.ReferenceIdeal.RVal

end
-- ==== Proof.lean ====
/- The certificate of the ResGCN kernel program against its jnp reference, over the extended reals.

   The kernel program computes every BatchNorm's column statistics by an accumulating kernel (sums and sums of squares over
   five row blocks, then mean = S/n and var = Q/n − mean²), every normalise-and-multiply step by a row-tiled kernel, and the
   graph pooling by a one-hot matrix product accumulated over the row blocks; the gather/scatter message passing and the small
   tail are the same host operations as the reference's. The reference computes var as the mean of (x − mean)², the linear
   maps by one dot_general over all rows, and the pooling by a scatter-add.
   On finite inputs every intermediate array is finite, so Q/n − (S/n)² = (1/n)·∑(x − S/n)² holds column by column on the
   reals; a block-tiled product is the whole product row by row; and a sum of h·[bidx = g] over all rows is the sum of h over
   the rows whose index is g. Stage by stage both programs therefore hold the same arrays, and the shared host stages are
   congruent. The three frames: the two kernel programs' are the generated launch certificates; the reference's is its run
   over its operation list with the result dropped. No operation was rewritten by the ideal pass, so preserves is trivial. -/
import proofs.«416283_j44736379355415_1_alg».proof.Defs
import proofs.«416283_j44736379355415_1_alg».proof.Proof.Gen.Kernel
import proofs.«416283_j44736379355415_1_alg».proof.Proof.Gen.Kernel.Frame
import proofs.«416283_j44736379355415_1_alg».proof.Proof.Gen.KernelIdeal
import proofs.«416283_j44736379355415_1_alg».proof.Proof.Gen.KernelIdeal.Frame
import proofs.«416283_j44736379355415_1_alg».proof.Proof.Gen.ReferenceIdeal
import proofs.«416283_j44736379355415_1_alg».proof.Proof.Gen.Pre_finite_inputs
import proofs.«416283_j44736379355415_1_alg».proof.Proof.KRun
import proofs.«416283_j44736379355415_1_alg».proof.Proof.KVal
import proofs.«416283_j44736379355415_1_alg».proof.Proof.RRun
import proofs.«416283_j44736379355415_1_alg».proof.Proof.RVal
import proofs.«416283_j44736379355415_1_alg».proof.Proof.RArgs
import Idealize.ShloMosaic.Adequacy
import Idealize.ShloMosaic.Init

noncomputable section

namespace Cert.Proof

open Idealize.ShloMosaic Idealize.SL.Sem

/-- The reference program runs, and no operation of its list writes an argument array. -/
theorem frame_ri : Cert.frame_ReferenceIdeal := fun m ρ _ =>
  (θ_run Cert.ReferenceIdeal.defs _ _).mono (fun r h c =>
    ⟨(h c Cert.ReferenceIdeal.main_arg0).trans (Cert.ReferenceIdeal.RVal.arg_eq_0 _),
     (h c Cert.ReferenceIdeal.main_arg1).trans (Cert.ReferenceIdeal.RVal.arg_eq_1 _),
     (h c Cert.ReferenceIdeal.main_arg2).trans (Cert.ReferenceIdeal.RVal.arg_eq_2 _),
     (h c Cert.ReferenceIdeal.main_arg3).trans (Cert.ReferenceIdeal.RVal.arg_eq_3 _),
     (h c Cert.ReferenceIdeal.main_arg4).trans (Cert.ReferenceIdeal.RVal.arg_eq_4 _),
     (h c Cert.ReferenceIdeal.main_arg5).trans (Cert.ReferenceIdeal.RVal.arg_eq_5 _),
     (h c Cert.ReferenceIdeal.main_arg6).trans (Cert.ReferenceIdeal.RVal.arg_eq_6 _),
     (h c Cert.ReferenceIdeal.main_arg7).trans (Cert.ReferenceIdeal.RVal.arg_eq_7 _),
     (h c Cert.ReferenceIdeal.main_arg8).trans (Cert.ReferenceIdeal.RVal.arg_eq_8 _),
     (h c Cert.ReferenceIdeal.main_arg9).trans (Cert.ReferenceIdeal.RVal.arg_eq_9 _),
     (h c Cert.ReferenceIdeal.main_arg10).trans (Cert.ReferenceIdeal.RVal.arg_eq_10 _),
     (h c Cert.ReferenceIdeal.main_arg11).trans (Cert.ReferenceIdeal.RVal.arg_eq_11 _),
     (h c Cert.ReferenceIdeal.main_arg12).trans (Cert.ReferenceIdeal.RVal.arg_eq_12 _),
     (h c Cert.ReferenceIdeal.main_arg13).trans (Cert.ReferenceIdeal.RVal.arg_eq_13 _),
     (h c Cert.ReferenceIdeal.main_arg14).trans (Cert.ReferenceIdeal.RVal.arg_eq_14 _),
     (h c Cert.ReferenceIdeal.main_arg15).trans (Cert.ReferenceIdeal.RVal.arg_eq_15 _),
     (h c Cert.ReferenceIdeal.main_arg16).trans (Cert.ReferenceIdeal.RVal.arg_eq_16 _),
     (h c Cert.ReferenceIdeal.main_arg17).trans (Cert.ReferenceIdeal.RVal.arg_eq_17 _),
     (h c Cert.ReferenceIdeal.main_arg18).trans (Cert.ReferenceIdeal.RVal.arg_eq_18 _)⟩)
    (Cert.ReferenceIdeal.RRun.run_all (F := Ideal) m ρ)

/-- Both programs end with the specification's value of the arguments: the kernel program by its stage-by-stage value
    (finite inputs), the reference by its run read back; the arguments agree. -/
theorem algebraic : Cert.algebraic_KernelIdeal_ReferenceIdeal := by
  intro m ρ m' ρ' hpre hagree
  refine ⟨fun c => Cert.ReferenceIdeal.Spec.total (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono (fun r h c => ⟨(h c).1.trans (Cert.KernelIdeal.KVal.result_eq m ρ c hpre), (h c).2⟩)
      (Cert.KernelIdeal.KRun.run_val (F := Ideal) m ρ)
  · refine (θ_run Cert.ReferenceIdeal.defs _ _).mono (fun r h c => ⟨?_,
      (h c Cert.ReferenceIdeal.main_arg0).trans (Cert.ReferenceIdeal.RVal.arg_eq_0 _),
      (h c Cert.ReferenceIdeal.main_arg1).trans (Cert.ReferenceIdeal.RVal.arg_eq_1 _),
      (h c Cert.ReferenceIdeal.main_arg2).trans (Cert.ReferenceIdeal.RVal.arg_eq_2 _),
      (h c Cert.ReferenceIdeal.main_arg3).trans (Cert.ReferenceIdeal.RVal.arg_eq_3 _),
      (h c Cert.ReferenceIdeal.main_arg4).trans (Cert.ReferenceIdeal.RVal.arg_eq_4 _),
      (h c Cert.ReferenceIdeal.main_arg5).trans (Cert.ReferenceIdeal.RVal.arg_eq_5 _),
      (h c Cert.ReferenceIdeal.main_arg6).trans (Cert.ReferenceIdeal.RVal.arg_eq_6 _),
      (h c Cert.ReferenceIdeal.main_arg7).trans (Cert.ReferenceIdeal.RVal.arg_eq_7 _),
      (h c Cert.ReferenceIdeal.main_arg8).trans (Cert.ReferenceIdeal.RVal.arg_eq_8 _),
      (h c Cert.ReferenceIdeal.main_arg9).trans (Cert.ReferenceIdeal.RVal.arg_eq_9 _),
      (h c Cert.ReferenceIdeal.main_arg10).trans (Cert.ReferenceIdeal.RVal.arg_eq_10 _),
      (h c Cert.ReferenceIdeal.main_arg11).trans (Cert.ReferenceIdeal.RVal.arg_eq_11 _),
      (h c Cert.ReferenceIdeal.main_arg12).trans (Cert.ReferenceIdeal.RVal.arg_eq_12 _),
      (h c Cert.ReferenceIdeal.main_arg13).trans (Cert.ReferenceIdeal.RVal.arg_eq_13 _),
      (h c Cert.ReferenceIdeal.main_arg14).trans (Cert.ReferenceIdeal.RVal.arg_eq_14 _),
      (h c Cert.ReferenceIdeal.main_arg15).trans (Cert.ReferenceIdeal.RVal.arg_eq_15 _),
      (h c Cert.ReferenceIdeal.main_arg16).trans (Cert.ReferenceIdeal.RVal.arg_eq_16 _),
      (h c Cert.ReferenceIdeal.main_arg17).trans (Cert.ReferenceIdeal.RVal.arg_eq_17 _),
      (h c Cert.ReferenceIdeal.main_arg18).trans (Cert.ReferenceIdeal.RVal.arg_eq_18 _)⟩)
      (Cert.ReferenceIdeal.RRun.run_all (F := Ideal) m' ρ')
    refine (h c Cert.ReferenceIdeal.main_v240).trans ((Cert.ReferenceIdeal.RVal.result_eq _).trans ?_)
    obtain ⟨e0, e1, e2, e3, e4, e5, e6, e7, e8, e9, e10, e11, e12, e13, e14, e15, e16, e17, e18⟩ := hagree c
    show Cert.ReferenceIdeal.Spec.total (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18)) = _
    rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
